-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S2002x1024 : Shape := ⟨2, ![2002, 1024]⟩
abbrev S2002 : Shape := ⟨1, ![2002]⟩
abbrev S1024x1024 : Shape := ⟨2, ![1024, 1024]⟩
abbrev S8000x1024 : Shape := ⟨2, ![8000, 1024]⟩
abbrev S256x1024 : Shape := ⟨2, ![256, 1024]⟩
abbrev S40000x256 : Shape := ⟨2, ![40000, 256]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2002x1024 : S_.BroadcastsInDim S2002x1024 (![] : Fin 0 → Fin S2002x1024.rank)
  reducesTo_S2002x1024_S_d0_1 : S2002x1024.ReducesTo [0, 1] S_
  bcast_S_S2002 : S_.BroadcastsInDim S2002 (![] : Fin 0 → Fin S2002.rank)
  reducesTo_S2002_S_d0 : S2002.ReducesTo [0] S_
  bcast_S_S1024x1024 : S_.BroadcastsInDim S1024x1024 (![] : Fin 0 → Fin S1024x1024.rank)
  reducesTo_S1024x1024_S_d0_1 : S1024x1024.ReducesTo [0, 1] S_
  bcast_S_S8000x1024 : S_.BroadcastsInDim S8000x1024 (![] : Fin 0 → Fin S8000x1024.rank)
  reducesTo_S8000x1024_S_d0_1 : S8000x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S40000x256 : S_.BroadcastsInDim S40000x256 (![] : Fin 0 → Fin S40000x256.rank)
  reducesTo_S40000x256_S_d0_1 : S40000x256.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg1 : IVec S4096 32) (main_v33 : IVec S_ 1) : IVec S_ 1 :=
  let main_c_12 : IVec S_ 32 := constantI S_ 32 0#32
  let main_v34 : IVec S4096 32 := broadcastInDim S4096 ![] bcast_S_S4096 main_c_12
  let main_v35 : IVec S4096 1 := cmpi .sge main_arg1 main_v34
  let main_c_13 : IVec S_ 32 := constantI S_ 32 50000#32
  let main_v36 : IVec S4096 32 := broadcastInDim S4096 ![] bcast_S_S4096 main_c_13
  let main_v37 : IVec S4096 1 := cmpi .slt main_arg1 main_v36
  let main_v38 : IVec S4096 1 := andi main_v35 main_v37
  let main_c_14 : IVec S_ 1 := constantI S_ 1 1#1
  let main_v39 : IVec S_ 1 := (fun x v => Host.reduce IntOp.andi x v reducesTo_S4096_S_d0 h_S_) main_v38 main_c_14
  let main_v40 : IVec S_ 1 := andi main_v33 main_v39
  main_v40

def fn_part1 {F : FTy → Type} [FloatOps F] (main_arg1 : IVec S4096 32) (main_arg5 : FVec F S8000x1024 .f32) (main_arg6 : FVec F S256x1024 .f32) (main_arg7 : FVec F S40000x256 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S8000x1024 .f32 := Host.absf main_arg5
  let main_cst_6 : FVec F S_ .f32 := constant S_ .f32 0x7F800000#32
  let main_v20 : FVec F S8000x1024 .f32 := broadcastInDim S8000x1024 ![] bcast_S_S8000x1024 main_cst_6
  let main_v21 : IVec S8000x1024 1 := cmpf .olt main_v19 main_v20
  let main_c_7 : IVec S_ 1 := constantI S_ 1 1#1
  let main_v22 : IVec S_ 1 := (fun x v => Host.reduce IntOp.andi x v reducesTo_S8000x1024_S_d0_1 h_S_) main_v21 main_c_7
  let main_v23 : IVec S_ 1 := andi main_v18 main_v22
  let main_v24 : FVec F S256x1024 .f32 := Host.absf main_arg6
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S40000x256 .f32 := Host.absf main_arg7
  let main_cst_10 : FVec F S_ .f32 := constant S_ .f32 0x7F800000#32
  let main_v30 : FVec F S40000x256 .f32 := broadcastInDim S40000x256 ![] bcast_S_S40000x256 main_cst_10
  let main_v31 : IVec S40000x256 1 := cmpf .olt main_v29 main_v30
  let main_c_11 : IVec S_ 1 := constantI S_ 1 1#1
  let main_v32 : IVec S_ 1 := (fun x v => Host.reduce IntOp.andi x v reducesTo_S40000x256_S_d0_1 h_S_) main_v31 main_c_11
  let main_v33 : IVec S_ 1 := andi main_v28 main_v32
  fn_part2 (F := F) main_arg1 main_v33

def fn {F : FTy → Type} [FloatOps F] (main_arg0 : FVec F S4096x1024 .f32) (main_arg1 : IVec S4096 32) (main_arg2 : FVec F S2002x1024 .f32) (main_arg3 : FVec F S2002 .f32) (main_arg4 : FVec F S1024x1024 .f32) (main_arg5 : FVec F S8000x1024 .f32) (main_arg6 : FVec F S256x1024 .f32) (main_arg7 : FVec F S40000x256 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2002x1024 .f32 := Host.absf main_arg2
  let main_cst_0 : FVec F S_ .f32 := constant S_ .f32 0x7F800000#32
  let main_v5 : FVec F S2002x1024 .f32 := broadcastInDim S2002x1024 ![] bcast_S_S2002x1024 main_cst_0
  let main_v6 : IVec S2002x1024 1 := cmpf .olt main_v4 main_v5
  let main_c_1 : IVec S_ 1 := constantI S_ 1 1#1
  let main_v7 : IVec S_ 1 := (fun x v => Host.reduce IntOp.andi x v reducesTo_S2002x1024_S_d0_1 h_S_) main_v6 main_c_1
  let main_v8 : IVec S_ 1 := andi main_v3 main_v7
  let main_v9 : FVec F S2002 .f32 := Host.absf main_arg3
  let main_cst_2 : FVec F S_ .f32 := constant S_ .f32 0x7F800000#32
  let main_v10 : FVec F S2002 .f32 := broadcastInDim S2002 ![] bcast_S_S2002 main_cst_2
  let main_v11 : IVec S2002 1 := cmpf .olt main_v9 main_v10
  let main_c_3 : IVec S_ 1 := constantI S_ 1 1#1
  let main_v12 : IVec S_ 1 := (fun x v => Host.reduce IntOp.andi x v reducesTo_S2002_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg1 main_arg5 main_arg6 main_arg7 main_v13 main_v16
-- ==== Kernel.lean ====
abbrev S4096x1024 : Shape := ⟨2, ![4096, 1024]⟩
abbrev S4096 : Shape := ⟨1, ![4096]⟩
abbrev S2002x1024 : Shape := ⟨2, ![2002, 1024]⟩
abbrev S2002 : Shape := ⟨1, ![2002]⟩
abbrev S1024x1024 : Shape := ⟨2, ![1024, 1024]⟩
abbrev S8000x1024 : Shape := ⟨2, ![8000, 1024]⟩
abbrev S256x1024 : Shape := ⟨2, ![256, 1024]⟩
abbrev S40000x256 : Shape := ⟨2, ![40000, 256]⟩
abbrev S_ : Shape := ⟨0, ![]⟩
abbrev S4096x1 : Shape := ⟨2, ![4096, 1]⟩
abbrev S2048x1024 : Shape := ⟨2, ![2048, 1024]⟩
abbrev S512x1024 : Shape := ⟨2, ![512, 1024]⟩
abbrev S2048x1 : Shape := ⟨2, ![2048, 1]⟩
abbrev S1024x512 : Shape := ⟨2, ![1024, 512]⟩
abbrev S2048x512 : Shape := ⟨2, ![2048, 512]⟩
abbrev S2048 : Shape := ⟨1, ![2048]⟩
abbrev S512x256 : Shape := ⟨2, ![512, 256]⟩
abbrev S2048x256 : Shape := ⟨2, ![2048, 256]⟩
abbrev S1024x256 : Shape := ⟨2, ![1024, 256]⟩
abbrev S256x512 : Shape := ⟨2, ![256, 512]⟩
abbrev S1x2002 : Shape := ⟨2, ![1, 2002]⟩
abbrev S1x512 : Shape := ⟨2, ![1, 512]⟩

abbrev nBuf : Space → Nat
  | .hbm => 81
  | .vmem => 43
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S2002x1024, .f32⟩
  | .hbm, ⟨3, _⟩ => ⟨S2002, .f32⟩
  | .hbm, ⟨4, _⟩ => ⟨S1024x1024, .f32⟩
  | .hbm, ⟨5, _⟩ => ⟨S8000x1024, .f32⟩
  | .hbm, ⟨6, _⟩ => ⟨S256x1024, .f32⟩
  | .hbm, ⟨7, _⟩ => ⟨S40000x256, .f32⟩
  | .hbm, ⟨8, _⟩ => ⟨S4096x1024, .bf16⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S4096, .i1⟩
  | .hbm, ⟨16, _⟩ => ⟨S_, .i32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .f32⟩
  | .hbm, ⟨32, _⟩ => ⟨S1024x1024, .bf16⟩
  | .hbm, ⟨33, _⟩ => ⟨S8000x1024, .bf16⟩
  | .hbm, ⟨34, _⟩ => ⟨S4096x1, .i32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S4096, .i1⟩
  | .hbm, ⟨48, _⟩ => ⟨S_, .i32⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S_, .i32⟩
  | .hbm, ⟨53, _⟩ => ⟨S4096, .i32⟩
  | .hbm, ⟨54, _⟩ => ⟨S4096, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S4096, .f32⟩
  | .hbm, ⟨64, _⟩ => ⟨S256x1024, .bf16⟩
  | .hbm, ⟨65, _⟩ => ⟨S40000x256, .bf16⟩
  | .hbm, ⟨66, _⟩ => ⟨S4096x1, .i32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S2002x1024, .bf16⟩
  | .hbm, ⟨73, _⟩ => ⟨S1x2002, .f32⟩
  | .hbm, ⟨74, _⟩ => ⟨S4096x1, .i32⟩
  | .hbm, ⟨75, _⟩ => ⟨S4096x1, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S2048x1, .i32⟩
  | .local _ .vmem, ⟨6, _⟩ => ⟨S2048x1, .i32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S2048x1024, .f32⟩
  | .local _ .vmem, ⟨12, _⟩ => ⟨S2048x1, .f32⟩
  | .local _ .vmem, ⟨13, _⟩ => ⟨S2048x1, .f32⟩
  | .local _ .vmem, ⟨14, _⟩ => ⟨S2048x1, .f32⟩
  | .local _ .vmem, ⟨15, _⟩ => ⟨S2048x1024, .bf16⟩
  | .local _ .vmem, ⟨16, _⟩ => ⟨S2048x1024, .bf16⟩
  | .local _ .vmem, ⟨17, _⟩ => ⟨S256x1024, .bf16⟩
  | .local _ .vmem, ⟨18, _⟩ => ⟨S512x256, .bf16⟩
  | .local _ .vmem, ⟨19, _⟩ => ⟨S512x256, .bf16⟩
  | .local _ .vmem, ⟨20, _⟩ => ⟨S2048x1, .i32⟩
  | .local _ .vmem, ⟨21, _⟩ => ⟨S2048x1, .i32⟩
  | .local _ .vmem, ⟨22, _⟩ => ⟨S2048x1, .f32⟩
  | .local _ .vmem, ⟨23, _⟩ => ⟨S2048x1, .f32⟩
  | .local _ .vmem, ⟨24, _⟩ => ⟨S2048x1, .f32⟩
  | .local _ .vmem, ⟨25, _⟩ => ⟨S2048x1, .f32⟩
  | .local _ .vmem, ⟨26, _⟩ => ⟨S2048x256, .f32⟩
  | .local _ .vmem, ⟨27, _⟩ => ⟨S2048x1, .f32⟩
  | .local _ .vmem, ⟨28, _⟩ => ⟨S2048x1, .f32⟩
  | .local _ .vmem, ⟨29, _⟩ => ⟨S2048x1, .f32⟩
  | .local _ .vmem, ⟨30, _⟩ => ⟨S2048x1024, .bf16⟩
  | .local _ .vmem, ⟨31, _⟩ => ⟨S2048x1024, .bf16⟩
  | .local _ .vmem, ⟨32, _⟩ => ⟨S512x1024, .bf16⟩
  | .local _ .vmem, ⟨33, _⟩ => ⟨S512x1024, .bf16⟩
  | .local _ .vmem, ⟨34, _⟩ => ⟨S1x512, .f32⟩
  | .local _ .vmem, ⟨35, _⟩ => ⟨S1x512, .f32⟩
  | .local _ .vmem, ⟨36, _⟩ => ⟨S2048x1, .i32⟩
  | .local _ .vmem, ⟨37, _⟩ => ⟨S2048x1, .i32⟩
  | .local _ .vmem, ⟨38, _⟩ => ⟨S2048x1, .f32⟩
  | .local _ .vmem, ⟨39, _⟩ => ⟨S2048x1, .f32⟩
  | .local _ .vmem, ⟨40, _⟩ => ⟨S2048x1, .f32⟩
  | .local _ .vmem, ⟨41, _⟩ => ⟨S2048x1, .f32⟩
  | .local _ .vmem, ⟨42, _⟩ => ⟨S2048x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_c_3 : Ref sig .tc := ⟨.hbm, 23, rfl⟩
abbrev main_c_4 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_cst_5 : Ref sig .tc := ⟨.hbm, 39, rfl⟩
abbrev main_v17 : Ref sig .tc := ⟨.hbm, 40, rfl⟩
abbrev main_c_6 : Ref sig .tc := ⟨.hbm, 41, rfl⟩
abbrev main_v18 : Ref sig .tc := ⟨.hbm, 42, rfl⟩
abbrev main_v19 : Ref sig .tc := ⟨.hbm, 43, rfl⟩
abbrev main_c_7 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c_8 : Ref sig .tc := ⟨.hbm, 48, rfl⟩
abbrev main_call2_v0 : Ref sig .tc := ⟨.hbm, 49, rfl⟩
abbrev main_call2_v1 : Ref sig .tc := ⟨.hbm, 50, rfl⟩
abbrev main_v23 : Ref sig .tc := ⟨.hbm, 51, rfl⟩
abbrev main_c_9 : Ref sig .tc := ⟨.hbm, 52, rfl⟩
abbrev main_v24 : Ref sig .tc := ⟨.hbm, 53, rfl⟩
abbrev main_v25 : Ref sig .tc := ⟨.hbm, 54, rfl⟩
abbrev main_c_10 : Ref sig .tc := ⟨.hbm, 55, rfl⟩
abbrev main_c_11 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_12 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_13 : Ref sig .tc := ⟨.hbm, 76, rfl⟩
abbrev main_v39 : Ref sig .tc := ⟨.hbm, 77, rfl⟩
abbrev main_v40 : Ref sig .tc := ⟨.hbm, 78, rfl⟩
abbrev main_cst_14 : Ref sig .tc := ⟨.hbm, 79, rfl⟩
abbrev main_v41 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_scratch0 : Ref sig .tc := ⟨.vmem, 26, rfl⟩
abbrev cc1_scratch1 : Ref sig .tc := ⟨.vmem, 27, rfl⟩
abbrev cc1_scratch2 : Ref sig .tc := ⟨.vmem, 28, rfl⟩
abbrev cc1_scratch3 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg3_1 : Ref sig .tc := ⟨.vmem, 37, rfl⟩
abbrev cc2_stg4_0 : Ref sig .tc := ⟨.vmem, 38, rfl⟩
abbrev cc2_stg4_1 : Ref sig .tc := ⟨.vmem, 39, rfl⟩
abbrev cc2_scratch0 : Ref sig .tc := ⟨.vmem, 40, rfl⟩
abbrev cc2_scratch1 : Ref sig .tc := ⟨.vmem, 41, rfl⟩
abbrev cc2_scratch2 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v61 : BitVec 1 := Scalar.cmpi .eq arg1 c15_i32
  let v62 : BitVec 32 := Scalar.extui v61
  let c0_i32_29 : BitVec 32 := 0#32
  let v63 : BitVec 1 := Scalar.cmpi .ne v62 c0_i32_29
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 79], ![false, false]⟩

def k1_cond2 (i : grid1.Coords) : BitVec 1 :=
  let arg1 : BitVec 32 := BitVec.ofNat 32 (i 1).val
  let c78_i32 : BitVec 32 := 78#32
  let v61 : BitVec 1 := Scalar.cmpi .eq arg1 c78_i32
  let v62 : BitVec 32 := Scalar.extui v61
  let c0_i32_29 : BitVec 32 := 0#32
  let v63 : BitVec 1 := Scalar.cmpi .ne v62 c0_i32_29
  v63

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2048x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2048x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![2, 4], ![false, false]⟩

def k2_cond2 (i : grid2.Coords) : BitVec 1 :=
  let arg1 : BitVec 32 := BitVec.ofNat 32 (i 1).val
  let c3_i32 : BitVec 32 := 3#32
  let v65 : BitVec 1 := Scalar.cmpi .eq arg1 c3_i32
  let v66 : BitVec 32 := Scalar.extui v65
  let c0_i32_31 : BitVec 32 := 0#32
  let v67 : BitVec 1 := Scalar.cmpi .ne v66 c0_i32_31
  v67

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2048x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S2048x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  bitsLt_bf16_f32 : FTy.bits .bf16 < FTy.bits .f32
  bcast_S_S4096 : S_.BroadcastsInDim S4096 (![] : Fin 0 → Fin S4096.rank)
  shapeCasts_S4096_S4096x1 : S4096.ShapeCasts S4096x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  iota_S2048x512_d1_w32 : S2048x512.Iotas .tc 32 [1]
  reduces_S2048x512_S2048 : S2048x512.Reduces [1] S2048
  shapeCasts_S2048_S2048x1 : S2048.ShapeCasts S2048x1
  broadcasts_S2048x1_S2048x512 : S2048x1.Broadcasts S2048x512
  reducesTo_S4096x1_S_d0_1 : S4096x1.ReducesTo [0, 1] S_
  h_S_ : 0 < S_.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  transposes_S256x1024_p1_0_S1024x256 : S256x1024.Transposes [1, 0] S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  shapeCasts_S2002_S1x2002 : S2002.ShapeCasts S1x2002
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  dot_S2048x1024_S1024x1024_S2048x1024_1_0_0_1_n_n_wf : DotDims.WF S2048x1024 S1024x1024 S2048x1024 [1] [0] [0] [1] [] []
  dot_S2048x1024_S1024x512_S2048x512_1_0_0_1_n_n_wf : DotDims.WF S2048x1024 S1024x512 S2048x512 [1] [0] [0] [1] [] []
  dot_S2048x1024_S1024x256_S2048x256_1_0_0_1_n_n_wf : DotDims.WF S2048x1024 S1024x256 S2048x256 [1] [0] [0] [1] [] []
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x1024.size a
  hwx0_0 : ∀ i : grid0.Coords, EltTy.bits .bf16 = 32 ∨ (Rect.block (s := S4096x1024) S2048x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S512x1024.size a < S8000x1024.size a
  hwx0_2 : ∀ i : grid0.Coords, EltTy.bits .bf16 = 32 ∨ (Rect.unit (s := S8000x1024) (fun a => cc0_transform_2 i a * S512x1024.size a) (fun a => (Pipeline.Clip.of (cc0_transform_2 i a) (S512x1024.size a) (S8000x1024.size a)).extent (S512x1024.size a)) fun a => Pipeline.Clip.inb (Pipeline.Clip.ok_of (hstart0_2 i a))).WholeWords (EltTy.packing .bf16)
  hwxs0_2 : ∀ i : grid0.Coords, EltTy.bits .bf16 = 32 ∨ (Rect.unit (s := S512x1024) (fun _ => 0) (fun a => (Pipeline.Clip.of (cc0_transform_2 i a) (S512x1024.size a) (S8000x1024.size a)).extent (S512x1024.size a)) fun a => (Nat.zero_add _).trans_le (Pipeline.Clip.extent_le (Pipeline.Clip.ok_of (hstart0_2 i a)))).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S4096x1.size a
  hwx0_3 : ∀ i : grid0.Coords, EltTy.bits .i32 = 32 ∨ (Rect.block (s := S4096x1) S2048x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S4096x1.size a
  hwx0_4 : ∀ i : grid0.Coords, EltTy.bits .f32 = 32 ∨ (Rect.block (s := S4096x1) S2048x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S4096x1.size a
  hwx0_5 : ∀ i : grid0.Coords, EltTy.bits .f32 = 32 ∨ (Rect.block (s := S4096x1) S2048x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S4096x1024.size a
  hwx1_0 : ∀ i : grid1.Coords, EltTy.bits .bf16 = 32 ∨ (Rect.block (s := S4096x1024) S2048x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S256x1024.size a
  hwx1_1 : ∀ i : grid1.Coords, EltTy.bits .bf16 = 32 ∨ (Rect.block (s := S256x1024) S256x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S512x256.size a < S40000x256.size a
  hwx1_2 : ∀ i : grid1.Coords, EltTy.bits .bf16 = 32 ∨ (Rect.unit (s := S40000x256) (fun a => cc1_transform_2 i a * S512x256.size a) (fun a => (Pipeline.Clip.of (cc1_transform_2 i a) (S512x256.size a) (S40000x256.size a)).extent (S512x256.size a)) fun a => Pipeline.Clip.inb (Pipeline.Clip.ok_of (hstart1_2 i a))).WholeWords (EltTy.packing .bf16)
  hwxs1_2 : ∀ i : grid1.Coords, EltTy.bits .bf16 = 32 ∨ (Rect.unit (s := S512x256) (fun _ => 0) (fun a => (Pipeline.Clip.of (cc1_transform_2 i a) (S512x256.size a) (S40000x256.size a)).extent (S512x256.size a)) fun a => (Nat.zero_add _).trans_le (Pipeline.Clip.extent_le (Pipeline.Clip.ok_of (hstart1_2 i a)))).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S4096x1.size a
  hwx1_3 : ∀ i : grid1.Coords, EltTy.bits .i32 = 32 ∨ (Rect.block (s := S4096x1) S2048x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x1.size a ≤ S4096x1.size a
  hwx1_4 : ∀ i : grid1.Coords, EltTy.bits .f32 = 32 ∨ (Rect.block (s := S4096x1) S2048x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x1.size a ≤ S4096x1.size a
  hwx1_5 : ∀ i : grid1.Coords, EltTy.bits .f32 = 32 ∨ (Rect.block (s := S4096x1) S2048x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S4096x1024.size a
  hwx2_0 : ∀ i : grid2.Coords, EltTy.bits .bf16 = 32 ∨ (Rect.block (s := S4096x1024) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S512x1024.size a < S2002x1024.size a
  hwx2_1 : ∀ i : grid2.Coords, EltTy.bits .bf16 = 32 ∨ (Rect.unit (s := S2002x1024) (fun a => cc2_transform_1 i a * S512x1024.size a) (fun a => (Pipeline.Clip.of (cc2_transform_1 i a) (S512x1024.size a) (S2002x1024.size a)).extent (S512x1024.size a)) fun a => Pipeline.Clip.inb (Pipeline.Clip.ok_of (hstart2_1 i a))).WholeWords (EltTy.packing .bf16)
  hwxs2_1 : ∀ i : grid2.Coords, EltTy.bits .bf16 = 32 ∨ (Rect.unit (s := S512x1024) (fun _ => 0) (fun a => (Pipeline.Clip.of (cc2_transform_1 i a) (S512x1024.size a) (S2002x1024.size a)).extent (S512x1024.size a)) fun a => (Nat.zero_add _).trans_le (Pipeline.Clip.extent_le (Pipeline.Clip.ok_of (hstart2_1 i a)))).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1x512.size a < S1x2002.size a
  hwx2_2 : ∀ i : grid2.Coords, EltTy.bits .f32 = 32 ∨ (Rect.unit (s := S1x2002) (fun a => cc2_transform_2 i a * S1x512.size a) (fun a => (Pipeline.Clip.of (cc2_transform_2 i a) (S1x512.size a) (S1x2002.size a)).extent (S1x512.size a)) fun a => Pipeline.Clip.inb (Pipeline.Clip.ok_of (hstart2_2 i a))).WholeWords (EltTy.packing .f32)
  hwxs2_2 : ∀ i : grid2.Coords, EltTy.bits .f32 = 32 ∨ (Rect.unit (s := S1x512) (fun _ => 0) (fun a => (Pipeline.Clip.of (cc2_transform_2 i a) (S1x512.size a) (S1x2002.size a)).extent (S1x512.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1.size a ≤ S4096x1.size a
  hwx2_3 : ∀ i : grid2.Coords, EltTy.bits .i32 = 32 ∨ (Rect.block (s := S4096x1) S2048x1.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x1.size a ≤ S4096x1.size a
  hwx2_4 : ∀ i : grid2.Coords, EltTy.bits .f32 = 32 ∨ (Rect.block (s := S4096x1) S2048x1.size (cc2_transform_4 i) (hinb2_4 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v12) S512x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v13) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S2048x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15) S2048x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S256x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpecClip (Memref.whole main_v29) S512x256.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpec (Memref.whole main_v30) S2048x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v31) S2048x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v32) S2048x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v0) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpecClip (Memref.whole main_v35) S512x1024.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v36) S1x512.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpec (Memref.whole main_v37) S2048x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v38) S2048x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S2002x1024 : Shape := ⟨2, ![2002, 1024]⟩
abbrev S2002 : Shape := ⟨1, ![2002]⟩
abbrev S1024x1024 : Shape := ⟨2, ![1024, 1024]⟩
abbrev S8000x1024 : Shape := ⟨2, ![8000, 1024]⟩
abbrev S256x1024 : Shape := ⟨2, ![256, 1024]⟩
abbrev S40000x256 : Shape := ⟨2, ![40000, 256]⟩
abbrev S_ : Shape := ⟨0, ![]⟩
abbrev S1024x8000 : Shape := ⟨2, ![1024, 8000]⟩
abbrev S4096x8000 : Shape := ⟨2, ![4096, 8000]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S1024x256 : Shape := ⟨2, ![1024, 256]⟩
abbrev S4096x256 : Shape := ⟨2, ![4096, 256]⟩
abbrev S256x40000 : Shape := ⟨2, ![256, 40000]⟩
abbrev S4096x40000 : Shape := ⟨2, ![4096, 40000]⟩
abbrev S1024x2002 : Shape := ⟨2, ![1024, 2002]⟩
abbrev S4096x2002 : Shape := ⟨2, ![4096, 2002]⟩
abbrev S1x2002 : Shape := ⟨2, ![1, 2002]⟩

abbrev nBuf : Space → Nat
  | .hbm => 201
  | .vmem => 0
  | .smem => 0
  | _ => 0

abbrev hbmTy0_0 (i : Nat) : BufTy := match i % 128 with
  | 0 => ⟨S4096x1024, .f32⟩
  | 1 => ⟨S4096, .i32⟩
  | 2 => ⟨S2002x1024, .f32⟩
  | 3 => ⟨S2002, .f32⟩
  | 4 => ⟨S1024x1024, .f32⟩
  | 5 => ⟨S8000x1024, .f32⟩
  | 6 => ⟨S256x1024, .f32⟩
  | 7 => ⟨S40000x256, .f32⟩
  | 8 => ⟨S_, .i32⟩
  | 9 => ⟨S4096, .i32⟩
  | 10 => ⟨S4096, .i1⟩
  | 11 => ⟨S_, .i32⟩
  | 12 => ⟨S4096, .i32⟩
  | 13 => ⟨S4096, .i1⟩
  | 14 => ⟨S4096, .i1⟩
  | 15 => ⟨S_, .i32⟩
  | 16 => ⟨S_, .i32⟩
  | 17 => ⟨S4096, .i32⟩
  | 18 => ⟨S4096, .i32⟩
  | 19 => ⟨S1024x1024, .f32⟩
  | 20 => ⟨S4096x1024, .f32⟩
  | 21 => ⟨S1024x8000, .f32⟩
  | 22 => ⟨S4096x8000, .f32⟩
  | 23 => ⟨S_, .i32⟩
  | 24 => ⟨S4096, .i32⟩
  | 25 => ⟨S4096, .i32⟩
  | 26 => ⟨S_, .i32⟩
  | 27 => ⟨S_, .i32⟩
  | 28 => ⟨S_, .i32⟩
  | 29 => ⟨S4096, .i32⟩
  | 30 => ⟨S4096, .i32⟩
  | 31 => ⟨S_, .i32⟩
  | 32 => ⟨S4096, .i32⟩
  | 33 => ⟨S4096, .i32⟩
  | 34 => ⟨S4096, .f32⟩
  | 35 => ⟨S_, .f32⟩
  | 36 => ⟨S4096, .f32⟩
  | 37 => ⟨S_, .f32⟩
  | 38 => ⟨S4096, .f32⟩
  | 39 => ⟨S4096, .f32⟩
  | 40 => ⟨S4096x1, .f32⟩
  | 41 => ⟨S4096x8000, .f32⟩
  | 42 => ⟨S4096x8000, .f32⟩
  | 43 => ⟨S4096x8000, .f32⟩
  | 44 => ⟨S_, .f32⟩
  | 45 => ⟨S4096, .f32⟩
  | 46 => ⟨S4096x1, .f32⟩
  | 47 => ⟨S4096x1, .f32⟩
  | 48 => ⟨S4096x8000, .f32⟩
  | 49 => ⟨S4096x8000, .f32⟩
  | 50 => ⟨S4096x1, .i32⟩
  | 51 => ⟨S_, .i32⟩
  | 52 => ⟨S4096x1, .i32⟩
  | 53 => ⟨S4096x1, .i1⟩
  | 54 => ⟨S_, .i32⟩
  | 55 => ⟨S4096x1, .i32⟩
  | 56 => ⟨S4096x1, .i32⟩
  | 57 => ⟨S4096x1, .i32⟩
  | 58 => ⟨S4096x1x1, .i32⟩
  | 59 => ⟨S1, .i32⟩
  | 60 => ⟨S_, .i32⟩
  | 61 => ⟨S4096x1x1, .i32⟩
  | 62 => ⟨S4096x1x1, .i1⟩
  | 63 => ⟨S1x1x1, .i32⟩
  | 64 => ⟨S4096x1x1, .i32⟩
  | 65 => ⟨S4096x1x1, .i1⟩
  | 66 => ⟨S4096x1x1, .i1⟩
  | 67 => ⟨S_, .i1⟩
  | 68 => ⟨S4096x1, .i1⟩
  | 69 => ⟨S4096x1, .f32⟩
  | 70 => ⟨S_, .f32⟩
  | 71 => ⟨S4096x1, .f32⟩
  | 72 => ⟨S4096x1, .f32⟩
  | 73 => ⟨S4096, .f32⟩
  | 74 => ⟨S4096, .f32⟩
  | 75 => ⟨S4096, .f32⟩
  | 76 => ⟨S_, .f32⟩
  | 77 => ⟨S_, .f32⟩
  | 78 => ⟨S_, .f32⟩
  | 79 => ⟨S_, .f32⟩
  | 80 => ⟨S_, .i32⟩
  | 81 => ⟨S4096, .i32⟩
  | 82 => ⟨S4096, .i1⟩
  | 83 => ⟨S_, .i32⟩
  | 84 => ⟨S4096, .i32⟩
  | 85 => ⟨S4096, .i1⟩
  | 86 => ⟨S4096, .i1⟩
  | 87 => ⟨S_, .i32⟩
  | 88 => ⟨S_, .i32⟩
  | 89 => ⟨S4096, .i32⟩
  | 90 => ⟨S4096, .i32⟩
  | 91 => ⟨S1024x256, .f32⟩
  | 92 => ⟨S4096x256, .f32⟩
  | 93 => ⟨S256x40000, .f32⟩
  | 94 => ⟨S4096x40000, .f32⟩
  | 95 => ⟨S_, .i32⟩
  | 96 => ⟨S4096, .i32⟩
  | 97 => ⟨S4096, .i32⟩
  | 98 => ⟨S_, .i32⟩
  | 99 => ⟨S_, .i32⟩
  | 100 => ⟨S_, .i32⟩
  | 101 => ⟨S4096, .i32⟩
  | 102 => ⟨S4096, .i32⟩
  | 103 => ⟨S_, .i32⟩
  | 104 => ⟨S4096, .i32⟩
  | 105 => ⟨S4096, .i32⟩
  | 106 => ⟨S4096, .f32⟩
  | 107 => ⟨S_, .f32⟩
  | 108 => ⟨S4096, .f32⟩
  | 109 => ⟨S_, .f32⟩
  | 110 => ⟨S4096, .f32⟩
  | 111 => ⟨S4096, .f32⟩
  | 112 => ⟨S4096x1, .f32⟩
  | 113 => ⟨S4096x40000, .f32⟩
  | 114 => ⟨S4096x40000, .f32⟩
  | 115 => ⟨S4096x40000, .f32⟩
  | 116 => ⟨S_, .f32⟩
  | 117 => ⟨S4096, .f32⟩
  | 118 => ⟨S4096x1, .f32⟩
  | 119 => ⟨S4096x1, .f32⟩
  | 120 => ⟨S4096x40000, .f32⟩
  | 121 => ⟨S4096x40000, .f32⟩
  | 122 => ⟨S4096x1, .i32⟩
  | 123 => ⟨S_, .i32⟩
  | 124 => ⟨S4096x1, .i32⟩
  | 125 => ⟨S4096x1, .i1⟩
  | 126 => ⟨S_, .i32⟩
  | 127 => ⟨S4096x1, .i32⟩
  | _ => ⟨S4096x1024, .f32⟩

abbrev hbmTy0_1 (i : Nat) : BufTy := match i % 128 with
  | 0 => ⟨S4096x1, .i32⟩
  | 1 => ⟨S4096x1, .i32⟩
  | 2 => ⟨S4096x1x1, .i32⟩
  | 3 => ⟨S1, .i32⟩
  | 4 => ⟨S_, .i32⟩
  | 5 => ⟨S4096x1x1, .i32⟩
  | 6 => ⟨S4096x1x1, .i1⟩
  | 7 => ⟨S1x1x1, .i32⟩
  | 8 => ⟨S4096x1x1, .i32⟩
  | 9 => ⟨S4096x1x1, .i1⟩
  | 10 => ⟨S4096x1x1, .i1⟩
  | 11 => ⟨S_, .i1⟩
  | 12 => ⟨S4096x1, .i1⟩
  | 13 => ⟨S4096x1, .f32⟩
  | 14 => ⟨S_, .f32⟩
  | 15 => ⟨S4096x1, .f32⟩
  | 16 => ⟨S4096x1, .f32⟩
  | 17 => ⟨S4096, .f32⟩
  | 18 => ⟨S4096, .f32⟩
  | 19 => ⟨S4096, .f32⟩
  | 20 => ⟨S_, .f32⟩
  | 21 => ⟨S_, .f32⟩
  | 22 => ⟨S_, .f32⟩
  | 23 => ⟨S1024x2002, .f32⟩
  | 24 => ⟨S4096x2002, .f32⟩
  | 25 => ⟨S1x2002, .f32⟩
  | 26 => ⟨S4096x2002, .f32⟩
  | 27 => ⟨S4096x2002, .f32⟩
  | 28 => ⟨S_, .f32⟩
  | 29 => ⟨S4096, .f32⟩
  | 30 => ⟨S_, .f32⟩
  | 31 => ⟨S4096, .f32⟩
  | 32 => ⟨S4096, .f32⟩
  | 33 => ⟨S4096x1, .f32⟩
  | 34 => ⟨S4096x2002, .f32⟩
  | 35 => ⟨S4096x2002, .f32⟩
  | 36 => ⟨S4096x2002, .f32⟩
  | 37 => ⟨S_, .f32⟩
  | 38 => ⟨S4096, .f32⟩
  | 39 => ⟨S4096x1, .f32⟩
  | 40 => ⟨S4096x1, .f32⟩
  | 41 => ⟨S4096x2002, .f32⟩
  | 42 => ⟨S4096x2002, .f32⟩
  | 43 => ⟨S4096x1, .i32⟩
  | 44 => ⟨S_, .i32⟩
  | 45 => ⟨S4096x1, .i32⟩
  | 46 => ⟨S4096x1, .i1⟩
  | 47 => ⟨S_, .i32⟩
  | 48 => ⟨S4096x1, .i32⟩
  | 49 => ⟨S4096x1, .i32⟩
  | 50 => ⟨S4096x1, .i32⟩
  | 51 => ⟨S4096x1x1, .i32⟩
  | 52 => ⟨S1, .i32⟩
  | 53 => ⟨S_, .i32⟩
  | 54 => ⟨S4096x1x1, .i32⟩
  | 55 => ⟨S4096x1x1, .i1⟩
  | 56 => ⟨S1x1x1, .i32⟩
  | 57 => ⟨S4096x1x1, .i32⟩
  | 58 => ⟨S4096x1x1, .i1⟩
  | 59 => ⟨S4096x1x1, .i1⟩
  | 60 => ⟨S_, .i1⟩
  | 61 => ⟨S4096x1, .i1⟩
  | 62 => ⟨S4096x1, .f32⟩
  | 63 => ⟨S_, .f32⟩
  | 64 => ⟨S4096x1, .f32⟩
  | 65 => ⟨S4096x1, .f32⟩
  | 66 => ⟨S4096, .f32⟩
  | 67 => ⟨S4096, .f32⟩
  | 68 => ⟨S_, .f32⟩
  | 69 => ⟨S_, .f32⟩
  | 70 => ⟨S_, .f32⟩
  | 71 => ⟨S_, .f32⟩
  | 72 => ⟨S_, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_c_4 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v12 : Ref sig .tc := ⟨.hbm, 33, rfl⟩
abbrev main_v13 : Ref sig .tc := ⟨.hbm, 34, rfl⟩
abbrev main_call2_cst : Ref sig .tc := ⟨.hbm, 35, rfl⟩
abbrev main_call2_v0 : Ref sig .tc := ⟨.hbm, 36, rfl⟩
abbrev main_call2_cst_0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_v6 : Ref sig .tc := ⟨.hbm, 43, rfl⟩
abbrev main_call2_cst_1 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_v14 : Ref sig .tc := ⟨.hbm, 49, rfl⟩
abbrev main_v15 : Ref sig .tc := ⟨.hbm, 50, rfl⟩
abbrev main_call3_c : Ref sig .tc := ⟨.hbm, 51, rfl⟩
abbrev main_call3_v0 : Ref sig .tc := ⟨.hbm, 52, rfl⟩
abbrev main_call3_v1 : Ref sig .tc := ⟨.hbm, 53, rfl⟩
abbrev main_call3_c_0 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_call3_v5 : Ref sig .tc := ⟨.hbm, 58, rfl⟩
abbrev main_call3_c_1 : Ref sig .tc := ⟨.hbm, 59, rfl⟩
abbrev main_call3_c_2 : Ref sig .tc := ⟨.hbm, 60, rfl⟩
abbrev main_call3_v6 : Ref sig .tc := ⟨.hbm, 61, rfl⟩
abbrev main_call3_v7 : Ref sig .tc := ⟨.hbm, 62, rfl⟩
abbrev main_call3_v8 : Ref sig .tc := ⟨.hbm, 63, rfl⟩
abbrev main_call3_v9 : Ref sig .tc := ⟨.hbm, 64, rfl⟩
abbrev main_call3_v10 : Ref sig .tc := ⟨.hbm, 65, rfl⟩
abbrev main_call3_v11 : Ref sig .tc := ⟨.hbm, 66, rfl⟩
abbrev main_call3_c_3 : Ref sig .tc := ⟨.hbm, 67, rfl⟩
abbrev main_call3_v12 : Ref sig .tc := ⟨.hbm, 68, rfl⟩
abbrev main_call3_v13 : Ref sig .tc := ⟨.hbm, 69, rfl⟩
abbrev main_call3_cst : Ref sig .tc := ⟨.hbm, 70, rfl⟩
abbrev main_call3_v14 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_cst : Ref sig .tc := ⟨.hbm, 76, rfl⟩
abbrev main_v20 : Ref sig .tc := ⟨.hbm, 77, rfl⟩
abbrev main_cst_5 : Ref sig .tc := ⟨.hbm, 78, rfl⟩
abbrev main_v21 : Ref sig .tc := ⟨.hbm, 79, rfl⟩
abbrev main_c_6 : Ref sig .tc := ⟨.hbm, 80, rfl⟩
abbrev main_v22 : Ref sig .tc := ⟨.hbm, 81, rfl⟩
abbrev main_v23 : Ref sig .tc := ⟨.hbm, 82, rfl⟩
abbrev main_c_7 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_c_8 : Ref sig .tc := ⟨.hbm, 87, rfl⟩
abbrev main_call4_v0 : Ref sig .tc := ⟨.hbm, 88, rfl⟩
abbrev main_call4_v1 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_c_9 : Ref sig .tc := ⟨.hbm, 95, rfl⟩
abbrev main_v32 : Ref sig .tc := ⟨.hbm, 96, rfl⟩
abbrev main_v33 : Ref sig .tc := ⟨.hbm, 97, rfl⟩
abbrev main_c_10 : Ref sig .tc := ⟨.hbm, 98, rfl⟩
abbrev main_c_11 : Ref sig .tc := ⟨.hbm, 99, rfl⟩
abbrev main_call5_v0 : Ref sig .tc := ⟨.hbm, 100, rfl⟩
abbrev main_call5_v1 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_v34 : Ref sig .tc := ⟨.hbm, 105, rfl⟩
abbrev main_v35 : Ref sig .tc := ⟨.hbm, 106, rfl⟩
abbrev main_call6_cst : Ref sig .tc := ⟨.hbm, 107, rfl⟩
abbrev main_call6_v0 : Ref sig .tc := ⟨.hbm, 108, rfl⟩
abbrev main_call6_cst_0 : Ref sig .tc := ⟨.hbm, 109, rfl⟩
abbrev main_call6_v1 : Ref sig .tc := ⟨.hbm, 110, rfl⟩
abbrev main_call6_v2 : Ref sig .tc := ⟨.hbm, 111, rfl⟩
abbrev main_call6_v3 : Ref sig .tc := ⟨.hbm, 112, rfl⟩
abbrev main_call6_v4 : Ref sig .tc := ⟨.hbm, 113, rfl⟩
abbrev main_call6_v5 : Ref sig .tc := ⟨.hbm, 114, rfl⟩
abbrev main_call6_v6 : Ref sig .tc := ⟨.hbm, 115, rfl⟩
abbrev main_call6_cst_1 : Ref sig .tc := ⟨.hbm, 116, rfl⟩
abbrev main_call6_v7 : Ref sig .tc := ⟨.hbm, 117, rfl⟩
abbrev main_call6_v8 : Ref sig .tc := ⟨.hbm, 118, rfl⟩
abbrev main_call6_v9 : Ref sig .tc := ⟨.hbm, 119, rfl⟩
abbrev main_call6_v10 : Ref sig .tc := ⟨.hbm, 120, rfl⟩
abbrev main_v36 : Ref sig .tc := ⟨.hbm, 121, rfl⟩
abbrev main_v37 : Ref sig .tc := ⟨.hbm, 122, rfl⟩
abbrev main_call7_c : Ref sig .tc := ⟨.hbm, 123, rfl⟩
abbrev main_call7_v0 : Ref sig .tc := ⟨.hbm, 124, rfl⟩
abbrev main_call7_v1 : Ref sig .tc := ⟨.hbm, 125, rfl⟩
abbrev main_call7_c_0 : Ref sig .tc := ⟨.hbm, 126, rfl⟩
abbrev main_call7_v2 : Ref sig .tc := ⟨.hbm, 127, rfl⟩
abbrev main_call7_v3 : Ref sig .tc := ⟨.hbm, 128, rfl⟩
abbrev main_call7_v4 : Ref sig .tc := ⟨.hbm, 129, rfl⟩
abbrev main_call7_v5 : Ref sig .tc := ⟨.hbm, 130, rfl⟩
abbrev main_call7_c_1 : Ref sig .tc := ⟨.hbm, 131, rfl⟩
abbrev main_call7_c_2 : Ref sig .tc := ⟨.hbm, 132, rfl⟩
abbrev main_call7_v6 : Ref sig .tc := ⟨.hbm, 133, rfl⟩
abbrev main_call7_v7 : Ref sig .tc := ⟨.hbm, 134, rfl⟩
abbrev main_call7_v8 : Ref sig .tc := ⟨.hbm, 135, rfl⟩
abbrev main_call7_v9 : Ref sig .tc := ⟨.hbm, 136, rfl⟩
abbrev main_call7_v10 : Ref sig .tc := ⟨.hbm, 137, rfl⟩
abbrev main_call7_v11 : Ref sig .tc := ⟨.hbm, 138, rfl⟩
abbrev main_call7_c_3 : Ref sig .tc := ⟨.hbm, 139, rfl⟩
abbrev main_call7_v12 : Ref sig .tc := ⟨.hbm, 140, rfl⟩
abbrev main_call7_v13 : Ref sig .tc := ⟨.hbm, 141, rfl⟩
abbrev main_call7_cst : Ref sig .tc := ⟨.hbm, 142, rfl⟩
abbrev main_call7_v14 : Ref sig .tc := ⟨.hbm, 143, rfl⟩
abbrev main_v38 : Ref sig .tc := ⟨.hbm, 144, rfl⟩
abbrev main_v39 : Ref sig .tc := ⟨.hbm, 145, rfl⟩
abbrev main_v40 : Ref sig .tc := ⟨.hbm, 146, rfl⟩
abbrev main_v41 : Ref sig .tc := ⟨.hbm, 147, rfl⟩
abbrev main_cst_12 : Ref sig .tc := ⟨.hbm, 148, rfl⟩
abbrev main_v42 : Ref sig .tc := ⟨.hbm, 149, rfl⟩
abbrev main_v43 : Ref sig .tc := ⟨.hbm, 150, rfl⟩
abbrev main_v44 : Ref sig .tc := ⟨.hbm, 151, rfl⟩
abbrev main_v45 : Ref sig .tc := ⟨.hbm, 152, rfl⟩
abbrev main_v46 : Ref sig .tc := ⟨.hbm, 153, rfl⟩
abbrev main_v47 : Ref sig .tc := ⟨.hbm, 154, rfl⟩
abbrev main_v48 : Ref sig .tc := ⟨.hbm, 155, rfl⟩
abbrev main_call8_cst : Ref sig .tc := ⟨.hbm, 156, rfl⟩
abbrev main_call8_v0 : Ref sig .tc := ⟨.hbm, 157, rfl⟩
abbrev main_call8_cst_0 : Ref sig .tc := ⟨.hbm, 158, rfl⟩
abbrev main_call8_v1 : Ref sig .tc := ⟨.hbm, 159, rfl⟩
abbrev main_call8_v2 : Ref sig .tc := ⟨.hbm, 160, rfl⟩
abbrev main_call8_v3 : Ref sig .tc := ⟨.hbm, 161, rfl⟩
abbrev main_call8_v4 : Ref sig .tc := ⟨.hbm, 162, rfl⟩
abbrev main_call8_v5 : Ref sig .tc := ⟨.hbm, 163, rfl⟩
abbrev main_call8_v6 : Ref sig .tc := ⟨.hbm, 164, rfl⟩
abbrev main_call8_cst_1 : Ref sig .tc := ⟨.hbm, 165, rfl⟩
abbrev main_call8_v7 : Ref sig .tc := ⟨.hbm, 166, rfl⟩
abbrev main_call8_v8 : Ref sig .tc := ⟨.hbm, 167, rfl⟩
abbrev main_call8_v9 : Ref sig .tc := ⟨.hbm, 168, rfl⟩
abbrev main_call8_v10 : Ref sig .tc := ⟨.hbm, 169, rfl⟩
abbrev main_v49 : Ref sig .tc := ⟨.hbm, 170, rfl⟩
abbrev main_v50 : Ref sig .tc := ⟨.hbm, 171, rfl⟩
abbrev main_call9_c : Ref sig .tc := ⟨.hbm, 172, rfl⟩
abbrev main_call9_v0 : Ref sig .tc := ⟨.hbm, 173, rfl⟩
abbrev main_call9_v1 : Ref sig .tc := ⟨.hbm, 174, rfl⟩
abbrev main_call9_c_0 : Ref sig .tc := ⟨.hbm, 175, rfl⟩
abbrev main_call9_v2 : Ref sig .tc := ⟨.hbm, 176, rfl⟩
abbrev main_call9_v3 : Ref sig .tc := ⟨.hbm, 177, rfl⟩
abbrev main_call9_v4 : Ref sig .tc := ⟨.hbm, 178, rfl⟩
abbrev main_call9_v5 : Ref sig .tc := ⟨.hbm, 179, rfl⟩
abbrev main_call9_c_1 : Ref sig .tc := ⟨.hbm, 180, rfl⟩
abbrev main_call9_c_2 : Ref sig .tc := ⟨.hbm, 181, rfl⟩
abbrev main_call9_v6 : Ref sig .tc := ⟨.hbm, 182, rfl⟩
abbrev main_call9_v7 : Ref sig .tc := ⟨.hbm, 183, rfl⟩
abbrev main_call9_v8 : Ref sig .tc := ⟨.hbm, 184, rfl⟩
abbrev main_call9_v9 : Ref sig .tc := ⟨.hbm, 185, rfl⟩
abbrev main_call9_v10 : Ref sig .tc := ⟨.hbm, 186, rfl⟩
abbrev main_call9_v11 : Ref sig .tc := ⟨.hbm, 187, rfl⟩
abbrev main_call9_c_3 : Ref sig .tc := ⟨.hbm, 188, rfl⟩
abbrev main_call9_v12 : Ref sig .tc := ⟨.hbm, 189, rfl⟩
abbrev main_call9_v13 : Ref sig .tc := ⟨.hbm, 190, rfl⟩
abbrev main_call9_cst : Ref sig .tc := ⟨.hbm, 191, rfl⟩
abbrev main_call9_v14 : Ref sig .tc := ⟨.hbm, 192, rfl⟩
abbrev main_v51 : Ref sig .tc := ⟨.hbm, 193, rfl⟩
abbrev main_v52 : Ref sig .tc := ⟨.hbm, 194, rfl⟩
abbrev main_v53 : Ref sig .tc := ⟨.hbm, 195, rfl⟩
abbrev main_cst_13 : Ref sig .tc := ⟨.hbm, 196, rfl⟩
abbrev main_v54 : Ref sig .tc := ⟨.hbm, 197, rfl⟩
abbrev main_v55 : Ref sig .tc := ⟨.hbm, 198, rfl⟩
abbrev main_cst_14 : Ref sig .tc := ⟨.hbm, 199, rfl⟩
abbrev main_v56 : Ref sig .tc := ⟨.hbm, 200, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  transposes_S1024x1024_S1024x1024_1_0 : S1024x1024.Transposes [1, 0] S1024x1024
  transposes_S8000x1024_S1024x8000_1_0 : S8000x1024.Transposes [1, 0] S1024x8000
  reducesTo_S4096x8000_S4096_d1 : S4096x8000.ReducesTo [1] S4096
  h_S_ : 0 < S_.numel
  bcast_S4096_S4096x1_0 : S4096.BroadcastsInDim S4096x1 (![0] : Fin 1 → Fin S4096x1.rank)
  bcast_S4096x1_S4096x8000_0_1 : S4096x1.BroadcastsInDim S4096x8000 (![0, 1] : Fin 2 → Fin S4096x8000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  transposes_S256x1024_S1024x256_1_0 : S256x1024.Transposes [1, 0] S1024x256
  transposes_S40000x256_S256x40000_1_0 : S40000x256.Transposes [1, 0] S256x40000
  reducesTo_S4096x40000_S4096_d1 : S4096x40000.ReducesTo [1] S4096
  bcast_S4096x1_S4096x40000_0_1 : S4096x1.BroadcastsInDim S4096x40000 (![0, 1] : Fin 2 → Fin S4096x40000.rank)
  transposes_S2002x1024_S1024x2002_1_0 : S2002x1024.Transposes [1, 0] S1024x2002
  bcast_S2002_S1x2002_1 : S2002.BroadcastsInDim S1x2002 (![1] : Fin 1 → Fin S1x2002.rank)
  bcast_S1x2002_S4096x2002_0_1 : S1x2002.BroadcastsInDim S4096x2002 (![0, 1] : Fin 2 → Fin S4096x2002.rank)
  reducesTo_S4096x2002_S4096_d1 : S4096x2002.ReducesTo [1] S4096
  bcast_S4096x1_S4096x2002_0_1 : S4096x1.BroadcastsInDim S4096x2002 (![0, 1] : Fin 2 → Fin S4096x2002.rank)
  dot_S4096x1024_S1024x1024_S4096x1024_1_0_0_1_n_n_wf : DotDims.WF S4096x1024 S1024x1024 S4096x1024 [1] [0] [0] [1] [] []
  dot_S4096x1024_S1024x8000_S4096x8000_1_0_0_1_n_n_wf : DotDims.WF S4096x1024 S1024x8000 S4096x8000 [1] [0] [0] [1] [] []
  gather_S4096x8000_S4096x1x1_S4096x1_n_1_0_0_1_2_11_wf : GatherDims.WF S4096x8000 S4096x1x1 S4096x1 [] [1] [0] [1] [0] 2 ![1, 1]
  dot_S4096x1024_S1024x256_S4096x256_1_0_0_1_n_n_wf : DotDims.WF S4096x1024 S1024x256 S4096x256 [1] [0] [0] [1] [] []
  dot_S4096x256_S256x40000_S4096x40000_1_0_0_1_n_n_wf : DotDims.WF S4096x256 S256x40000 S4096x40000 [1] [0] [0] [1] [] []
  gather_S4096x40000_S4096x1x1_S4096x1_n_1_0_0_1_2_11_wf : GatherDims.WF S4096x40000 S4096x1x1 S4096x1 [] [1] [0] [1] [0] 2 ![1, 1]
  dot_S4096x1024_S1024x2002_S4096x2002_1_0_0_1_n_n_wf : DotDims.WF S4096x1024 S1024x2002 S4096x2002 [1] [0] [0] [1] [] []
  gather_S4096x2002_S4096x1x1_S4096x1_n_1_0_0_1_2_11_wf : GatherDims.WF S4096x2002 S4096x1x1 S4096x1 [] [1] [0] [1] [0] 2 ![1, 1]

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x8000_S4096x8000_1_0_0_1_n_n : DotDims S4096x1024 S1024x8000 S4096x8000 where
  lhsContracting := [1]
  rhsContracting := [0]
  lhsNonContracting := [0]
  rhsNonContracting := [1]
  lhsBatch := []
  rhsBatch := []
  wf := dot_S4096x1024_S1024x8000_S4096x8000_1_0_0_1_n_n_wf
def gather_S4096x8000_S4096x1x1_S4096x1_n_1_0_0_1_2_11 : GatherDims S4096x8000 S4096x1x1 S4096x1 where
  offsetDims := []
  collapsedSliceDims := [1]
  operandBatchingDims := [0]
  startIndicesBatchingDims := [0]
  startIndexMap := [1]
  indexVectorDim := 2
  sliceSizes := ![1, 1]
  wf := gather_S4096x8000_S4096x1x1_S4096x1_n_1_0_0_1_2_11_wf
def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x40000_S4096x40000_1_0_0_1_n_n : DotDims S4096x256 S256x40000 S4096x40000 where
  lhsContracting := [1]
  rhsContracting := [0]
  lhsNonContracting := [0]
  rhsNonContracting := [1]
  lhsBatch := []
  rhsBatch := []
  wf := dot_S4096x256_S256x40000_S4096x40000_1_0_0_1_n_n_wf
def gather_S4096x40000_S4096x1x1_S4096x1_n_1_0_0_1_2_11 : GatherDims S4096x40000 S4096x1x1 S4096x1 where
  offsetDims := []
  collapsedSliceDims := [1]
  operandBatchingDims := [0]
  startIndicesBatchingDims := [0]
  startIndexMap := [1]
  indexVectorDim := 2
  sliceSizes := ![1, 1]
  wf := gather_S4096x40000_S4096x1x1_S4096x1_n_1_0_0_1_2_11_wf
def dot_S4096x1024_S1024x2002_S4096x2002_1_0_0_1_n_n : DotDims S4096x1024 S1024x2002 S4096x2002 where
  lhsContracting := [1]
  rhsContracting := [0]
  lhsNonContracting := [0]
  rhsNonContracting := [1]
  lhsBatch := []
  rhsBatch := []
  wf := dot_S4096x1024_S1024x2002_S4096x2002_1_0_0_1_n_n_wf
def gather_S4096x2002_S4096x1x1_S4096x1_n_1_0_0_1_2_11 : GatherDims S4096x2002 S4096x1x1 S4096x1 where
  offsetDims := []
  collapsedSliceDims := [1]
  operandBatchingDims := [0]
  startIndicesBatchingDims := [0]
  startIndexMap := [1]
  indexVectorDim := 2
  sliceSizes := ![1, 1]
  wf := gather_S4096x2002_S4096x1x1_S4096x1_n_1_0_0_1_2_11_wf

class Facts : Prop extends Facts₀ where

variable [Facts]
-- ==== Proof.K.Frame.lean ====
import proofs.«415479_j24352464569077_2_alg».proof.Proof.Gen.Kernel.Regions
import Idealize.ShloMosaic.Lib.Pipeline.Regions
import Idealize.ShloMosaic.Lib.Pipeline.Kit
import Idealize.ShloMosaic.PureOps.BitExact

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat HostSeg)

local notation "𝕄" => MT nD τ sig Unit (Elt Bits) ℕ (UR sig nD τ) ℕ

/-! ## The thread state between two items: the unscoped buffers at a valuation known up to what the regions left -/

/-- No host loop: no variant. -/
abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the generator register at some state, and nothing owed. -/
abbrev Rst (c : Dev nD) : sProp 𝕄 :=
  iprop((∃ r, prngReg c r) ∗ ∃ W, owes (c : Thread nD τ) (0 : CellTallies nD τ sig Unit) W)

/-- The thread state at a boundary whose valuation is `V outs c`: the unscoped buffers held at it for SOME contents
    `outs` of the regions' outputs, beside `Rst`. -/
def T (V : Outs (F := Bits) → Dev nD → Valuation τ sig (Elt Bits)) (c : Dev nD) : sProp 𝕄 :=
  iprop(∃ outs : Outs (F := Bits), StableHlo.held (c : Thread nD τ) (Pipeline.ucRefs τ sig) (V outs c) ∗ Rst c)

/-- A host stretch between two such states: at each `outs` it is the line of operations run over the held buffers,
    and the unknown is carried through the run. -/
def hsegE (ops : List (HloOp τ sig (Elt Bits))) (hsub : ops.Forall fun op => op.bufs ⊆ StableHlo.tcRefs τ sig)
    (hfresh : ops.Forall fun op => op.fresh = ∅) (V : Outs (F := Bits) → Dev nD → Valuation τ sig (Elt Bits)) :
    HostSeg (Name := ℕ) (U := UR sig nD τ) (pcfgs (F := Bits)) defs₀ 𝒱₀ L lv where
  prog := StableHlo.seq ops
  pre := T V
  post := T fun outs c => StableHlo.after ops (V outs c)
  run c {β} k K := by
    have hrun : ∀ outs : Outs (F := Bits),
        iprop((iprop(boundary (c.tc : Thread nD τ)
              ∗ (StableHlo.held (c : Thread nD τ) (Pipeline.ucRefs τ sig) (StableHlo.after ops (V outs c)) ∗ Rst c))
            -∗ wp frame (wpE (Pipeline.defs (pcfgs (F := Bits)) defs₀) (Variants.lift 𝒱₀) (c.tc : Thread nD τ) none) Set.univ (k ⟨⟩) K)
          ∗ boundary (c.tc : Thread nD τ) ∗ (StableHlo.held (c : Thread nD τ) (Pipeline.ucRefs τ sig) (V outs c) ∗ Rst c) ∗ levAts L lv)
        ⊢ wp frame (wpE (Pipeline.defs (pcfgs (F := Bits)) defs₀) (Variants.lift 𝒱₀) (c.tc : Thread nD τ) none) Set.univ
            (StableHlo.seq ops >>= k) K := fun outs =>
      (Pipeline.HostSeg.ofOps (Name := ℕ) (U := UR sig nD τ) (pcfgs (F := Bits)) defs₀ 𝒱₀ L lv (Pipeline.ucRefs τ sig) ops
        (fun op h => Pipeline.sub_ucRefs op ((List.forall_iff_forall_mem.mp hsub) op h))
        (fun op h => (List.forall_iff_forall_mem.mp hfresh) op h) (V outs) Rst).run c k K
    unfold T
    iintro ⟨Hk, Hbd, ⟨%outs, Hpre⟩, Hla⟩
    iapply (hrun outs)
    isplitl [Hk]
    · iintro ⟨Hbd, Hpost⟩
      iapply Hk
      isplitl [Hbd]; · iexact Hbd
      iexists outs; iexact Hpost
    isplitl [Hbd]; · iexact Hbd
    isplitl [Hpre]; · iexact Hpre
    iexact Hla

/-! ## A region's arrays at its exit, their contents known only to exist -/

/-- The arrays after the write-backs below `n`, each at SOME contents it may then hold, are the arrays at one family of
    such contents. -/
theorem arraysAt_elim {cfg : Pipeline.Cfg sig Λ₀} {c : Dev nD} (rd : RDat τ (Elt Bits) Unit ℕ (UR sig nD τ) ℕ cfg c) (n : ℕ) :
    (rd.arraysAt n : sProp 𝕄)
      ⊢ iprop(∃ F : (w : Fin cfg.W) → Buf (Elt Bits) ((cfg.win w).arr.view.loc (c.tc : Thread nD τ)),
          ⌜∀ w, rd.ArrAt w n (F w)⌝ ∗ rd.arrays F) := by
  classical
  unfold RDat.arraysAt RDat.arrays
  iintro Ha
  ihave Ha' := (BI.bigSep_exists_pi Finset.univ (fun w F => iprop(⌜rd.ArrAt w n F⌝
      ∗ (cfg.win w).arr.view.loc (c.tc : Thread nD τ) ↦[(cfg.win w).arr.view.set]{rd.share w} F))) $$ Ha
  icases Ha' with ⟨%Fs, Ha⟩
  ihave Ha2 := (BI.bigSep_pure_sep Finset.univ (fun w => rd.ArrAt w n (Fs w))
      (fun w => (cfg.win w).arr.view.loc (c.tc : Thread nD τ) ↦[(cfg.win w).arr.view.set]{rd.share w} Fs w)) $$ Ha
  icases Ha2 with ⟨%hFs, Ha⟩
  iexists Fs
  isplitr
  · ipureintro; exact fun w => hFs w (Finset.mem_univ w)
  · iexact Ha

/-! ## Replacing one region's output in the unknowns -/

/-- `outs` with the contents after item `J₀ - 1` on core `c` replaced by `B`. -/
def pick (c : Dev nD) (J₀ : ℕ) (outs : Outs (F := Bits)) (B : (r : Ref sig .tc) → Buf (Elt Bits) ((c : Thread nD τ).loc r)) :
    Outs (F := Bits) :=
  fun J r c' => if h : c' = c then (if J = J₀ then h ▸ B r else outs J r c') else outs J r c'

theorem pick_self (c : Dev nD) (J₀ : ℕ) (outs : Outs (F := Bits)) (B : (r : Ref sig .tc) → Buf (Elt Bits) ((c : Thread nD τ).loc r))
    (r : Ref sig .tc) : pick c J₀ outs B J₀ r c = B r := by
  unfold pick; rw [dif_pos rfl, if_pos rfl]

theorem pick_of_ne (c : Dev nD) (J₀ : ℕ) (outs : Outs (F := Bits)) (B : (r : Ref sig .tc) → Buf (Elt Bits) ((c : Thread nD τ).loc r))
    {J : ℕ} (hJ : J ≠ J₀) (r : Ref sig .tc) (c' : Dev nD) : pick c J₀ outs B J r c' = outs J r c' := by
  unfold pick
  by_cases h : c' = c
  · rw [dif_pos h, if_neg hJ]
  · rw [dif_neg h]

variable (m : (ℓ : Loc nD τ sig) → Buf (Elt Bits) ℓ)

/-- The valuations up to region 1's entry read the unknowns at region 0's output only. -/
theorem V6_congr {outs outs' : Outs (F := Bits)} (c : Dev nD) (h : outs' 6 main_v15 c = outs 6 main_v15 c) :
    V6 m outs' c = V6 m outs c := by
  show Function.update (V5 m c) main_v15 (outs' 6 main_v15 c) = Function.update (V5 m c) main_v15 (outs 6 main_v15 c)
  rw [h]

theorem V11_congr {outs outs' : Outs (F := Bits)} (c : Dev nD) (h : outs' 6 main_v15 c = outs 6 main_v15 c) :
    V11 m outs' c = V11 m outs c := by
  show StableHlo.after hostOps1_4 (StableHlo.after hostOps1_3 (StableHlo.after hostOps1_2 (StableHlo.after hostOps1_1
    (StableHlo.after hostOps1 (V6 m outs' c))))) = StableHlo.after hostOps1_4 (StableHlo.after hostOps1_3 (StableHlo.after hostOps1_2
    (StableHlo.after hostOps1_1 (StableHlo.after hostOps1 (V6 m outs c)))))
  rw [V6_congr m c h]

/-- Those up to region 2's entry read them at the outputs of regions 0 and 1 only. -/
theorem V13_congr {outs outs' : Outs (F := Bits)} (c : Dev nD) (h6 : outs' 6 main_v15 c = outs 6 main_v15 c)
    (h12 : outs' 12 main_v32 c = outs 12 main_v32 c) : V13 m outs' c = V13 m outs c := by
  show StableHlo.after hostOps2 (Function.update (V11 m outs' c) main_v32 (outs' 12 main_v32 c))
    = StableHlo.after hostOps2 (Function.update (V11 m outs c) main_v32 (outs 12 main_v32 c))
  rw [V11_congr m c h6, h12]

/-! ## What the core owes, in and out of a region that owes nothing -/

theorem owesAt_of_zero {cfg : Pipeline.Cfg sig Λ₀} {c : Dev nD} (rd : RDat τ (Elt Bits) Unit ℕ (UR sig nD τ) ℕ cfg c)
    (t : Fin (cfg.N + 1)) (h0 : rd.owed t = 0) (hrec : rd.recorded t = Set.univ) :
    (iprop(∃ W, owes (c : Thread nD τ) (0 : CellTallies nD τ sig Unit) W) : sProp 𝕄) ⊢ rd.owesAt () t := by
  unfold RDat.owesAt Pipeline.owesWithin RDat.bound
  rw [h0, hrec]
  iintro ⟨%W, HO⟩; iexists W; isplitr; · ipureintro; exact fun _ _ => Or.inl trivial
  iexact HO

theorem zero_of_owesAt {cfg : Pipeline.Cfg sig Λ₀} {c : Dev nD} (rd : RDat τ (Elt Bits) Unit ℕ (UR sig nD τ) ℕ cfg c)
    (t : Fin (cfg.N + 1)) (h0 : rd.owed t = 0) :
    (rd.owesAt () t : sProp 𝕄) ⊢ iprop(∃ W, owes (c : Thread nD τ) (0 : CellTallies nD τ sig Unit) W) := by
  unfold RDat.owesAt Pipeline.owesWithin
  rw [h0]
  iintro ⟨%W, -, HO⟩; iexists W; iexact HO

/-! ## The regions' proof data as one family, and a region's arrays back among the unscoped buffers -/

section Regions

variable (rdat0 : (c : Dev nD) → RDat τ (Elt Bits) Unit ℕ (UR sig nD τ) ℕ cfg0 c)
  (rdat1 : (c : Dev nD) → RDat τ (Elt Bits) Unit ℕ (UR sig nD τ) ℕ cfg1 c)
  (rdat2 : (c : Dev nD) → RDat τ (Elt Bits) Unit ℕ (UR sig nD τ) ℕ cfg2 c)

/-- Every pipeline's relational proof data: a literal match, so that the family at a numeral is that region's. -/
def rdats : (p : Fin 3) → (c : Dev nD) → RDat τ (Elt Bits) Unit ℕ (UR sig nD τ) ℕ (Pipeline.pin (pcfgs (F := Bits)) adm p) c
  | ⟨0, _⟩ => rdat0
  | ⟨1, _⟩ => rdat1
  | ⟨2, _⟩ => rdat2

/-- EXIT, the arrays' part: pipeline `p`'s arrays at contents `F` and the unscoped rest at `V` are the core's unscoped
    buffers at any valuation that has the arrays at `F` and agrees with `V` off them. -/
theorem unscopedBufs_of_arraysR
    (rds : (p : Fin 3) → (c : Dev nD) → RDat τ (Elt Bits) Unit ℕ (UR sig nD τ) ℕ (Pipeline.pin (pcfgs (F := Bits)) adm p) c)
    {p : Fin 3} (hw : Pipeline.WinFacts (Pipeline.pin (pcfgs (F := Bits)) adm p).spec)
    (harr : ∀ w, ((Pipeline.pin (pcfgs (F := Bits)) adm p).spec w).arr.IsWhole)
    (c : Dev nD) (hshare : ∀ w, (rds p c).share w = fullShare)
    (V V' : (b : Ref sig .tc) → Buf (Elt Bits) ((c.tc : Thread nD τ).loc b))
    (F : (w : Fin (Pipeline.pin (pcfgs (F := Bits)) adm p).W) → Buf (Elt Bits) (((Pipeline.pin (pcfgs (F := Bits)) adm p).spec w).arr.view.loc (c.tc : Thread nD τ)))
    (hF : ∀ w, F w = V' (Pipeline.arrRef (Pipeline.pin (pcfgs (F := Bits)) adm p).spec w))
    (hrest : ∀ b, b ∉ Finset.univ.image (Pipeline.arrRef (Pipeline.pin (pcfgs (F := Bits)) adm p).spec) → V' b = V b) :
    iprop((rds p c).arrays F ∗ Pipeline.unscopedRest (Pipeline.pin (pcfgs (F := Bits)) adm p).spec c V)
      ⊢ (unscopedBufs c V' : sProp 𝕄) := by
  rw [Pipeline.unscopedBufs_split (Pipeline.pin (pcfgs (F := Bits)) adm) p hw.arr_unscoped hw.arr_inj c V',
    Pipeline.RDat.arrays_eq (pcfgs (F := Bits)) adm rds p c harr hshare]
  refine sep_mono (Entails.of_eq (bigSep_congr fun w _ => by rw [hF])) (Entails.of_eq ?_)
  unfold Pipeline.unscopedRest
  exact bigSep_congr fun b hb => by rw [hrest b (Finset.mem_sdiff.mp hb).2]

/-! ## Region 0 -/

section R0

variable (hA0 : ∀ c w, (rdat0 c).A w = V5 m c (Pipeline.arrRef spec0 w))
  (hq0 : ∀ c w, (rdat0 c).q w = fullShare) (howed0 : ∀ c t, (rdat0 c).owed t = 0)
  (hrec0 : ∀ c, (rdat0 c).recorded 0 = Set.univ)
  (hin0 : ∀ c, (Pipeline.ΦA spec0 c : sProp 𝕄) ⊢ (rdat0 c).Φ 0)
  (hout0 : ∀ c, (rdat0 c).Φ (Fin.last cfg0.N) ⊢ (Pipeline.ΦA spec0 c : sProp 𝕄))
  (hbody0 : ∀ c, (rdat0 c).BodyObligation (defs₀ (F := Bits)) Variants.none () Set.univ)

set_option backward.isDefEq.respectTransparency.types false in
/-- REGION 0 over the thread state: entered from the unscoped buffers at `V5`, left at `V6` for SOME contents of its
    output array. Its arrays are split out of the unscoped buffers at entry and put back at the exit at what they then
    hold: the inputs as entered, the output at contents nothing names. -/
def reg0 : Pipeline.RDat.RegionSeg (pcfgs (F := Bits)) adm (rdats rdat0 rdat1 rdat2) () defs₀ 𝒱₀ L lv 0 where
  win := launch0.win.to₀
  block_pos := launch0.block_pos
  stage_whole := launch0.stage_whole
  K := PEmpty
  osem k := k.elim
  ho := Pipeline.OwnSemFacts.none _
  hbody c := hbody0 c
  hwaits := Pipeline.RDat.hwaits_of_owed_zero _ _ _ _ L lv 0 fun c t => howed0 c t
  pre := T fun _ c => V5 m c
  post := T (V6 m)
  X c := iprop(∃ r, prngReg c r)
  Y c := iprop(∃ r, prngReg c r)
  Z c := Pipeline.unscopedRest (Ix := Unit) (Name := ℕ) (U := UR sig nD τ) (Lvl := ℕ) spec0 c (fun b => V5 m c b)
  hentry c := by
    rw [Pipeline.ownSems0_none]
    have hsplit := Pipeline.RDat.arrays_of_unscopedBufs (p := 0) (pcfgs (F := Bits)) adm (rdats rdat0 rdat1 rdat2) launch0.win launch0.arr_whole c
      ((rdat0 c).share_full (hq0 c)) (fun b => V5 m c b) (hA0 c)
    rw [Pipeline.unscopedBufs_held] at hsplit
    have hO := owesAt_of_zero (rdats rdat0 rdat1 rdat2 0 c) 0 (howed0 c 0) (hrec0 c)
    unfold T
    iintro ⟨⟨%outs, Hub, Hp, HO⟩, -, -⟩
    ihave H := hsplit $$ Hub
    icases H with ⟨Ha, Hrest⟩
    ihave HO' := hO $$ HO
    imodintro
    isplitl [Ha]; · iexact Ha
    isplitr; · unfold Pipeline.prefHeld; rw [show (Finset.univ : Finset (Fin 0)) = ∅ from rfl, BI.bigSep_empty]; iempintro
    isplitl [HO']; · iexact HO'
    isplitl [Hp]; · iexact Hp
    iexact Hrest
  hin c := by
    refine BIBase.Entails.trans ?_ (hin0 c)
    unfold Pipeline.ΦA
    iintro ⟨Hp, -, Hr⟩
    isplitl [Hr]; · iexact Hr
    iexact Hp
  hout c := by
    rw [Pipeline.ownSems0_none]
    refine (hout0 c).trans ?_
    unfold Pipeline.ΦA
    iintro ⟨Hr, Hp⟩
    isplitl [Hp]; · iexact Hp
    isplitr; · iempintro
    iexact Hr
  hexit c := by
    have hAe : ((rdats rdat0 rdat1 rdat2 0 c).arraysAt (Pipeline.pin (pcfgs (F := Bits)) adm 0).N : sProp 𝕄)
        ⊢ iprop(∃ F : (w : Fin 6) → Buf (Elt Bits) ((cfg0.win w).arr.view.loc (c.tc : Thread nD τ)),
            ⌜∀ w, (rdat0 c).ArrAt w cfg0.N (F w)⌝ ∗ (rdat0 c).arrays F) := arraysAt_elim (rdat0 c) cfg0.N
    have hO : ((rdats rdat0 rdat1 rdat2 0 c).owesAt () (Fin.last (Pipeline.pin (pcfgs (F := Bits)) adm 0).N) : sProp 𝕄)
        ⊢ iprop(∃ W, owes (c : Thread nD τ) (0 : CellTallies nD τ sig Unit) W) :=
      zero_of_owesAt (rdat0 c) (Fin.last cfg0.N) (howed0 c _)
    have hne : ∀ w : Fin 6, w ≠ 5 → Pipeline.arrRef spec0 w ∉ ([main_v15] : List (Ref sig .tc)) := by decide
    have hio : ∀ w : Fin 6, w ≠ 5 → (cfg0.win w).isOut = false := by decide
    unfold T
    iintro ⟨Ha, HO, HY, Hrest⟩
    ihave Ha' := hAe $$ Ha
    icases Ha' with ⟨%F, %hF, Ha⟩
    ihave HO' := hO $$ HO
    -- the unknowns with region 0's output at what its array holds now
    obtain ⟨outs', hF', hrest'⟩ : ∃ outs' : Outs (F := Bits), (∀ w, F w = V6 m outs' c (Pipeline.arrRef spec0 w))
        ∧ ∀ b, b ∉ Finset.univ.image (Pipeline.arrRef spec0) → V6 m outs' c b = V5 m c b := by
      refine ⟨pick c 6 (fun _ r c' => m ((c' : Thread nD τ).loc r)) fun r => Function.update (V5 m c) main_v15 (F 5) r, fun w => ?_, fun b hb => ?_⟩
      · by_cases hw : w = 5
        · subst hw
          show F 5 = Function.update (V5 m c) main_v15 (pick c 6 _ (fun r => Function.update (V5 m c) main_v15 (F 5) r) 6 main_v15 c) main_v15
          rw [Function.update_self, pick_self, Function.update_self]
        · have h := hF w
          rw [(rdat0 c).ArrAt_in w (hio w hw)] at h
          exact (h.trans (hA0 c w)).trans (V6_of m _ c _ (hne w hw)).symm
      · exact V6_of m _ c b fun hmem => hb (by
          rw [List.mem_singleton] at hmem; subst hmem
          exact Finset.mem_image.mpr ⟨5, Finset.mem_univ _, rfl⟩)
    have hjoin : iprop((rdat0 c).arrays F ∗ Pipeline.unscopedRest spec0 c (fun b => V5 m c b))
        ⊢ (unscopedBufs c (fun b => V6 m outs' c b) : sProp 𝕄) :=
      unscopedBufs_of_arraysR (rdats rdat0 rdat1 rdat2) (p := 0) launch0.win launch0.arr_whole c ((rdat0 c).share_full (hq0 c))
        (fun b => V5 m c b) (fun b => V6 m outs' c b) F hF' hrest'
    rw [Pipeline.unscopedBufs_held] at hjoin
    imodintro
    iexists outs'
    isplitl [Ha Hrest]
    · iapply hjoin; isplitl [Ha] <;> iassumption
    isplitl [HY]; · iexact HY
    iexact HO'

end R0

/-! ## Region 1 -/

section R1

variable (outs₀ : Outs (F := Bits))
  (hA1 : ∀ c w, (rdat1 c).A w = V11 m outs₀ c (Pipeline.arrRef spec1 w))
  (hq1 : ∀ c w, (rdat1 c).q w = fullShare) (howed1 : ∀ c t, (rdat1 c).owed t = 0)
  (hrec1 : ∀ c, (rdat1 c).recorded 0 = Set.univ)
  (hin1 : ∀ c, (Pipeline.ΦA spec1 c : sProp 𝕄) ⊢ (rdat1 c).Φ 0)
  (hout1 : ∀ c, (rdat1 c).Φ (Fin.last cfg1.N) ⊢ (Pipeline.ΦA spec1 c : sProp 𝕄))
  (hbody1 : ∀ c, (rdat1 c).BodyObligation (defs₀ (F := Bits)) Variants.none () Set.univ)
  (hind1 : ∀ (outs : Outs (F := Bits)) c w, V11 m outs c (Pipeline.arrRef spec1 w) = V11 m outs₀ c (Pipeline.arrRef spec1 w))

set_option backward.isDefEq.respectTransparency.types false in
/-- REGION 1 over the thread state: entered from the unscoped buffers at `V11` for some unknowns, left at `V12` for
    others that agree with them up to region 0's output. Its arrays' entry contents do not depend on the unknowns. -/
def reg1 : Pipeline.RDat.RegionSeg (pcfgs (F := Bits)) adm (rdats rdat0 rdat1 rdat2) () defs₀ 𝒱₀ L lv 1 where
  win := launch1.win.to₀
  block_pos := launch1.block_pos
  stage_whole := launch1.stage_whole
  K := PEmpty
  osem k := k.elim
  ho := Pipeline.OwnSemFacts.none _
  hbody c := hbody1 c
  hwaits := Pipeline.RDat.hwaits_of_owed_zero _ _ _ _ L lv 1 fun c t => howed1 c t
  pre := T (V11 m)
  post := T (V12 m)
  X c := iprop(∃ r, prngReg c r)
  Y c := iprop(∃ r, prngReg c r)
  Z c := iprop(∃ outs : Outs (F := Bits),
    Pipeline.unscopedRest (Ix := Unit) (Name := ℕ) (U := UR sig nD τ) (Lvl := ℕ) spec1 c (fun b => V11 m outs c b))
  hentry c := by
    rw [Pipeline.ownSems0_none]
    have hO := owesAt_of_zero (rdats rdat0 rdat1 rdat2 1 c) 0 (howed1 c 0) (hrec1 c)
    unfold T
    iintro ⟨⟨%outs, Hub, Hp, HO⟩, -, -⟩
    have hsplit := Pipeline.RDat.arrays_of_unscopedBufs (p := 1) (pcfgs (F := Bits)) adm (rdats rdat0 rdat1 rdat2) launch1.win launch1.arr_whole c
      ((rdat1 c).share_full (hq1 c)) (fun b => V11 m outs c b) (fun w => (hA1 c w).trans (hind1 outs c w).symm)
    rw [Pipeline.unscopedBufs_held] at hsplit
    ihave H := hsplit $$ Hub
    icases H with ⟨Ha, Hrest⟩
    ihave HO' := hO $$ HO
    imodintro
    isplitl [Ha]; · iexact Ha
    isplitr; · unfold Pipeline.prefHeld; rw [show (Finset.univ : Finset (Fin 0)) = ∅ from rfl, BI.bigSep_empty]; iempintro
    isplitl [HO']; · iexact HO'
    isplitl [Hp]; · iexact Hp
    iexists outs; iexact Hrest
  hin c := by
    refine BIBase.Entails.trans ?_ (hin1 c)
    unfold Pipeline.ΦA
    iintro ⟨Hp, -, Hr⟩
    isplitl [Hr]; · iexact Hr
    iexact Hp
  hout c := by
    rw [Pipeline.ownSems0_none]
    refine (hout1 c).trans ?_
    unfold Pipeline.ΦA
    iintro ⟨Hr, Hp⟩
    isplitl [Hp]; · iexact Hp
    isplitr; · iempintro
    iexact Hr
  hexit c := by
    have hAe : ((rdats rdat0 rdat1 rdat2 1 c).arraysAt (Pipeline.pin (pcfgs (F := Bits)) adm 1).N : sProp 𝕄)
        ⊢ iprop(∃ F : (w : Fin 6) → Buf (Elt Bits) ((cfg1.win w).arr.view.loc (c.tc : Thread nD τ)),
            ⌜∀ w, (rdat1 c).ArrAt w cfg1.N (F w)⌝ ∗ (rdat1 c).arrays F) := arraysAt_elim (rdat1 c) cfg1.N
    have hO : ((rdats rdat0 rdat1 rdat2 1 c).owesAt () (Fin.last (Pipeline.pin (pcfgs (F := Bits)) adm 1).N) : sProp 𝕄)
        ⊢ iprop(∃ W, owes (c : Thread nD τ) (0 : CellTallies nD τ sig Unit) W) :=
      zero_of_owesAt (rdat1 c) (Fin.last cfg1.N) (howed1 c _)
    have hne : ∀ w : Fin 6, w ≠ 5 → Pipeline.arrRef spec1 w ∉ ([main_v32] : List (Ref sig .tc)) := by decide
    have hio : ∀ w : Fin 6, w ≠ 5 → (cfg1.win w).isOut = false := by decide
    unfold T
    iintro ⟨Ha, HO, HY, ⟨%outs, Hrest⟩⟩
    ihave Ha' := hAe $$ Ha
    icases Ha' with ⟨%F, %hF, Ha⟩
    ihave HO' := hO $$ HO
    -- the unknowns with region 1's output at what its array holds now; region 0's output as before
    obtain ⟨outs', hF', hrest'⟩ : ∃ outs' : Outs (F := Bits), (∀ w, F w = V12 m outs' c (Pipeline.arrRef spec1 w))
        ∧ ∀ b, b ∉ Finset.univ.image (Pipeline.arrRef spec1) → V12 m outs' c b = V11 m outs c b := by
      refine ⟨pick c 12 outs fun r => Function.update (V11 m outs c) main_v32 (F 5) r, fun w => ?_, fun b hb => ?_⟩
      · by_cases hw : w = 5
        · subst hw
          show F 5 = Function.update (V11 m _ c) main_v32 (pick c 12 outs (fun r => Function.update (V11 m outs c) main_v32 (F 5) r) 12 main_v32 c) main_v32
          rw [Function.update_self, pick_self, Function.update_self]
        · have h := hF w
          rw [(rdat1 c).ArrAt_in w (hio w hw)] at h
          exact (h.trans (hA1 c w)).trans ((V12_of m _ c _ (hne w hw)).trans (hind1 _ c w)).symm
      · refine (V12_of m _ c b fun hmem => hb (by
          rw [List.mem_singleton] at hmem; subst hmem
          exact Finset.mem_image.mpr ⟨5, Finset.mem_univ _, rfl⟩)).trans ?_
        exact congrFun (V11_congr m c (pick_of_ne c 12 outs _ (by decide) main_v15 c)) _
    have hjoin : iprop((rdat1 c).arrays F ∗ Pipeline.unscopedRest spec1 c (fun b => V11 m outs c b))
        ⊢ (unscopedBufs c (fun b => V12 m outs' c b) : sProp 𝕄) :=
      unscopedBufs_of_arraysR (rdats rdat0 rdat1 rdat2) (p := 1) launch1.win launch1.arr_whole c ((rdat1 c).share_full (hq1 c))
        (fun b => V11 m outs c b) (fun b => V12 m outs' c b) F hF' hrest'
    rw [Pipeline.unscopedBufs_held] at hjoin
    imodintro
    iexists outs'
    isplitl [Ha Hrest]
    · iapply hjoin; isplitl [Ha] <;> iassumption
    isplitl [HY]; · iexact HY
    iexact HO'

end R1

/-! ## Region 2 -/

section R2

variable (outs₀ : Outs (F := Bits))
  (hA2 : ∀ c w, (rdat2 c).A w = V13 m outs₀ c (Pipeline.arrRef spec2 w))
  (hq2 : ∀ c w, (rdat2 c).q w = fullShare) (howed2 : ∀ c t, (rdat2 c).owed t = 0)
  (hrec2 : ∀ c, (rdat2 c).recorded 0 = Set.univ)
  (hin2 : ∀ c, (Pipeline.ΦA spec2 c : sProp 𝕄) ⊢ (rdat2 c).Φ 0)
  (hout2 : ∀ c, (rdat2 c).Φ (Fin.last cfg2.N) ⊢ (Pipeline.ΦA spec2 c : sProp 𝕄))
  (hbody2 : ∀ c, (rdat2 c).BodyObligation (defs₀ (F := Bits)) Variants.none () Set.univ)
  (hind2 : ∀ (outs : Outs (F := Bits)) c w, V13 m outs c (Pipeline.arrRef spec2 w) = V13 m outs₀ c (Pipeline.arrRef spec2 w))

set_option backward.isDefEq.respectTransparency.types false in
/-- REGION 2 over the thread state: entered from the unscoped buffers at `V13` for some unknowns, left at `V14` for
    others that agree with them up to the outputs of regions 0 and 1. -/
def reg2 : Pipeline.RDat.RegionSeg (pcfgs (F := Bits)) adm (rdats rdat0 rdat1 rdat2) () defs₀ 𝒱₀ L lv 2 where
  win := launch2.win.to₀
  block_pos := launch2.block_pos
  stage_whole := launch2.stage_whole
  K := PEmpty
  osem k := k.elim
  ho := Pipeline.OwnSemFacts.none _
  hbody c := hbody2 c
  hwaits := Pipeline.RDat.hwaits_of_owed_zero _ _ _ _ L lv 2 fun c t => howed2 c t
  pre := T (V13 m)
  post := T (V14 m)
  X c := iprop(∃ r, prngReg c r)
  Y c := iprop(∃ r, prngReg c r)
  Z c := iprop(∃ outs : Outs (F := Bits),
    Pipeline.unscopedRest (Ix := Unit) (Name := ℕ) (U := UR sig nD τ) (Lvl := ℕ) spec2 c (fun b => V13 m outs c b))
  hentry c := by
    rw [Pipeline.ownSems0_none]
    have hO := owesAt_of_zero (rdats rdat0 rdat1 rdat2 2 c) 0 (howed2 c 0) (hrec2 c)
    unfold T
    iintro ⟨⟨%outs, Hub, Hp, HO⟩, -, -⟩
    have hsplit := Pipeline.RDat.arrays_of_unscopedBufs (p := 2) (pcfgs (F := Bits)) adm (rdats rdat0 rdat1 rdat2) launch2.win launch2.arr_whole c
      ((rdat2 c).share_full (hq2 c)) (fun b => V13 m outs c b) (fun w => (hA2 c w).trans (hind2 outs c w).symm)
    rw [Pipeline.unscopedBufs_held] at hsplit
    ihave H := hsplit $$ Hub
    icases H with ⟨Ha, Hrest⟩
    ihave HO' := hO $$ HO
    imodintro
    isplitl [Ha]; · iexact Ha
    isplitr; · unfold Pipeline.prefHeld; rw [show (Finset.univ : Finset (Fin 0)) = ∅ from rfl, BI.bigSep_empty]; iempintro
    isplitl [HO']; · iexact HO'
    isplitl [Hp]; · iexact Hp
    iexists outs; iexact Hrest
  hin c := by
    refine BIBase.Entails.trans ?_ (hin2 c)
    unfold Pipeline.ΦA
    iintro ⟨Hp, -, Hr⟩
    isplitl [Hr]; · iexact Hr
    iexact Hp
  hout c := by
    rw [Pipeline.ownSems0_none]
    refine (hout2 c).trans ?_
    unfold Pipeline.ΦA
    iintro ⟨Hr, Hp⟩
    isplitl [Hp]; · iexact Hp
    isplitr; · iempintro
    iexact Hr
  hexit c := by
    have hAe : ((rdats rdat0 rdat1 rdat2 2 c).arraysAt (Pipeline.pin (pcfgs (F := Bits)) adm 2).N : sProp 𝕄)
        ⊢ iprop(∃ F : (w : Fin 5) → Buf (Elt Bits) ((cfg2.win w).arr.view.loc (c.tc : Thread nD τ)),
            ⌜∀ w, (rdat2 c).ArrAt w cfg2.N (F w)⌝ ∗ (rdat2 c).arrays F) := arraysAt_elim (rdat2 c) cfg2.N
    have hO : ((rdats rdat0 rdat1 rdat2 2 c).owesAt () (Fin.last (Pipeline.pin (pcfgs (F := Bits)) adm 2).N) : sProp 𝕄)
        ⊢ iprop(∃ W, owes (c : Thread nD τ) (0 : CellTallies nD τ sig Unit) W) :=
      zero_of_owesAt (rdat2 c) (Fin.last cfg2.N) (howed2 c _)
    have hne : ∀ w : Fin 5, w ≠ 4 → Pipeline.arrRef spec2 w ∉ ([main_v38] : List (Ref sig .tc)) := by decide
    have hio : ∀ w : Fin 5, w ≠ 4 → (cfg2.win w).isOut = false := by decide
    unfold T
    iintro ⟨Ha, HO, HY, ⟨%outs, Hrest⟩⟩
    ihave Ha' := hAe $$ Ha
    icases Ha' with ⟨%F, %hF, Ha⟩
    ihave HO' := hO $$ HO
    -- the unknowns with region 2's output at what its array holds now; the earlier regions' outputs as before
    obtain ⟨outs', hF', hrest'⟩ : ∃ outs' : Outs (F := Bits), (∀ w, F w = V14 m outs' c (Pipeline.arrRef spec2 w))
        ∧ ∀ b, b ∉ Finset.univ.image (Pipeline.arrRef spec2) → V14 m outs' c b = V13 m outs c b := by
      refine ⟨pick c 14 outs fun r => Function.update (V13 m outs c) main_v38 (F 4) r, fun w => ?_, fun b hb => ?_⟩
      · by_cases hw : w = 4
        · subst hw
          show F 4 = Function.update (V13 m _ c) main_v38 (pick c 14 outs (fun r => Function.update (V13 m outs c) main_v38 (F 4) r) 14 main_v38 c) main_v38
          rw [Function.update_self, pick_self, Function.update_self]
        · have h := hF w
          rw [(rdat2 c).ArrAt_in w (hio w hw)] at h
          exact (h.trans (hA2 c w)).trans ((V14_of m _ c _ (hne w hw)).trans (hind2 _ c w)).symm
      · refine (V14_of m _ c b fun hmem => hb (by
          rw [List.mem_singleton] at hmem; subst hmem
          exact Finset.mem_image.mpr ⟨4, Finset.mem_univ _, rfl⟩)).trans ?_
        exact congrFun (V13_congr m c (pick_of_ne c 14 outs _ (by decide) main_v15 c) (pick_of_ne c 14 outs _ (by decide) main_v32 c)) _
    have hjoin : iprop((rdat2 c).arrays F ∗ Pipeline.unscopedRest spec2 c (fun b => V13 m outs c b))
        ⊢ (unscopedBufs c (fun b => V14 m outs' c b) : sProp 𝕄) :=
      unscopedBufs_of_arraysR (rdats rdat0 rdat1 rdat2) (p := 2) launch2.win launch2.arr_whole c ((rdat2 c).share_full (hq2 c))
        (fun b => V13 m outs c b) (fun b => V14 m outs' c b) F hF' hrest'
    rw [Pipeline.unscopedBufs_held] at hjoin
    imodintro
    iexists outs'
    isplitl [Ha Hrest]
    · iapply hjoin; isplitl [Ha] <;> iassumption
    isplitl [HY]; · iexact HY
    iexact HO'

end R2

/-! ## @main as segments, and the frame -/

section Frame

variable (outs₀ : Outs (F := Bits))
  (hA0 : ∀ c w, (rdat0 c).A w = V5 m c (Pipeline.arrRef spec0 w))
  (hq0 : ∀ c w, (rdat0 c).q w = fullShare) (howed0 : ∀ c t, (rdat0 c).owed t = 0)
  (hrec0 : ∀ c, (rdat0 c).recorded 0 = Set.univ)
  (hin0 : ∀ c, (Pipeline.ΦA spec0 c : sProp 𝕄) ⊢ (rdat0 c).Φ 0)
  (hout0 : ∀ c, (rdat0 c).Φ (Fin.last cfg0.N) ⊢ (Pipeline.ΦA spec0 c : sProp 𝕄))
  (hbody0 : ∀ c, (rdat0 c).BodyObligation (defs₀ (F := Bits)) Variants.none () Set.univ)
  (hA1 : ∀ c w, (rdat1 c).A w = V11 m outs₀ c (Pipeline.arrRef spec1 w))
  (hq1 : ∀ c w, (rdat1 c).q w = fullShare) (howed1 : ∀ c t, (rdat1 c).owed t = 0)
  (hrec1 : ∀ c, (rdat1 c).recorded 0 = Set.univ)
  (hin1 : ∀ c, (Pipeline.ΦA spec1 c : sProp 𝕄) ⊢ (rdat1 c).Φ 0)
  (hout1 : ∀ c, (rdat1 c).Φ (Fin.last cfg1.N) ⊢ (Pipeline.ΦA spec1 c : sProp 𝕄))
  (hbody1 : ∀ c, (rdat1 c).BodyObligation (defs₀ (F := Bits)) Variants.none () Set.univ)
  (hind1 : ∀ (outs : Outs (F := Bits)) c w, V11 m outs c (Pipeline.arrRef spec1 w) = V11 m outs₀ c (Pipeline.arrRef spec1 w))
  (hA2 : ∀ c w, (rdat2 c).A w = V13 m outs₀ c (Pipeline.arrRef spec2 w))
  (hq2 : ∀ c w, (rdat2 c).q w = fullShare) (howed2 : ∀ c t, (rdat2 c).owed t = 0)
  (hrec2 : ∀ c, (rdat2 c).recorded 0 = Set.univ)
  (hin2 : ∀ c, (Pipeline.ΦA spec2 c : sProp 𝕄) ⊢ (rdat2 c).Φ 0)
  (hout2 : ∀ c, (rdat2 c).Φ (Fin.last cfg2.N) ⊢ (Pipeline.ΦA spec2 c : sProp 𝕄))
  (hbody2 : ∀ c, (rdat2 c).BodyObligation (defs₀ (F := Bits)) Variants.none () Set.univ)
  (hind2 : ∀ (outs : Outs (F := Bits)) c w, V13 m outs c (Pipeline.arrRef spec2 w) = V13 m outs₀ c (Pipeline.arrRef spec2 w))

/-- @main's 15 items in order: a host segment per stretch from its boundary's valuation, a region per kernel call. -/
abbrev segsK : List (Pipeline.RDat.Seg (pcfgs (F := Bits)) adm (rdats rdat0 rdat1 rdat2) () defs₀ 𝒱₀ L lv) :=
  [ .host (hsegE hostOps0 hostOps0_sub hostOps0_fresh fun _ c => V0 m c),
    .host (hsegE hostOps0_1 hostOps0_1_sub hostOps0_1_fresh fun _ c => V1 m c),
    .host (hsegE hostOps0_2 hostOps0_2_sub hostOps0_2_fresh fun _ c => V2 m c),
    .host (hsegE hostOps0_3 hostOps0_3_sub hostOps0_3_fresh fun _ c => V3 m c),
    .host (hsegE hostOps0_4 hostOps0_4_sub hostOps0_4_fresh fun _ c => V4 m c),
    .region (reg0 m rdat0 rdat1 rdat2 hA0 hq0 howed0 hrec0 hin0 hout0 hbody0),
    .host (hsegE hostOps1 hostOps1_sub hostOps1_fresh (V6 m)),
    .host (hsegE hostOps1_1 hostOps1_1_sub hostOps1_1_fresh (V7 m)),
    .host (hsegE hostOps1_2 hostOps1_2_sub hostOps1_2_fresh (V8 m)),
    .host (hsegE hostOps1_3 hostOps1_3_sub hostOps1_3_fresh (V9 m)),
    .host (hsegE hostOps1_4 hostOps1_4_sub hostOps1_4_fresh (V10 m)),
    .region (reg1 m rdat0 rdat1 rdat2 outs₀ hA1 hq1 howed1 hrec1 hin1 hout1 hbody1 hind1),
    .host (hsegE hostOps2 hostOps2_sub hostOps2_fresh (V12 m)),
    .region (reg2 m rdat0 rdat1 rdat2 outs₀ hA2 hq2 howed2 hrec2 hin2 hout2 hbody2 hind2),
    .host (hsegE hostOps3 hostOps3_sub hostOps3_fresh (V14 m)) ]

include hA0 hq0 howed0 hrec0 hin0 hout0 hbody0 hA1 hq1 howed1 hrec1 hin1 hout1 hbody1 hind1 hA2 hq2 howed2 hrec2 hin2 hout2 hbody2 hind2 in
set_option backward.isDefEq.respectTransparency.types false in
/-- THE FRAME at the word-level instance, given the regions' relational proof data: from any memory with zero
    counters every weakly fair execution of @main terminates, and every final memory holds each argument as launched.
    The launch over the segments; the last thread state, at whatever the regions left, read against the final state;
    each argument off the last valuation, which has it as launched for every value of the unknowns. -/
theorem frame_k (ρ : Dev nD → PrngReg) :
    θ_run defs (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.RDat.θ_run_regions_kit_dev (pcfgs (F := Bits)) adm (rdats rdat0 rdat1 rdat2) () cellOf_inj emb₁ defs₀ 𝒱₀ L lv m ρ main
    (fun _ => segsK m rdat0 rdat1 rdat2 outs₀ hA0 hq0 howed0 hrec0 hin0 hout0 hbody0 hA1 hq1 howed1 hrec1 hin1 hout1 hbody1 hind1
      hA2 hq2 howed2 hrec2 hin2 hout2 hbody2 hind2)
    (fun c Q => by
      rewrite [main_chain c, Pipeline.RDat.Seg.run_eq_chain,
        show (segsK m rdat0 rdat1 rdat2 outs₀ hA0 hq0 howed0 hrec0 hin0 hout0 hbody0 hA1 hq1 howed1 hrec1 hin1 hout1 hbody1 hind1
            hA2 hq2 howed2 hrec2 hin2 hout2 hbody2 hind2).map Pipeline.RDat.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          Prog.lift (.customCall (Pipeline.entry 2) ()),
          StableHlo.seq hostOps3 ] from rfl]
      exact .rfl)
    (fun c => by simp only [segsK, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T fun _ c => V0 m c)
    (Tₙ := fun c => iprop(∃ outs : Outs (F := Bits), StableHlo.held (c : Thread nD τ) (Pipeline.ucRefs τ sig) (V15 m outs c) ∗ ∃ r, prngReg c r))
    (hch := fun c => ⟨.rfl, .rfl, .rfl, .rfl, .rfl, .rfl, .rfl, .rfl, .rfl, .rfl, .rfl, .rfl, .rfl, .rfl, .rfl, by
      show T (V15 m) c ⊢ iprop((∃ outs : Outs (F := Bits), StableHlo.held (c : Thread nD τ) (Pipeline.ucRefs τ sig) (V15 m outs c) ∗ ∃ r, prngReg c r)
        ∗ ∃ W, owes (c.tc : Thread nD τ) (0 : CellTallies nD τ sig Unit) W)
      unfold T
      iintro ⟨%outs, Hh, Hp, HO⟩
      isplitl [Hh Hp]
      · iexists outs; isplitl [Hh] <;> iassumption
      iexact HO⟩)
    (hinit := ?_)
    (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h => h)
  · -- the launch: the unscoped buffers are held at the launch contents, for any value of the unknowns
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    unfold T
    iintro ⟨⟨Hh, -, HO, -, Hp, -⟩, -⟩
    imodintro
    iexists outs₀
    isplitl [Hh]; · iexact Hh
    isplitl [Hp]; · iexists _; iexact Hp
    iexists ∅; iexact HO
  · -- the end: each argument's buffer read off the last valuation
    iintro ⟨⟨%outs, Hh, -⟩, HSI⟩
    unfold StableHlo.held
    ihave Hr := (pointsTo_read_all (Pipeline.ucRefs τ sig) (fun b => ((c : Thread nD τ).1, b)) (V15 m outs c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V15_main_arg0 m outs c),
        (h (Proc.devRef .tc main_arg1) (Finset.mem_filter.mpr ⟨StableHlo.devRef_mem_tcRefs main_arg1, by decide⟩)).trans (V15_main_arg1 m outs c),
        (h (Proc.devRef .tc main_arg2) (Finset.mem_filter.mpr ⟨StableHlo.devRef_mem_tcRefs main_arg2, by decide⟩)).trans (V15_main_arg2 m outs c),
        (h (Proc.devRef .tc main_arg3) (Finset.mem_filter.mpr ⟨StableHlo.devRef_mem_tcRefs main_arg3, by decide⟩)).trans (V15_main_arg3 m outs c),
        (h (Proc.devRef .tc main_arg4) (Finset.mem_filter.mpr ⟨StableHlo.devRef_mem_tcRefs main_arg4, by decide⟩)).trans (V15_main_arg4 m outs c),
        (h (Proc.devRef .tc main_arg5) (Finset.mem_filter.mpr ⟨StableHlo.devRef_mem_tcRefs main_arg5, by decide⟩)).trans (V15_main_arg5 m outs c),
        (h (Proc.devRef .tc main_arg6) (Finset.mem_filter.mpr ⟨StableHlo.devRef_mem_tcRefs main_arg6, by decide⟩)).trans (V15_main_arg6 m outs c),
        (h (Proc.devRef .tc main_arg7) (Finset.mem_filter.mpr ⟨StableHlo.devRef_mem_tcRefs main_arg7, by decide⟩)).trans (V15_main_arg7 m outs c)⟩
    · iexact HSI

end Frame

end Regions

end Cert.Kernel.Hand

end
-- ==== Proof.K.HostEntry.lean ====
/-
  The host side of the kernel program's entry function: what each kernel region's input arrays hold when the region is
  entered, at any float instance.

  Between its three kernel regions the entry function runs plain array operations: it narrows the float arguments, makes
  from the target words each tail's range mask (converted to a float) and clipped label and the head's relabelled target,
  and reshapes the per-token vectors to one column. Every such array is a term of the launch contents of the argument
  buffers alone: no region's inputs depend on what an earlier region wrote. The integer side is named once
  (`clusterMask`, `clipLabel`, `headWord`), as functions of the target words.
-/
import proofs.«415479_j24352464569077_2_alg».proof.Proof.Gen.Kernel.Regions
import Idealize.ShloMosaic.Lib.StableHlo.Run

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (outs : Outs (F := F))

/-! ## The integer side of the host program, as functions of the target words -/

/-- A 32-bit word at every token. -/
abbrev bc (w : BitVec 32) : IVec S4096 32 := broadcastInDim S4096 ![] bcast_S_S4096 (constantI S_ 32 w)

/-- The bit of `lo ≤ w < hi`, both comparisons signed, token by token. -/
def clusterMask (lo hi : BitVec 32) (w : IVec S4096 32) : IVec S4096 1 :=
  andi (cmpi .sge w (bc lo)) (cmpi .slt w (bc hi))

/-- `w - lo` clamped below at `0` and above at `top` (signed), token by token. -/
def clipLabel (lo top : BitVec 32) (w : IVec S4096 32) : IVec S4096 32 :=
  minsi (bc top) (maxsi (bc 0#32) (subi w (bc lo)))

/-- The head's label word: the target, replaced by 2000 in the first tail's range and by 2001 in the second's. -/
def headWord (w : IVec S4096 32) : IVec S4096 32 :=
  select (clusterMask 10000#32 50000#32 w) (bc 2001#32) (select (clusterMask 2000#32 10000#32 w) (bc 2000#32) w)

/-! ## What region 0 is entered with -/

theorem V5_main_v0 (c : Dev nD) :
    V5 m c main_v0 = truncf .bf16 (m ((c : Thread nD τ).loc main_arg0)) bitsLt_bf16_f32 := by
  show StableHlo.after hostOps0_4 _ (Proc.devRef .tc main_v0) = _
  after_results <;> rfl

theorem V5_main_v11 (c : Dev nD) :
    V5 m c main_v11 = truncf .bf16 (m ((c : Thread nD τ).loc main_arg4)) bitsLt_bf16_f32 := by
  show StableHlo.after hostOps0_4 _ (Proc.devRef .tc main_v11) = _
  after_results <;> rfl

theorem V5_main_v12 (c : Dev nD) :
    V5 m c main_v12 = truncf .bf16 (m ((c : Thread nD τ).loc main_arg5)) bitsLt_bf16_f32 := by
  show StableHlo.after hostOps0_4 _ (Proc.devRef .tc main_v12) = _
  after_results <;> rfl

theorem V5_main_v13 (c : Dev nD) :
    V5 m c main_v13 = shapeCast S4096x1 (clipLabel 2000#32 7999#32 (m ((c : Thread nD τ).loc main_arg1))) shapeCasts_S4096_S4096x1 := by
  show StableHlo.after hostOps0_4 _ (Proc.devRef .tc main_v13) = _
  after_results <;> rfl

theorem V5_main_v14 (c : Dev nD) :
    V5 m c main_v14 = shapeCast S4096x1 (uitofp .f32 (clusterMask 2000#32 10000#32 (m ((c : Thread nD τ).loc main_arg1)))) shapeCasts_S4096_S4096x1 := by
  show StableHlo.after hostOps0_4 _ (Proc.devRef .tc main_v14) = _
  after_results <;> rfl

/-! ## What region 1 is entered with

The host stretches between regions 0 and 1, and the stretch between regions 1 and 2, run over ANY contents `W` of the
buffers: what they leave in the buffers the later regions and the last stretch read. -/

/-- The five stretches between region 0 and region 1. -/
abbrev seg1 (W : Valuation τ sig (Elt F)) : Valuation τ sig (Elt F) :=
  StableHlo.after hostOps1_4 (StableHlo.after hostOps1_3 (StableHlo.after hostOps1_2 (StableHlo.after hostOps1_1 (StableHlo.after hostOps1 W))))

theorem seg1_main_v28 (W : Valuation τ sig (Elt F)) :
    seg1 W (Proc.devRef .tc main_v28) = truncf .bf16 (W (Proc.devRef .tc main_arg6)) bitsLt_bf16_f32 := by
  after_results_simp <;> rfl
theorem seg1_main_v29 (W : Valuation τ sig (Elt F)) :
    seg1 W (Proc.devRef .tc main_v29) = truncf .bf16 (W (Proc.devRef .tc main_arg7)) bitsLt_bf16_f32 := by
  after_results_simp <;> rfl
theorem seg1_main_v30 (W : Valuation τ sig (Elt F)) :
    seg1 W (Proc.devRef .tc main_v30) = shapeCast S4096x1 (clipLabel 10000#32 39999#32 (W (Proc.devRef .tc main_arg1))) shapeCasts_S4096_S4096x1 := by
  after_results_simp <;> rfl
theorem seg1_main_v31 (W : Valuation τ sig (Elt F)) :
    seg1 W (Proc.devRef .tc main_v31) = shapeCast S4096x1 (uitofp .f32 (clusterMask 10000#32 50000#32 (W (Proc.devRef .tc main_arg1)))) shapeCasts_S4096_S4096x1 := by
  after_results_simp <;> rfl
theorem seg1_main_v23 (W : Valuation τ sig (Elt F)) :
    seg1 W (Proc.devRef .tc main_v23) = select (clusterMask 10000#32 50000#32 (W (Proc.devRef .tc main_arg1))) (bc 2001#32) (W (Proc.devRef .tc main_v6)) := by
  after_results_simp <;> rfl
theorem seg1_main_v17 (W : Valuation τ sig (Elt F)) :
    seg1 W (Proc.devRef .tc main_v17) = addf (constant (F := F) S_ .f32 0x00000000#32) (Host.reduceAdd (W (Proc.devRef .tc main_v15)) (constant (F := F) S_ .f32 0x00000000#32) reducesTo_S4096x1_S_d0_1 h_S_) := by
  after_results_simp <;> rfl

/-- Region 0 changes none of the argument buffers: each is read under the valuation before it. -/
theorem V6_main_arg1 (c : Dev nD) : V6 m outs c main_arg1 = (m ((c : Thread nD τ).loc main_arg1)) :=
  (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
theorem V6_main_arg6 (c : Dev nD) : V6 m outs c main_arg6 = (m ((c : Thread nD τ).loc main_arg6)) :=
  (V6_of m outs c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans rfl
theorem V6_main_arg7 (c : Dev nD) : V6 m outs c main_arg7 = (m ((c : Thread nD τ).loc main_arg7)) :=
  (V6_of m outs c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans rfl
theorem V12_main_arg2 (c : Dev nD) : V12 m outs c main_arg2 = (m ((c : Thread nD τ).loc main_arg2)) :=
  (V12_of m outs c main_arg2 (by decide)).trans <| (V11_of m outs c main_arg2 (by decide)).trans <| (V10_of m outs c main_arg2 (by decide)).trans <| (V9_of m outs c main_arg2 (by decide)).trans <| (V8_of m outs c main_arg2 (by decide)).trans <| (V7_of m outs c main_arg2 (by decide)).trans <| (V6_of m outs c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl
theorem V12_main_arg3 (c : Dev nD) : V12 m outs c main_arg3 = (m ((c : Thread nD τ).loc main_arg3)) :=
  (V12_of m outs c main_arg3 (by decide)).trans <| (V11_of m outs c main_arg3 (by decide)).trans <| (V10_of m outs c main_arg3 (by decide)).trans <| (V9_of m outs c main_arg3 (by decide)).trans <| (V8_of m outs c main_arg3 (by decide)).trans <| (V7_of m outs c main_arg3 (by decide)).trans <| (V6_of m outs c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl

theorem V11_main_v0 (c : Dev nD) :
    V11 m outs c main_v0 = truncf .bf16 (m ((c : Thread nD τ).loc main_arg0)) bitsLt_bf16_f32 :=
  (V11_of m outs c main_v0 (by decide)).trans <| (V10_of m outs c main_v0 (by decide)).trans <| (V9_of m outs c main_v0 (by decide)).trans <| (V8_of m outs c main_v0 (by decide)).trans <| (V7_of m outs c main_v0 (by decide)).trans <| (V6_of m outs c main_v0 (by decide)).trans (V5_main_v0 m c)

theorem V11_main_v28 (c : Dev nD) :
    V11 m outs c main_v28 = truncf .bf16 (m ((c : Thread nD τ).loc main_arg6)) bitsLt_bf16_f32 :=
  (seg1_main_v28 (V6 m outs c)).trans (congrArg (fun w => truncf .bf16 w bitsLt_bf16_f32) (V6_main_arg6 m outs c))

theorem V11_main_v29 (c : Dev nD) :
    V11 m outs c main_v29 = truncf .bf16 (m ((c : Thread nD τ).loc main_arg7)) bitsLt_bf16_f32 :=
  (seg1_main_v29 (V6 m outs c)).trans (congrArg (fun w => truncf .bf16 w bitsLt_bf16_f32) (V6_main_arg7 m outs c))

theorem V11_main_v30 (c : Dev nD) :
    V11 m outs c main_v30 = shapeCast S4096x1 (clipLabel 10000#32 39999#32 (m ((c : Thread nD τ).loc main_arg1))) shapeCasts_S4096_S4096x1 :=
  (seg1_main_v30 (V6 m outs c)).trans (congrArg (fun w => shapeCast S4096x1 (clipLabel 10000#32 39999#32 w) shapeCasts_S4096_S4096x1) (V6_main_arg1 m outs c))

theorem V11_main_v31 (c : Dev nD) :
    V11 m outs c main_v31 = shapeCast S4096x1 (uitofp .f32 (clusterMask 10000#32 50000#32 (m ((c : Thread nD τ).loc main_arg1)))) shapeCasts_S4096_S4096x1 :=
  (seg1_main_v31 (V6 m outs c)).trans (congrArg (fun w => shapeCast S4096x1 (uitofp .f32 (clusterMask 10000#32 50000#32 w)) shapeCasts_S4096_S4096x1) (V6_main_arg1 m outs c))

/-! ## What region 2 is entered with -/

/-- The first tail's relabelled targets, still there after region 0. -/
theorem V6_main_v6 (c : Dev nD) :
    V6 m outs c main_v6 = select (clusterMask 2000#32 10000#32 (m ((c : Thread nD τ).loc main_arg1))) (bc 2000#32) (m ((c : Thread nD τ).loc main_arg1)) := by
  rw [V6_of m outs c main_v6 (by decide)]
  show StableHlo.after hostOps0_4 _ (Proc.devRef .tc main_v6) = _
  after_results <;> rfl

theorem V11_main_v23 (c : Dev nD) : V11 m outs c main_v23 = headWord (m ((c : Thread nD τ).loc main_arg1)) := by
  refine (seg1_main_v23 (V6 m outs c)).trans ?_
  rw [V6_main_v6 m outs c, V6_main_arg1 m outs c]
  rfl

theorem V12_main_v23 (c : Dev nD) : V12 m outs c main_v23 = headWord (m ((c : Thread nD τ).loc main_arg1)) :=
  (V12_of m outs c main_v23 (by decide)).trans (V11_main_v23 m outs c)

theorem V13_main_v0 (c : Dev nD) :
    V13 m outs c main_v0 = truncf .bf16 (m ((c : Thread nD τ).loc main_arg0)) bitsLt_bf16_f32 :=
  (V13_of m outs c main_v0 (by decide)).trans <| (V12_of m outs c main_v0 (by decide)).trans (V11_main_v0 m outs c)

theorem seg2_main_v35 (W : Valuation τ sig (Elt F)) :
    StableHlo.after hostOps2 W (Proc.devRef .tc main_v35) = truncf .bf16 (W (Proc.devRef .tc main_arg2)) bitsLt_bf16_f32 := by
  after_results <;> rfl
theorem seg2_main_v36 (W : Valuation τ sig (Elt F)) :
    StableHlo.after hostOps2 W (Proc.devRef .tc main_v36) = shapeCast S1x2002 (W (Proc.devRef .tc main_arg3)) shapeCasts_S2002_S1x2002 := by
  after_results <;> rfl
theorem seg2_main_v37 (W : Valuation τ sig (Elt F)) :
    StableHlo.after hostOps2 W (Proc.devRef .tc main_v37) = shapeCast S4096x1 (W (Proc.devRef .tc main_v23)) shapeCasts_S4096_S4096x1 := by
  after_results <;> rfl
theorem seg2_main_v34 (W : Valuation τ sig (Elt F)) :
    StableHlo.after hostOps2 W (Proc.devRef .tc main_v34) = addf (W (Proc.devRef .tc main_v17)) (Host.reduceAdd (W (Proc.devRef .tc main_v32)) (constant (F := F) S_ .f32 0x00000000#32) reducesTo_S4096x1_S_d0_1 h_S_) := by
  after_results <;> rfl

theorem V13_main_v35 (c : Dev nD) :
    V13 m outs c main_v35 = truncf .bf16 (m ((c : Thread nD τ).loc main_arg2)) bitsLt_bf16_f32 :=
  (seg2_main_v35 (V12 m outs c)).trans (congrArg (fun w => truncf .bf16 w bitsLt_bf16_f32) (V12_main_arg2 m outs c))

theorem V13_main_v36 (c : Dev nD) :
    V13 m outs c main_v36 = shapeCast S1x2002 (m ((c : Thread nD τ).loc main_arg3)) shapeCasts_S2002_S1x2002 :=
  (seg2_main_v36 (V12 m outs c)).trans (congrArg (fun w => shapeCast S1x2002 w shapeCasts_S2002_S1x2002) (V12_main_arg3 m outs c))

theorem V13_main_v37 (c : Dev nD) :
    V13 m outs c main_v37 = shapeCast S4096x1 (headWord (m ((c : Thread nD τ).loc main_arg1))) shapeCasts_S4096_S4096x1 :=
  (seg2_main_v37 (V12 m outs c)).trans (congrArg (fun w => shapeCast S4096x1 w shapeCasts_S4096_S4096x1) (V12_main_v23 m outs c))

end Cert.Kernel.Hand

end
-- ==== Proof.K.Indep.lean ====
import proofs.«415479_j24352464569077_2_alg».proof.Proof.K.HostEntry

noncomputable section

namespace Cert.Kernel.Hand

open Cert.Kernel Cert.Kernel.Gen
open Idealize.ShloMosaic Idealize.ShloMosaic.TcCoe

variable {F : FTy → Type} [FloatOps F]
variable (m : (ℓ : Loc nD τ sig) → Buf (Elt F) ℓ)

/-! ## The window arrays of regions 1 and 2 at entry do not depend on what the earlier regions left

Each input window's array at a region's entry is a term of the launch memory only (the host-entry lemmas), whatever
the unknowns; the output window's array is written by no item before the region, so it still holds its contents
from before region 0, where no unknown has entered. -/

/-- Region 1's output array at its entry: no host stretch up to there writes it, and region 0 changes another array. -/
theorem V11_out_v32 (outs : Outs (F := F)) (c : Dev nD) : V11 m outs c main_v32 = V5 m c main_v32 :=
  (V11_of m outs c main_v32 (by decide)).trans <| (V10_of m outs c main_v32 (by decide)).trans <|
  (V9_of m outs c main_v32 (by decide)).trans <| (V8_of m outs c main_v32 (by decide)).trans <|
  (V7_of m outs c main_v32 (by decide)).trans <| V6_of m outs c main_v32 (by decide)

/-- Region 2's output array at its entry, likewise: regions 0 and 1 change other arrays. -/
theorem V13_out_v38 (outs : Outs (F := F)) (c : Dev nD) : V13 m outs c main_v38 = V5 m c main_v38 :=
  (V13_of m outs c main_v38 (by decide)).trans <| (V12_of m outs c main_v38 (by decide)).trans <|
  (V11_of m outs c main_v38 (by decide)).trans <| (V10_of m outs c main_v38 (by decide)).trans <|
  (V9_of m outs c main_v38 (by decide)).trans <| (V8_of m outs c main_v38 (by decide)).trans <|
  (V7_of m outs c main_v38 (by decide)).trans <| V6_of m outs c main_v38 (by decide)

/-- Region 1's window arrays at its entry are the same for any two values of the unknowns. -/
theorem hind1 (outs₀ outs : Outs (F := F)) (c : Dev nD) :
    ∀ w : Fin 6, V11 m outs c (Pipeline.arrRef spec1 w) = V11 m outs₀ c (Pipeline.arrRef spec1 w)
  | 0 => (V11_main_v0 m outs c).trans (V11_main_v0 m outs₀ c).symm
  | 1 => (V11_main_v28 m outs c).trans (V11_main_v28 m outs₀ c).symm
  | 2 => (V11_main_v29 m outs c).trans (V11_main_v29 m outs₀ c).symm
  | 3 => (V11_main_v30 m outs c).trans (V11_main_v30 m outs₀ c).symm
  | 4 => (V11_main_v31 m outs c).trans (V11_main_v31 m outs₀ c).symm
  | 5 => (V11_out_v32 m outs c).trans (V11_out_v32 m outs₀ c).symm
  | ⟨_ + 6, h⟩ => absurd h (Nat.not_lt.2 (Nat.le_add_left _ _))

/-- Region 2's window arrays at its entry are the same for any two values of the unknowns. -/
theorem hind2 (outs₀ outs : Outs (F := F)) (c : Dev nD) :
    ∀ w : Fin 5, V13 m outs c (Pipeline.arrRef spec2 w) = V13 m outs₀ c (Pipeline.arrRef spec2 w)
  | 0 => (V13_main_v0 m outs c).trans (V13_main_v0 m outs₀ c).symm
  | 1 => (V13_main_v35 m outs c).trans (V13_main_v35 m outs₀ c).symm
  | 2 => (V13_main_v36 m outs c).trans (V13_main_v36 m outs₀ c).symm
  | 3 => (V13_main_v37 m outs c).trans (V13_main_v37 m outs₀ c).symm
  | 4 => (V13_out_v38 m outs c).trans (V13_out_v38 m outs₀ c).symm
  | ⟨_ + 5, h⟩ => absurd h (Nat.not_lt.2 (Nat.le_add_left _ _))

end Cert.Kernel.Hand

end
-- ==== Proof.K.R0.Runs.lean ====
/-
  Region 0: what the per-case runs of the kernel body share — the two branch conditions in closed form over the grid, where
  the output window is idle and where it is written back, the staging and scratch memrefs as the pipeline passes them, and the
  region's invariant before the first point with the four scratch buffers set apart.
-/
import proofs.«415479_j24352464569077_2_alg».proof.Proof.Gen.Kernel.Launch
import proofs.«415479_j24352464569077_2_alg».proof.Proof.Gen.Kernel.Skeleton
import proofs.«415479_j24352464569077_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## A whole-buffer store read back -/

/-- What a buffer reads after a list of stores whose LAST is a store of `w` through the whole-shape rectangle at zero offsets:
    `w`, whatever the earlier stores and the prior contents were. -/
theorem read_writes_cons_unit_zero {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self .., View.mem_set_unit_zero h inb y⟩)).trans
    (View.canon_cons_unit_zero h inb w L)

/-! ## The body's branch conditions -/

/-- The condition of the body's first conditional (the reset at the first vocabulary step), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the body's second conditional (the output's store at the last vocabulary step). -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the second conditional fails the output window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- Where it holds the output window is live. -/
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x1 .f32 := win0_5.stage (cfg0.slots t 5)
abbrev hs0_5 (t : Fin cfg0.N) : (ms0_5 t).IsWhole := hstage0_5 ((cfg0.slots t 5).cast nbuf0_5)
/-- The scratch operands: whole scoped buffers of the kernel's own. -/
abbrev scM0_0 : Memref sig .tc .vmem S2048x1024 .f32 := Memref.whole cc0_scratch0
abbrev scM0_1 : Memref sig .tc .vmem S2048x1 .f32 := Memref.whole cc0_scratch1
abbrev scM0_2 : Memref sig .tc .vmem S2048x1 .f32 := Memref.whole cc0_scratch2
abbrev scM0_3 : Memref sig .tc .vmem S2048x1 .f32 := Memref.whole cc0_scratch3

/-- The scoped buffers of the program that are neither a staging buffer of this call nor one of its scratch operands. -/
abbrev rest0 (c : Dev nD) : sProp 𝕄 :=
  Pipeline.scopedRestBut (Ix := Unit) (Name := ℕ) (U := UR sig nD τ) (Lvl := ℕ) (Val := Elt F) spec0 c [cc0_scratch0, cc0_scratch1, cc0_scratch2, cc0_scratch3]

/-- The region's invariant before the first point with the scratch operands as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) ∗ rest0 c) ∗ (∃ r, prngReg c r)) := by
  unfold Pipeline.ΦA; rw [scopedRest0_split]; simp only [scM0_0, scM0_1, scM0_2, scM0_3, owns_whole]; try rfl

end Cert.Kernel.Hand

end
-- ==== Proof.K.R0.RunA.lean ====
/-
  Region 0, the first vocabulary step of a row of points (the reset taken, the output's store not): the body's run on whole memrefs. It stores the projected tokens and the reset values of the running maximum, mass and pick, then does one vocabulary step on them.
-/
import proofs.«415479_j24352464569077_2_alg».proof.Proof.K.R0.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- The body at the first vocabulary step of a row of points (the first conditional taken, the second not), on whole memrefs
    holding the token block `x`, the projection `w1`, the class-weight block `w2`, the label block `lab`, the scratch at
    anything: it runs to the continuation with the four blocks as they were, the projected tokens stored, and the running
    maximum, mass and pick at one vocabulary step's values from their reset values. -/
theorem kernelRun0_A (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S2048x1 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1024 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : cond0_0 i) (hc1 : ¬cond0_1 i)
    (x : Vec F S2048x1024 .bf16) (w1 : Vec F S1024x1024 .bf16) (w2 : Vec F S512x1024 .bf16) (lab : Vec F S2048x1 .i32)
    (E : Set ℕ) (K : PUnit → sProp 𝕄) :
    iprop(owns (c : Thread nD τ) arg2 fullShare x ∗ owns (c : Thread nD τ) arg3 fullShare w1 ∗ owns (c : Thread nD τ) arg4 fullShare w2 ∗ owns (c : Thread nD τ) arg5 fullShare lab
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x ∗ owns (c : Thread nD τ) arg3 fullShare w1 ∗ owns (c : Thread nD τ) arg4 fullShare w2 ∗ owns (c : Thread nD τ) arg5 fullShare lab
            ∗ owns (c : Thread nD τ) arg8 fullShare (k0_pay4 x w1)
            ∗ owns (c : Thread nD τ) arg9 fullShare (k0_pay1 (k0_pay9 i (k0_pay4 x w1) w2 (k0_pay5 (F := F))))
            ∗ owns (c : Thread nD τ) arg10 fullShare (k0_pay10 i (k0_pay4 x w1) w2 (k0_pay5 (F := F)) (k0_pay5 (F := F)) (k0_pay6 (F := F)))
            ∗ owns (c : Thread nD τ) arg11 fullShare (k0_pay2 (BitVec.ofNat 32 (i 1).val) (iota .tc S2048x512 32 [1] iota_S2048x512_d1_w32) (k0_pay8 i (k0_pay4 x w1) w2) lab (k0_pay7 (F := F)))) -∗ K ⟨⟩))
      ⊢ wp frame (wpE (defs₀ (F := F)) Variants.none c none) E (cc0__ce_kernel_proj i arg2 harg2 arg3 harg3 arg4 harg4 arg5 harg5 arg6 harg6 arg7 harg7 arg8 harg8 arg9 harg9 arg10 harg10 arg11 harg11) K := by
  have hz : (![0, 0] : Fin 2 → Nat) = fun _ => 0 := funext fun a => by fin_cases a <;> rfl
  simp only [cc0__ce_kernel_proj_eq_skeleton]; unfold cc0__ce_kernel_proj_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%d8, %f8, -, H8⟩, ⟨%d9, %f9, -, H9⟩, ⟨%d10, %f10, -, H10⟩, ⟨%d11, %f11, -, H11⟩, Hk⟩
  obtain rfl := harg2.eq_unread hf2; obtain rfl := harg3.eq_unread hf3; obtain rfl := harg4.eq_unread hf4; obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H8]
  · iexists _; isplitr
    swap; · iexact H8
    ipureintro
    (try sl_unfold_words)
    rw [read_writes_cons_unit_zero (S := S2048x1024) _ _ hz]
    dsimp only
    (try sl_unfold_words)
    simp only [View.readAt_eq_ld, Memref.IsWhole.read_unread, View.ld_unit_zero (S := S2048x1024) hz, View.ld_unit_zero (S := S1024x1024) hz, View.ld_unit_zero (S := S512x1024) hz, View.ld_unit_zero (S := S2048x1) hz, View.readCov_unit_zero (S := S2048x1024) _ hz, View.readCov_unit_zero (S := S2048x1) _ hz]
  isplitl [H9]
  · iexists _; isplitr
    swap; · iexact H9
    ipureintro
    (try sl_unfold_words)
    rw [read_writes_cons_unit_zero (S := S2048x1) _ _ hz]
    dsimp only
    (try sl_unfold_words)
    simp only [View.readAt_eq_ld, Memref.IsWhole.read_unread, View.ld_unit_zero (S := S2048x1024) hz, View.ld_unit_zero (S := S1024x1024) hz, View.ld_unit_zero (S := S512x1024) hz, View.ld_unit_zero (S := S2048x1) hz, View.readCov_unit_zero (S := S2048x1024) _ hz, View.readCov_unit_zero (S := S2048x1) _ hz]
  isplitl [H10]
  · iexists _; isplitr
    swap; · iexact H10
    ipureintro
    (try sl_unfold_words)
    rw [read_writes_cons_unit_zero (S := S2048x1) _ _ hz]
    dsimp only
    (try sl_unfold_words)
    simp only [View.readAt_eq_ld, Memref.IsWhole.read_unread, View.ld_unit_zero (S := S2048x1024) hz, View.ld_unit_zero (S := S1024x1024) hz, View.ld_unit_zero (S := S512x1024) hz, View.ld_unit_zero (S := S2048x1) hz, View.readCov_unit_zero (S := S2048x1024) _ hz, View.readCov_unit_zero (S := S2048x1) _ hz]
  · iexists _; isplitr
    swap; · iexact H11
    ipureintro
    (try sl_unfold_words)
    rw [read_writes_cons_unit_zero (S := S2048x1) _ _ hz]
    dsimp only
    (try sl_unfold_words)
    simp only [View.readAt_eq_ld, Memref.IsWhole.read_unread, View.ld_unit_zero (S := S2048x1024) hz, View.ld_unit_zero (S := S1024x1024) hz, View.ld_unit_zero (S := S512x1024) hz, View.ld_unit_zero (S := S2048x1) hz, View.readCov_unit_zero (S := S2048x1024) _ hz, View.readCov_unit_zero (S := S2048x1) _ hz]

end Cert.Kernel.Hand

end
-- ==== Proof.K.R0.RunB.lean ====
/-
  Region 0, a middle vocabulary step (neither conditional taken): the body's run on whole memrefs. It loads the projected tokens, the class-weight block and the label block, and leaves the running maximum, mass and pick at one step's values, the maximum and the mass both from the old maximum.
-/
import proofs.«415479_j24352464569077_2_alg».proof.Proof.K.R0.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The body at a point where neither conditional is taken, on whole memrefs holding the class-weight block `w2`, the label
    block `lab` and the scratch `h`, `m`, `l`, `b`: it runs to the continuation with those two and `h` as they were and the
    other three scratch buffers at one vocabulary step's values. -/
theorem kernelRun0_B (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S2048x1 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1024 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond0_0 i) (hc1 : ¬cond0_1 i)
    (w2 : Vec F S512x1024 .bf16) (lab : Vec F S2048x1 .i32) (h : Vec F S2048x1024 .f32) (m l b : Vec F S2048x1 .f32)
    (E : Set ℕ) (K : PUnit → sProp 𝕄) :
    iprop(owns (c : Thread nD τ) arg4 fullShare w2 ∗ owns (c : Thread nD τ) arg5 fullShare lab ∗ owns (c : Thread nD τ) arg8 fullShare h
        ∗ owns (c : Thread nD τ) arg9 fullShare m ∗ owns (c : Thread nD τ) arg10 fullShare l ∗ owns (c : Thread nD τ) arg11 fullShare b
        ∗ (iprop(owns (c : Thread nD τ) arg4 fullShare w2 ∗ owns (c : Thread nD τ) arg5 fullShare lab ∗ owns (c : Thread nD τ) arg8 fullShare h
            ∗ owns (c : Thread nD τ) arg9 fullShare (k0_pay1 (k0_pay9 i h w2 m))
            ∗ owns (c : Thread nD τ) arg10 fullShare (k0_pay10 i h w2 m m l)
            ∗ owns (c : Thread nD τ) arg11 fullShare (k0_pay2 (BitVec.ofNat 32 (i 1).val) (iota .tc S2048x512 32 [1] iota_S2048x512_d1_w32) (k0_pay8 i h w2) lab b)) -∗ K ⟨⟩))
      ⊢ wp frame (wpE (defs₀ (F := F)) Variants.none c none) E (cc0__ce_kernel_proj i arg2 harg2 arg3 harg3 arg4 harg4 arg5 harg5 arg6 harg6 arg7 harg7 arg8 harg8 arg9 harg9 arg10 harg10 arg11 harg11) K := by
  have hz : (![0, 0] : Fin 2 → Nat) = fun _ => 0 := funext fun a => by fin_cases a <;> rfl
  simp only [cc0__ce_kernel_proj_eq_skeleton]; unfold cc0__ce_kernel_proj_skel
  simp only [k0_part1_eq_skeleton]; unfold k0_part1_skel
  unfold owns
  iintro ⟨⟨%f4, %hf4, H4⟩, ⟨%f5, %hf5, H5⟩, ⟨%f8, %hf8, H8⟩, ⟨%f9, %hf9, H9⟩, ⟨%f10, %hf10, H10⟩, ⟨%f11, %hf11, H11⟩, Hk⟩
  obtain rfl := harg4.eq_unread hf4; obtain rfl := harg5.eq_unread hf5; obtain rfl := harg8.eq_unread hf8
  obtain rfl := harg9.eq_unread hf9; obtain rfl := harg10.eq_unread hf10; obtain rfl := harg11.eq_unread hf11
  sl_exec (disch := first | exact hc0 | exact hc1)
  sl_step
  iapply Hk
  isplitl [H4]
  · iexists _; isplitr; · ipureintro; exact harg4.read_unread _
    iexact H4
  isplitl [H5]
  · iexists _; isplitr; · ipureintro; exact harg5.read_unread _
    iexact H5
  isplitl [H8]
  · iexists _; isplitr; · ipureintro; exact harg8.read_unread _
    iexact H8
  isplitl [H9]
  · iexists _; isplitr
    swap; · iexact H9
    ipureintro
    rw [read_writes_cons_unit_zero (S := S2048x1) _ _ hz]
    dsimp only
    sl_unfold_words
    simp only [View.readAt_eq_ld, Memref.IsWhole.read_unread, View.ld_unit_zero (S := S2048x1024) hz, View.ld_unit_zero (S := S1024x1024) hz, View.ld_unit_zero (S := S512x1024) hz, View.ld_unit_zero (S := S2048x1) hz, View.readCov_unit_zero (S := S2048x1024) _ hz, View.readCov_unit_zero (S := S2048x1) _ hz]
  isplitl [H10]
  · iexists _; isplitr
    swap; · iexact H10
    ipureintro
    rw [read_writes_cons_unit_zero (S := S2048x1) _ _ hz]
    dsimp only
    sl_unfold_words
    simp only [View.readAt_eq_ld, Memref.IsWhole.read_unread, View.ld_unit_zero (S := S2048x1024) hz, View.ld_unit_zero (S := S1024x1024) hz, View.ld_unit_zero (S := S512x1024) hz, View.ld_unit_zero (S := S2048x1) hz, View.readCov_unit_zero (S := S2048x1024) _ hz, View.readCov_unit_zero (S := S2048x1) _ hz]
  · iexists _; isplitr
    swap; · iexact H11
    ipureintro
    rw [read_writes_cons_unit_zero (S := S2048x1) _ _ hz]
    dsimp only
    sl_unfold_words
    simp only [View.readAt_eq_ld, Memref.IsWhole.read_unread, View.ld_unit_zero (S := S2048x1024) hz, View.ld_unit_zero (S := S1024x1024) hz, View.ld_unit_zero (S := S512x1024) hz, View.ld_unit_zero (S := S2048x1) hz, View.readCov_unit_zero (S := S2048x1024) _ hz, View.readCov_unit_zero (S := S2048x1) _ hz]

end Cert.Kernel.Hand

end
-- ==== Proof.K.R0.RunC.lean ====
/-
  Region 0, the last vocabulary step of a row of points (the reset not taken, the output's store taken): the body's run on whole memrefs. One vocabulary step, then the per-token loss block from the scratch it has just stored and the mask block.
-/
import proofs.«415479_j24352464569077_2_alg».proof.Proof.K.R0.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- The body at the last vocabulary step of a row of points (the first conditional not taken, the second taken), on whole
    memrefs holding the class-weight block `w2`, the label block `lab`, the mask block `msk`, the scratch `h`, `m`, `l`,
    `b`, the output's buffer at anything: it runs to the continuation with the blocks and `h` as they were, the other three
    scratch buffers at one vocabulary step's values, and the output's buffer at the per-token loss from those. -/
theorem kernelRun0_C (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S2048x1 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1024 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond0_0 i) (hc1 : cond0_1 i)
    (w2 : Vec F S512x1024 .bf16) (lab : Vec F S2048x1 .i32) (msk : Vec F S2048x1 .f32) (h : Vec F S2048x1024 .f32) (m l b : Vec F S2048x1 .f32)
    (E : Set ℕ) (K : PUnit → sProp 𝕄) :
    iprop(owns (c : Thread nD τ) arg4 fullShare w2 ∗ owns (c : Thread nD τ) arg5 fullShare lab ∗ owns (c : Thread nD τ) arg6 fullShare msk ∗ (∃ d, owns (c : Thread nD τ) arg7 fullShare d) ∗ owns (c : Thread nD τ) arg8 fullShare h
        ∗ owns (c : Thread nD τ) arg9 fullShare m ∗ owns (c : Thread nD τ) arg10 fullShare l ∗ owns (c : Thread nD τ) arg11 fullShare b
        ∗ (iprop(owns (c : Thread nD τ) arg4 fullShare w2 ∗ owns (c : Thread nD τ) arg5 fullShare lab ∗ owns (c : Thread nD τ) arg6 fullShare msk
            ∗ owns (c : Thread nD τ) arg7 fullShare (k0_pay3 (k0_pay1 (k0_pay9 i h w2 m)) (k0_pay10 i h w2 m m l) (k0_pay2 (BitVec.ofNat 32 (i 1).val) (iota .tc S2048x512 32 [1] iota_S2048x512_d1_w32) (k0_pay8 i h w2) lab b) msk)
            ∗ owns (c : Thread nD τ) arg8 fullShare h
            ∗ owns (c : Thread nD τ) arg9 fullShare (k0_pay1 (k0_pay9 i h w2 m))
            ∗ owns (c : Thread nD τ) arg10 fullShare (k0_pay10 i h w2 m m l)
            ∗ owns (c : Thread nD τ) arg11 fullShare (k0_pay2 (BitVec.ofNat 32 (i 1).val) (iota .tc S2048x512 32 [1] iota_S2048x512_d1_w32) (k0_pay8 i h w2) lab b)) -∗ K ⟨⟩))
      ⊢ wp frame (wpE (defs₀ (F := F)) Variants.none c none) E (cc0__ce_kernel_proj i arg2 harg2 arg3 harg3 arg4 harg4 arg5 harg5 arg6 harg6 arg7 harg7 arg8 harg8 arg9 harg9 arg10 harg10 arg11 harg11) K := by
  have hz : (![0, 0] : Fin 2 → Nat) = fun _ => 0 := funext fun a => by fin_cases a <;> rfl
  simp only [cc0__ce_kernel_proj_eq_skeleton]; unfold cc0__ce_kernel_proj_skel
  simp only [k0_part1_eq_skeleton]; unfold k0_part1_skel
  unfold owns
  iintro ⟨⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
  obtain rfl := harg4.eq_unread hf4; obtain rfl := harg5.eq_unread hf5; obtain rfl := harg6.eq_unread hf6; obtain rfl := harg8.eq_unread hf8
  obtain rfl := harg9.eq_unread hf9; obtain rfl := harg10.eq_unread hf10; obtain rfl := harg11.eq_unread hf11
  sl_exec (disch := first | exact hc0 | exact hc1)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    (try sl_unfold_words)
    rw [read_writes_cons_unit_zero (S := S2048x1) _ _ hz]
    dsimp only
    (try sl_unfold_words)
    simp only [View.readAt_eq_ld, Memref.IsWhole.read_unread, View.ld_unit_zero (S := S2048x1024) hz, View.ld_unit_zero (S := S1024x1024) hz, View.ld_unit_zero (S := S512x1024) hz, View.ld_unit_zero (S := S2048x1) hz, View.readCov_unit_zero (S := S2048x1024) _ hz, View.readCov_unit_zero (S := S2048x1) _ hz]
  isplitl [H8]
  · iexists _; isplitr; · ipureintro; exact harg8.read_unread _
    iexact H8
  isplitl [H9]
  · iexists _; isplitr
    swap; · iexact H9
    ipureintro
    (try sl_unfold_words)
    rw [read_writes_cons_unit_zero (S := S2048x1) _ _ hz]
    dsimp only
    (try sl_unfold_words)
    simp only [View.readAt_eq_ld, Memref.IsWhole.read_unread, View.ld_unit_zero (S := S2048x1024) hz, View.ld_unit_zero (S := S1024x1024) hz, View.ld_unit_zero (S := S512x1024) hz, View.ld_unit_zero (S := S2048x1) hz, View.readCov_unit_zero (S := S2048x1024) _ hz, View.readCov_unit_zero (S := S2048x1) _ hz]
  isplitl [H10]
  · iexists _; isplitr
    swap; · iexact H10
    ipureintro
    (try sl_unfold_words)
    rw [read_writes_cons_unit_zero (S := S2048x1) _ _ hz]
    dsimp only
    (try sl_unfold_words)
    simp only [View.readAt_eq_ld, Memref.IsWhole.read_unread, View.ld_unit_zero (S := S2048x1024) hz, View.ld_unit_zero (S := S1024x1024) hz, View.ld_unit_zero (S := S512x1024) hz, View.ld_unit_zero (S := S2048x1) hz, View.readCov_unit_zero (S := S2048x1024) _ hz, View.readCov_unit_zero (S := S2048x1) _ hz]
  · iexists _; isplitr
    swap; · iexact H11
    ipureintro
    (try sl_unfold_words)
    rw [read_writes_cons_unit_zero (S := S2048x1) _ _ hz]
    dsimp only
    (try sl_unfold_words)
    simp only [View.readAt_eq_ld, Memref.IsWhole.read_unread, View.ld_unit_zero (S := S2048x1024) hz, View.ld_unit_zero (S := S1024x1024) hz, View.ld_unit_zero (S := S512x1024) hz, View.ld_unit_zero (S := S2048x1) hz, View.readCov_unit_zero (S := S2048x1024) _ hz, View.readCov_unit_zero (S := S2048x1) _ hz]

end Cert.Kernel.Hand

end
-- ==== Proof.K.R0.Rel.lean ====
/-
  Region 0 (the first projected tail's cross-entropy call) at the word-level instance: relational proof data for the pipeline. Nothing names a
  buffer's contents: the invariant at every point is the region's own (each scratch buffer at some contents, the generator
  register at some state), each input window's current buffer is handed back as it was found, and of the output window's buffer
  nothing is said. The body obligation follows from the three runs of the body (first, middle and last vocabulary tile of a
  row tile), which hold at any contents of the operands; a buffer a run does not touch stays beside it.
-/
import proofs.«415479_j24352464569077_2_alg».proof.Proof.K.R0.RunA
import proofs.«415479_j24352464569077_2_alg».proof.Proof.K.R0.RunB
import proofs.«415479_j24352464569077_2_alg».proof.Proof.K.R0.RunC
import Idealize.ShloMosaic.Lib.Pipeline.Regions
import Idealize.ShloMosaic.Lib.Pipeline.Kit
import Idealize.ShloMosaic.PureOps.BitExact

set_option synthInstance.maxSize 4096
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

local notation "𝕄" => MT nD τ sig Unit (Elt Bits) ℕ (UR sig nD τ) ℕ

/-! ## The proof data -/

/-- Region 0's relational proof data on core `c`, over the window arrays' contents at entry `A₀ c`: an input window's current
    buffer (windows 0 to 4) is left as found; of the output window's (window 5) nothing is said; the invariant at every point is
    the region's own, every scratch buffer at some contents; nothing is owed; full shares. -/
def rdat0 (A₀ : (c : Dev nD) → (w : Fin cfg0.W) → Buf (Elt Bits) ((cfg0.win w).arr.view.loc (c : Thread nD τ))) (c : Dev nD) :
    RDat τ (Elt Bits) Unit ℕ (UR sig nD τ) ℕ cfg0 c where
  A := A₀ c
  after w _ Y X := w.val ≠ 5 → X = Y
  Φ _ := Pipeline.ΦA spec0 c
  q _ := fullShare
  owed _ := 0

variable (A₀ : (c : Dev nD) → (w : Fin cfg0.W) → Buf (Elt Bits) ((cfg0.win w).arr.view.loc (c : Thread nD τ)))

theorem hA0 (c : Dev nD) (w : Fin cfg0.W) : (rdat0 A₀ c).A w = A₀ c w := rfl
theorem hq0 (c : Dev nD) (w : Fin cfg0.W) : (rdat0 A₀ c).q w = fullShare := rfl
theorem howed0 (c : Dev nD) (t : Fin (cfg0.N + 1)) : (rdat0 A₀ c).owed t = 0 := rfl
theorem hrec0 (c : Dev nD) : (rdat0 A₀ c).recorded 0 = Set.univ := rfl

/-- The region's own invariant is the proof data's before the first point -/
theorem hin0 (c : Dev nD) : (Pipeline.ΦA spec0 c : sProp 𝕄) ⊢ (rdat0 A₀ c).Φ 0 := Entails.refl _

/-- and after the last. -/
theorem hout0 (c : Dev nD) : (rdat0 A₀ c).Φ (Fin.last cfg0.N) ⊢ (Pipeline.ΦA spec0 c : sProp 𝕄) := Entails.refl _

/-! ## The body obligation, at a generic point -/

set_option maxHeartbeats 4800000 in
/-- The body at any point, whatever the current buffers hold (`Y`): the closed forms of the two branch conditions say which
    of the three runs applies; the invariant hands it the scratch buffers at some contents and takes them back at some contents;
    every input buffer comes back as handed over, the output buffer at some contents; the core owes nothing throughout. -/
theorem sound_body0 (c : Dev nD) (t : Fin cfg0.N) (Y : (w : Fin cfg0.W) → (cfg0.win w).block.Idx → Elt Bits (cfg0.win w).elt) :
    iprop((Pipeline.ΦA spec0 c : sProp 𝕄) ∗ (rdat0 A₀ c).owesAt () t.castSucc
        ∗ owns (c : Thread nD τ) (ms0_0 t) fullShare (Y 0)
        ∗ owns (c : Thread nD τ) (ms0_1 t) fullShare (Y 1)
        ∗ owns (c : Thread nD τ) (ms0_2 t) fullShare (Y 2)
        ∗ owns (c : Thread nD τ) (ms0_3 t) fullShare (Y 3)
        ∗ owns (c : Thread nD τ) (ms0_4 t) fullShare (Y 4)
        ∗ owns (c : Thread nD τ) (ms0_5 t) fullShare (Y 5))
      ⊢ wp frame (wpE (defs₀ (F := Bits)) Variants.none c none) Set.univ (bodyAt0 t) fun _ =>
          iprop((Pipeline.ΦA spec0 c : sProp 𝕄) ∗ (rdat0 A₀ c).owesAt () t.succ
            ∗ (∃ X, ⌜(rdat0 A₀ c).after 0 t (Y 0) X⌝ ∗ owns (c : Thread nD τ) (ms0_0 t) fullShare X)
            ∗ (∃ X, ⌜(rdat0 A₀ c).after 1 t (Y 1) X⌝ ∗ owns (c : Thread nD τ) (ms0_1 t) fullShare X)
            ∗ (∃ X, ⌜(rdat0 A₀ c).after 2 t (Y 2) X⌝ ∗ owns (c : Thread nD τ) (ms0_2 t) fullShare X)
            ∗ (∃ X, ⌜(rdat0 A₀ c).after 3 t (Y 3) X⌝ ∗ owns (c : Thread nD τ) (ms0_3 t) fullShare X)
            ∗ (∃ X, ⌜(rdat0 A₀ c).after 4 t (Y 4) X⌝ ∗ owns (c : Thread nD τ) (ms0_4 t) fullShare X)
            ∗ (∃ X, ⌜(rdat0 A₀ c).after 5 t (Y 5) X⌝ ∗ owns (c : Thread nD τ) (ms0_5 t) fullShare X)) := by
  unfold bodyAt0
  rw [show (rdat0 A₀ c).owesAt () t.succ = (rdat0 A₀ c).owesAt () t.castSucc from rfl]
  rw [PhiA0_eq]
  by_cases h0 : t.val % 16 = 0
  · by_cases h1 : t.val % 16 = 15
    · exfalso; omega
    · iintro ⟨⟨⟨⟨Hs0, Hs1, Hs2, Hs3⟩, Hrest⟩, Hg⟩, Ho, H0, H1, H2, H3, H4, H5⟩
      iapply (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t)
        scM0_0 (Memref.isWhole_whole _) scM0_1 (Memref.isWhole_whole _) scM0_2 (Memref.isWhole_whole _) scM0_3 (Memref.isWhole_whole _)
        ((hcond0_0 t).mpr h0) (fun h => h1 ((hcond0_1 t).mp h)) (Y 0) (Y 1) (Y 2) (Y 3) Set.univ _)
      isplitl [H0]; · iexact H0
      isplitl [H1]; · iexact H1
      isplitl [H2]; · iexact H2
      isplitl [H3]; · iexact H3
      isplitl [Hs0]; · iexact Hs0
      isplitl [Hs1]; · iexact Hs1
      isplitl [Hs2]; · iexact Hs2
      isplitl [Hs3]; · iexact Hs3
      iintro ⟨H0, H1, H2, H3, Hs0, Hs1, Hs2, Hs3⟩
      isplitl [Hs0 Hs1 Hs2 Hs3 Hrest Hg]
      · isplitl [Hs0 Hs1 Hs2 Hs3 Hrest]
        · isplitl [Hs0 Hs1 Hs2 Hs3]
          · isplitl [Hs0]; · iexists _; iexact Hs0
            isplitl [Hs1]; · iexists _; iexact Hs1
            isplitl [Hs2]; · iexists _; iexact Hs2
            iexists _; iexact Hs3
          iexact Hrest
        iexact Hg
      isplitl [Ho]; · iexact Ho
      isplitl [H0]
      · iexists _; isplitr; swap; · iexact H0
        ipureintro; exact fun _ => rfl
      isplitl [H1]
      · iexists _; isplitr; swap; · iexact H1
        ipureintro; exact fun _ => rfl
      isplitl [H2]
      · iexists _; isplitr; swap; · iexact H2
        ipureintro; exact fun _ => rfl
      isplitl [H3]
      · iexists _; isplitr; swap; · iexact H3
        ipureintro; exact fun _ => rfl
      isplitl [H4]
      · iexists _; isplitr; swap; · iexact H4
        ipureintro; exact fun _ => rfl
      iexists _; isplitr; swap; · iexact H5
      ipureintro; exact fun h => absurd rfl h
  · by_cases h1 : t.val % 16 = 15
    · iintro ⟨⟨⟨⟨⟨%d0, Hs0⟩, ⟨%d1, Hs1⟩, ⟨%d2, Hs2⟩, ⟨%d3, Hs3⟩⟩, Hrest⟩, Hg⟩, Ho, H0, H1, H2, H3, H4, H5⟩
      iapply (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t)
        scM0_0 (Memref.isWhole_whole _) scM0_1 (Memref.isWhole_whole _) scM0_2 (Memref.isWhole_whole _) scM0_3 (Memref.isWhole_whole _)
        (fun h => h0 ((hcond0_0 t).mp h)) ((hcond0_1 t).mpr h1) (Y 2) (Y 3) (Y 4) d0 d1 d2 d3 Set.univ _)
      isplitl [H2]; · iexact H2
      isplitl [H3]; · iexact H3
      isplitl [H4]; · iexact H4
      isplitl [H5]; · iexists _; iexact H5
      isplitl [Hs0]; · iexact Hs0
      isplitl [Hs1]; · iexact Hs1
      isplitl [Hs2]; · iexact Hs2
      isplitl [Hs3]; · iexact Hs3
      iintro ⟨H2, H3, H4, H5, Hs0, Hs1, Hs2, Hs3⟩
      isplitl [Hs0 Hs1 Hs2 Hs3 Hrest Hg]
      · isplitl [Hs0 Hs1 Hs2 Hs3 Hrest]
        · isplitl [Hs0 Hs1 Hs2 Hs3]
          · isplitl [Hs0]; · iexists _; iexact Hs0
            isplitl [Hs1]; · iexists _; iexact Hs1
            isplitl [Hs2]; · iexists _; iexact Hs2
            iexists _; iexact Hs3
          iexact Hrest
        iexact Hg
      isplitl [Ho]; · iexact Ho
      isplitl [H0]
      · iexists _; isplitr; swap; · iexact H0
        ipureintro; exact fun _ => rfl
      isplitl [H1]
      · iexists _; isplitr; swap; · iexact H1
        ipureintro; exact fun _ => rfl
      isplitl [H2]
      · iexists _; isplitr; swap; · iexact H2
        ipureintro; exact fun _ => rfl
      isplitl [H3]
      · iexists _; isplitr; swap; · iexact H3
        ipureintro; exact fun _ => rfl
      isplitl [H4]
      · iexists _; isplitr; swap; · iexact H4
        ipureintro; exact fun _ => rfl
      iexists _; isplitr; swap; · iexact H5
      ipureintro; exact fun h => absurd rfl h
    · iintro ⟨⟨⟨⟨⟨%d0, Hs0⟩, ⟨%d1, Hs1⟩, ⟨%d2, Hs2⟩, ⟨%d3, Hs3⟩⟩, Hrest⟩, Hg⟩, Ho, H0, H1, H2, H3, H4, H5⟩
      iapply (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t)
        scM0_0 (Memref.isWhole_whole _) scM0_1 (Memref.isWhole_whole _) scM0_2 (Memref.isWhole_whole _) scM0_3 (Memref.isWhole_whole _)
        (fun h => h0 ((hcond0_0 t).mp h)) (fun h => h1 ((hcond0_1 t).mp h)) (Y 2) (Y 3) d0 d1 d2 d3 Set.univ _)
      isplitl [H2]; · iexact H2
      isplitl [H3]; · iexact H3
      isplitl [Hs0]; · iexact Hs0
      isplitl [Hs1]; · iexact Hs1
      isplitl [Hs2]; · iexact Hs2
      isplitl [Hs3]; · iexact Hs3
      iintro ⟨H2, H3, Hs0, Hs1, Hs2, Hs3⟩
      isplitl [Hs0 Hs1 Hs2 Hs3 Hrest Hg]
      · isplitl [Hs0 Hs1 Hs2 Hs3 Hrest]
        · isplitl [Hs0 Hs1 Hs2 Hs3]
          · isplitl [Hs0]; · iexists _; iexact Hs0
            isplitl [Hs1]; · iexists _; iexact Hs1
            isplitl [Hs2]; · iexists _; iexact Hs2
            iexists _; iexact Hs3
          iexact Hrest
        iexact Hg
      isplitl [Ho]; · iexact Ho
      isplitl [H0]
      · iexists _; isplitr; swap; · iexact H0
        ipureintro; exact fun _ => rfl
      isplitl [H1]
      · iexists _; isplitr; swap; · iexact H1
        ipureintro; exact fun _ => rfl
      isplitl [H2]
      · iexists _; isplitr; swap; · iexact H2
        ipureintro; exact fun _ => rfl
      isplitl [H3]
      · iexists _; isplitr; swap; · iexact H3
        ipureintro; exact fun _ => rfl
      isplitl [H4]
      · iexists _; isplitr; swap; · iexact H4
        ipureintro; exact fun _ => rfl
      iexists _; isplitr; swap; · iexact H5
      ipureintro; exact fun h => absurd rfl h

/-- The library's body obligation of the relational data, at every point: nothing of what the buffers may hold is used. -/
theorem hbody0 (c : Dev nD) : (rdat0 A₀ c).BodyObligation (defs₀ (F := Bits)) Variants.none () Set.univ := fun t Y _ => by
  rw [bigSep_W0, bigSep_W0]
  exact sound_body0 A₀ c t Y

end Cert.Kernel.Hand

end
-- ==== Proof.K.R1.Runs.lean ====
/-
  Region 1: what the per-case runs of the kernel body share — the two branch conditions in closed form over the grid, where
  the output window is idle and where it is written back, the staging and scratch memrefs as the pipeline passes them, and the
  region's invariant before the first point with the four scratch buffers set apart.
-/
import proofs.«415479_j24352464569077_2_alg».proof.Proof.Gen.Kernel.Launch
import proofs.«415479_j24352464569077_2_alg».proof.Proof.Gen.Kernel.Skeleton
import proofs.«415479_j24352464569077_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## A whole-buffer store read back -/

/-- What a buffer reads after a list of stores whose LAST is a store of `w` through the whole-shape rectangle at zero offsets:
    `w`, whatever the earlier stores and the prior contents were. -/
theorem read_writes_cons_unit_zero1 {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self .., View.mem_set_unit_zero h inb y⟩)).trans
    (View.canon_cons_unit_zero h inb w L)

/-! ## The body's branch conditions -/

/-- The condition of the body's first conditional (the reset at the first vocabulary step), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 79). -/
theorem hcond1_0 : ∀ t : Fin cfg1.N, cond1_0 (grid1.coords t) ↔ t.val % 79 = 0 :=
  (by decide +kernel : ∀ t : Fin grid1.N, cond1_0 (grid1.coords t) ↔ t.val % 79 = 0)

/-- The condition of the body's second conditional (the output's store at the last vocabulary step). -/
abbrev cond1_1 (i : grid1.Coords) : Prop := k1_cond2 i = 1#1
/-- It holds at the points ≡ 78 (mod 79). -/
theorem hcond1_1 : ∀ t : Fin cfg1.N, cond1_1 (grid1.coords t) ↔ t.val % 79 = 78 :=
  (by decide +kernel : ∀ t : Fin grid1.N, cond1_1 (grid1.coords t) ↔ t.val % 79 = 78)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the second conditional fails the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- Where it holds the output window is live. -/
theorem liveAt1_5 : ∀ t : Fin cfg1.N, cond1_1 (grid1.coords t) → cfg1.idle 5 (grid1.coords t) = false := by decide +kernel

/-! ## The memrefs the body is called with -/

abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x1 .f32 := win1_5.stage (cfg1.slots t 5)
abbrev hs1_5 (t : Fin cfg1.N) : (ms1_5 t).IsWhole := hstage1_5 ((cfg1.slots t 5).cast nbuf1_5)
/-- The scratch operands: whole scoped buffers of the kernel's own. -/
abbrev scM1_0 : Memref sig .tc .vmem S2048x256 .f32 := Memref.whole cc1_scratch0
abbrev scM1_1 : Memref sig .tc .vmem S2048x1 .f32 := Memref.whole cc1_scratch1
abbrev scM1_2 : Memref sig .tc .vmem S2048x1 .f32 := Memref.whole cc1_scratch2
abbrev scM1_3 : Memref sig .tc .vmem S2048x1 .f32 := Memref.whole cc1_scratch3

/-- The scoped buffers of the program that are neither a staging buffer of this call nor one of its scratch operands. -/
abbrev rest1 (c : Dev nD) : sProp 𝕄 :=
  Pipeline.scopedRestBut (Ix := Unit) (Name := ℕ) (U := UR sig nD τ) (Lvl := ℕ) (Val := Elt F) spec1 c [cc1_scratch0, cc1_scratch1, cc1_scratch2, cc1_scratch3]

/-- The region's invariant before the first point with the scratch operands as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)
          ∗ (∃ d, owns (c : Thread nD τ) scM1_2 fullShare d) ∗ (∃ d, owns (c : Thread nD τ) scM1_3 fullShare d)) ∗ rest1 c) ∗ (∃ r, prngReg c r)) := by
  unfold Pipeline.ΦA; rw [scopedRest1_split]; simp only [scM1_0, scM1_1, scM1_2, scM1_3, owns_whole]; try rfl

end Cert.Kernel.Hand

end
-- ==== Proof.K.R1.RunA.lean ====
/-
  Region 1, the first vocabulary step of a row of points (the reset taken, the output's store not): the body's run on whole memrefs. It stores the projected tokens and the reset values of the running maximum, mass and pick, then does one vocabulary step on them.
-/
import proofs.«415479_j24352464569077_2_alg».proof.Proof.K.R1.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- The body at the first vocabulary step of a row of points (the first conditional taken, the second not), on whole memrefs
    holding the token block `x`, the projection `w1`, the class-weight block `w2`, the label block `lab`, the scratch at
    anything: it runs to the continuation with the four blocks as they were, the projected tokens stored, and the running
    maximum, mass and pick at one vocabulary step's values from their reset values. -/
theorem kernelRun1_A (c : Dev nD) (i : grid1.Coords) (arg2 : Memref sig .tc .vmem S2048x1024 .bf16) (harg2 : arg2.IsWhole) (arg3 : Memref sig .tc .vmem S256x1024 .bf16) (harg3 : arg3.IsWhole) (arg4 : Memref sig .tc .vmem S512x256 .bf16) (harg4 : arg4.IsWhole) (arg5 : Memref sig .tc .vmem S2048x1 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : cond1_0 i) (hc1 : ¬cond1_1 i)
    (x : Vec F S2048x1024 .bf16) (w1 : Vec F S256x1024 .bf16) (w2 : Vec F S512x256 .bf16) (lab : Vec F S2048x1 .i32)
    (E : Set ℕ) (K : PUnit → sProp 𝕄) :
    iprop(owns (c : Thread nD τ) arg2 fullShare x ∗ owns (c : Thread nD τ) arg3 fullShare w1 ∗ owns (c : Thread nD τ) arg4 fullShare w2 ∗ owns (c : Thread nD τ) arg5 fullShare lab
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x ∗ owns (c : Thread nD τ) arg3 fullShare w1 ∗ owns (c : Thread nD τ) arg4 fullShare w2 ∗ owns (c : Thread nD τ) arg5 fullShare lab
            ∗ owns (c : Thread nD τ) arg8 fullShare (k1_pay4 x w1)
            ∗ owns (c : Thread nD τ) arg9 fullShare (k1_pay1 (k1_pay9 i (k1_pay4 x w1) w2 (k1_pay5 (F := F))))
            ∗ owns (c : Thread nD τ) arg10 fullShare (k1_pay10 i (k1_pay4 x w1) w2 (k1_pay5 (F := F)) (k1_pay5 (F := F)) (k1_pay6 (F := F)))
            ∗ owns (c : Thread nD τ) arg11 fullShare (k1_pay2 (BitVec.ofNat 32 (i 1).val) (iota .tc S2048x512 32 [1] iota_S2048x512_d1_w32) (k1_pay8 i (k1_pay4 x w1) w2) lab (k1_pay7 (F := F)))) -∗ K ⟨⟩))
      ⊢ wp frame (wpE (defs₀ (F := F)) Variants.none c none) E (cc1__ce_kernel_proj i arg2 harg2 arg3 harg3 arg4 harg4 arg5 harg5 arg6 harg6 arg7 harg7 arg8 harg8 arg9 harg9 arg10 harg10 arg11 harg11) K := by
  have hz : (![0, 0] : Fin 2 → Nat) = fun _ => 0 := funext fun a => by fin_cases a <;> rfl
  simp only [cc1__ce_kernel_proj_eq_skeleton]; unfold cc1__ce_kernel_proj_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%d8, %f8, -, H8⟩, ⟨%d9, %f9, -, H9⟩, ⟨%d10, %f10, -, H10⟩, ⟨%d11, %f11, -, H11⟩, Hk⟩
  obtain rfl := harg2.eq_unread hf2; obtain rfl := harg3.eq_unread hf3; obtain rfl := harg4.eq_unread hf4; obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H8]
  · iexists _; isplitr
    swap; · iexact H8
    ipureintro
    (try sl_unfold_words)
    rw [read_writes_cons_unit_zero1 (S := S2048x256) _ _ hz]
    dsimp only
    (try sl_unfold_words)
    simp only [View.readAt_eq_ld, Memref.IsWhole.read_unread, View.ld_unit_zero (S := S2048x1024) hz, View.ld_unit_zero (S := S2048x256) hz, View.ld_unit_zero (S := S256x1024) hz, View.ld_unit_zero (S := S512x256) hz, View.ld_unit_zero (S := S2048x1) hz, View.readCov_unit_zero (S := S2048x256) _ hz, View.readCov_unit_zero (S := S2048x1) _ hz]
  isplitl [H9]
  · iexists _; isplitr
    swap; · iexact H9
    ipureintro
    (try sl_unfold_words)
    rw [read_writes_cons_unit_zero1 (S := S2048x1) _ _ hz]
    dsimp only
    (try sl_unfold_words)
    simp only [View.readAt_eq_ld, Memref.IsWhole.read_unread, View.ld_unit_zero (S := S2048x1024) hz, View.ld_unit_zero (S := S2048x256) hz, View.ld_unit_zero (S := S256x1024) hz, View.ld_unit_zero (S := S512x256) hz, View.ld_unit_zero (S := S2048x1) hz, View.readCov_unit_zero (S := S2048x256) _ hz, View.readCov_unit_zero (S := S2048x1) _ hz]
  isplitl [H10]
  · iexists _; isplitr
    swap; · iexact H10
    ipureintro
    (try sl_unfold_words)
    rw [read_writes_cons_unit_zero1 (S := S2048x1) _ _ hz]
    dsimp only
    (try sl_unfold_words)
    simp only [View.readAt_eq_ld, Memref.IsWhole.read_unread, View.ld_unit_zero (S := S2048x1024) hz, View.ld_unit_zero (S := S2048x256) hz, View.ld_unit_zero (S := S256x1024) hz, View.ld_unit_zero (S := S512x256) hz, View.ld_unit_zero (S := S2048x1) hz, View.readCov_unit_zero (S := S2048x256) _ hz, View.readCov_unit_zero (S := S2048x1) _ hz]
  · iexists _; isplitr
    swap; · iexact H11
    ipureintro
    (try sl_unfold_words)
    rw [read_writes_cons_unit_zero1 (S := S2048x1) _ _ hz]
    dsimp only
    (try sl_unfold_words)
    simp only [View.readAt_eq_ld, Memref.IsWhole.read_unread, View.ld_unit_zero (S := S2048x1024) hz, View.ld_unit_zero (S := S2048x256) hz, View.ld_unit_zero (S := S256x1024) hz, View.ld_unit_zero (S := S512x256) hz, View.ld_unit_zero (S := S2048x1) hz, View.readCov_unit_zero (S := S2048x256) _ hz, View.readCov_unit_zero (S := S2048x1) _ hz]

end Cert.Kernel.Hand

end
-- ==== Proof.K.R1.RunB.lean ====
/-
  Region 1, a middle vocabulary step (neither conditional taken): the body's run on whole memrefs. It loads the projected tokens, the class-weight block and the label block, and leaves the running maximum, mass and pick at one step's values, the maximum and the mass both from the old maximum.
-/
import proofs.«415479_j24352464569077_2_alg».proof.Proof.K.R1.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The body at a point where neither conditional is taken, on whole memrefs holding the class-weight block `w2`, the label
    block `lab` and the scratch `h`, `m`, `l`, `b`: it runs to the continuation with those two and `h` as they were and the
    other three scratch buffers at one vocabulary step's values. -/
theorem kernelRun1_B (c : Dev nD) (i : grid1.Coords) (arg2 : Memref sig .tc .vmem S2048x1024 .bf16) (harg2 : arg2.IsWhole) (arg3 : Memref sig .tc .vmem S256x1024 .bf16) (harg3 : arg3.IsWhole) (arg4 : Memref sig .tc .vmem S512x256 .bf16) (harg4 : arg4.IsWhole) (arg5 : Memref sig .tc .vmem S2048x1 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : ¬cond1_1 i)
    (w2 : Vec F S512x256 .bf16) (lab : Vec F S2048x1 .i32) (h : Vec F S2048x256 .f32) (m l b : Vec F S2048x1 .f32)
    (E : Set ℕ) (K : PUnit → sProp 𝕄) :
    iprop(owns (c : Thread nD τ) arg4 fullShare w2 ∗ owns (c : Thread nD τ) arg5 fullShare lab ∗ owns (c : Thread nD τ) arg8 fullShare h
        ∗ owns (c : Thread nD τ) arg9 fullShare m ∗ owns (c : Thread nD τ) arg10 fullShare l ∗ owns (c : Thread nD τ) arg11 fullShare b
        ∗ (iprop(owns (c : Thread nD τ) arg4 fullShare w2 ∗ owns (c : Thread nD τ) arg5 fullShare lab ∗ owns (c : Thread nD τ) arg8 fullShare h
            ∗ owns (c : Thread nD τ) arg9 fullShare (k1_pay1 (k1_pay9 i h w2 m))
            ∗ owns (c : Thread nD τ) arg10 fullShare (k1_pay10 i h w2 m m l)
            ∗ owns (c : Thread nD τ) arg11 fullShare (k1_pay2 (BitVec.ofNat 32 (i 1).val) (iota .tc S2048x512 32 [1] iota_S2048x512_d1_w32) (k1_pay8 i h w2) lab b)) -∗ K ⟨⟩))
      ⊢ wp frame (wpE (defs₀ (F := F)) Variants.none c none) E (cc1__ce_kernel_proj i arg2 harg2 arg3 harg3 arg4 harg4 arg5 harg5 arg6 harg6 arg7 harg7 arg8 harg8 arg9 harg9 arg10 harg10 arg11 harg11) K := by
  have hz : (![0, 0] : Fin 2 → Nat) = fun _ => 0 := funext fun a => by fin_cases a <;> rfl
  simp only [cc1__ce_kernel_proj_eq_skeleton]; unfold cc1__ce_kernel_proj_skel
  simp only [k1_part1_eq_skeleton]; unfold k1_part1_skel
  unfold owns
  iintro ⟨⟨%f4, %hf4, H4⟩, ⟨%f5, %hf5, H5⟩, ⟨%f8, %hf8, H8⟩, ⟨%f9, %hf9, H9⟩, ⟨%f10, %hf10, H10⟩, ⟨%f11, %hf11, H11⟩, Hk⟩
  obtain rfl := harg4.eq_unread hf4; obtain rfl := harg5.eq_unread hf5; obtain rfl := harg8.eq_unread hf8
  obtain rfl := harg9.eq_unread hf9; obtain rfl := harg10.eq_unread hf10; obtain rfl := harg11.eq_unread hf11
  sl_exec (disch := first | exact hc0 | exact hc1)
  sl_step
  iapply Hk
  isplitl [H4]
  · iexists _; isplitr; · ipureintro; exact harg4.read_unread _
    iexact H4
  isplitl [H5]
  · iexists _; isplitr; · ipureintro; exact harg5.read_unread _
    iexact H5
  isplitl [H8]
  · iexists _; isplitr; · ipureintro; exact harg8.read_unread _
    iexact H8
  isplitl [H9]
  · iexists _; isplitr
    swap; · iexact H9
    ipureintro
    rw [read_writes_cons_unit_zero1 (S := S2048x1) _ _ hz]
    dsimp only
    sl_unfold_words
    simp only [View.readAt_eq_ld, Memref.IsWhole.read_unread, View.ld_unit_zero (S := S2048x1024) hz, View.ld_unit_zero (S := S2048x256) hz, View.ld_unit_zero (S := S256x1024) hz, View.ld_unit_zero (S := S512x256) hz, View.ld_unit_zero (S := S2048x1) hz, View.readCov_unit_zero (S := S2048x256) _ hz, View.readCov_unit_zero (S := S2048x1) _ hz]
  isplitl [H10]
  · iexists _; isplitr
    swap; · iexact H10
    ipureintro
    rw [read_writes_cons_unit_zero1 (S := S2048x1) _ _ hz]
    dsimp only
    sl_unfold_words
    simp only [View.readAt_eq_ld, Memref.IsWhole.read_unread, View.ld_unit_zero (S := S2048x1024) hz, View.ld_unit_zero (S := S2048x256) hz, View.ld_unit_zero (S := S256x1024) hz, View.ld_unit_zero (S := S512x256) hz, View.ld_unit_zero (S := S2048x1) hz, View.readCov_unit_zero (S := S2048x256) _ hz, View.readCov_unit_zero (S := S2048x1) _ hz]
  · iexists _; isplitr
    swap; · iexact H11
    ipureintro
    rw [read_writes_cons_unit_zero1 (S := S2048x1) _ _ hz]
    dsimp only
    sl_unfold_words
    simp only [View.readAt_eq_ld, Memref.IsWhole.read_unread, View.ld_unit_zero (S := S2048x1024) hz, View.ld_unit_zero (S := S2048x256) hz, View.ld_unit_zero (S := S256x1024) hz, View.ld_unit_zero (S := S512x256) hz, View.ld_unit_zero (S := S2048x1) hz, View.readCov_unit_zero (S := S2048x256) _ hz, View.readCov_unit_zero (S := S2048x1) _ hz]

end Cert.Kernel.Hand

end
-- ==== Proof.K.R1.RunC.lean ====
/-
  Region 1, the last vocabulary step of a row of points (the reset not taken, the output's store taken): the body's run on whole memrefs. One vocabulary step, then the per-token loss block from the scratch it has just stored and the mask block.
-/
import proofs.«415479_j24352464569077_2_alg».proof.Proof.K.R1.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 2000000 in
/-- The body at the last vocabulary step of a row of points (the first conditional not taken, the second taken), on whole
    memrefs holding the class-weight block `w2`, the label block `lab`, the mask block `msk`, the scratch `h`, `m`, `l`,
    `b`, the output's buffer at anything: it runs to the continuation with the blocks and `h` as they were, the other three
    scratch buffers at one vocabulary step's values, and the output's buffer at the per-token loss from those. -/
theorem kernelRun1_C (c : Dev nD) (i : grid1.Coords) (arg2 : Memref sig .tc .vmem S2048x1024 .bf16) (harg2 : arg2.IsWhole) (arg3 : Memref sig .tc .vmem S256x1024 .bf16) (harg3 : arg3.IsWhole) (arg4 : Memref sig .tc .vmem S512x256 .bf16) (harg4 : arg4.IsWhole) (arg5 : Memref sig .tc .vmem S2048x1 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : cond1_1 i)
    (w2 : Vec F S512x256 .bf16) (lab : Vec F S2048x1 .i32) (msk : Vec F S2048x1 .f32) (h : Vec F S2048x256 .f32) (m l b : Vec F S2048x1 .f32)
    (E : Set ℕ) (K : PUnit → sProp 𝕄) :
    iprop(owns (c : Thread nD τ) arg4 fullShare w2 ∗ owns (c : Thread nD τ) arg5 fullShare lab ∗ owns (c : Thread nD τ) arg6 fullShare msk ∗ (∃ d, owns (c : Thread nD τ) arg7 fullShare d) ∗ owns (c : Thread nD τ) arg8 fullShare h
        ∗ owns (c : Thread nD τ) arg9 fullShare m ∗ owns (c : Thread nD τ) arg10 fullShare l ∗ owns (c : Thread nD τ) arg11 fullShare b
        ∗ (iprop(owns (c : Thread nD τ) arg4 fullShare w2 ∗ owns (c : Thread nD τ) arg5 fullShare lab ∗ owns (c : Thread nD τ) arg6 fullShare msk
            ∗ owns (c : Thread nD τ) arg7 fullShare (k1_pay3 (k1_pay1 (k1_pay9 i h w2 m)) (k1_pay10 i h w2 m m l) (k1_pay2 (BitVec.ofNat 32 (i 1).val) (iota .tc S2048x512 32 [1] iota_S2048x512_d1_w32) (k1_pay8 i h w2) lab b) msk)
            ∗ owns (c : Thread nD τ) arg8 fullShare h
            ∗ owns (c : Thread nD τ) arg9 fullShare (k1_pay1 (k1_pay9 i h w2 m))
            ∗ owns (c : Thread nD τ) arg10 fullShare (k1_pay10 i h w2 m m l)
            ∗ owns (c : Thread nD τ) arg11 fullShare (k1_pay2 (BitVec.ofNat 32 (i 1).val) (iota .tc S2048x512 32 [1] iota_S2048x512_d1_w32) (k1_pay8 i h w2) lab b)) -∗ K ⟨⟩))
      ⊢ wp frame (wpE (defs₀ (F := F)) Variants.none c none) E (cc1__ce_kernel_proj i arg2 harg2 arg3 harg3 arg4 harg4 arg5 harg5 arg6 harg6 arg7 harg7 arg8 harg8 arg9 harg9 arg10 harg10 arg11 harg11) K := by
  have hz : (![0, 0] : Fin 2 → Nat) = fun _ => 0 := funext fun a => by fin_cases a <;> rfl
  simp only [cc1__ce_kernel_proj_eq_skeleton]; unfold cc1__ce_kernel_proj_skel
  simp only [k1_part1_eq_skeleton]; unfold k1_part1_skel
  unfold owns
  iintro ⟨⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
  obtain rfl := harg4.eq_unread hf4; obtain rfl := harg5.eq_unread hf5; obtain rfl := harg6.eq_unread hf6; obtain rfl := harg8.eq_unread hf8
  obtain rfl := harg9.eq_unread hf9; obtain rfl := harg10.eq_unread hf10; obtain rfl := harg11.eq_unread hf11
  sl_exec (disch := first | exact hc0 | exact hc1)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    (try sl_unfold_words)
    rw [read_writes_cons_unit_zero1 (S := S2048x1) _ _ hz]
    dsimp only
    (try sl_unfold_words)
    simp only [View.readAt_eq_ld, Memref.IsWhole.read_unread, View.ld_unit_zero (S := S2048x1024) hz, View.ld_unit_zero (S := S2048x256) hz, View.ld_unit_zero (S := S256x1024) hz, View.ld_unit_zero (S := S512x256) hz, View.ld_unit_zero (S := S2048x1) hz, View.readCov_unit_zero (S := S2048x256) _ hz, View.readCov_unit_zero (S := S2048x1) _ hz]
  isplitl [H8]
  · iexists _; isplitr; · ipureintro; exact harg8.read_unread _
    iexact H8
  isplitl [H9]
  · iexists _; isplitr
    swap; · iexact H9
    ipureintro
    (try sl_unfold_words)
    rw [read_writes_cons_unit_zero1 (S := S2048x1) _ _ hz]
    dsimp only
    (try sl_unfold_words)
    simp only [View.readAt_eq_ld, Memref.IsWhole.read_unread, View.ld_unit_zero (S := S2048x1024) hz, View.ld_unit_zero (S := S2048x256) hz, View.ld_unit_zero (S := S256x1024) hz, View.ld_unit_zero (S := S512x256) hz, View.ld_unit_zero (S := S2048x1) hz, View.readCov_unit_zero (S := S2048x256) _ hz, View.readCov_unit_zero (S := S2048x1) _ hz]
  isplitl [H10]
  · iexists _; isplitr
    swap; · iexact H10
    ipureintro
    (try sl_unfold_words)
    rw [read_writes_cons_unit_zero1 (S := S2048x1) _ _ hz]
    dsimp only
    (try sl_unfold_words)
    simp only [View.readAt_eq_ld, Memref.IsWhole.read_unread, View.ld_unit_zero (S := S2048x1024) hz, View.ld_unit_zero (S := S2048x256) hz, View.ld_unit_zero (S := S256x1024) hz, View.ld_unit_zero (S := S512x256) hz, View.ld_unit_zero (S := S2048x1) hz, View.readCov_unit_zero (S := S2048x256) _ hz, View.readCov_unit_zero (S := S2048x1) _ hz]
  · iexists _; isplitr
    swap; · iexact H11
    ipureintro
    (try sl_unfold_words)
    rw [read_writes_cons_unit_zero1 (S := S2048x1) _ _ hz]
    dsimp only
    (try sl_unfold_words)
    simp only [View.readAt_eq_ld, Memref.IsWhole.read_unread, View.ld_unit_zero (S := S2048x1024) hz, View.ld_unit_zero (S := S2048x256) hz, View.ld_unit_zero (S := S256x1024) hz, View.ld_unit_zero (S := S512x256) hz, View.ld_unit_zero (S := S2048x1) hz, View.readCov_unit_zero (S := S2048x256) _ hz, View.readCov_unit_zero (S := S2048x1) _ hz]

end Cert.Kernel.Hand

end
-- ==== Proof.K.R1.Rel.lean ====
/-
  Region 1 (the second projected tail's cross-entropy call) at the word-level instance: relational proof data for the pipeline. Nothing names a
  buffer's contents: the invariant at every point is the region's own (each scratch buffer at some contents, the generator
  register at some state), each input window's current buffer is handed back as it was found, and of the output window's buffer
  nothing is said. The body obligation follows from the three runs of the body (first, middle and last vocabulary tile of a
  row tile), which hold at any contents of the operands; a buffer a run does not touch stays beside it.
-/
import proofs.«415479_j24352464569077_2_alg».proof.Proof.K.R1.RunA
import proofs.«415479_j24352464569077_2_alg».proof.Proof.K.R1.RunB
import proofs.«415479_j24352464569077_2_alg».proof.Proof.K.R1.RunC
import Idealize.ShloMosaic.Lib.Pipeline.Regions
import Idealize.ShloMosaic.Lib.Pipeline.Kit
import Idealize.ShloMosaic.PureOps.BitExact

set_option synthInstance.maxSize 4096
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

local notation "𝕄" => MT nD τ sig Unit (Elt Bits) ℕ (UR sig nD τ) ℕ

/-! ## The proof data -/

/-- Region 1's relational proof data on core `c`, over the window arrays' contents at entry `A₀ c`: an input window's current
    buffer (windows 0 to 4) is left as found; of the output window's (window 5) nothing is said; the invariant at every point is
    the region's own, every scratch buffer at some contents; nothing is owed; full shares. -/
def rdat1 (A₀ : (c : Dev nD) → (w : Fin cfg1.W) → Buf (Elt Bits) ((cfg1.win w).arr.view.loc (c : Thread nD τ))) (c : Dev nD) :
    RDat τ (Elt Bits) Unit ℕ (UR sig nD τ) ℕ cfg1 c where
  A := A₀ c
  after w _ Y X := w.val ≠ 5 → X = Y
  Φ _ := Pipeline.ΦA spec1 c
  q _ := fullShare
  owed _ := 0

variable (A₀ : (c : Dev nD) → (w : Fin cfg1.W) → Buf (Elt Bits) ((cfg1.win w).arr.view.loc (c : Thread nD τ)))

theorem hA1 (c : Dev nD) (w : Fin cfg1.W) : (rdat1 A₀ c).A w = A₀ c w := rfl
theorem hq1 (c : Dev nD) (w : Fin cfg1.W) : (rdat1 A₀ c).q w = fullShare := rfl
theorem howed1 (c : Dev nD) (t : Fin (cfg1.N + 1)) : (rdat1 A₀ c).owed t = 0 := rfl
theorem hrec1 (c : Dev nD) : (rdat1 A₀ c).recorded 0 = Set.univ := rfl

/-- The region's own invariant is the proof data's before the first point -/
theorem hin1 (c : Dev nD) : (Pipeline.ΦA spec1 c : sProp 𝕄) ⊢ (rdat1 A₀ c).Φ 0 := Entails.refl _

/-- and after the last. -/
theorem hout1 (c : Dev nD) : (rdat1 A₀ c).Φ (Fin.last cfg1.N) ⊢ (Pipeline.ΦA spec1 c : sProp 𝕄) := Entails.refl _

/-! ## The body obligation, at a generic point -/

set_option maxHeartbeats 4800000 in
/-- The body at any point, whatever the current buffers hold (`Y`): the closed forms of the two branch conditions say which
    of the three runs applies; the invariant hands it the scratch buffers at some contents and takes them back at some contents;
    every input buffer comes back as handed over, the output buffer at some contents; the core owes nothing throughout. -/
theorem sound_body1 (c : Dev nD) (t : Fin cfg1.N) (Y : (w : Fin cfg1.W) → (cfg1.win w).block.Idx → Elt Bits (cfg1.win w).elt) :
    iprop((Pipeline.ΦA spec1 c : sProp 𝕄) ∗ (rdat1 A₀ c).owesAt () t.castSucc
        ∗ owns (c : Thread nD τ) (ms1_0 t) fullShare (Y 0)
        ∗ owns (c : Thread nD τ) (ms1_1 t) fullShare (Y 1)
        ∗ owns (c : Thread nD τ) (ms1_2 t) fullShare (Y 2)
        ∗ owns (c : Thread nD τ) (ms1_3 t) fullShare (Y 3)
        ∗ owns (c : Thread nD τ) (ms1_4 t) fullShare (Y 4)
        ∗ owns (c : Thread nD τ) (ms1_5 t) fullShare (Y 5))
      ⊢ wp frame (wpE (defs₀ (F := Bits)) Variants.none c none) Set.univ (bodyAt1 t) fun _ =>
          iprop((Pipeline.ΦA spec1 c : sProp 𝕄) ∗ (rdat1 A₀ c).owesAt () t.succ
            ∗ (∃ X, ⌜(rdat1 A₀ c).after 0 t (Y 0) X⌝ ∗ owns (c : Thread nD τ) (ms1_0 t) fullShare X)
            ∗ (∃ X, ⌜(rdat1 A₀ c).after 1 t (Y 1) X⌝ ∗ owns (c : Thread nD τ) (ms1_1 t) fullShare X)
            ∗ (∃ X, ⌜(rdat1 A₀ c).after 2 t (Y 2) X⌝ ∗ owns (c : Thread nD τ) (ms1_2 t) fullShare X)
            ∗ (∃ X, ⌜(rdat1 A₀ c).after 3 t (Y 3) X⌝ ∗ owns (c : Thread nD τ) (ms1_3 t) fullShare X)
            ∗ (∃ X, ⌜(rdat1 A₀ c).after 4 t (Y 4) X⌝ ∗ owns (c : Thread nD τ) (ms1_4 t) fullShare X)
            ∗ (∃ X, ⌜(rdat1 A₀ c).after 5 t (Y 5) X⌝ ∗ owns (c : Thread nD τ) (ms1_5 t) fullShare X)) := by
  unfold bodyAt1
  rw [show (rdat1 A₀ c).owesAt () t.succ = (rdat1 A₀ c).owesAt () t.castSucc from rfl]
  rw [PhiA1_eq]
  by_cases h0 : t.val % 79 = 0
  · by_cases h1 : t.val % 79 = 78
    · exfalso; omega
    · iintro ⟨⟨⟨⟨Hs0, Hs1, Hs2, Hs3⟩, Hrest⟩, Hg⟩, Ho, H0, H1, H2, H3, H4, H5⟩
      iapply (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t)
        scM1_0 (Memref.isWhole_whole _) scM1_1 (Memref.isWhole_whole _) scM1_2 (Memref.isWhole_whole _) scM1_3 (Memref.isWhole_whole _)
        ((hcond1_0 t).mpr h0) (fun h => h1 ((hcond1_1 t).mp h)) (Y 0) (Y 1) (Y 2) (Y 3) Set.univ _)
      isplitl [H0]; · iexact H0
      isplitl [H1]; · iexact H1
      isplitl [H2]; · iexact H2
      isplitl [H3]; · iexact H3
      isplitl [Hs0]; · iexact Hs0
      isplitl [Hs1]; · iexact Hs1
      isplitl [Hs2]; · iexact Hs2
      isplitl [Hs3]; · iexact Hs3
      iintro ⟨H0, H1, H2, H3, Hs0, Hs1, Hs2, Hs3⟩
      isplitl [Hs0 Hs1 Hs2 Hs3 Hrest Hg]
      · isplitl [Hs0 Hs1 Hs2 Hs3 Hrest]
        · isplitl [Hs0 Hs1 Hs2 Hs3]
          · isplitl [Hs0]; · iexists _; iexact Hs0
            isplitl [Hs1]; · iexists _; iexact Hs1
            isplitl [Hs2]; · iexists _; iexact Hs2
            iexists _; iexact Hs3
          iexact Hrest
        iexact Hg
      isplitl [Ho]; · iexact Ho
      isplitl [H0]
      · iexists _; isplitr; swap; · iexact H0
        ipureintro; exact fun _ => rfl
      isplitl [H1]
      · iexists _; isplitr; swap; · iexact H1
        ipureintro; exact fun _ => rfl
      isplitl [H2]
      · iexists _; isplitr; swap; · iexact H2
        ipureintro; exact fun _ => rfl
      isplitl [H3]
      · iexists _; isplitr; swap; · iexact H3
        ipureintro; exact fun _ => rfl
      isplitl [H4]
      · iexists _; isplitr; swap; · iexact H4
        ipureintro; exact fun _ => rfl
      iexists _; isplitr; swap; · iexact H5
      ipureintro; exact fun h => absurd rfl h
  · by_cases h1 : t.val % 79 = 78
    · iintro ⟨⟨⟨⟨⟨%d0, Hs0⟩, ⟨%d1, Hs1⟩, ⟨%d2, Hs2⟩, ⟨%d3, Hs3⟩⟩, Hrest⟩, Hg⟩, Ho, H0, H1, H2, H3, H4, H5⟩
      iapply (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t)
        scM1_0 (Memref.isWhole_whole _) scM1_1 (Memref.isWhole_whole _) scM1_2 (Memref.isWhole_whole _) scM1_3 (Memref.isWhole_whole _)
        (fun h => h0 ((hcond1_0 t).mp h)) ((hcond1_1 t).mpr h1) (Y 2) (Y 3) (Y 4) d0 d1 d2 d3 Set.univ _)
      isplitl [H2]; · iexact H2
      isplitl [H3]; · iexact H3
      isplitl [H4]; · iexact H4
      isplitl [H5]; · iexists _; iexact H5
      isplitl [Hs0]; · iexact Hs0
      isplitl [Hs1]; · iexact Hs1
      isplitl [Hs2]; · iexact Hs2
      isplitl [Hs3]; · iexact Hs3
      iintro ⟨H2, H3, H4, H5, Hs0, Hs1, Hs2, Hs3⟩
      isplitl [Hs0 Hs1 Hs2 Hs3 Hrest Hg]
      · isplitl [Hs0 Hs1 Hs2 Hs3 Hrest]
        · isplitl [Hs0 Hs1 Hs2 Hs3]
          · isplitl [Hs0]; · iexists _; iexact Hs0
            isplitl [Hs1]; · iexists _; iexact Hs1
            isplitl [Hs2]; · iexists _; iexact Hs2
            iexists _; iexact Hs3
          iexact Hrest
        iexact Hg
      isplitl [Ho]; · iexact Ho
      isplitl [H0]
      · iexists _; isplitr; swap; · iexact H0
        ipureintro; exact fun _ => rfl
      isplitl [H1]
      · iexists _; isplitr; swap; · iexact H1
        ipureintro; exact fun _ => rfl
      isplitl [H2]
      · iexists _; isplitr; swap; · iexact H2
        ipureintro; exact fun _ => rfl
      isplitl [H3]
      · iexists _; isplitr; swap; · iexact H3
        ipureintro; exact fun _ => rfl
      isplitl [H4]
      · iexists _; isplitr; swap; · iexact H4
        ipureintro; exact fun _ => rfl
      iexists _; isplitr; swap; · iexact H5
      ipureintro; exact fun h => absurd rfl h
    · iintro ⟨⟨⟨⟨⟨%d0, Hs0⟩, ⟨%d1, Hs1⟩, ⟨%d2, Hs2⟩, ⟨%d3, Hs3⟩⟩, Hrest⟩, Hg⟩, Ho, H0, H1, H2, H3, H4, H5⟩
      iapply (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t)
        scM1_0 (Memref.isWhole_whole _) scM1_1 (Memref.isWhole_whole _) scM1_2 (Memref.isWhole_whole _) scM1_3 (Memref.isWhole_whole _)
        (fun h => h0 ((hcond1_0 t).mp h)) (fun h => h1 ((hcond1_1 t).mp h)) (Y 2) (Y 3) d0 d1 d2 d3 Set.univ _)
      isplitl [H2]; · iexact H2
      isplitl [H3]; · iexact H3
      isplitl [Hs0]; · iexact Hs0
      isplitl [Hs1]; · iexact Hs1
      isplitl [Hs2]; · iexact Hs2
      isplitl [Hs3]; · iexact Hs3
      iintro ⟨H2, H3, Hs0, Hs1, Hs2, Hs3⟩
      isplitl [Hs0 Hs1 Hs2 Hs3 Hrest Hg]
      · isplitl [Hs0 Hs1 Hs2 Hs3 Hrest]
        · isplitl [Hs0 Hs1 Hs2 Hs3]
          · isplitl [Hs0]; · iexists _; iexact Hs0
            isplitl [Hs1]; · iexists _; iexact Hs1
            isplitl [Hs2]; · iexists _; iexact Hs2
            iexists _; iexact Hs3
          iexact Hrest
        iexact Hg
      isplitl [Ho]; · iexact Ho
      isplitl [H0]
      · iexists _; isplitr; swap; · iexact H0
        ipureintro; exact fun _ => rfl
      isplitl [H1]
      · iexists _; isplitr; swap; · iexact H1
        ipureintro; exact fun _ => rfl
      isplitl [H2]
      · iexists _; isplitr; swap; · iexact H2
        ipureintro; exact fun _ => rfl
      isplitl [H3]
      · iexists _; isplitr; swap; · iexact H3
        ipureintro; exact fun _ => rfl
      isplitl [H4]
      · iexists _; isplitr; swap; · iexact H4
        ipureintro; exact fun _ => rfl
      iexists _; isplitr; swap; · iexact H5
      ipureintro; exact fun h => absurd rfl h

/-- The library's body obligation of the relational data, at every point: nothing of what the buffers may hold is used. -/
theorem hbody1 (c : Dev nD) : (rdat1 A₀ c).BodyObligation (defs₀ (F := Bits)) Variants.none () Set.univ := fun t Y _ => by
  rw [bigSep_W1, bigSep_W1]
  exact sound_body1 A₀ c t Y

end Cert.Kernel.Hand

end
-- ==== Proof.K.R2.Runs.lean ====
import proofs.«415479_j24352464569077_2_alg».proof.Proof.Gen.Kernel.Launch
import proofs.«415479_j24352464569077_2_alg».proof.Proof.Gen.Kernel.Skeleton
import proofs.«415479_j24352464569077_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option synthInstance.maxSize 4096
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's two branch conditions, in closed form over the grid -/

/-- The first branch of the body is taken at the first vocabulary tile of a row tile (vocabulary coordinate 0). -/
abbrev cond2_0 (i : grid2.Coords) : Prop := (Scalar.cmpi .ne (Scalar.extui (Scalar.cmpi .eq (BitVec.ofNat 32 (i 1).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- The second branch is taken at the last vocabulary tile (vocabulary coordinate 3). -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- The four input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Away from the last vocabulary tile nothing is stored into the output block, and it is not written back there. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- At the last vocabulary tile the output block is stored. -/
theorem liveAt2_4 : ∀ t : Fin cfg2.N, cond2_1 (grid2.coords t) → cfg2.idle 4 (grid2.coords t) = false := by decide +kernel

/-! ## The memrefs the body is called with -/

/-- Each window's current staging memref at point `t`, and its wholeness. -/
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x1 .f32 := win2_4.stage (cfg2.slots t 4)
abbrev hs2_4 (t : Fin cfg2.N) : (ms2_4 t).IsWhole := hstage2_4 ((cfg2.slots t 4).cast nbuf2_4)
/-- The three scratch operands: running maximum, running mass, running pick. -/
abbrev scM2_0 : Memref sig .tc .vmem S2048x1 .f32 := Memref.whole cc2_scratch0
abbrev scM2_1 : Memref sig .tc .vmem S2048x1 .f32 := Memref.whole cc2_scratch1
abbrev scM2_2 : Memref sig .tc .vmem S2048x1 .f32 := Memref.whole cc2_scratch2

/-- The region's invariant with the three scratch operands as memrefs owned at some contents, beside the other scoped buffers
    (unopened) and the generator register. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d))
          ∗ Pipeline.scopedRestBut (Ix := Unit) (Name := ℕ) (U := UR sig nD τ) (Lvl := ℕ) (Val := Elt F) spec2 c [cc2_scratch0, cc2_scratch1, cc2_scratch2]) ∗ (∃ r, prngReg c r)) := by
  unfold Pipeline.ΦA; rw [scopedRest2_split]; simp only [scM2_0, scM2_1, scM2_2, owns_whole]; try rfl

/-- The column index vector of a tile, as the body builds it. -/
abbrev colIota2 : IVec S2048x512 32 := iota .tc S2048x512 32 [1] iota_S2048x512_d1_w32

/-- The zero offsets of a whole-buffer access, however spelt. -/
theorem hz2 : (![0, 0] : Fin 2 → Nat) = fun _ => 0 := funext fun a => by fin_cases a <;> rfl

end Cert.Kernel.Hand

end
-- ==== Proof.K.R2.RunA.lean ====
/-
  Region 2 (the head's cross-entropy call): the kernel body's run at a row tile's first vocabulary tile, at any float instance. The run says
  nothing about values: on whole memrefs holding given contents it ends with each scratch vector, and the output block where it
  is stored, holding the store's payload term over those contents.
-/
import proofs.«415479_j24352464569077_2_alg».proof.Proof.K.R2.Runs

set_option synthInstance.maxSize 4096
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- A row tile's first vocabulary tile (the first branch taken, the second not): on whole memrefs — the four inputs at their
    contents, the output block at contents handed back untouched, the three scratch vectors at anything — the body runs to the
    inputs and the output block as they were and the scratch at the tile's step from the reset: maximum at the named constant, no
    mass, no pick. -/
theorem kernelRun2_A (c : Dev nD) (i : grid2.Coords) (arg2 : Memref sig .tc .vmem S2048x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S2048x1 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole)
    (hc0 : cond2_0 i) (hc1 : ¬cond2_1 i)
    (x0 : Vec F S2048x1024 .bf16) (x1 : Vec F S512x1024 .bf16) (x2 : Vec F S1x512 .f32) (x3 : Vec F S2048x1 .i32)
    (xi4 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4
            ∗ owns (c : Thread nD τ) arg7 fullShare (k2_pay2 (k2_pay9 i x0 x1 x2 (k2_pay5 (F := F))))
            ∗ owns (c : Thread nD τ) arg8 fullShare (k2_pay1 (k2_pay10 i x0 x1 x2 (k2_pay5 (F := F)) (k2_pay5 (F := F)) (k2_pay6 (F := F))))
            ∗ owns (c : Thread nD τ) arg9 fullShare (k2_pay3 (BitVec.ofNat 32 (i 1).val) colIota2 (k2_pay8 i x0 x1 x2) x3 (k2_pay7 (F := F)))) -∗ K ⟨⟩))
      ⊢ wp frame (wpE (defs₀ (F := F)) Variants.none c none) E (cc2__ce_kernel_head i arg2 harg2 arg3 harg3 arg4 harg4 arg5 harg5 arg6 harg6 arg7 harg7 arg8 harg8 arg9 harg9) K := by
  simp only [cc2__ce_kernel_head_eq_skeleton]; unfold cc2__ce_kernel_head_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3
  obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    rw [View.read_writes_eq_canon _ _ _ (fun y => ⟨_, List.mem_cons.mpr (Or.inl rfl), View.mem_set_unit_zero hz2 inb_S2048x1_S2048x1_0_0 y⟩)]
    sl_unfold_words
    rw [View.canon_cons_unit_zero hz2]
    simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S512x1024) hz2, View.ld_unit_zero (S := S1x512) hz2, View.ld_unit_zero (S := S2048x1) hz2, View.readCov_unit_zero (S := S2048x1) _ hz2]
  isplitl [H8]
  · iexists _; isplitr; swap; · iexact H8
    ipureintro
    rw [View.read_writes_eq_canon _ _ _ (fun y => ⟨_, List.mem_cons.mpr (Or.inl rfl), View.mem_set_unit_zero hz2 inb_S2048x1_S2048x1_0_0 y⟩)]
    sl_unfold_words
    rw [View.canon_cons_unit_zero hz2]
    simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S512x1024) hz2, View.ld_unit_zero (S := S1x512) hz2, View.ld_unit_zero (S := S2048x1) hz2, View.readCov_unit_zero (S := S2048x1) _ hz2]
  · iexists _; isplitr; swap; · iexact H9
    ipureintro
    rw [View.read_writes_eq_canon _ _ _ (fun y => ⟨_, List.mem_cons.mpr (Or.inl rfl), View.mem_set_unit_zero hz2 inb_S2048x1_S2048x1_0_0 y⟩)]
    sl_unfold_words
    rw [View.canon_cons_unit_zero hz2]
    simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S512x1024) hz2, View.ld_unit_zero (S := S1x512) hz2, View.ld_unit_zero (S := S2048x1) hz2, View.readCov_unit_zero (S := S2048x1) _ hz2]

end Cert.Kernel.Hand

end
-- ==== Proof.K.R2.RunB.lean ====
/-
  Region 2 (the head's cross-entropy call): the kernel body's run at a middle vocabulary tile, at any float instance. The run says
  nothing about values: on whole memrefs holding given contents it ends with each scratch vector, and the output block where it
  is stored, holding the store's payload term over those contents.
-/
import proofs.«415479_j24352464569077_2_alg».proof.Proof.K.R2.Runs

set_option synthInstance.maxSize 4096
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- A middle vocabulary tile (neither branch taken): on whole memrefs — the four inputs at their contents, the output block at
    contents handed back untouched, the three scratch vectors at what the tile before left — the body runs to the inputs and the
    output block as they were and the scratch at the tile's step: the new maximum, the new mass, the new pick. -/
theorem kernelRun2_B (c : Dev nD) (i : grid2.Coords) (arg2 : Memref sig .tc .vmem S2048x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S2048x1 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole)
    (hc0 : ¬cond2_0 i) (hc1 : ¬cond2_1 i)
    (x0 : Vec F S2048x1024 .bf16) (x1 : Vec F S512x1024 .bf16) (x2 : Vec F S1x512 .f32) (x3 : Vec F S2048x1 .i32)
    (xi4 : Vec F S2048x1 .f32) (xm xl xb : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xm ∗ owns (c : Thread nD τ) arg8 fullShare xl ∗ owns (c : Thread nD τ) arg9 fullShare xb
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4
            ∗ owns (c : Thread nD τ) arg7 fullShare (k2_pay2 (k2_pay9 i x0 x1 x2 xm))
            ∗ owns (c : Thread nD τ) arg8 fullShare (k2_pay1 (k2_pay10 i x0 x1 x2 xm xm xl))
            ∗ owns (c : Thread nD τ) arg9 fullShare (k2_pay3 (BitVec.ofNat 32 (i 1).val) colIota2 (k2_pay8 i x0 x1 x2) x3 xb)) -∗ K ⟨⟩))
      ⊢ wp frame (wpE (defs₀ (F := F)) Variants.none c none) E (cc2__ce_kernel_head i arg2 harg2 arg3 harg3 arg4 harg4 arg5 harg5 arg6 harg6 arg7 harg7 arg8 harg8 arg9 harg9) K := by
  simp only [cc2__ce_kernel_head_eq_skeleton]; unfold cc2__ce_kernel_head_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf7; obtain rfl := harg8.eq_unread hf8; obtain rfl := harg9.eq_unread hf9
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    rw [View.read_writes_eq_canon _ _ _ (fun y => ⟨_, List.mem_singleton_self _, View.mem_set_unit_zero hz2 inb_S2048x1_S2048x1_0_0 y⟩)]
    sl_unfold_words
    rw [View.canon_unit_zero hz2]
    simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S512x1024) hz2, View.ld_unit_zero (S := S1x512) hz2, View.ld_unit_zero (S := S2048x1) hz2]
  isplitl [H8]
  · iexists _; isplitr; swap; · iexact H8
    ipureintro
    rw [View.read_writes_eq_canon _ _ _ (fun y => ⟨_, List.mem_singleton_self _, View.mem_set_unit_zero hz2 inb_S2048x1_S2048x1_0_0 y⟩)]
    sl_unfold_words
    rw [View.canon_unit_zero hz2]
    simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S512x1024) hz2, View.ld_unit_zero (S := S1x512) hz2, View.ld_unit_zero (S := S2048x1) hz2]
  · iexists _; isplitr; swap; · iexact H9
    ipureintro
    rw [View.read_writes_eq_canon _ _ _ (fun y => ⟨_, List.mem_singleton_self _, View.mem_set_unit_zero hz2 inb_S2048x1_S2048x1_0_0 y⟩)]
    sl_unfold_words
    rw [View.canon_unit_zero hz2]
    simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S512x1024) hz2, View.ld_unit_zero (S := S1x512) hz2, View.ld_unit_zero (S := S2048x1) hz2]

end Cert.Kernel.Hand

end
-- ==== Proof.K.R2.RunC.lean ====
/-
  Region 2 (the head's cross-entropy call): the kernel body's run at the last vocabulary tile, at any float instance. The run says
  nothing about values: on whole memrefs holding given contents it ends with each scratch vector, and the output block where it
  is stored, holding the store's payload term over those contents.
-/
import proofs.«415479_j24352464569077_2_alg».proof.Proof.K.R2.Runs

set_option synthInstance.maxSize 4096
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The last vocabulary tile (the first branch not taken, the second taken): on whole memrefs — the four inputs at their contents,
    the output block at anything, the three scratch vectors at what the tile before left — the body runs to the inputs as they
    were, the scratch at the tile's step, and the output block at `m + log l - b` of the stepped scratch. -/
theorem kernelRun2_C (c : Dev nD) (i : grid2.Coords) (arg2 : Memref sig .tc .vmem S2048x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S2048x1 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole)
    (hc0 : ¬cond2_0 i) (hc1 : cond2_1 i)
    (x0 : Vec F S2048x1024 .bf16) (x1 : Vec F S512x1024 .bf16) (x2 : Vec F S1x512 .f32) (x3 : Vec F S2048x1 .i32)
    (xm xl xb : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xm ∗ owns (c : Thread nD τ) arg8 fullShare xl ∗ owns (c : Thread nD τ) arg9 fullShare xb
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k2_pay4 (k2_pay2 (k2_pay9 i x0 x1 x2 xm)) (k2_pay1 (k2_pay10 i x0 x1 x2 xm xm xl))
                (k2_pay3 (BitVec.ofNat 32 (i 1).val) colIota2 (k2_pay8 i x0 x1 x2) x3 xb))
            ∗ owns (c : Thread nD τ) arg7 fullShare (k2_pay2 (k2_pay9 i x0 x1 x2 xm))
            ∗ owns (c : Thread nD τ) arg8 fullShare (k2_pay1 (k2_pay10 i x0 x1 x2 xm xm xl))
            ∗ owns (c : Thread nD τ) arg9 fullShare (k2_pay3 (BitVec.ofNat 32 (i 1).val) colIota2 (k2_pay8 i x0 x1 x2) x3 xb)) -∗ K ⟨⟩))
      ⊢ wp frame (wpE (defs₀ (F := F)) Variants.none c none) E (cc2__ce_kernel_head i arg2 harg2 arg3 harg3 arg4 harg4 arg5 harg5 arg6 harg6 arg7 harg7 arg8 harg8 arg9 harg9) K := by
  simp only [cc2__ce_kernel_head_eq_skeleton]; unfold cc2__ce_kernel_head_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg7.eq_unread hf7; obtain rfl := harg8.eq_unread hf8; obtain rfl := harg9.eq_unread hf9
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_words
    rw [View.read_writes_eq_canon _ _ _ (fun y => ⟨_, List.mem_cons.mpr (Or.inl rfl), View.mem_set_unit_zero hz2 inb_S2048x1_S2048x1_0_0 y⟩)]
    rw [View.canon_cons_unit_zero hz2]
    simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S512x1024) hz2, View.ld_unit_zero (S := S1x512) hz2, View.ld_unit_zero (S := S2048x1) hz2, View.readCov_unit_zero (S := S2048x1) _ hz2]
  isplitl [H7]
  · iexists _; isplitr; swap; · iexact H7
    ipureintro
    sl_unfold_words
    rw [View.read_writes_eq_canon _ _ _ (fun y => ⟨_, List.mem_cons.mpr (Or.inl rfl), View.mem_set_unit_zero hz2 inb_S2048x1_S2048x1_0_0 y⟩)]
    rw [View.canon_cons_unit_zero hz2]
    simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S512x1024) hz2, View.ld_unit_zero (S := S1x512) hz2, View.ld_unit_zero (S := S2048x1) hz2, View.readCov_unit_zero (S := S2048x1) _ hz2]
  isplitl [H8]
  · iexists _; isplitr; swap; · iexact H8
    ipureintro
    sl_unfold_words
    rw [View.read_writes_eq_canon _ _ _ (fun y => ⟨_, List.mem_cons.mpr (Or.inl rfl), View.mem_set_unit_zero hz2 inb_S2048x1_S2048x1_0_0 y⟩)]
    rw [View.canon_cons_unit_zero hz2]
    simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S512x1024) hz2, View.ld_unit_zero (S := S1x512) hz2, View.ld_unit_zero (S := S2048x1) hz2, View.readCov_unit_zero (S := S2048x1) _ hz2]
  · iexists _; isplitr; swap; · iexact H9
    ipureintro
    sl_unfold_words
    rw [View.read_writes_eq_canon _ _ _ (fun y => ⟨_, List.mem_cons.mpr (Or.inl rfl), View.mem_set_unit_zero hz2 inb_S2048x1_S2048x1_0_0 y⟩)]
    rw [View.canon_cons_unit_zero hz2]
    simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S512x1024) hz2, View.ld_unit_zero (S := S1x512) hz2, View.ld_unit_zero (S := S2048x1) hz2, View.readCov_unit_zero (S := S2048x1) _ hz2]

end Cert.Kernel.Hand

end
-- ==== Proof.K.R2.Rel.lean ====
/-
  Region 2 (the head's cross-entropy call) at the word-level instance: relational proof data for the pipeline. Nothing names a
  buffer's contents: the invariant at every point is the region's own (each scratch vector at some contents, the generator
  register at some state), each input window's current buffer is handed back as it was found, and of the output window's buffer
  nothing is said. The body obligation follows from the three runs of the body (first, middle and last vocabulary tile of a
  row tile), which hold at any contents of the operands.
-/
import proofs.«415479_j24352464569077_2_alg».proof.Proof.K.R2.RunA
import proofs.«415479_j24352464569077_2_alg».proof.Proof.K.R2.RunB
import proofs.«415479_j24352464569077_2_alg».proof.Proof.K.R2.RunC
import Idealize.ShloMosaic.Lib.Pipeline.Regions
import Idealize.ShloMosaic.Lib.Pipeline.Kit
import Idealize.ShloMosaic.PureOps.BitExact

set_option synthInstance.maxSize 4096
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

local notation "𝕄" => MT nD τ sig Unit (Elt Bits) ℕ (UR sig nD τ) ℕ

/-! ## The proof data -/

/-- Region 2's relational proof data on core `c`, over the window arrays' contents at entry `A₀ c`: an input window's current
    buffer (windows 0 to 3) is left as found; of the output window's (window 4) nothing is said; the invariant at every point is
    the region's own, every scratch vector at some contents; nothing is owed; full shares. -/
def rdat2 (A₀ : (c : Dev nD) → (w : Fin cfg2.W) → Buf (Elt Bits) ((cfg2.win w).arr.view.loc (c : Thread nD τ))) (c : Dev nD) :
    RDat τ (Elt Bits) Unit ℕ (UR sig nD τ) ℕ cfg2 c where
  A := A₀ c
  after w _ Y X := w.val ≠ 4 → X = Y
  Φ _ := Pipeline.ΦA spec2 c
  q _ := fullShare
  owed _ := 0

variable (A₀ : (c : Dev nD) → (w : Fin cfg2.W) → Buf (Elt Bits) ((cfg2.win w).arr.view.loc (c : Thread nD τ)))

theorem hA2 (c : Dev nD) (w : Fin cfg2.W) : (rdat2 A₀ c).A w = A₀ c w := rfl
theorem hq2 (c : Dev nD) (w : Fin cfg2.W) : (rdat2 A₀ c).q w = fullShare := rfl
theorem howed2 (c : Dev nD) (t : Fin (cfg2.N + 1)) : (rdat2 A₀ c).owed t = 0 := rfl
theorem hrec2 (c : Dev nD) : (rdat2 A₀ c).recorded 0 = Set.univ := rfl

/-- The region's own invariant is the proof data's before the first point -/
theorem hin2 (c : Dev nD) : (Pipeline.ΦA spec2 c : sProp 𝕄) ⊢ (rdat2 A₀ c).Φ 0 := Entails.refl _

/-- and after the last. -/
theorem hout2 (c : Dev nD) : (rdat2 A₀ c).Φ (Fin.last cfg2.N) ⊢ (Pipeline.ΦA spec2 c : sProp 𝕄) := Entails.refl _

/-! ## The body obligation, at a generic point -/

set_option maxHeartbeats 4800000 in
/-- The body at any point, whatever the current buffers hold (`Y`): the closed forms of the two branch conditions say which
    of the three runs applies; the invariant hands it the scratch vectors at some contents and takes them back at some contents;
    every input buffer comes back as handed over, the output buffer at some contents; the core owes nothing throughout. -/
theorem sound_body2 (c : Dev nD) (t : Fin cfg2.N) (Y : (w : Fin cfg2.W) → (cfg2.win w).block.Idx → Elt Bits (cfg2.win w).elt) :
    iprop((Pipeline.ΦA spec2 c : sProp 𝕄) ∗ (rdat2 A₀ c).owesAt () t.castSucc
        ∗ owns (c : Thread nD τ) (ms2_0 t) fullShare (Y 0) ∗ owns (c : Thread nD τ) (ms2_1 t) fullShare (Y 1)
        ∗ owns (c : Thread nD τ) (ms2_2 t) fullShare (Y 2) ∗ owns (c : Thread nD τ) (ms2_3 t) fullShare (Y 3)
        ∗ owns (c : Thread nD τ) (ms2_4 t) fullShare (Y 4))
      ⊢ wp frame (wpE (defs₀ (F := Bits)) Variants.none c none) Set.univ (bodyAt2 t) fun _ =>
          iprop((Pipeline.ΦA spec2 c : sProp 𝕄) ∗ (rdat2 A₀ c).owesAt () t.succ
            ∗ (∃ X, ⌜(rdat2 A₀ c).after 0 t (Y 0) X⌝ ∗ owns (c : Thread nD τ) (ms2_0 t) fullShare X)
            ∗ (∃ X, ⌜(rdat2 A₀ c).after 1 t (Y 1) X⌝ ∗ owns (c : Thread nD τ) (ms2_1 t) fullShare X)
            ∗ (∃ X, ⌜(rdat2 A₀ c).after 2 t (Y 2) X⌝ ∗ owns (c : Thread nD τ) (ms2_2 t) fullShare X)
            ∗ (∃ X, ⌜(rdat2 A₀ c).after 3 t (Y 3) X⌝ ∗ owns (c : Thread nD τ) (ms2_3 t) fullShare X)
            ∗ (∃ X, ⌜(rdat2 A₀ c).after 4 t (Y 4) X⌝ ∗ owns (c : Thread nD τ) (ms2_4 t) fullShare X)) := by
  unfold bodyAt2
  rw [show (rdat2 A₀ c).owesAt () t.succ = (rdat2 A₀ c).owesAt () t.castSucc from rfl]
  rw [PhiA2_eq]
  by_cases h0 : t.val % 4 = 0
  · by_cases h1 : t.val % 4 = 3
    · exfalso; omega
    · iintro ⟨⟨⟨⟨Hm, Hl, Hb⟩, Hrest⟩, Hg⟩, Ho, H0, H1, H2, H3, H4⟩
      iapply (kernelRun2_A c (grid2.coords t) (ms2_0 t) (hs2_0 t) (ms2_1 t) (hs2_1 t) (ms2_2 t) (hs2_2 t) (ms2_3 t) (hs2_3 t) (ms2_4 t) (hs2_4 t)
        scM2_0 (Memref.isWhole_whole _) scM2_1 (Memref.isWhole_whole _) scM2_2 (Memref.isWhole_whole _)
        ((hcond2_0 t).mpr h0) (fun h => h1 ((hcond2_1 t).mp h)) (Y 0) (Y 1) (Y 2) (Y 3) (Y 4) Set.univ _)
      isplitl [H0]; · iexact H0
      isplitl [H1]; · iexact H1
      isplitl [H2]; · iexact H2
      isplitl [H3]; · iexact H3
      isplitl [H4]; · iexact H4
      isplitl [Hm]; · iexact Hm
      isplitl [Hl]; · iexact Hl
      isplitl [Hb]; · iexact Hb
      iintro ⟨H0, H1, H2, H3, H4, Hm, Hl, Hb⟩
      isplitl [Hm Hl Hb Hrest Hg]
      · isplitl [Hm Hl Hb Hrest]
        · isplitl [Hm Hl Hb]
          · isplitl [Hm]; · iexists _; iexact Hm
            isplitl [Hl]; · iexists _; iexact Hl
            iexists _; iexact Hb
          iexact Hrest
        iexact Hg
      isplitl [Ho]; · iexact Ho
      isplitl [H0]
      · iexists _; isplitr; swap; · iexact H0
        ipureintro; exact fun _ => rfl
      isplitl [H1]
      · iexists _; isplitr; swap; · iexact H1
        ipureintro; exact fun _ => rfl
      isplitl [H2]
      · iexists _; isplitr; swap; · iexact H2
        ipureintro; exact fun _ => rfl
      isplitl [H3]
      · iexists _; isplitr; swap; · iexact H3
        ipureintro; exact fun _ => rfl
      iexists _; isplitr; swap; · iexact H4
      ipureintro; exact fun h => absurd rfl h
  · by_cases h1 : t.val % 4 = 3
    · iintro ⟨⟨⟨⟨⟨%dm, Hm⟩, ⟨%dl, Hl⟩, ⟨%db, Hb⟩⟩, Hrest⟩, Hg⟩, Ho, H0, H1, H2, H3, H4⟩
      iapply (kernelRun2_C c (grid2.coords t) (ms2_0 t) (hs2_0 t) (ms2_1 t) (hs2_1 t) (ms2_2 t) (hs2_2 t) (ms2_3 t) (hs2_3 t) (ms2_4 t) (hs2_4 t)
        scM2_0 (Memref.isWhole_whole _) scM2_1 (Memref.isWhole_whole _) scM2_2 (Memref.isWhole_whole _)
        (fun h => h0 ((hcond2_0 t).mp h)) ((hcond2_1 t).mpr h1) (Y 0) (Y 1) (Y 2) (Y 3) dm dl db Set.univ _)
      isplitl [H0]; · iexact H0
      isplitl [H1]; · iexact H1
      isplitl [H2]; · iexact H2
      isplitl [H3]; · iexact H3
      isplitl [H4]; · iexists _; iexact H4
      isplitl [Hm]; · iexact Hm
      isplitl [Hl]; · iexact Hl
      isplitl [Hb]; · iexact Hb
      iintro ⟨H0, H1, H2, H3, H4, Hm, Hl, Hb⟩
      isplitl [Hm Hl Hb Hrest Hg]
      · isplitl [Hm Hl Hb Hrest]
        · isplitl [Hm Hl Hb]
          · isplitl [Hm]; · iexists _; iexact Hm
            isplitl [Hl]; · iexists _; iexact Hl
            iexists _; iexact Hb
          iexact Hrest
        iexact Hg
      isplitl [Ho]; · iexact Ho
      isplitl [H0]
      · iexists _; isplitr; swap; · iexact H0
        ipureintro; exact fun _ => rfl
      isplitl [H1]
      · iexists _; isplitr; swap; · iexact H1
        ipureintro; exact fun _ => rfl
      isplitl [H2]
      · iexists _; isplitr; swap; · iexact H2
        ipureintro; exact fun _ => rfl
      isplitl [H3]
      · iexists _; isplitr; swap; · iexact H3
        ipureintro; exact fun _ => rfl
      iexists _; isplitr; swap; · iexact H4
      ipureintro; exact fun h => absurd rfl h
    · iintro ⟨⟨⟨⟨⟨%dm, Hm⟩, ⟨%dl, Hl⟩, ⟨%db, Hb⟩⟩, Hrest⟩, Hg⟩, Ho, H0, H1, H2, H3, H4⟩
      iapply (kernelRun2_B c (grid2.coords t) (ms2_0 t) (hs2_0 t) (ms2_1 t) (hs2_1 t) (ms2_2 t) (hs2_2 t) (ms2_3 t) (hs2_3 t) (ms2_4 t) (hs2_4 t)
        scM2_0 (Memref.isWhole_whole _) scM2_1 (Memref.isWhole_whole _) scM2_2 (Memref.isWhole_whole _)
        (fun h => h0 ((hcond2_0 t).mp h)) (fun h => h1 ((hcond2_1 t).mp h)) (Y 0) (Y 1) (Y 2) (Y 3) (Y 4) dm dl db Set.univ _)
      isplitl [H0]; · iexact H0
      isplitl [H1]; · iexact H1
      isplitl [H2]; · iexact H2
      isplitl [H3]; · iexact H3
      isplitl [H4]; · iexact H4
      isplitl [Hm]; · iexact Hm
      isplitl [Hl]; · iexact Hl
      isplitl [Hb]; · iexact Hb
      iintro ⟨H0, H1, H2, H3, H4, Hm, Hl, Hb⟩
      isplitl [Hm Hl Hb Hrest Hg]
      · isplitl [Hm Hl Hb Hrest]
        · isplitl [Hm Hl Hb]
          · isplitl [Hm]; · iexists _; iexact Hm
            isplitl [Hl]; · iexists _; iexact Hl
            iexists _; iexact Hb
          iexact Hrest
        iexact Hg
      isplitl [Ho]; · iexact Ho
      isplitl [H0]
      · iexists _; isplitr; swap; · iexact H0
        ipureintro; exact fun _ => rfl
      isplitl [H1]
      · iexists _; isplitr; swap; · iexact H1
        ipureintro; exact fun _ => rfl
      isplitl [H2]
      · iexists _; isplitr; swap; · iexact H2
        ipureintro; exact fun _ => rfl
      isplitl [H3]
      · iexists _; isplitr; swap; · iexact H3
        ipureintro; exact fun _ => rfl
      iexists _; isplitr; swap; · iexact H4
      ipureintro; exact fun h => absurd rfl h

/-- The library's body obligation of the relational data, at every point: nothing of what the buffers may hold is used. -/
theorem hbody2 (c : Dev nD) : (rdat2 A₀ c).BodyObligation (defs₀ (F := Bits)) Variants.none () Set.univ := fun t Y _ => by
  rw [bigSep_W2, bigSep_W2]
  exact sound_body2 A₀ c t Y

end Cert.Kernel.Hand

end
-- ==== Proof.FrameK.lean ====
/-
  The kernel, read at bit patterns, runs to its end without a fault and leaves its eight argument arrays as launched.

  Nothing here names what a buffer holds. Each of the three calls leaves its ragged last vocabulary tile unpadded, so at that tile the
  class-weight staging buffer holds, past the array's end, words nothing names; and at bit patterns the matrix product is a sum of chunk terms
  each of which, at a result element, is an uninterpreted word of that element's left row and of the whole right operand, so a logit at a real
  class is not shown independent of those words: what the calls leave in their scratch and output buffers cannot be named. The frame needs none of it: every staging and
  scratch buffer is held at some contents (the relational proof data of each call), the thread state between two items of the program is
  "every buffer at some contents that agree with launch on the arguments", and no call's window arrays depend on what an earlier call left
  (they are casts of arguments and label and mask vectors computed from the targets).
-/
import proofs.«415479_j24352464569077_2_alg».proof.Defs
import proofs.«415479_j24352464569077_2_alg».proof.Proof.K.Frame
import proofs.«415479_j24352464569077_2_alg».proof.Proof.K.Indep
import proofs.«415479_j24352464569077_2_alg».proof.Proof.K.R0.Rel
import proofs.«415479_j24352464569077_2_alg».proof.Proof.K.R1.Rel
import proofs.«415479_j24352464569077_2_alg».proof.Proof.K.R2.Rel

noncomputable section

namespace Cert.Proof

open Idealize.ShloMosaic Idealize.ShloMosaic.TcCoe Idealize.SL.Sem
open Cert.Kernel Cert.Kernel.Gen Cert.Kernel.Hand

variable (m : (ℓ : Loc nD τ sig) → Buf (Elt Bits) ℓ)

/-- The unknowns fixed once, to name the calls' entry contents: every buffer as launched. -/
def outsK : Outs (F := Bits) := fun _ r c => m ((c : Thread nD τ).loc r)

/-- The window arrays of the three calls as each call finds them. -/
def entry0 (c : Dev nD) (w : Fin cfg0.W) := V5 m c (Pipeline.arrRef spec0 w)
def entry1 (c : Dev nD) (w : Fin cfg1.W) := V11 m (outsK m) c (Pipeline.arrRef spec1 w)
def entry2 (c : Dev nD) (w : Fin cfg2.W) := V13 m (outsK m) c (Pipeline.arrRef spec2 w)

/-- The frame of the word-level program. -/
theorem frame_k [hKernel : Cert.Kernel.Facts] [hPre_finite_inputs : Cert.Pre_finite_inputs.Facts] : Cert.frame_Kernel := fun m ρ _ =>
  Cert.Kernel.Hand.frame_k m (rdat0 (entry0 m)) (rdat1 (entry1 m)) (rdat2 (entry2 m)) (outsK m)
    (fun c w => hA0 (entry0 m) c w) (fun c w => hq0 (entry0 m) c w) (fun c t => howed0 (entry0 m) c t) (fun c => hrec0 (entry0 m) c)
    (fun c => hin0 (entry0 m) c) (fun c => hout0 (entry0 m) c) (fun c => hbody0 (entry0 m) c)
    (fun c w => hA1 (entry1 m) c w) (fun c w => hq1 (entry1 m) c w) (fun c t => howed1 (entry1 m) c t) (fun c => hrec1 (entry1 m) c)
    (fun c => hin1 (entry1 m) c) (fun c => hout1 (entry1 m) c) (fun c => hbody1 (entry1 m) c) (hind1 m (outsK m))
    (fun c w => hA2 (entry2 m) c w) (fun c w => hq2 (entry2 m) c w) (fun c t => howed2 (entry2 m) c t) (fun c => hrec2 (entry2 m) c)
    (fun c => hin2 (entry2 m) c) (fun c => hout2 (entry2 m) c) (fun c => hbody2 (entry2 m) c) (hind2 m (outsK m)) ρ

end Cert.Proof

end
-- ==== Proof.KI.Segs.lean ====
/-
  The run of @main at the ideal instance, cut into its fifteen items: the host stretches between the three kernel regions
  are discharged by the generated module, and this module supplies what that module leaves open. Per region: the record that
  says how the thread state "every unscoped buffer at the contents named for this point of @main, the generator register at
  some state, nothing owed" is taken apart at the region's entry (the windows' arrays split off the unscoped buffers, the
  generator register handed to the region's invariant) and put together again at its exit (the arrays back among the
  unscoped buffers, an input's array as entered, the output's at what the write-backs of all grid points leave). The
  contents the three regions leave in their output arrays are chosen in order, each from the proof data of its region at the
  contents the earlier choices determine. Two conclusions: every execution of @main terminates with the eight argument
  arrays unchanged; and the same with the result buffer's final contents named.
-/
import proofs.«415479_j24352464569077_2_alg».proof.Proof.Gen.KernelIdeal.Regions
import Idealize.ShloMosaic.Lib.Pipeline.Regions
import Idealize.ShloMosaic.Lib.Pipeline.RegionsLoop
import Idealize.ShloMosaic.Lib.Pipeline.Frame
import Idealize.ShloMosaic.Lib.Pipeline.Kit
import Idealize.ShloMosaic.PureOps.Ideal

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligationLoose)

local notation "𝕄" => MT nD τ sig Unit (Elt Ideal) ℕ (UR sig nD τ) ℕ
/-- The contents of every core's unscoped buffers, read at the TensorCore's references. -/
abbrev SegV : Type := (c : Dev nD) → (b : Ref sig .tc) → Buf (Elt Ideal) ((c : Thread nD τ).loc b)

variable (m : (ℓ : Loc nD τ sig) → Buf (Elt Ideal) ℓ)

/-! ## The contents the regions leave, chosen in order -/

section Data

variable (dat0 : SegV → (c : Dev nD) → Dat τ (Elt Ideal) Unit ℕ (UR sig nD τ) ℕ cfg0 c)
  (dat1 : SegV → (c : Dev nD) → Dat τ (Elt Ideal) Unit ℕ (UR sig nD τ) ℕ cfg1 c)
  (dat2 : SegV → (c : Dev nD) → Dat τ (Elt Ideal) Unit ℕ (UR sig nD τ) ℕ cfg2 c)

/-- What region 0 leaves in its output array: the write-backs of all its grid points folded, from the contents it is
    entered with. -/
def out6 (c : Dev nD) : Buf (Elt Ideal) ((c : Thread nD τ).loc main_v15) :=
  (dat0 (fun c b => V5 m c b) c).arrAt 5 cfg0.N

/-- The regions' results with region 0's chosen (the others at a placeholder). -/
def outsA : Outs (F := Ideal) := fun _ r c => if h : r = main_v15 then h ▸ out6 m dat0 c else V5 m c r

/-- What region 1 leaves in its output array, entered with the contents region 0's choice determines. -/
def out12 (c : Dev nD) : Buf (Elt Ideal) ((c : Thread nD τ).loc main_v32) :=
  (dat1 (fun c b => V11 m (outsA m dat0) c b) c).arrAt 5 cfg1.N

/-- The regions' results with regions 0 and 1's chosen. -/
def outsB : Outs (F := Ideal) := fun n r c =>
  if n = 12 then (if h : r = main_v32 then h ▸ out12 m dat0 dat1 c else V5 m c r) else outsA m dat0 n r c

/-- What region 2 leaves in its output array, entered with the contents the two earlier choices determine. -/
def out14 (c : Dev nD) : Buf (Elt Ideal) ((c : Thread nD τ).loc main_v38) :=
  (dat2 (fun c b => V13 m (outsB m dat0 dat1) c b) c).arrAt 4 cfg2.N

/-- The regions' results, all three chosen. -/
def outs : Outs (F := Ideal) := fun n r c =>
  if n = 14 then (if h : r = main_v38 then h ▸ out14 m dat0 dat1 dat2 c else V5 m c r) else outsB m dat0 dat1 n r c

theorem outs_6 (c : Dev nD) : outs m dat0 dat1 dat2 6 main_v15 c = out6 m dat0 c := by
  unfold outs outsB outsA
  rw [if_neg (by decide), if_neg (by decide), dif_pos rfl]
theorem outsB_6 (c : Dev nD) : outsB m dat0 dat1 6 main_v15 c = out6 m dat0 c := by
  unfold outsB outsA
  rw [if_neg (by decide), dif_pos rfl]
theorem outsA_6 (c : Dev nD) : outsA m dat0 6 main_v15 c = out6 m dat0 c := by
  unfold outsA
  rw [dif_pos rfl]
theorem outs_12 (c : Dev nD) : outs m dat0 dat1 dat2 12 main_v32 c = out12 m dat0 dat1 c := by
  unfold outs outsB
  rw [if_neg (by decide), if_pos rfl, dif_pos rfl]
theorem outsB_12 (c : Dev nD) : outsB m dat0 dat1 12 main_v32 c = out12 m dat0 dat1 c := by
  unfold outsB
  rw [if_pos rfl, dif_pos rfl]
theorem outs_14 (c : Dev nD) : outs m dat0 dat1 dat2 14 main_v38 c = out14 m dat0 dat1 dat2 c := by
  unfold outs
  rw [if_pos rfl, dif_pos rfl]

/-- The contents before region 1 depend on the regions' results through region 0's only. -/
theorem V11_congr (o o' : Outs (F := Ideal)) (c : Dev nD) (h : o 6 main_v15 c = o' 6 main_v15 c) : V11 m o c = V11 m o' c := by
  show StableHlo.after hostOps1_4 (StableHlo.after hostOps1_3 (StableHlo.after hostOps1_2 (StableHlo.after hostOps1_1 (StableHlo.after hostOps1
      (Function.update (V5 m c) main_v15 (o 6 main_v15 c)))))) = _
  rw [h]
/-- The contents before region 2 depend on the regions' results through regions 0 and 1's only. -/
theorem V13_congr (o o' : Outs (F := Ideal)) (c : Dev nD) (h : o 6 main_v15 c = o' 6 main_v15 c) (h' : o 12 main_v32 c = o' 12 main_v32 c) :
    V13 m o c = V13 m o' c := by
  show StableHlo.after hostOps2 (Function.update (V11 m o c) main_v32 (o 12 main_v32 c)) = _
  rw [V11_congr m o o' c h, h']

/-- Region 1 is entered with the contents its result was chosen from. -/
theorem ent1_eq : (fun (c : Dev nD) (b : Ref sig .tc) => V11 m (outs m dat0 dat1 dat2) c b) = fun (c : Dev nD) (b : Ref sig .tc) => V11 m (outsA m dat0) c b := by
  funext c b
  rw [V11_congr m _ (outsA m dat0) c ((outs_6 m dat0 dat1 dat2 c).trans (outsA_6 m dat0 c).symm)]
/-- Region 2 is entered with the contents its result was chosen from. -/
theorem ent2_eq : (fun (c : Dev nD) (b : Ref sig .tc) => V13 m (outs m dat0 dat1 dat2) c b) = fun (c : Dev nD) (b : Ref sig .tc) => V13 m (outsB m dat0 dat1) c b := by
  funext c b
  rw [V13_congr m _ (outsB m dat0 dat1) c ((outs_6 m dat0 dat1 dat2 c).trans (outsB_6 m dat0 dat1 c).symm)
    ((outs_12 m dat0 dat1 dat2 c).trans (outsB_12 m dat0 dat1 c).symm)]

/-! ## The proof data family and what rides beside the buffers -/

/-- Every pipeline's proof data, each at its region's entry contents. -/
def pdats : (p : Fin 3) → (c : Dev nD) → Dat τ (Elt Ideal) Unit ℕ (UR sig nD τ) ℕ (Pipeline.pin (pcfgs (F := Ideal)) adm p) c
  | ⟨0, _⟩ => fun c => dat0 (fun c b => V5 m c b) c
  | ⟨1, _⟩ => fun c => dat1 (fun c b => V11 m (outs m dat0 dat1 dat2) c b) c
  | ⟨2, _⟩ => fun c => dat2 (fun c b => V13 m (outs m dat0 dat1 dat2) c b) c

/-- No core owes another anything: no level is assigned. -/
abbrev Lz : GSem nD τ sig → Finset Unit := fun _ => ∅
abbrev lvz : GSem nD τ sig → Unit → ℕ := fun _ _ => 0
/-- What rides beside the buffers through every item: the core's generator register at some state (a region's invariant
    takes it in and gives it back) and the core owing nothing. -/
abbrev Rest (c : Dev nD) : sProp 𝕄 := iprop((∃ r, prngReg c r) ∗ ∃ W, owes (c : Thread nD τ) (0 : CellTallies nD τ sig Unit) W)
/-- The same beside every item. -/
abbrev Erest : Fin 4 → Dev nD → sProp 𝕄 := fun _ c => Rest c

end Data

/-! ## Owing nothing, as a pipeline holds it -/

/-- A core owing nothing owes what a pipeline's proof data say at a point where they say nothing is owed and bound the
    recorded pairs by nothing. -/
theorem owesAt_intro {cfg : Pipeline.Cfg sig Λ₀} {c : Dev nD} (dat : Dat τ (Elt Ideal) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [ho]
  iintro ⟨%W, HO⟩; iexists W; isplitr
  · ipureintro; exact fun x _ => Or.inl (hr ▸ Set.mem_univ x)
  iexact HO
/-- And back. -/
theorem owesAt_elim {cfg : Pipeline.Cfg sig Λ₀} {c : Dev nD} (dat : Dat τ (Elt Ideal) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

/-! ## The regions as segments -/

/-- Region 0's arrays at its exit, for any proof data `dat` and any contents `Vin` before and `Vout` after it: if the data's
    arrays are read off `Vin`, `Vout` differs from `Vin` at the output's array only and holds there the fold of the write-backs,
    then every array holds at the exit what the fold leaves (an input's array is never written). -/
theorem seg_hF_of0 {c : Dev nD} (dat : Dat τ (Elt Ideal) Unit ℕ (UR sig nD τ) ℕ cfg0 c) (Vin Vout : Valuation τ sig (Elt Ideal))
    (hA : ∀ w : Fin cfg0.W, dat.A w = Vin (Pipeline.arrRef spec0 w))
    (hof : ∀ r : Ref sig .tc, r ∉ ([main_v15] : List (Ref sig .tc)) → Vout r = Vin r)
    (hout : Vout main_v15 = dat.arrAt 5 cfg0.N) :
    ∀ w : Fin cfg0.W, dat.arrAt w cfg0.N = Vout (Pipeline.arrRef spec0 w) := fun
  | 0 => (dat.arrAt_in 0 rfl _).trans ((hA 0).trans (hof main_v0 (by decide)).symm)
  | 1 => (dat.arrAt_in 1 rfl _).trans ((hA 1).trans (hof main_v11 (by decide)).symm)
  | 2 => (dat.arrAt_in 2 rfl _).trans ((hA 2).trans (hof main_v12 (by decide)).symm)
  | 3 => (dat.arrAt_in 3 rfl _).trans ((hA 3).trans (hof main_v13 (by decide)).symm)
  | 4 => (dat.arrAt_in 4 rfl _).trans ((hA 4).trans (hof main_v14 (by decide)).symm)
  | 5 => hout.symm
  | ⟨_ + 6, h⟩ => absurd h (Nat.not_lt.2 (Nat.le_add_left _ _))

/-- Region 1's arrays at its exit, for any proof data `dat` and any contents `Vin` before and `Vout` after it: if the data's
    arrays are read off `Vin`, `Vout` differs from `Vin` at the output's array only and holds there the fold of the write-backs,
    then every array holds at the exit what the fold leaves (an input's array is never written). -/
theorem seg_hF_of1 {c : Dev nD} (dat : Dat τ (Elt Ideal) Unit ℕ (UR sig nD τ) ℕ cfg1 c) (Vin Vout : Valuation τ sig (Elt Ideal))
    (hA : ∀ w : Fin cfg1.W, dat.A w = Vin (Pipeline.arrRef spec1 w))
    (hof : ∀ r : Ref sig .tc, r ∉ ([main_v32] : List (Ref sig .tc)) → Vout r = Vin r)
    (hout : Vout main_v32 = dat.arrAt 5 cfg1.N) :
    ∀ w : Fin cfg1.W, dat.arrAt w cfg1.N = Vout (Pipeline.arrRef spec1 w) := fun
  | 0 => (dat.arrAt_in 0 rfl _).trans ((hA 0).trans (hof main_v0 (by decide)).symm)
  | 1 => (dat.arrAt_in 1 rfl _).trans ((hA 1).trans (hof main_v28 (by decide)).symm)
  | 2 => (dat.arrAt_in 2 rfl _).trans ((hA 2).trans (hof main_v29 (by decide)).symm)
  | 3 => (dat.arrAt_in 3 rfl _).trans ((hA 3).trans (hof main_v30 (by decide)).symm)
  | 4 => (dat.arrAt_in 4 rfl _).trans ((hA 4).trans (hof main_v31 (by decide)).symm)
  | 5 => hout.symm
  | ⟨_ + 6, h⟩ => absurd h (Nat.not_lt.2 (Nat.le_add_left _ _))

/-- Region 2's arrays at its exit, for any proof data `dat` and any contents `Vin` before and `Vout` after it: if the data's
    arrays are read off `Vin`, `Vout` differs from `Vin` at the output's array only and holds there the fold of the write-backs,
    then every array holds at the exit what the fold leaves (an input's array is never written). -/
theorem seg_hF_of2 {c : Dev nD} (dat : Dat τ (Elt Ideal) Unit ℕ (UR sig nD τ) ℕ cfg2 c) (Vin Vout : Valuation τ sig (Elt Ideal))
    (hA : ∀ w : Fin cfg2.W, dat.A w = Vin (Pipeline.arrRef spec2 w))
    (hof : ∀ r : Ref sig .tc, r ∉ ([main_v38] : List (Ref sig .tc)) → Vout r = Vin r)
    (hout : Vout main_v38 = dat.arrAt 4 cfg2.N) :
    ∀ w : Fin cfg2.W, dat.arrAt w cfg2.N = Vout (Pipeline.arrRef spec2 w) := fun
  | 0 => (dat.arrAt_in 0 rfl _).trans ((hA 0).trans (hof main_v0 (by decide)).symm)
  | 1 => (dat.arrAt_in 1 rfl _).trans ((hA 1).trans (hof main_v35 (by decide)).symm)
  | 2 => (dat.arrAt_in 2 rfl _).trans ((hA 2).trans (hof main_v36 (by decide)).symm)
  | 3 => (dat.arrAt_in 3 rfl _).trans ((hA 3).trans (hof main_v37 (by decide)).symm)
  | 4 => hout.symm
  | ⟨_ + 5, h⟩ => absurd h (Nat.not_lt.2 (Nat.le_add_left _ _))

section Records

variable (dat0 : SegV → (c : Dev nD) → Dat τ (Elt Ideal) Unit ℕ (UR sig nD τ) ℕ cfg0 c)
  (dat1 : SegV → (c : Dev nD) → Dat τ (Elt Ideal) Unit ℕ (UR sig nD τ) ℕ cfg1 c)
  (dat2 : SegV → (c : Dev nD) → Dat τ (Elt Ideal) Unit ℕ (UR sig nD τ) ℕ cfg2 c)

/-! ### What each region's arrays hold at its exit, and that every other buffer is as entered -/

section
variable (A_eq0 : ∀ V c (w : Fin cfg0.W), (dat0 V c).A w = V c (Pipeline.arrRef spec0 w))
include A_eq0 in
theorem seg_hF0 (c : Dev nD) : ∀ w : Fin cfg0.W, (pdats m dat0 dat1 dat2 0 c).arrAt w cfg0.N = V6 m (outs m dat0 dat1 dat2) c (Pipeline.arrRef spec0 w) :=
  seg_hF_of0 (pdats m dat0 dat1 dat2 0 c) (V5 m c) (V6 m (outs m dat0 dat1 dat2) c) (fun w => A_eq0 _ c w) (fun r h => V6_of m (outs m dat0 dat1 dat2) c r h)
    ((Function.update_self (β := fun b : DevRef τ sig => b.ty.Contents (Elt Ideal)) (Proc.devRef .tc main_v15) _ (V5 m c)).trans (outs_6 m dat0 dat1 dat2 c))
end
theorem seg_hrest0 (c : Dev nD) : ∀ b, b ∉ Finset.univ.image (Pipeline.arrRef spec0) → V6 m (outs m dat0 dat1 dat2) c b = V5 m c b :=
  fun b hb => V6_of m (outs m dat0 dat1 dat2) c b fun h => hb (by
    rw [List.mem_singleton] at h; subst h; exact Finset.mem_image.mpr ⟨5, Finset.mem_univ _, rfl⟩)

section
variable (A_eq1 : ∀ V c (w : Fin cfg1.W), (dat1 V c).A w = V c (Pipeline.arrRef spec1 w))
include A_eq1 in
theorem seg_hF1 (c : Dev nD) : ∀ w : Fin cfg1.W, (pdats m dat0 dat1 dat2 1 c).arrAt w cfg1.N = V12 m (outs m dat0 dat1 dat2) c (Pipeline.arrRef spec1 w) :=
  seg_hF_of1 (pdats m dat0 dat1 dat2 1 c) (V11 m (outs m dat0 dat1 dat2) c) (V12 m (outs m dat0 dat1 dat2) c) (fun w => A_eq1 _ c w) (fun r h => V12_of m (outs m dat0 dat1 dat2) c r h)
    ((Function.update_self (β := fun b : DevRef τ sig => b.ty.Contents (Elt Ideal)) (Proc.devRef .tc main_v32) _ (V11 m (outs m dat0 dat1 dat2) c)).trans ((outs_12 m dat0 dat1 dat2 c).trans
      (congrArg (fun V => (dat1 V c).arrAt 5 cfg1.N) (ent1_eq m dat0 dat1 dat2).symm)))
end
theorem seg_hrest1 (c : Dev nD) : ∀ b, b ∉ Finset.univ.image (Pipeline.arrRef spec1) → V12 m (outs m dat0 dat1 dat2) c b = V11 m (outs m dat0 dat1 dat2) c b :=
  fun b hb => V12_of m (outs m dat0 dat1 dat2) c b fun h => hb (by
    rw [List.mem_singleton] at h; subst h; exact Finset.mem_image.mpr ⟨5, Finset.mem_univ _, rfl⟩)

section
variable (A_eq2 : ∀ V c (w : Fin cfg2.W), (dat2 V c).A w = V c (Pipeline.arrRef spec2 w))
include A_eq2 in
theorem seg_hF2 (c : Dev nD) : ∀ w : Fin cfg2.W, (pdats m dat0 dat1 dat2 2 c).arrAt w cfg2.N = V14 m (outs m dat0 dat1 dat2) c (Pipeline.arrRef spec2 w) :=
  seg_hF_of2 (pdats m dat0 dat1 dat2 2 c) (V13 m (outs m dat0 dat1 dat2) c) (V14 m (outs m dat0 dat1 dat2) c) (fun w => A_eq2 _ c w) (fun r h => V14_of m (outs m dat0 dat1 dat2) c r h)
    ((Function.update_self (β := fun b : DevRef τ sig => b.ty.Contents (Elt Ideal)) (Proc.devRef .tc main_v38) _ (V13 m (outs m dat0 dat1 dat2) c)).trans ((outs_14 m dat0 dat1 dat2 c).trans
      (congrArg (fun V => (dat2 V c).arrAt 4 cfg2.N) (ent2_eq m dat0 dat1 dat2).symm)))
end
theorem seg_hrest2 (c : Dev nD) : ∀ b, b ∉ Finset.univ.image (Pipeline.arrRef spec2) → V14 m (outs m dat0 dat1 dat2) c b = V13 m (outs m dat0 dat1 dat2) c b :=
  fun b hb => V14_of m (outs m dat0 dat1 dat2) c b fun h => hb (by
    rw [List.mem_singleton] at h; subst h; exact Finset.mem_image.mpr ⟨4, Finset.mem_univ _, rfl⟩)

variable
  (A_eq0 : ∀ V c (w : Fin cfg0.W), (dat0 V c).A w = V c (Pipeline.arrRef spec0 w))
  (q_eq0 : ∀ V c w, (dat0 V c).q w = fullShare) (owed_eq0 : ∀ V c t, (dat0 V c).owed t = 0)
  (rec_eq0 : ∀ V c t, (dat0 V c).recorded t = Set.univ)
  (hin0 : ∀ V c, Pipeline.ΦA spec0 c ⊢ (dat0 V c).Φ 0) (hout0 : ∀ V c, (dat0 V c).Φ (Fin.last cfg0.N) ⊢ Pipeline.ΦA spec0 c)
  (hbody0 : ∀ V c, BodyObligationLoose (dat0 V c) (defs₀ (F := Ideal)) Variants.none () Set.univ)
  (A_eq1 : ∀ V c (w : Fin cfg1.W), (dat1 V c).A w = V c (Pipeline.arrRef spec1 w))
  (q_eq1 : ∀ V c w, (dat1 V c).q w = fullShare) (owed_eq1 : ∀ V c t, (dat1 V c).owed t = 0)
  (rec_eq1 : ∀ V c t, (dat1 V c).recorded t = Set.univ)
  (hin1 : ∀ V c, Pipeline.ΦA spec1 c ⊢ (dat1 V c).Φ 0) (hout1 : ∀ V c, (dat1 V c).Φ (Fin.last cfg1.N) ⊢ Pipeline.ΦA spec1 c)
  (hbody1 : ∀ V c, BodyObligationLoose (dat1 V c) (defs₀ (F := Ideal)) Variants.none () Set.univ)
  (A_eq2 : ∀ V c (w : Fin cfg2.W), (dat2 V c).A w = V c (Pipeline.arrRef spec2 w))
  (q_eq2 : ∀ V c w, (dat2 V c).q w = fullShare) (owed_eq2 : ∀ V c t, (dat2 V c).owed t = 0)
  (rec_eq2 : ∀ V c t, (dat2 V c).recorded t = Set.univ)
  (hin2 : ∀ V c, Pipeline.ΦA spec2 c ⊢ (dat2 V c).Φ 0) (hout2 : ∀ V c, (dat2 V c).Φ (Fin.last cfg2.N) ⊢ Pipeline.ΦA spec2 c)
  (hbody2 : ∀ V c, BodyObligationLoose (dat2 V c) (defs₀ (F := Ideal)) Variants.none () Set.univ)

-- applying a library lemma stated over the pinned configuration unifies with the printed one only when unification may
-- unfold plain definitions in a metavariable's type
set_option backward.isDefEq.respectTransparency.types false in
/-- REGION 0 over the thread state: entered from every unscoped buffer at the contents before it, left at the contents
    after it. Its arrays are split out of the unscoped buffers and put back at the exit contents (an input's array as
    entered, the output's at the fold of the write-backs); the generator register goes into the region's invariant and
    comes back; nothing is owed; the kernel has no semaphore of its own. -/
def reg0 : RegionSeg (pcfgs (F := Ideal)) adm (pdats m dat0 dat1 dat2) () defs₀ Variants.none Lz lvz 0 where
  win := launch0.win.to₀
  block_pos := launch0.block_pos
  stage_whole := launch0.stage_whole
  K := PEmpty
  osem k := k.elim
  ho := Pipeline.OwnSemFacts.none _
  hbody c := hbody0 _ c
  hwaits := Pipeline.hwaits_of_owed_zero _ _ _ _ Lz lvz 0 fun c t => owed_eq0 _ c t
  pre c := iprop(StableHlo.held (c : Thread nD τ) (Pipeline.ucRefs τ sig) (V5 m c) ∗ Rest c)
  post c := iprop(StableHlo.held (c : Thread nD τ) (Pipeline.ucRefs τ sig) (V6 m (outs m dat0 dat1 dat2) c) ∗ Rest c)
  X c := iprop(∃ r, prngReg c r)
  Y c := iprop(∃ r, prngReg c r)
  Z c := Pipeline.unscopedRest (Ix := Unit) (Name := ℕ) (U := UR sig nD τ) (Lvl := ℕ) spec0 c (fun b => V5 m c b)
  hentry c := by
    rw [Pipeline.ownSems0_none]
    have hsplit := Pipeline.arrays_of_unscopedBufs (p := 0) (pcfgs (F := Ideal)) adm (pdats m dat0 dat1 dat2) launch0.win launch0.arr_whole c
      ((pdats m dat0 dat1 dat2 0 c).share_full fun w => q_eq0 _ c w) (fun b => V5 m c b) fun w => A_eq0 _ c w
    rw [Pipeline.unscopedBufs_held] at hsplit
    have hO := owesAt_intro (pdats m dat0 dat1 dat2 0 c) 0 (owed_eq0 _ c 0) (rec_eq0 _ c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply hO; iexact HO
    isplitl [Hp]; · iexact Hp
    iexact Hrest
  hin c := by
    refine BIBase.Entails.trans ?_ (hin0 _ c)
    unfold Pipeline.ΦA
    iintro ⟨Hp, -, Hr⟩
    isplitl [Hr]; · iexact Hr
    iexact Hp
  hout c := by
    refine BIBase.Entails.trans (hout0 _ c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m dat0 dat1 dat2) ((pdats m dat0 dat1 dat2 0 c).share_full fun w => q_eq0 _ c w)
      (fun b => V5 m c b) (fun b => V6 m (outs m dat0 dat1 dat2) c b) ((pdats m dat0 dat1 dat2 0 c).arrAt · cfg0.N)
      (seg_hF0 m dat0 dat1 dat2 A_eq0 c) (seg_hrest0 m dat0 dat1 dat2 c)
    rw [Pipeline.unscopedBufs_held] at hjoin
    have hO := owesAt_elim (pdats m dat0 dat1 dat2 0 c) (Fin.last cfg0.N) (owed_eq0 _ c _)
    iintro ⟨Ha, HO, HY, Hrest⟩
    imodintro
    isplitl [Ha Hrest]
    · iapply hjoin; isplitl [Ha] <;> iassumption
    isplitl [HY]; · iexact HY
    iapply hO; iexact HO

-- applying a library lemma stated over the pinned configuration unifies with the printed one only when unification may
-- unfold plain definitions in a metavariable's type
set_option backward.isDefEq.respectTransparency.types false in
/-- REGION 1 over the thread state: entered from every unscoped buffer at the contents before it, left at the contents
    after it. Its arrays are split out of the unscoped buffers and put back at the exit contents (an input's array as
    entered, the output's at the fold of the write-backs); the generator register goes into the region's invariant and
    comes back; nothing is owed; the kernel has no semaphore of its own. -/
def reg1 : RegionSeg (pcfgs (F := Ideal)) adm (pdats m dat0 dat1 dat2) () defs₀ Variants.none Lz lvz 1 where
  win := launch1.win.to₀
  block_pos := launch1.block_pos
  stage_whole := launch1.stage_whole
  K := PEmpty
  osem k := k.elim
  ho := Pipeline.OwnSemFacts.none _
  hbody c := hbody1 _ c
  hwaits := Pipeline.hwaits_of_owed_zero _ _ _ _ Lz lvz 1 fun c t => owed_eq1 _ c t
  pre c := iprop(StableHlo.held (c : Thread nD τ) (Pipeline.ucRefs τ sig) (V11 m (outs m dat0 dat1 dat2) c) ∗ Rest c)
  post c := iprop(StableHlo.held (c : Thread nD τ) (Pipeline.ucRefs τ sig) (V12 m (outs m dat0 dat1 dat2) c) ∗ Rest c)
  X c := iprop(∃ r, prngReg c r)
  Y c := iprop(∃ r, prngReg c r)
  Z c := Pipeline.unscopedRest (Ix := Unit) (Name := ℕ) (U := UR sig nD τ) (Lvl := ℕ) spec1 c (fun b => V11 m (outs m dat0 dat1 dat2) c b)
  hentry c := by
    rw [Pipeline.ownSems0_none]
    have hsplit := Pipeline.arrays_of_unscopedBufs (p := 1) (pcfgs (F := Ideal)) adm (pdats m dat0 dat1 dat2) launch1.win launch1.arr_whole c
      ((pdats m dat0 dat1 dat2 1 c).share_full fun w => q_eq1 _ c w) (fun b => V11 m (outs m dat0 dat1 dat2) c b) fun w => A_eq1 _ c w
    rw [Pipeline.unscopedBufs_held] at hsplit
    have hO := owesAt_intro (pdats m dat0 dat1 dat2 1 c) 0 (owed_eq1 _ c 0) (rec_eq1 _ c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply hO; iexact HO
    isplitl [Hp]; · iexact Hp
    iexact Hrest
  hin c := by
    refine BIBase.Entails.trans ?_ (hin1 _ c)
    unfold Pipeline.ΦA
    iintro ⟨Hp, -, Hr⟩
    isplitl [Hr]; · iexact Hr
    iexact Hp
  hout c := by
    refine BIBase.Entails.trans (hout1 _ c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m dat0 dat1 dat2) ((pdats m dat0 dat1 dat2 1 c).share_full fun w => q_eq1 _ c w)
      (fun b => V11 m (outs m dat0 dat1 dat2) c b) (fun b => V12 m (outs m dat0 dat1 dat2) c b) ((pdats m dat0 dat1 dat2 1 c).arrAt · cfg1.N)
      (seg_hF1 m dat0 dat1 dat2 A_eq1 c) (seg_hrest1 m dat0 dat1 dat2 c)
    rw [Pipeline.unscopedBufs_held] at hjoin
    have hO := owesAt_elim (pdats m dat0 dat1 dat2 1 c) (Fin.last cfg1.N) (owed_eq1 _ c _)
    iintro ⟨Ha, HO, HY, Hrest⟩
    imodintro
    isplitl [Ha Hrest]
    · iapply hjoin; isplitl [Ha] <;> iassumption
    isplitl [HY]; · iexact HY
    iapply hO; iexact HO

-- applying a library lemma stated over the pinned configuration unifies with the printed one only when unification may
-- unfold plain definitions in a metavariable's type
set_option backward.isDefEq.respectTransparency.types false in
/-- REGION 2 over the thread state: entered from every unscoped buffer at the contents before it, left at the contents
    after it. Its arrays are split out of the unscoped buffers and put back at the exit contents (an input's array as
    entered, the output's at the fold of the write-backs); the generator register goes into the region's invariant and
    comes back; nothing is owed; the kernel has no semaphore of its own. -/
def reg2 : RegionSeg (pcfgs (F := Ideal)) adm (pdats m dat0 dat1 dat2) () defs₀ Variants.none Lz lvz 2 where
  win := launch2.win.to₀
  block_pos := launch2.block_pos
  stage_whole := launch2.stage_whole
  K := PEmpty
  osem k := k.elim
  ho := Pipeline.OwnSemFacts.none _
  hbody c := hbody2 _ c
  hwaits := Pipeline.hwaits_of_owed_zero _ _ _ _ Lz lvz 2 fun c t => owed_eq2 _ c t
  pre c := iprop(StableHlo.held (c : Thread nD τ) (Pipeline.ucRefs τ sig) (V13 m (outs m dat0 dat1 dat2) c) ∗ Rest c)
  post c := iprop(StableHlo.held (c : Thread nD τ) (Pipeline.ucRefs τ sig) (V14 m (outs m dat0 dat1 dat2) c) ∗ Rest c)
  X c := iprop(∃ r, prngReg c r)
  Y c := iprop(∃ r, prngReg c r)
  Z c := Pipeline.unscopedRest (Ix := Unit) (Name := ℕ) (U := UR sig nD τ) (Lvl := ℕ) spec2 c (fun b => V13 m (outs m dat0 dat1 dat2) c b)
  hentry c := by
    rw [Pipeline.ownSems0_none]
    have hsplit := Pipeline.arrays_of_unscopedBufs (p := 2) (pcfgs (F := Ideal)) adm (pdats m dat0 dat1 dat2) launch2.win launch2.arr_whole c
      ((pdats m dat0 dat1 dat2 2 c).share_full fun w => q_eq2 _ c w) (fun b => V13 m (outs m dat0 dat1 dat2) c b) fun w => A_eq2 _ c w
    rw [Pipeline.unscopedBufs_held] at hsplit
    have hO := owesAt_intro (pdats m dat0 dat1 dat2 2 c) 0 (owed_eq2 _ c 0) (rec_eq2 _ c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply hO; iexact HO
    isplitl [Hp]; · iexact Hp
    iexact Hrest
  hin c := by
    refine BIBase.Entails.trans ?_ (hin2 _ c)
    unfold Pipeline.ΦA
    iintro ⟨Hp, -, Hr⟩
    isplitl [Hr]; · iexact Hr
    iexact Hp
  hout c := by
    refine BIBase.Entails.trans (hout2 _ c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := Ideal)) adm (Ix := Unit) (Name := ℕ) (U := UR sig nD τ) (Lvl := ℕ)
      launch2.win launch2.arr_whole c (pdats m dat0 dat1 dat2) ((pdats m dat0 dat1 dat2 2 c).share_full fun w => q_eq2 _ c w)
      (fun b => V13 m (outs m dat0 dat1 dat2) c b) (fun b => V14 m (outs m dat0 dat1 dat2) c b) ((pdats m dat0 dat1 dat2 2 c).arrAt · cfg2.N)
      (seg_hF2 m dat0 dat1 dat2 A_eq2 c) (seg_hrest2 m dat0 dat1 dat2 c)
    rw [Pipeline.unscopedBufs_held] at hjoin
    have hO := owesAt_elim (pdats m dat0 dat1 dat2 2 c) (Fin.last cfg2.N) (owed_eq2 _ c _)
    iintro ⟨Ha, HO, HY, Hrest⟩
    imodintro
    isplitl [Ha Hrest]
    · iapply hjoin; isplitl [Ha] <;> iassumption
    isplitl [HY]; · iexact HY
    iapply hO; iexact HO

/-! ## The launch and the two conclusions -/

/-- The launch element: the pipeline library's, the whole of the user algebra. -/
abbrev seg_u₀ : UR sig nD τ := initOf (Pipeline.cells cfgs cellOf_inj) (Pipeline.launchToks cfgs cellOf_inj)

/-- The launch element is the library's through the embedding, and no ghost resource rides along. -/
theorem seg_hu₀ : (ownU seg_u₀ : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core beside its buffers makes the rest state: the generator register at its launch state,
    the core owing nothing with nothing recorded. -/
theorem seg_hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lz lvz)
      ⊢ (|={Set.univ}=> bigSep Finset.univ (Erest 0) : sProp 𝕄) := by
  refine Pipeline.initEach Lz lvz fun c => ?_
  iintro ⟨⟨-, HO, -, Hp, -⟩, -⟩
  imodintro
  isplitl [Hp]; · iexists _; iexact Hp
  iexists ∅; iexact HO

/-- The rest state ends owing nothing. -/
theorem seg_hE3 (c : Dev nD) : Erest 3 c ⊢ (iprop(∃ W, owes (c : Thread nD τ) (0 : CellTallies nD τ sig Unit) W) : sProp 𝕄) := by
  iintro ⟨-, HO⟩; iexact HO

include A_eq0 q_eq0 owed_eq0 rec_eq0 hin0 hout0 hbody0 A_eq1 q_eq1 owed_eq1 rec_eq1 hin1 hout1 hbody1 A_eq2 q_eq2 owed_eq2 rec_eq2 hin2 hout2 hbody2 in
/-- THE FRAME at the ideal instance: from any memory with zero counters every weakly fair execution of @main terminates,
    nothing faulting, and every final memory holds the eight argument arrays as launched. -/
theorem frame_ki (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_cond m emb₁ () Variants.none Lz lvz (fun _ _ => rfl) ρ (outs m dat0 dat1 dat2) (pdats m dat0 dat1 dat2)
    0 (fun _ => (BI.emp : sProp 𝕄)) seg_u₀ seg_hu₀ Erest (seg_hE0 ρ) seg_hE3
    (reg0 m dat0 dat1 dat2 A_eq0 q_eq0 owed_eq0 rec_eq0 hin0 hout0 hbody0) (fun _ => .rfl) (fun _ => .rfl)
    (reg1 m dat0 dat1 dat2 A_eq1 q_eq1 owed_eq1 rec_eq1 hin1 hout1 hbody1) (fun _ => .rfl) (fun _ => .rfl)
    (reg2 m dat0 dat1 dat2 A_eq2 q_eq2 owed_eq2 rec_eq2 hin2 hout2 hbody2) (fun _ => .rfl) (fun _ => .rfl)

include A_eq0 q_eq0 owed_eq0 rec_eq0 hin0 hout0 hbody0 A_eq1 q_eq1 owed_eq1 rec_eq1 hin1 hout1 hbody1 A_eq2 q_eq2 owed_eq2 rec_eq2 hin2 hout2 hbody2 in
-- the launch theorem's implicit arguments are found by unifying its conclusion with this one, which takes unfolding plain
-- definitions in a metavariable's type
set_option backward.isDefEq.respectTransparency.types false in
/-- THE RUN WITH ITS VALUE: the same executions, and every final memory also holds in the result buffer what the last host
    stretch computes from the three regions' results. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v41) = V15 m (outs m dat0 dat1 dat2) c main_v41
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := Ideal)) adm (pdats m dat0 dat1 dat2) () cellOf_inj emb₁ defs₀ Variants.none Lz lvz m ρ main
    (segs m (outs m dat0 dat1 dat2) Variants.none Lz lvz Erest () (pdats m dat0 dat1 dat2) (reg0 m dat0 dat1 dat2 A_eq0 q_eq0 owed_eq0 rec_eq0 hin0 hout0 hbody0) (reg1 m dat0 dat1 dat2 A_eq1 q_eq1 owed_eq1 rec_eq1 hin1 hout1 hbody1) (reg2 m dat0 dat1 dat2 A_eq2 q_eq2 owed_eq2 rec_eq2 hin2 hout2 hbody2))
    (fun c Q => by
      rewrite [main_chain c, Seg.run_eq_chain,
        show (segs m (outs m dat0 dat1 dat2) Variants.none Lz lvz Erest () (pdats m dat0 dat1 dat2) (reg0 m dat0 dat1 dat2 A_eq0 q_eq0 owed_eq0 rec_eq0 hin0 hout0 hbody0) (reg1 m dat0 dat1 dat2 A_eq1 q_eq1 owed_eq1 rec_eq1 hin1 hout1 hbody1) (reg2 m dat0 dat1 dat2 A_eq2 q_eq2 owed_eq2 rec_eq2 hin2 hout2 hbody2) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) 0 (fun _ _ => rfl)
    (fun _ => (BI.emp : sProp 𝕄)) seg_u₀ seg_hu₀
    (T₀ := fun c => iprop(StableHlo.held (c : Thread nD τ) (Pipeline.ucRefs τ sig) (V0 m c) ∗ Erest 0 c))
    (Tₙ := fun c => StableHlo.held (c : Thread nD τ) (Pipeline.ucRefs τ sig) (V15 m (outs m dat0 dat1 dat2) c))
    (hch := fun c => ⟨.rfl, .rfl, .rfl, .rfl, .rfl, .rfl, .rfl, .rfl, .rfl, .rfl, .rfl, .rfl, .rfl, .rfl, .rfl, sep_mono .rfl (seg_hE3 c)⟩)
    (hinit := ?_) (QY := fun c s => s.mem ((c.tc : Thread nD τ).loc main_v41) = V15 m (outs m dat0 dat1 dat2) c main_v41
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h => h)
  · -- the launch: the unscoped buffers are held at the launch contents; the rest makes the rest state on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (seg_hE0 ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (Erest 0)]
    isplitl [Hh]; · iexact Hh
    iexact HE
  · -- the end: the result buffer and each argument's buffer read off the last contents
    unfold StableHlo.held
    iintro ⟨Hh, HSI⟩
    ihave Hr := (pointsTo_read_all (Pipeline.ucRefs τ sig) (fun b => ((c : Thread nD τ).1, b)) (V15 m (outs m dat0 dat1 dat2) c) s') $$ [Hh HSI]
    · isplitl [Hh] <;> iassumption
    icases Hr with ⟨%h, HSI⟩
    imodintro
    isplitr
    · ipureintro
      exact ⟨h (Proc.devRef .tc main_v41) (Finset.mem_filter.mpr ⟨StableHlo.devRef_mem_tcRefs main_v41, by decide⟩),
        (h (Proc.devRef .tc main_arg0) (Finset.mem_filter.mpr ⟨StableHlo.devRef_mem_tcRefs main_arg0, by decide⟩)).trans (V15_main_arg0 m (outs m dat0 dat1 dat2) c),
        (h (Proc.devRef .tc main_arg1) (Finset.mem_filter.mpr ⟨StableHlo.devRef_mem_tcRefs main_arg1, by decide⟩)).trans (V15_main_arg1 m (outs m dat0 dat1 dat2) c),
        (h (Proc.devRef .tc main_arg2) (Finset.mem_filter.mpr ⟨StableHlo.devRef_mem_tcRefs main_arg2, by decide⟩)).trans (V15_main_arg2 m (outs m dat0 dat1 dat2) c),
        (h (Proc.devRef .tc main_arg3) (Finset.mem_filter.mpr ⟨StableHlo.devRef_mem_tcRefs main_arg3, by decide⟩)).trans (V15_main_arg3 m (outs m dat0 dat1 dat2) c),
        (h (Proc.devRef .tc main_arg4) (Finset.mem_filter.mpr ⟨StableHlo.devRef_mem_tcRefs main_arg4, by decide⟩)).trans (V15_main_arg4 m (outs m dat0 dat1 dat2) c),
        (h (Proc.devRef .tc main_arg5) (Finset.mem_filter.mpr ⟨StableHlo.devRef_mem_tcRefs main_arg5, by decide⟩)).trans (V15_main_arg5 m (outs m dat0 dat1 dat2) c),
        (h (Proc.devRef .tc main_arg6) (Finset.mem_filter.mpr ⟨StableHlo.devRef_mem_tcRefs main_arg6, by decide⟩)).trans (V15_main_arg6 m (outs m dat0 dat1 dat2) c),
        (h (Proc.devRef .tc main_arg7) (Finset.mem_filter.mpr ⟨StableHlo.devRef_mem_tcRefs main_arg7, by decide⟩)).trans (V15_main_arg7 m (outs m dat0 dat1 dat2) c)⟩
    · iexact HSI

end Records

end Cert.KernelIdeal.Hand

end
-- ==== Proof.KI.R0.Defs.lean ====
/-
  Region 0 (the first projected tail) at the ideal instance: the blocks its windows stage at each grid point, read off the
  contents the region is entered with, and the four scratch vectors (the projected tokens, the running maximum, the running
  mass, the running label pick) after each grid point, by recursion on the point, as terms over the generated payloads; and
  the per-token loss block the last vocabulary step of a row of points stores.
-/
import proofs.«415479_j24352464569077_2_alg».proof.Proof.Gen.KernelIdeal.Skeleton
import proofs.«415479_j24352464569077_2_alg».proof.Proof.Gen.KernelIdeal.Points
import proofs.«415479_j24352464569077_2_alg».proof.Proof.Gen.KernelIdeal.Launch
import Idealize.ShloMosaic.PureOps.Ideal

noncomputable section

namespace Cert.KernelIdeal.Hand

open Cert.KernelIdeal Cert.KernelIdeal.Gen
open Idealize.ShloMosaic Idealize.ShloMosaic.TcCoe
open Idealize.SL Idealize.SL.Sem

/-- The contents every unscoped buffer holds when a region is entered, per core. -/
abbrev VTy : Type := (c : Dev nD) → (b : Ref sig .tc) → Buf (Elt Ideal) ((c : Thread nD τ).loc b)

/-- The four scratch vectors region 0 carries between grid points: the projected tokens `h`, the running maximum `m`,
    the running mass `l` and the running label pick `b`. -/
structure Scr0 where
  h : Vec Ideal S2048x1024 .f32
  m : Vec Ideal S2048x1 .f32
  l : Vec Ideal S2048x1 .f32
  b : Vec Ideal S2048x1 .f32

/-- The token block at point `t`. -/
def xblk0 (V : VTy) (c : Dev nD) (t : Fin cfg0.N) : Vec Ideal S2048x1024 .bf16 :=
  (win0_0.blk t).view.read (Elt Ideal) (V c (Pipeline.arrRef spec0 0))
/-- The projection at point `t` (the whole array). -/
def w1blk0 (V : VTy) (c : Dev nD) (t : Fin cfg0.N) : Vec Ideal S1024x1024 .bf16 :=
  (win0_1.blk t).view.read (Elt Ideal) (V c (Pipeline.arrRef spec0 1))
/-- The label block at point `t`. -/
def labblk0 (V : VTy) (c : Dev nD) (t : Fin cfg0.N) : Vec Ideal S2048x1 .i32 :=
  (win0_3.blk t).view.read (Elt Ideal) (V c (Pipeline.arrRef spec0 3))
/-- The mask block at point `t`. -/
def mskblk0 (V : VTy) (c : Dev nD) (t : Fin cfg0.N) : Vec Ideal S2048x1 .f32 :=
  (win0_4.blk t).view.read (Elt Ideal) (V c (Pipeline.arrRef spec0 4))

/-- The class-weight block at point `t` as the transfer reads it: its rows inside the array. -/
def w2cut0 (V : VTy) (c : Dev nD) (t : Fin cfg0.N) : (win0_2.xblock (grid0.coords t)).Idx → Elt Ideal .bf16 :=
  (win0_2.blk t).view.read (Elt Ideal) (V c (Pipeline.arrRef spec0 2))
/-- The word the class-weight block is filled out with past the array's end: zero. -/
def fill0 : S512x1024.Idx → Elt Ideal .bf16 := fun _ => (0 : EReal)
/-- The class-weight block at point `t`, filled out past the array's end with the one fixed word. -/
def w2blk0 (V : VTy) (c : Dev nD) (t : Fin cfg0.N) : Vec Ideal S512x1024 .bf16 :=
  win0_2.fill (grid0.coords t) fill0 (w2cut0 V c t)

/-- The scratch after the reset the first vocabulary step of a row of points does: the projected tokens, the running
    maximum at the fill, the mass and the pick at zero. -/
def Scr0.first (x : Vec Ideal S2048x1024 .bf16) (w1 : Vec Ideal S1024x1024 .bf16) : Scr0 where
  h := k0_pay4 (F := Ideal) x w1
  m := k0_pay5 (F := Ideal)
  l := k0_pay6 (F := Ideal)
  b := k0_pay7 (F := Ideal)

/-- One vocabulary step on scratch `s` at coordinates `i`, class-weight block `w2`, label block `lab`: the mass rescaled to
    the new maximum and the tile's added, the maximum raised to the tile's, the pick added where the label falls in the tile
    (the mass and the maximum both from the OLD maximum). -/
def Scr0.next (i : grid0.Coords) (s : Scr0) (w2 : Vec Ideal S512x1024 .bf16) (lab : Vec Ideal S2048x1 .i32) : Scr0 where
  h := s.h
  m := k0_pay1 (F := Ideal) (k0_pay9 (F := Ideal) i s.h w2 s.m)
  l := k0_pay10 (F := Ideal) i s.h w2 s.m s.m s.l
  b := k0_pay2 (F := Ideal) (BitVec.ofNat 32 (i 1).val) (iota .tc S2048x512 32 [1] iota_S2048x512_d1_w32) (k0_pay8 (F := Ideal) i s.h w2) lab s.b

/-- The scratch after grid point `n`: at the first vocabulary step of a row of points the reset and one step, else one step
    on what the point before left. -/
def scr0 (V : VTy) (c : Dev nD) : (n : ℕ) → n < cfg0.N → Scr0
  | 0, hn => Scr0.next (grid0.coords ⟨0, hn⟩) (Scr0.first (xblk0 V c ⟨0, hn⟩) (w1blk0 V c ⟨0, hn⟩)) (w2blk0 V c ⟨0, hn⟩) (labblk0 V c ⟨0, hn⟩)
  | n + 1, hn =>
    Scr0.next (grid0.coords ⟨n + 1, hn⟩)
      (if (n + 1) % 16 = 0 then Scr0.first (xblk0 V c ⟨n + 1, hn⟩) (w1blk0 V c ⟨n + 1, hn⟩) else scr0 V c n (Nat.lt_of_succ_lt hn))
      (w2blk0 V c ⟨n + 1, hn⟩) (labblk0 V c ⟨n + 1, hn⟩)

/-- `scr0` at the first vocabulary step of a row of points. -/
theorem scr0_A (V : VTy) (c : Dev nD) (t : Fin cfg0.N) (h0 : t.val % 16 = 0) :
    scr0 V c t.val t.isLt = Scr0.next (grid0.coords t) (Scr0.first (xblk0 V c t) (w1blk0 V c t)) (w2blk0 V c t) (labblk0 V c t) := by
  obtain ⟨n, hn⟩ := t
  cases n with
  | zero => rfl
  | succ n => show Scr0.next _ (if (n + 1) % 16 = 0 then _ else _) _ _ = _; rw [if_pos h0]

/-- `scr0` at a later vocabulary step: one step on what the point before left. -/
theorem scr0_B (V : VTy) (c : Dev nD) (t : Fin cfg0.N) (h0 : ¬t.val % 16 = 0) :
    scr0 V c t.val t.isLt = Scr0.next (grid0.coords t) (scr0 V c (t.val - 1) (Nat.lt_of_le_of_lt (Nat.sub_le _ _) t.isLt)) (w2blk0 V c t) (labblk0 V c t) := by
  obtain ⟨n, hn⟩ := t
  cases n with
  | zero => exact absurd (Nat.zero_mod _) h0
  | succ n => show Scr0.next _ (if (n + 1) % 16 = 0 then _ else _) _ _ = _; rw [if_neg h0]; rfl

/-- The per-token loss block the last vocabulary step of a row of points stores: from the scratch after the point and the
    mask block. -/
def outblk0 (V : VTy) (c : Dev nD) (t : Fin cfg0.N) : Vec Ideal S2048x1 .f32 :=
  k0_pay3 (F := Ideal) (scr0 V c t.val t.isLt).m (scr0 V c t.val t.isLt).l (scr0 V c t.val t.isLt).b (mskblk0 V c t)

end Cert.KernelIdeal.Hand

end
-- ==== Proof.KI.R0.Indep.lean ====
/-
  Region 0 at the ideal instance: the masked logits tile does not depend on what the class-weight block holds past the array's
  end. The tile's column mask says the column's class is below the class count; such a column's logit is a sum over one row
  of the block, a row the transfer moved; every other column is replaced by the fill.
-/
import proofs.«415479_j24352464569077_2_alg».proof.Proof.Gen.KernelIdeal.Skeleton
import proofs.«415479_j24352464569077_2_alg».proof.Proof.Gen.KernelIdeal.Points
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Predicate

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-- A select whose first branches agree wherever the condition holds. -/
theorem select_congr_of_one {s : Shape} {α : Type} (cnd : IVec s 1) (a a' b : s.Idx → α)
    (h : ∀ j, cnd j = 1#1 → a j = a' j) : select cnd a b = select cnd a' b := by
  funext j
  show Scalar.select (cnd j) (a j) (b j) = Scalar.select (cnd j) (a' j) (b j)
  by_cases hc : cnd j = 1#1
  · rw [h j hc]
  · rw [eq_zero_of_ne_one hc, select_zero, select_zero]

/-- The tile's column mask at `j` says the column's class is below the class count. -/
theorem mask0_iff (i : grid0.Coords) (j : S2048x512.Idx) :
    cmpi .slt (addi (broadcast S2048x512 (Scalar.muli (BitVec.ofNat 32 (i 1).val) 512#32)) (iota .tc S2048x512 32 [1] iota_S2048x512_d1_w32)) (broadcast S2048x512 8000#32) j = 1#1
      ↔ (i 1).val * 512 + (j 1).val < 8000 := by
  have hn : (i 1).val < 16 := (i 1).isLt
  have hj : (j 1).val < 512 := (j 1).isLt
  show IntOp.cmpi .slt (IntOp.addi (Scalar.muli (BitVec.ofNat 32 (i 1).val) 512#32) (iota .tc S2048x512 32 [1] iota_S2048x512_d1_w32 j)) 8000#32 = 1#1 ↔ _
  rw [iota_single_apply]
  have e : (IntOp.addi (Scalar.muli (BitVec.ofNat 32 (i 1).val) 512#32) (BitVec.ofNat 32 (j 1).val)).toNat = (i 1).val * 512 + (j 1).val := by
    show (BitVec.ofNat 32 (i 1).val * 512#32 + BitVec.ofNat 32 (j 1).val).toNat = _
    rw [BitVec.toNat_add, BitVec.toNat_mul, BitVec.toNat_ofNat, BitVec.toNat_ofNat, BitVec.toNat_ofNat]
    omega
  rw [StableHlo.Predicate.slt_iff_toNat (by rw [e]; omega) (by decide), e]
  rfl

/-- The class-weight window's cut at coordinates `i`: on the rows, the block's part below the class count; the columns whole. -/
theorem xsize0_2_rows (i : grid0.Coords) : win0_2.xsize i 0 = if ((i 1).val + 1) * 512 ≤ 8000 then 512 else 8000 - (i 1).val * 512 := by
  have hn : (i 1).val < 16 := (i 1).isLt
  show (Pipeline.Clip.of (BitVec.ofNat 32 (i 1).val).toNat 512 8000).extent 512 = _
  rw [BitVec.toNat_ofNat, Nat.mod_eq_of_lt (by omega)]
  unfold Pipeline.Clip.of
  split <;> rfl
theorem xsize0_2_cols (i : grid0.Coords) : win0_2.xsize i 1 = 1024 /- hidden -/ := rfl

/-- A row of the class-weight block whose class is below the class count is one the transfer moves. -/
theorem moved0_2_of_lt (i : grid0.Coords) (r : S512x1024.Idx) (h : (i 1).val * 512 + (r 0).val < 8000) : win0_2.moved i r = true := by
  rw [Pipeline.Window.moved_iff]
  intro a
  have hr0 : (r 0).val < 512 := (r 0).isLt
  have hr1 : (r 1).val < 1024 /- hidden -/ := (r 1).isLt
  match a with
  | ⟨0, _⟩ => rw [show ((⟨0, by decide⟩ : Fin 2)) = 0 from rfl, xsize0_2_rows]; split <;> omega
  | ⟨1, _⟩ => rw [show ((⟨1, by decide⟩ : Fin 2)) = 1 from rfl, xsize0_2_cols]; exact hr1

/-- THE INDEPENDENCE OF THE FILLER. The masked logits tile reads the class-weight block only at rows whose class is below
    the class count: a column past it is replaced by the fill whatever the product was, and a column below it is a sum over
    one row of the block, which the transfer moved. So the tile is the same whatever the block holds past the array's end. -/
theorem k0_pay8_fill_indep (i : grid0.Coords) (h : Vec Ideal S2048x1024 .f32)
    (d d' : S512x1024.Idx → Elt Ideal .bf16) (g : (win0_2.xblock i).Idx → Elt Ideal .bf16) :
    k0_pay8 (F := Ideal) i h (win0_2.fill i d g) = k0_pay8 (F := Ideal) i h (win0_2.fill i d' g) := by
  unfold k0_pay8
  dsimp only
  refine select_congr_of_one _ _ _ _ fun j hj => ?_
  have hlt : (i 1).val * 512 + (j 1).val < 8000 := (mask0_iff i j).mp hj
  refine (Ideal.matmul_constant_zero_apply dot_S2048x1024_S1024x512_S2048x512_1_0_0_1_n_n none _ _ j).trans ((Finset.sum_congr rfl fun k _ => ?_).trans (Ideal.matmul_constant_zero_apply dot_S2048x1024_S1024x512_S2048x512_1_0_0_1_n_n none _ _ j).symm)
  refine congrArg₂ (fun x y : EReal => x * y) rfl ?_
  -- the right operand at (k, column): the block at (column, k), a row the transfer moved
  let r : S512x1024.Idx := fun a => match a with
    | ⟨0, _⟩ => ⟨((dot_S2048x1024_S1024x512_S2048x512_1_0_0_1_n_n).rhsIdx j k 1).val, ((dot_S2048x1024_S1024x512_S2048x512_1_0_0_1_n_n).rhsIdx j k 1).isLt⟩
    | ⟨1, _⟩ => ⟨((dot_S2048x1024_S1024x512_S2048x512_1_0_0_1_n_n).rhsIdx j k 0).val, ((dot_S2048x1024_S1024x512_S2048x512_1_0_0_1_n_n).rhsIdx j k 0).isLt⟩
  have hr0 : (r 0).val = (j 1).val := rfl
  have hmv : win0_2.moved i r = true := moved0_2_of_lt i r (by rw [hr0]; exact hlt)
  refine (transpose_apply _ _ _ _ r (fun b => match b with | ⟨0, _⟩ => rfl | ⟨1, _⟩ => rfl)).trans
    (Eq.trans ?_ (transpose_apply _ _ _ _ r (fun b => match b with | ⟨0, _⟩ => rfl | ⟨1, _⟩ => rfl)).symm)
  rw [shapeCast_self, shapeCast_self]
  unfold Pipeline.Window.fill
  rw [dif_pos hmv, dif_pos hmv]

end Cert.KernelIdeal.Hand

end
-- ==== Proof.KI.R0.Runs.lean ====
/-
  Region 0: what the per-case runs of the kernel body share — the two branch conditions in closed form over the grid, where
  the output window is idle and where it is written back, the staging and scratch memrefs as the pipeline passes them, and the
  region's invariant before the first point with the four scratch buffers set apart.
-/
import proofs.«415479_j24352464569077_2_alg».proof.Proof.Gen.KernelIdeal.Launch
import proofs.«415479_j24352464569077_2_alg».proof.Proof.Gen.KernelIdeal.Skeleton
import proofs.«415479_j24352464569077_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## A whole-buffer store read back -/

/-- What a buffer reads after a list of stores whose LAST is a store of `w` through the whole-shape rectangle at zero offsets:
    `w`, whatever the earlier stores and the prior contents were. -/
theorem read_writes_cons_unit_zero {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self .., View.mem_set_unit_zero h inb y⟩)).trans
    (View.canon_cons_unit_zero h inb w L)

/-! ## The body's branch conditions -/

/-- The condition of the body's first conditional (the reset at the first vocabulary step), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the body's second conditional (the output's store at the last vocabulary step). -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the second conditional fails the output window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- Where it holds the output window is live. -/
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x1 .f32 := win0_5.stage (cfg0.slots t 5)
abbrev hs0_5 (t : Fin cfg0.N) : (ms0_5 t).IsWhole := hstage0_5 ((cfg0.slots t 5).cast nbuf0_5)
/-- The scratch operands: whole scoped buffers of the kernel's own. -/
abbrev scM0_0 : Memref sig .tc .vmem S2048x1024 .f32 := Memref.whole cc0_scratch0
abbrev scM0_1 : Memref sig .tc .vmem S2048x1 .f32 := Memref.whole cc0_scratch1
abbrev scM0_2 : Memref sig .tc .vmem S2048x1 .f32 := Memref.whole cc0_scratch2
abbrev scM0_3 : Memref sig .tc .vmem S2048x1 .f32 := Memref.whole cc0_scratch3

/-- The scoped buffers of the program that are neither a staging buffer of this call nor one of its scratch operands. -/
abbrev rest0 (c : Dev nD) : sProp 𝕄 :=
  Pipeline.scopedRestBut (Ix := Unit) (Name := ℕ) (U := UR sig nD τ) (Lvl := ℕ) (Val := Elt F) spec0 c [cc0_scratch0, cc0_scratch1, cc0_scratch2, cc0_scratch3]

/-- The region's invariant before the first point with the scratch operands as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) ∗ rest0 c) ∗ (∃ r, prngReg c r)) := by
  unfold Pipeline.ΦA; rw [scopedRest0_split]; simp only [scM0_0, scM0_1, scM0_2, scM0_3, owns_whole]; try rfl

end Cert.KernelIdeal.Hand

end
-- ==== Proof.KI.R0.RunA.lean ====
/-
  Region 0, the first vocabulary step of a row of points (the reset taken, the output's store not): the body's run on whole memrefs. It stores the projected tokens and the reset values of the running maximum, mass and pick, then does one vocabulary step on them.
-/
import proofs.«415479_j24352464569077_2_alg».proof.Proof.KI.R0.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 2000000 in
/-- The body at the first vocabulary step of a row of points (the first conditional taken, the second not), on whole memrefs
    holding the token block `x`, the projection `w1`, the class-weight block `w2`, the label block `lab`, the scratch at
    anything: it runs to the continuation with the four blocks as they were, the projected tokens stored, and the running
    maximum, mass and pick at one vocabulary step's values from their reset values. -/
theorem kernelRun0_A (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S2048x1 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1024 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : cond0_0 i) (hc1 : ¬cond0_1 i)
    (x : Vec F S2048x1024 .bf16) (w1 : Vec F S1024x1024 .bf16) (w2 : Vec F S512x1024 .bf16) (lab : Vec F S2048x1 .i32)
    (E : Set ℕ) (K : PUnit → sProp 𝕄) :
    iprop(owns (c : Thread nD τ) arg2 fullShare x ∗ owns (c : Thread nD τ) arg3 fullShare w1 ∗ owns (c : Thread nD τ) arg4 fullShare w2 ∗ owns (c : Thread nD τ) arg5 fullShare lab
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x ∗ owns (c : Thread nD τ) arg3 fullShare w1 ∗ owns (c : Thread nD τ) arg4 fullShare w2 ∗ owns (c : Thread nD τ) arg5 fullShare lab
            ∗ owns (c : Thread nD τ) arg8 fullShare (k0_pay4 x w1)
            ∗ owns (c : Thread nD τ) arg9 fullShare (k0_pay1 (k0_pay9 i (k0_pay4 x w1) w2 (k0_pay5 (F := F))))
            ∗ owns (c : Thread nD τ) arg10 fullShare (k0_pay10 i (k0_pay4 x w1) w2 (k0_pay5 (F := F)) (k0_pay5 (F := F)) (k0_pay6 (F := F)))
            ∗ owns (c : Thread nD τ) arg11 fullShare (k0_pay2 (BitVec.ofNat 32 (i 1).val) (iota .tc S2048x512 32 [1] iota_S2048x512_d1_w32) (k0_pay8 i (k0_pay4 x w1) w2) lab (k0_pay7 (F := F)))) -∗ K ⟨⟩))
      ⊢ wp frame (wpE (defs₀ (F := F)) Variants.none c none) E (cc0__ce_kernel_proj i arg2 harg2 arg3 harg3 arg4 harg4 arg5 harg5 arg6 harg6 arg7 harg7 arg8 harg8 arg9 harg9 arg10 harg10 arg11 harg11) K := by
  have hz : (![0, 0] : Fin 2 → Nat) = fun _ => 0 := funext fun a => by fin_cases a <;> rfl
  simp only [cc0__ce_kernel_proj_eq_skeleton]; unfold cc0__ce_kernel_proj_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%d8, %f8, -, H8⟩, ⟨%d9, %f9, -, H9⟩, ⟨%d10, %f10, -, H10⟩, ⟨%d11, %f11, -, H11⟩, Hk⟩
  obtain rfl := harg2.eq_unread hf2; obtain rfl := harg3.eq_unread hf3; obtain rfl := harg4.eq_unread hf4; obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H8]
  · iexists _; isplitr
    swap; · iexact H8
    ipureintro
    (try sl_unfold_words)
    rw [read_writes_cons_unit_zero (S := S2048x1024) _ _ hz]
    dsimp only
    (try sl_unfold_words)
    simp only [View.readAt_eq_ld, Memref.IsWhole.read_unread, View.ld_unit_zero (S := S2048x1024) hz, View.ld_unit_zero (S := S1024x1024) hz, View.ld_unit_zero (S := S512x1024) hz, View.ld_unit_zero (S := S2048x1) hz, View.readCov_unit_zero (S := S2048x1024) _ hz, View.readCov_unit_zero (S := S2048x1) _ hz]
  isplitl [H9]
  · iexists _; isplitr
    swap; · iexact H9
    ipureintro
    (try sl_unfold_words)
    rw [read_writes_cons_unit_zero (S := S2048x1) _ _ hz]
    dsimp only
    (try sl_unfold_words)
    simp only [View.readAt_eq_ld, Memref.IsWhole.read_unread, View.ld_unit_zero (S := S2048x1024) hz, View.ld_unit_zero (S := S1024x1024) hz, View.ld_unit_zero (S := S512x1024) hz, View.ld_unit_zero (S := S2048x1) hz, View.readCov_unit_zero (S := S2048x1024) _ hz, View.readCov_unit_zero (S := S2048x1) _ hz]
  isplitl [H10]
  · iexists _; isplitr
    swap; · iexact H10
    ipureintro
    (try sl_unfold_words)
    rw [read_writes_cons_unit_zero (S := S2048x1) _ _ hz]
    dsimp only
    (try sl_unfold_words)
    simp only [View.readAt_eq_ld, Memref.IsWhole.read_unread, View.ld_unit_zero (S := S2048x1024) hz, View.ld_unit_zero (S := S1024x1024) hz, View.ld_unit_zero (S := S512x1024) hz, View.ld_unit_zero (S := S2048x1) hz, View.readCov_unit_zero (S := S2048x1024) _ hz, View.readCov_unit_zero (S := S2048x1) _ hz]
  · iexists _; isplitr
    swap; · iexact H11
    ipureintro
    (try sl_unfold_words)
    rw [read_writes_cons_unit_zero (S := S2048x1) _ _ hz]
    dsimp only
    (try sl_unfold_words)
    simp only [View.readAt_eq_ld, Memref.IsWhole.read_unread, View.ld_unit_zero (S := S2048x1024) hz, View.ld_unit_zero (S := S1024x1024) hz, View.ld_unit_zero (S := S512x1024) hz, View.ld_unit_zero (S := S2048x1) hz, View.readCov_unit_zero (S := S2048x1024) _ hz, View.readCov_unit_zero (S := S2048x1) _ hz]

end Cert.KernelIdeal.Hand

end
-- ==== Proof.KI.R0.RunB.lean ====
/-
  Region 0, a middle vocabulary step (neither conditional taken): the body's run on whole memrefs. It loads the projected tokens, the class-weight block and the label block, and leaves the running maximum, mass and pick at one step's values, the maximum and the mass both from the old maximum.
-/
import proofs.«415479_j24352464569077_2_alg».proof.Proof.KI.R0.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 1000000 in
/-- The body at a point where neither conditional is taken, on whole memrefs holding the class-weight block `w2`, the label
    block `lab` and the scratch `h`, `m`, `l`, `b`: it runs to the continuation with those two and `h` as they were and the
    other three scratch buffers at one vocabulary step's values. -/
theorem kernelRun0_B (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S2048x1 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1024 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond0_0 i) (hc1 : ¬cond0_1 i)
    (w2 : Vec F S512x1024 .bf16) (lab : Vec F S2048x1 .i32) (h : Vec F S2048x1024 .f32) (m l b : Vec F S2048x1 .f32)
    (E : Set ℕ) (K : PUnit → sProp 𝕄) :
    iprop(owns (c : Thread nD τ) arg4 fullShare w2 ∗ owns (c : Thread nD τ) arg5 fullShare lab ∗ owns (c : Thread nD τ) arg8 fullShare h
        ∗ owns (c : Thread nD τ) arg9 fullShare m ∗ owns (c : Thread nD τ) arg10 fullShare l ∗ owns (c : Thread nD τ) arg11 fullShare b
        ∗ (iprop(owns (c : Thread nD τ) arg4 fullShare w2 ∗ owns (c : Thread nD τ) arg5 fullShare lab ∗ owns (c : Thread nD τ) arg8 fullShare h
            ∗ owns (c : Thread nD τ) arg9 fullShare (k0_pay1 (k0_pay9 i h w2 m))
            ∗ owns (c : Thread nD τ) arg10 fullShare (k0_pay10 i h w2 m m l)
            ∗ owns (c : Thread nD τ) arg11 fullShare (k0_pay2 (BitVec.ofNat 32 (i 1).val) (iota .tc S2048x512 32 [1] iota_S2048x512_d1_w32) (k0_pay8 i h w2) lab b)) -∗ K ⟨⟩))
      ⊢ wp frame (wpE (defs₀ (F := F)) Variants.none c none) E (cc0__ce_kernel_proj i arg2 harg2 arg3 harg3 arg4 harg4 arg5 harg5 arg6 harg6 arg7 harg7 arg8 harg8 arg9 harg9 arg10 harg10 arg11 harg11) K := by
  have hz : (![0, 0] : Fin 2 → Nat) = fun _ => 0 := funext fun a => by fin_cases a <;> rfl
  simp only [cc0__ce_kernel_proj_eq_skeleton]; unfold cc0__ce_kernel_proj_skel
  simp only [k0_part1_eq_skeleton]; unfold k0_part1_skel
  unfold owns
  iintro ⟨⟨%f4, %hf4, H4⟩, ⟨%f5, %hf5, H5⟩, ⟨%f8, %hf8, H8⟩, ⟨%f9, %hf9, H9⟩, ⟨%f10, %hf10, H10⟩, ⟨%f11, %hf11, H11⟩, Hk⟩
  obtain rfl := harg4.eq_unread hf4; obtain rfl := harg5.eq_unread hf5; obtain rfl := harg8.eq_unread hf8
  obtain rfl := harg9.eq_unread hf9; obtain rfl := harg10.eq_unread hf10; obtain rfl := harg11.eq_unread hf11
  sl_exec (disch := first | exact hc0 | exact hc1)
  sl_step
  iapply Hk
  isplitl [H4]
  · iexists _; isplitr; · ipureintro; exact harg4.read_unread _
    iexact H4
  isplitl [H5]
  · iexists _; isplitr; · ipureintro; exact harg5.read_unread _
    iexact H5
  isplitl [H8]
  · iexists _; isplitr; · ipureintro; exact harg8.read_unread _
    iexact H8
  isplitl [H9]
  · iexists _; isplitr
    swap; · iexact H9
    ipureintro
    rw [read_writes_cons_unit_zero (S := S2048x1) _ _ hz]
    dsimp only
    sl_unfold_words
    simp only [View.readAt_eq_ld, Memref.IsWhole.read_unread, View.ld_unit_zero (S := S2048x1024) hz, View.ld_unit_zero (S := S1024x1024) hz, View.ld_unit_zero (S := S512x1024) hz, View.ld_unit_zero (S := S2048x1) hz, View.readCov_unit_zero (S := S2048x1024) _ hz, View.readCov_unit_zero (S := S2048x1) _ hz]
  isplitl [H10]
  · iexists _; isplitr
    swap; · iexact H10
    ipureintro
    rw [read_writes_cons_unit_zero (S := S2048x1) _ _ hz]
    dsimp only
    sl_unfold_words
    simp only [View.readAt_eq_ld, Memref.IsWhole.read_unread, View.ld_unit_zero (S := S2048x1024) hz, View.ld_unit_zero (S := S1024x1024) hz, View.ld_unit_zero (S := S512x1024) hz, View.ld_unit_zero (S := S2048x1) hz, View.readCov_unit_zero (S := S2048x1024) _ hz, View.readCov_unit_zero (S := S2048x1) _ hz]
  · iexists _; isplitr
    swap; · iexact H11
    ipureintro
    rw [read_writes_cons_unit_zero (S := S2048x1) _ _ hz]
    dsimp only
    sl_unfold_words
    simp only [View.readAt_eq_ld, Memref.IsWhole.read_unread, View.ld_unit_zero (S := S2048x1024) hz, View.ld_unit_zero (S := S1024x1024) hz, View.ld_unit_zero (S := S512x1024) hz, View.ld_unit_zero (S := S2048x1) hz, View.readCov_unit_zero (S := S2048x1024) _ hz, View.readCov_unit_zero (S := S2048x1) _ hz]

end Cert.KernelIdeal.Hand

end
-- ==== Proof.KI.R0.RunC.lean ====
/-
  Region 0, the last vocabulary step of a row of points (the reset not taken, the output's store taken): the body's run on whole memrefs. One vocabulary step, then the per-token loss block from the scratch it has just stored and the mask block.
-/
import proofs.«415479_j24352464569077_2_alg».proof.Proof.KI.R0.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 2000000 in
/-- The body at the last vocabulary step of a row of points (the first conditional not taken, the second taken), on whole
    memrefs holding the class-weight block `w2`, the label block `lab`, the mask block `msk`, the scratch `h`, `m`, `l`,
    `b`, the output's buffer at anything: it runs to the continuation with the blocks and `h` as they were, the other three
    scratch buffers at one vocabulary step's values, and the output's buffer at the per-token loss from those. -/
theorem kernelRun0_C (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S2048x1 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1024 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond0_0 i) (hc1 : cond0_1 i)
    (w2 : Vec F S512x1024 .bf16) (lab : Vec F S2048x1 .i32) (msk : Vec F S2048x1 .f32) (h : Vec F S2048x1024 .f32) (m l b : Vec F S2048x1 .f32)
    (E : Set ℕ) (K : PUnit → sProp 𝕄) :
    iprop(owns (c : Thread nD τ) arg4 fullShare w2 ∗ owns (c : Thread nD τ) arg5 fullShare lab ∗ owns (c : Thread nD τ) arg6 fullShare msk ∗ (∃ d, owns (c : Thread nD τ) arg7 fullShare d) ∗ owns (c : Thread nD τ) arg8 fullShare h
        ∗ owns (c : Thread nD τ) arg9 fullShare m ∗ owns (c : Thread nD τ) arg10 fullShare l ∗ owns (c : Thread nD τ) arg11 fullShare b
        ∗ (iprop(owns (c : Thread nD τ) arg4 fullShare w2 ∗ owns (c : Thread nD τ) arg5 fullShare lab ∗ owns (c : Thread nD τ) arg6 fullShare msk
            ∗ owns (c : Thread nD τ) arg7 fullShare (k0_pay3 (k0_pay1 (k0_pay9 i h w2 m)) (k0_pay10 i h w2 m m l) (k0_pay2 (BitVec.ofNat 32 (i 1).val) (iota .tc S2048x512 32 [1] iota_S2048x512_d1_w32) (k0_pay8 i h w2) lab b) msk)
            ∗ owns (c : Thread nD τ) arg8 fullShare h
            ∗ owns (c : Thread nD τ) arg9 fullShare (k0_pay1 (k0_pay9 i h w2 m))
            ∗ owns (c : Thread nD τ) arg10 fullShare (k0_pay10 i h w2 m m l)
            ∗ owns (c : Thread nD τ) arg11 fullShare (k0_pay2 (BitVec.ofNat 32 (i 1).val) (iota .tc S2048x512 32 [1] iota_S2048x512_d1_w32) (k0_pay8 i h w2) lab b)) -∗ K ⟨⟩))
      ⊢ wp frame (wpE (defs₀ (F := F)) Variants.none c none) E (cc0__ce_kernel_proj i arg2 harg2 arg3 harg3 arg4 harg4 arg5 harg5 arg6 harg6 arg7 harg7 arg8 harg8 arg9 harg9 arg10 harg10 arg11 harg11) K := by
  have hz : (![0, 0] : Fin 2 → Nat) = fun _ => 0 := funext fun a => by fin_cases a <;> rfl
  simp only [cc0__ce_kernel_proj_eq_skeleton]; unfold cc0__ce_kernel_proj_skel
  simp only [k0_part1_eq_skeleton]; unfold k0_part1_skel
  unfold owns
  iintro ⟨⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
  obtain rfl := harg4.eq_unread hf4; obtain rfl := harg5.eq_unread hf5; obtain rfl := harg6.eq_unread hf6; obtain rfl := harg8.eq_unread hf8
  obtain rfl := harg9.eq_unread hf9; obtain rfl := harg10.eq_unread hf10; obtain rfl := harg11.eq_unread hf11
  sl_exec (disch := first | exact hc0 | exact hc1)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    (try sl_unfold_words)
    rw [read_writes_cons_unit_zero (S := S2048x1) _ _ hz]
    dsimp only
    (try sl_unfold_words)
    simp only [View.readAt_eq_ld, Memref.IsWhole.read_unread, View.ld_unit_zero (S := S2048x1024) hz, View.ld_unit_zero (S := S1024x1024) hz, View.ld_unit_zero (S := S512x1024) hz, View.ld_unit_zero (S := S2048x1) hz, View.readCov_unit_zero (S := S2048x1024) _ hz, View.readCov_unit_zero (S := S2048x1) _ hz]
  isplitl [H8]
  · iexists _; isplitr; · ipureintro; exact harg8.read_unread _
    iexact H8
  isplitl [H9]
  · iexists _; isplitr
    swap; · iexact H9
    ipureintro
    (try sl_unfold_words)
    rw [read_writes_cons_unit_zero (S := S2048x1) _ _ hz]
    dsimp only
    (try sl_unfold_words)
    simp only [View.readAt_eq_ld, Memref.IsWhole.read_unread, View.ld_unit_zero (S := S2048x1024) hz, View.ld_unit_zero (S := S1024x1024) hz, View.ld_unit_zero (S := S512x1024) hz, View.ld_unit_zero (S := S2048x1) hz, View.readCov_unit_zero (S := S2048x1024) _ hz, View.readCov_unit_zero (S := S2048x1) _ hz]
  isplitl [H10]
  · iexists _; isplitr
    swap; · iexact H10
    ipureintro
    (try sl_unfold_words)
    rw [read_writes_cons_unit_zero (S := S2048x1) _ _ hz]
    dsimp only
    (try sl_unfold_words)
    simp only [View.readAt_eq_ld, Memref.IsWhole.read_unread, View.ld_unit_zero (S := S2048x1024) hz, View.ld_unit_zero (S := S1024x1024) hz, View.ld_unit_zero (S := S512x1024) hz, View.ld_unit_zero (S := S2048x1) hz, View.readCov_unit_zero (S := S2048x1024) _ hz, View.readCov_unit_zero (S := S2048x1) _ hz]
  · iexists _; isplitr
    swap; · iexact H11
    ipureintro
    (try sl_unfold_words)
    rw [read_writes_cons_unit_zero (S := S2048x1) _ _ hz]
    dsimp only
    (try sl_unfold_words)
    simp only [View.readAt_eq_ld, Memref.IsWhole.read_unread, View.ld_unit_zero (S := S2048x1024) hz, View.ld_unit_zero (S := S1024x1024) hz, View.ld_unit_zero (S := S512x1024) hz, View.ld_unit_zero (S := S2048x1) hz, View.readCov_unit_zero (S := S2048x1024) _ hz, View.readCov_unit_zero (S := S2048x1) _ hz]

end Cert.KernelIdeal.Hand

end
-- ==== Proof.KI.R0.Data.lean ====
/-
  Region 0 at the ideal instance: the proof data of the pipeline (after the body at a point every input's staging buffer holds
  its block, the class-weight window's filled out past the array's end with a fixed word, the output's the per-token loss
  block; the invariant carries the four scratch buffers at the recursion's values), and the body obligation in the form that
  states a window whose blocks may overhang its array only on the rows its transfers move. The body loads the whole
  class-weight buffer, rows past the array's end too; what it stores does not depend on them, which is what lets the scratch
  be named without them.
-/
import proofs.«415479_j24352464569077_2_alg».proof.Proof.KI.R0.Defs
import proofs.«415479_j24352464569077_2_alg».proof.Proof.KI.R0.Indep
import proofs.«415479_j24352464569077_2_alg».proof.Proof.KI.R0.RunA
import proofs.«415479_j24352464569077_2_alg».proof.Proof.KI.R0.RunB
import proofs.«415479_j24352464569077_2_alg».proof.Proof.KI.R0.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The invariant -/

/-- The region's invariant before position `n`: before the first point the launch's (every scratch buffer at anything);
    afterwards the four scratch buffers at what the point before left, the other scoped buffers unopened, the generator
    register at some state. -/
def PhiS0 (V : VTy) (c : Dev nD) : (n : ℕ) → n ≤ cfg0.N → sProp 𝕄
  | 0, _ => Pipeline.ΦA spec0 c
  | n + 1, hn => iprop(iprop(iprop(owns (c : Thread nD τ) scM0_0 fullShare (scr0 V c n hn).h ∗ owns (c : Thread nD τ) scM0_1 fullShare (scr0 V c n hn).m
      ∗ owns (c : Thread nD τ) scM0_2 fullShare (scr0 V c n hn).l ∗ owns (c : Thread nD τ) scM0_3 fullShare (scr0 V c n hn).b) ∗ rest0 c) ∗ (∃ r, prngReg c r))

theorem PhiS0_zero (V : VTy) (c : Dev nD) (n : ℕ) (h : n ≤ cfg0.N) (hz : n = 0) : PhiS0 V c n h = Pipeline.ΦA spec0 c := by
  subst hz; rfl

theorem PhiS0_succ (V : VTy) (c : Dev nD) (n : ℕ) (hn : n < cfg0.N) :
    PhiS0 V c (n + 1) hn = iprop(iprop(iprop(owns (c : Thread nD τ) scM0_0 fullShare (scr0 V c n hn).h ∗ owns (c : Thread nD τ) scM0_1 fullShare (scr0 V c n hn).m
      ∗ owns (c : Thread nD τ) scM0_2 fullShare (scr0 V c n hn).l ∗ owns (c : Thread nD τ) scM0_3 fullShare (scr0 V c n hn).b) ∗ rest0 c) ∗ (∃ r, prngReg c r)) := rfl

theorem PhiS0_pos (V : VTy) (c : Dev nD) (n : ℕ) (h : n ≤ cfg0.N) (hz : n ≠ 0) :
    PhiS0 V c n h = iprop(iprop(iprop(owns (c : Thread nD τ) scM0_0 fullShare (scr0 V c (n - 1) (by omega)).h ∗ owns (c : Thread nD τ) scM0_1 fullShare (scr0 V c (n - 1) (by omega)).m
      ∗ owns (c : Thread nD τ) scM0_2 fullShare (scr0 V c (n - 1) (by omega)).l ∗ owns (c : Thread nD τ) scM0_3 fullShare (scr0 V c (n - 1) (by omega)).b) ∗ rest0 c) ∗ (∃ r, prngReg c r)) := by
  cases n with
  | zero => exact absurd rfl hz
  | succ n => rfl

/-! ## The proof data -/

/-- Region 0's proof data on core `c`: the arrays as the region finds them; after the body at point `t` each input's
    buffer at its block (the class-weight block filled out with the fixed word), the output's at the loss block; the
    invariant `PhiS0`; nothing owed; full shares. -/
def dat0 (V : VTy) (c : Dev nD) : Dat τ (Elt Ideal) Unit ℕ (UR sig nD τ) ℕ cfg0 c where
  A w := V c (Pipeline.arrRef spec0 w)
  after w t := match w with
    | ⟨0, _⟩ => xblk0 V c t
    | ⟨1, _⟩ => w1blk0 V c t
    | ⟨2, _⟩ => w2blk0 V c t
    | ⟨3, _⟩ => labblk0 V c t
    | ⟨4, _⟩ => mskblk0 V c t
    | ⟨5, _⟩ => outblk0 V c t
  Φ t := PhiS0 V c t.val (Nat.le_of_lt_succ t.isLt)
  q _ := fullShare
  owed _ := 0

theorem A_eq0 (V : VTy) (c : Dev nD) (w : Fin cfg0.W) : (dat0 V c).A w = V c (Pipeline.arrRef spec0 w) := by
  dsimp only [dat0]
theorem q_eq0 (V : VTy) (c : Dev nD) (w : Fin cfg0.W) : (dat0 V c).q w = fullShare := rfl
theorem owed_eq0 (V : VTy) (c : Dev nD) (t : Fin (cfg0.N + 1)) : (dat0 V c).owed t = 0 := rfl
theorem rec_eq0 (V : VTy) (c : Dev nD) (t : Fin (cfg0.N + 1)) : (dat0 V c).recorded t = Set.univ := rfl

theorem PhiS0_castSucc (V : VTy) (c : Dev nD) (t : Fin cfg0.N) :
    (dat0 V c).Φ t.castSucc = PhiS0 V c t.val (Nat.le_of_lt t.isLt) := by
  dsimp only [dat0]; simp only [Fin.coe_castSucc]

theorem after0_0 (V : VTy) (c : Dev nD) (t : Fin cfg0.N) : (dat0 V c).after 0 t = xblk0 V c t := by dsimp only [dat0]
theorem after0_1 (V : VTy) (c : Dev nD) (t : Fin cfg0.N) : (dat0 V c).after 1 t = w1blk0 V c t := by dsimp only [dat0]
theorem after0_2 (V : VTy) (c : Dev nD) (t : Fin cfg0.N) : (dat0 V c).after 2 t = w2blk0 V c t := by dsimp only [dat0]
theorem after0_3 (V : VTy) (c : Dev nD) (t : Fin cfg0.N) : (dat0 V c).after 3 t = labblk0 V c t := by dsimp only [dat0]
theorem after0_4 (V : VTy) (c : Dev nD) (t : Fin cfg0.N) : (dat0 V c).after 4 t = mskblk0 V c t := by dsimp only [dat0]
theorem after0_5 (V : VTy) (c : Dev nD) (t : Fin cfg0.N) : (dat0 V c).after 5 t = outblk0 V c t := by dsimp only [dat0]

/-! ## What the body finds in the inputs' buffers -/

theorem before0_0 (V : VTy) (c : Dev nD) (t : Fin cfg0.N) (d) : (dat0 V c).before 0 t d = xblk0 V c t :=
  ((dat0 V c).before_in_eq_fetched 0 rfl (fun _ => rfl) (fun _ _ _ => rfl) (fun t => by rw [after0_0]; unfold Dat.blockOf xblk0; rw [A_eq0]; try rfl) t d).trans
    (by unfold Dat.fetched Dat.blockOf xblk0; rw [A_eq0]; try rfl)
theorem before0_1 (V : VTy) (c : Dev nD) (t : Fin cfg0.N) (d) : (dat0 V c).before 1 t d = w1blk0 V c t :=
  ((dat0 V c).before_in_eq_fetched 1 rfl (fun _ => rfl) (fun _ _ _ => rfl) (fun t => by rw [after0_1]; unfold Dat.blockOf w1blk0; rw [A_eq0]; try rfl) t d).trans
    (by unfold Dat.fetched Dat.blockOf w1blk0; rw [A_eq0]; try rfl)
theorem before0_3 (V : VTy) (c : Dev nD) (t : Fin cfg0.N) (d) : (dat0 V c).before 3 t d = labblk0 V c t :=
  ((dat0 V c).before_in_eq_fetched 3 rfl (fun _ => rfl) (fun _ _ _ => rfl) (fun t => by rw [after0_3]; unfold Dat.blockOf labblk0; rw [A_eq0]; try rfl) t d).trans
    (by unfold Dat.fetched Dat.blockOf labblk0; rw [A_eq0]; try rfl)
theorem before0_4 (V : VTy) (c : Dev nD) (t : Fin cfg0.N) (d) : (dat0 V c).before 4 t d = mskblk0 V c t :=
  ((dat0 V c).before_in_eq_fetched 4 rfl (fun _ => rfl) (fun _ _ _ => rfl) (fun t => by rw [after0_4]; unfold Dat.blockOf mskblk0; rw [A_eq0]; try rfl) t d).trans
    (by unfold Dat.fetched Dat.blockOf mskblk0; rw [A_eq0]; try rfl)
/-- The class-weight window is fetched at every point: its buffer holds the block's rows inside the array and `d` elsewhere. -/
theorem before0_2 (V : VTy) (c : Dev nD) (t : Fin cfg0.N) (d) :
    (dat0 V c).before 2 t d = win0_2.fill (grid0.coords t) d (w2cut0 V c t) := by
  unfold Dat.before; rw [if_pos (fetch0_2 t)]; unfold Dat.fetched Dat.blockOf w2cut0; rw [A_eq0]; try rfl

/-! ## What the body is to leave in each window's buffer -/

theorem leaves0_0 (V : VTy) (c : Dev nD) (t : Fin cfg0.N) : (dat0 V c).leaves 0 t = owns (c : Thread nD τ) (ms0_0 t) fullShare (xblk0 V c t) := by
  unfold Dat.leaves; rw [liveAt0_0 t, after0_0]
theorem leaves0_1 (V : VTy) (c : Dev nD) (t : Fin cfg0.N) : (dat0 V c).leaves 1 t = owns (c : Thread nD τ) (ms0_1 t) fullShare (w1blk0 V c t) := by
  unfold Dat.leaves; rw [liveAt0_1 t, after0_1]
theorem leaves0_3 (V : VTy) (c : Dev nD) (t : Fin cfg0.N) : (dat0 V c).leaves 3 t = owns (c : Thread nD τ) (ms0_3 t) fullShare (labblk0 V c t) := by
  unfold Dat.leaves; rw [liveAt0_3 t, after0_3]
theorem leaves0_4 (V : VTy) (c : Dev nD) (t : Fin cfg0.N) : (dat0 V c).leaves 4 t = owns (c : Thread nD τ) (ms0_4 t) fullShare (mskblk0 V c t) := by
  unfold Dat.leaves; rw [liveAt0_4 t, after0_4]
/-- The class-weight window's blocks may overhang the array: its buffer is stated on the rows the transfer moves. -/
theorem leaves0_2 (V : VTy) (c : Dev nD) (t : Fin cfg0.N) :
    (dat0 V c).leaves 2 t = iprop(∃ d, owns (c : Thread nD τ) (ms0_2 t) fullShare (win0_2.fill (grid0.coords t) d (w2cut0 V c t))) := by
  unfold Dat.leaves; rw [liveAt0_2 t, after0_2]
  show iprop(∃ d, owns (c : Thread nD τ) (ms0_2 t) fullShare (win0_2.fill (grid0.coords t) d (win0_2.cut (grid0.coords t) (w2blk0 V c t)))) = _
  unfold w2blk0; rw [Pipeline.Window.cut_fill]
/-- At the last vocabulary step of a row of points the output's buffer is to hold the loss block. -/
theorem leaves0_5 (V : VTy) (c : Dev nD) (t : Fin cfg0.N) (hc1 : cond0_1 (grid0.coords t)) :
    (dat0 V c).leaves 5 t = owns (c : Thread nD τ) (ms0_5 t) fullShare (outblk0 V c t) := by
  unfold Dat.leaves; rw [liveAt0_5 t hc1, after0_5]

/-! ## The filler does not matter, for the maximum and the mass too -/

theorem k0_pay9_fill_indep (i : grid0.Coords) (h : Vec Ideal S2048x1024 .f32) (d d' : S512x1024.Idx → Elt Ideal .bf16)
    (g : (win0_2.xblock i).Idx → Elt Ideal .bf16) (m : Vec Ideal S2048x1 .f32) :
    k0_pay9 (F := Ideal) i h (win0_2.fill i d g) m = k0_pay9 (F := Ideal) i h (win0_2.fill i d' g) m := by
  unfold k0_pay9; rw [k0_pay8_fill_indep i h d d' g]
theorem k0_pay10_fill_indep (i : grid0.Coords) (h : Vec Ideal S2048x1024 .f32) (d d' : S512x1024.Idx → Elt Ideal .bf16)
    (g : (win0_2.xblock i).Idx → Elt Ideal .bf16) (m m' l : Vec Ideal S2048x1 .f32) :
    k0_pay10 (F := Ideal) i h (win0_2.fill i d g) m m' l = k0_pay10 (F := Ideal) i h (win0_2.fill i d' g) m m' l := by
  unfold k0_pay10; rw [k0_pay8_fill_indep i h d d' g, k0_pay9_fill_indep i h d d' g m]

/-! ## The invariant forgets -/

/-- After any point but the first the invariant gives the launch's back: the scratch's named contents are forgotten. -/
theorem Phi_out0 (V : VTy) (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1, HS2, HS3⟩, Hr⟩, Hg⟩
  isplitl [HS0 HS1 HS2 HS3 Hr]
  · isplitl [HS0 HS1 HS2 HS3]
    · isplitl [HS0]; · iexists _; iexact HS0
      isplitl [HS1]; · iexists _; iexact HS1
      isplitl [HS2]; · iexists _; iexact HS2
      iexists _; iexact HS3
    iexact Hr
  iexact Hg

/-- At any position. -/
theorem Phi_any0 (V : VTy) (c : Dev nD) (t : Fin (cfg0.N + 1)) : (dat0 V c).Φ t ⊢ Pipeline.ΦA spec0 c := by
  by_cases ht : t.val = 0
  · rw [show (dat0 V c).Φ t = PhiS0 V c t.val (Nat.le_of_lt_succ t.isLt) from rfl, PhiS0_zero V c _ _ ht]
  · exact Phi_out0 V c t ht

theorem hin0 (V : VTy) (c : Dev nD) : Pipeline.ΦA spec0 c ⊢ (dat0 V c).Φ 0 := by
  rw [show (dat0 V c).Φ 0 = PhiS0 V c 0 (Nat.zero_le _) from rfl, PhiS0_zero V c 0 _ rfl]

theorem hout0 (V : VTy) (c : Dev nD) : (dat0 V c).Φ (Fin.last cfg0.N) ⊢ Pipeline.ΦA spec0 c :=
  Phi_any0 V c _

/-! ## The body obligation, at a generic point -/

def bodyPre0 (V : VTy) (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (V : VTy) (c : Dev nD) (t : Fin cfg0.N) : sProp 𝕄 :=
  iprop((dat0 V c).Φ t.succ ∗ (dat0 V c).owesAt () t.succ
    ∗ (dat0 V c).leaves 0 t ∗ (dat0 V c).leaves 1 t ∗ (dat0 V c).leaves 2 t
    ∗ (dat0 V c).leaves 3 t ∗ (dat0 V c).leaves 4 t ∗ (dat0 V c).leaves 5 t)

set_option maxHeartbeats 4800000 in
/-- The body at any point: the inputs' buffers hold their blocks, the class-weight window's filled out with words nothing
    names; the closed forms say which control case the point is in; the run of that case applies, on the scratch the point
    before left (at anything at a first vocabulary step); what it leaves is one vocabulary step of the recursion, since the
    masked tile, and with it the maximum and the mass, do not depend on the words past the array's end. -/
theorem sound_body0 (V : VTy) (c : Dev nD) (t : Fin cfg0.N) :
    bodyPre0 V c t ⊢ wp frame (wpE (defs₀ (F := Ideal)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4]
  have hN : t.val < 32 := lt_of_lt_of_eq t.isLt (show cfg0.N = 32 from N_0)
  by_cases h0 : t.val % 16 = 0
  · have h1 : ¬t.val % 16 = 15 := by omega
    have hc0 : cond0_0 (grid0.coords t) := (hcond0_0 t).mpr h0
    have hc1 : ¬cond0_1 (grid0.coords t) := fun h => h1 ((hcond0_1 t).mp h)
    rw [Dat.leaves_idle (dat0 V c) 5 t (idleAt0_5 t hc1) (noFlush0_5 t hc1)]
    rw [scr0_A V c t h0]
    unfold Scr0.next Scr0.first w2blk0; dsimp only
    refine (sep_mono (Phi_any0 V c t.castSucc) .rfl).trans ?_
    rw [PhiA0_eq]
    iintro ⟨⟨⟨⟨HS0, HS1, HS2, HS3⟩, Hr⟩, Hg⟩, Ho, ⟨%d0, H0⟩, ⟨%d1, H1⟩, ⟨%d2, H2⟩, ⟨%d3, H3⟩, ⟨%d4, H4⟩, H5⟩
    · have hrun := kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1
        (xblk0 V c t) (w1blk0 V c t) (win0_2.fill (grid0.coords t) d2 (w2cut0 V c t)) (labblk0 V c t) Set.univ
      rw [k0_pay9_fill_indep _ _ d2 fill0, k0_pay10_fill_indep _ _ d2 fill0, k0_pay8_fill_indep _ _ d2 fill0] at hrun
      iapply (hrun _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, HS0, HS1, HS2, HS3⟩
      isplitl [HS0 HS1 HS2 HS3 Hr Hg]
      · isplitl [HS0 HS1 HS2 HS3 Hr]
        · isplitl [HS0 HS1 HS2 HS3]
          · isplitl [HS0]; · iexact HS0
            isplitl [HS1]; · iexact HS1
            isplitl [HS2]; · iexact HS2
            iexact HS3
          iexact Hr
        iexact Hg
      isplitl [Ho]; · iexact Ho
      isplitl [H0]; · iexact H0
      isplitl [H1]; · iexact H1
      isplitl [H2]; · iexists d2; iexact H2
      isplitl [H3]; · iexact H3
      isplitl [H4]; · iexact H4
      iexact H5
  · have hz : t.val ≠ 0 := fun e => h0 (by rw [e])
    have hc0 : ¬cond0_0 (grid0.coords t) := fun h => h0 ((hcond0_0 t).mp h)
    by_cases h1 : t.val % 16 = 15
    · have hc1 : cond0_1 (grid0.coords t) := (hcond0_1 t).mpr h1
      rw [leaves0_5 V c t hc1]
      unfold outblk0
      rw [scr0_B V c t h0]
      unfold Scr0.next w2blk0; dsimp only
      rw [PhiS0_castSucc V c t, PhiS0_pos V c _ _ hz]
      iintro ⟨⟨⟨⟨HS0, HS1, HS2, HS3⟩, Hr⟩, Hg⟩, Ho, ⟨%d0, H0⟩, ⟨%d1, H1⟩, ⟨%d2, H2⟩, ⟨%d3, H3⟩, ⟨%d4, H4⟩, ⟨%d5, H5⟩⟩
      have hrun := kernelRun0_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1
        (win0_2.fill (grid0.coords t) d2 (w2cut0 V c t)) (labblk0 V c t) (mskblk0 V c t) (scr0 V c (t.val - 1) (Nat.lt_of_le_of_lt (Nat.sub_le _ _) t.isLt)).h (scr0 V c (t.val - 1) (Nat.lt_of_le_of_lt (Nat.sub_le _ _) t.isLt)).m (scr0 V c (t.val - 1) (Nat.lt_of_le_of_lt (Nat.sub_le _ _) t.isLt)).l (scr0 V c (t.val - 1) (Nat.lt_of_le_of_lt (Nat.sub_le _ _) t.isLt)).b Set.univ
      rw [k0_pay9_fill_indep _ _ d2 fill0, k0_pay10_fill_indep _ _ d2 fill0, k0_pay8_fill_indep _ _ d2 fill0] at hrun
      iapply (hrun _)
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H2, H3, H4, H5, HS0, HS1, HS2, HS3⟩
      isplitl [HS0 HS1 HS2 HS3 Hr Hg]
      · isplitl [HS0 HS1 HS2 HS3 Hr]
        · isplitl [HS0 HS1 HS2 HS3]
          · isplitl [HS0]; · iexact HS0
            isplitl [HS1]; · iexact HS1
            isplitl [HS2]; · iexact HS2
            iexact HS3
          iexact Hr
        iexact Hg
      isplitl [Ho]; · iexact Ho
      isplitl [H0]; · iexact H0
      isplitl [H1]; · iexact H1
      isplitl [H2]; · iexists d2; iexact H2
      isplitl [H3]; · iexact H3
      isplitl [H4]; · iexact H4
      iexact H5
    · have hc1 : ¬cond0_1 (grid0.coords t) := fun h => h1 ((hcond0_1 t).mp h)
      rw [Dat.leaves_idle (dat0 V c) 5 t (idleAt0_5 t hc1) (noFlush0_5 t hc1)]
      rw [scr0_B V c t h0]
      unfold Scr0.next w2blk0; dsimp only
      rw [PhiS0_castSucc V c t, PhiS0_pos V c _ _ hz]
      iintro ⟨⟨⟨⟨HS0, HS1, HS2, HS3⟩, Hr⟩, Hg⟩, Ho, ⟨%d0, H0⟩, ⟨%d1, H1⟩, ⟨%d2, H2⟩, ⟨%d3, H3⟩, ⟨%d4, H4⟩, H5⟩
      have hrun := kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1
        (win0_2.fill (grid0.coords t) d2 (w2cut0 V c t)) (labblk0 V c t) (scr0 V c (t.val - 1) (Nat.lt_of_le_of_lt (Nat.sub_le _ _) t.isLt)).h (scr0 V c (t.val - 1) (Nat.lt_of_le_of_lt (Nat.sub_le _ _) t.isLt)).m (scr0 V c (t.val - 1) (Nat.lt_of_le_of_lt (Nat.sub_le _ _) t.isLt)).l (scr0 V c (t.val - 1) (Nat.lt_of_le_of_lt (Nat.sub_le _ _) t.isLt)).b Set.univ
      rw [k0_pay9_fill_indep _ _ d2 fill0, k0_pay10_fill_indep _ _ d2 fill0, k0_pay8_fill_indep _ _ d2 fill0] at hrun
      iapply (hrun _)
      isplitl [H2]; · iexact H2
      isplitl [H3]; · iexact H3
      isplitl [HS0]; · iexact HS0
      isplitl [HS1]; · iexact HS1
      isplitl [HS2]; · iexact HS2
      isplitl [HS3]; · iexact HS3
      iintro ⟨H2, H3, HS0, HS1, HS2, HS3⟩
      isplitl [HS0 HS1 HS2 HS3 Hr Hg]
      · isplitl [HS0 HS1 HS2 HS3 Hr]
        · isplitl [HS0 HS1 HS2 HS3]
          · isplitl [HS0]; · iexact HS0
            isplitl [HS1]; · iexact HS1
            isplitl [HS2]; · iexact HS2
            iexact HS3
          iexact Hr
        iexact Hg
      isplitl [Ho]; · iexact Ho
      isplitl [H0]; · iexact H0
      isplitl [H1]; · iexact H1
      isplitl [H2]; · iexists d2; iexact H2
      isplitl [H3]; · iexact H3
      isplitl [H4]; · iexact H4
      iexact H5

/-- The library's body obligation, at every point. -/
theorem body_obligation0 (V : VTy) (c : Dev nD) : BodyObligationLoose (dat0 V c) (defs₀ (F := Ideal)) Variants.none () Set.univ := fun t => by
  rw [bigSep_W0, bigSep_W0]
  exact sound_body0 V c t

end Cert.KernelIdeal.Hand

end
-- ==== Proof.KI.R1.Defs.lean ====
/-
  Region 1 (the second projected tail) at the ideal instance: the blocks its windows stage at each grid point, read off the
  contents the region is entered with, and the four scratch vectors (the projected tokens, the running maximum, the running
  mass, the running label pick) after each grid point, by recursion on the point, as terms over the generated payloads; and
  the per-token loss block the last vocabulary step of a row of points stores.
-/
import proofs.«415479_j24352464569077_2_alg».proof.Proof.Gen.KernelIdeal.Skeleton
import proofs.«415479_j24352464569077_2_alg».proof.Proof.Gen.KernelIdeal.Points
import proofs.«415479_j24352464569077_2_alg».proof.Proof.Gen.KernelIdeal.Launch
import Idealize.ShloMosaic.PureOps.Ideal

noncomputable section

namespace Cert.KernelIdeal.Hand

open Cert.KernelIdeal Cert.KernelIdeal.Gen
open Idealize.ShloMosaic Idealize.ShloMosaic.TcCoe
open Idealize.SL Idealize.SL.Sem

/-- The contents every unscoped buffer holds when a region is entered, per core. -/
abbrev VTy1 : Type := (c : Dev nD) → (b : Ref sig .tc) → Buf (Elt Ideal) ((c : Thread nD τ).loc b)

/-- The four scratch vectors region 1 carries between grid points: the projected tokens `h`, the running maximum `m`,
    the running mass `l` and the running label pick `b`. -/
structure Scr1 where
  h : Vec Ideal S2048x256 .f32
  m : Vec Ideal S2048x1 .f32
  l : Vec Ideal S2048x1 .f32
  b : Vec Ideal S2048x1 .f32

/-- The token block at point `t`. -/
def xblk1 (V : VTy1) (c : Dev nD) (t : Fin cfg1.N) : Vec Ideal S2048x1024 .bf16 :=
  (win1_0.blk t).view.read (Elt Ideal) (V c (Pipeline.arrRef spec1 0))
/-- The projection at point `t` (the whole array). -/
def w1blk1 (V : VTy1) (c : Dev nD) (t : Fin cfg1.N) : Vec Ideal S256x1024 .bf16 :=
  (win1_1.blk t).view.read (Elt Ideal) (V c (Pipeline.arrRef spec1 1))
/-- The label block at point `t`. -/
def labblk1 (V : VTy1) (c : Dev nD) (t : Fin cfg1.N) : Vec Ideal S2048x1 .i32 :=
  (win1_3.blk t).view.read (Elt Ideal) (V c (Pipeline.arrRef spec1 3))
/-- The mask block at point `t`. -/
def mskblk1 (V : VTy1) (c : Dev nD) (t : Fin cfg1.N) : Vec Ideal S2048x1 .f32 :=
  (win1_4.blk t).view.read (Elt Ideal) (V c (Pipeline.arrRef spec1 4))

/-- The class-weight block at point `t` as the transfer reads it: its rows inside the array. -/
def w2cut1 (V : VTy1) (c : Dev nD) (t : Fin cfg1.N) : (win1_2.xblock (grid1.coords t)).Idx → Elt Ideal .bf16 :=
  (win1_2.blk t).view.read (Elt Ideal) (V c (Pipeline.arrRef spec1 2))
/-- The word the class-weight block is filled out with past the array's end: zero. -/
def fill1 : S512x256.Idx → Elt Ideal .bf16 := fun _ => (0 : EReal)
/-- The class-weight block at point `t`, filled out past the array's end with the one fixed word. -/
def w2blk1 (V : VTy1) (c : Dev nD) (t : Fin cfg1.N) : Vec Ideal S512x256 .bf16 :=
  win1_2.fill (grid1.coords t) fill1 (w2cut1 V c t)

/-- The scratch after the reset the first vocabulary step of a row of points does: the projected tokens, the running
    maximum at the fill, the mass and the pick at zero. -/
def Scr1.first (x : Vec Ideal S2048x1024 .bf16) (w1 : Vec Ideal S256x1024 .bf16) : Scr1 where
  h := k1_pay4 (F := Ideal) x w1
  m := k1_pay5 (F := Ideal)
  l := k1_pay6 (F := Ideal)
  b := k1_pay7 (F := Ideal)

/-- One vocabulary step on scratch `s` at coordinates `i`, class-weight block `w2`, label block `lab`: the mass rescaled to
    the new maximum and the tile's added, the maximum raised to the tile's, the pick added where the label falls in the tile
    (the mass and the maximum both from the OLD maximum). -/
def Scr1.next (i : grid1.Coords) (s : Scr1) (w2 : Vec Ideal S512x256 .bf16) (lab : Vec Ideal S2048x1 .i32) : Scr1 where
  h := s.h
  m := k1_pay1 (F := Ideal) (k1_pay9 (F := Ideal) i s.h w2 s.m)
  l := k1_pay10 (F := Ideal) i s.h w2 s.m s.m s.l
  b := k1_pay2 (F := Ideal) (BitVec.ofNat 32 (i 1).val) (iota .tc S2048x512 32 [1] iota_S2048x512_d1_w32) (k1_pay8 (F := Ideal) i s.h w2) lab s.b

/-- The scratch after grid point `n`: at the first vocabulary step of a row of points the reset and one step, else one step
    on what the point before left. -/
def scr1 (V : VTy1) (c : Dev nD) : (n : ℕ) → n < cfg1.N → Scr1
  | 0, hn => Scr1.next (grid1.coords ⟨0, hn⟩) (Scr1.first (xblk1 V c ⟨0, hn⟩) (w1blk1 V c ⟨0, hn⟩)) (w2blk1 V c ⟨0, hn⟩) (labblk1 V c ⟨0, hn⟩)
  | n + 1, hn =>
    Scr1.next (grid1.coords ⟨n + 1, hn⟩)
      (if (n + 1) % 79 = 0 then Scr1.first (xblk1 V c ⟨n + 1, hn⟩) (w1blk1 V c ⟨n + 1, hn⟩) else scr1 V c n (Nat.lt_of_succ_lt hn))
      (w2blk1 V c ⟨n + 1, hn⟩) (labblk1 V c ⟨n + 1, hn⟩)

/-- `scr1` at the first vocabulary step of a row of points. -/
theorem scr1_A (V : VTy1) (c : Dev nD) (t : Fin cfg1.N) (h0 : t.val % 79 = 0) :
    scr1 V c t.val t.isLt = Scr1.next (grid1.coords t) (Scr1.first (xblk1 V c t) (w1blk1 V c t)) (w2blk1 V c t) (labblk1 V c t) := by
  obtain ⟨n, hn⟩ := t
  cases n with
  | zero => rfl
  | succ n => show Scr1.next _ (if (n + 1) % 79 = 0 then _ else _) _ _ = _; rw [if_pos h0]

/-- `scr1` at a later vocabulary step: one step on what the point before left. -/
theorem scr1_B (V : VTy1) (c : Dev nD) (t : Fin cfg1.N) (h0 : ¬t.val % 79 = 0) :
    scr1 V c t.val t.isLt = Scr1.next (grid1.coords t) (scr1 V c (t.val - 1) (Nat.lt_of_le_of_lt (Nat.sub_le _ _) t.isLt)) (w2blk1 V c t) (labblk1 V c t) := by
  obtain ⟨n, hn⟩ := t
  cases n with
  | zero => exact absurd (Nat.zero_mod _) h0
  | succ n => show Scr1.next _ (if (n + 1) % 79 = 0 then _ else _) _ _ = _; rw [if_neg h0]; rfl

/-- The per-token loss block the last vocabulary step of a row of points stores: from the scratch after the point and the
    mask block. -/
def outblk1 (V : VTy1) (c : Dev nD) (t : Fin cfg1.N) : Vec Ideal S2048x1 .f32 :=
  k1_pay3 (F := Ideal) (scr1 V c t.val t.isLt).m (scr1 V c t.val t.isLt).l (scr1 V c t.val t.isLt).b (mskblk1 V c t)

end Cert.KernelIdeal.Hand

end
-- ==== Proof.KI.R1.Indep.lean ====
/-
  Region 1 at the ideal instance: the masked logits tile does not depend on what the class-weight block holds past the array's
  end. The tile's column mask says the column's class is below the class count; such a column's logit is a sum over one row
  of the block, a row the transfer moved; every other column is replaced by the fill.
-/
import proofs.«415479_j24352464569077_2_alg».proof.Proof.Gen.KernelIdeal.Skeleton
import proofs.«415479_j24352464569077_2_alg».proof.Proof.Gen.KernelIdeal.Points
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Predicate

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-- A select whose first branches agree wherever the condition holds. -/
theorem select_congr_of_one1 {s : Shape} {α : Type} (cnd : IVec s 1) (a a' b : s.Idx → α)
    (h : ∀ j, cnd j = 1#1 → a j = a' j) : select cnd a b = select cnd a' b := by
  funext j
  show Scalar.select (cnd j) (a j) (b j) = Scalar.select (cnd j) (a' j) (b j)
  by_cases hc : cnd j = 1#1
  · rw [h j hc]
  · rw [eq_zero_of_ne_one hc, select_zero, select_zero]

/-- The tile's column mask at `j` says the column's class is below the class count. -/
theorem mask1_iff (i : grid1.Coords) (j : S2048x512.Idx) :
    cmpi .slt (addi (broadcast S2048x512 (Scalar.muli (BitVec.ofNat 32 (i 1).val) 512#32)) (iota .tc S2048x512 32 [1] iota_S2048x512_d1_w32)) (broadcast S2048x512 40000#32) j = 1#1
      ↔ (i 1).val * 512 + (j 1).val < 40000 := by
  have hn : (i 1).val < 79 := (i 1).isLt
  have hj : (j 1).val < 512 := (j 1).isLt
  show IntOp.cmpi .slt (IntOp.addi (Scalar.muli (BitVec.ofNat 32 (i 1).val) 512#32) (iota .tc S2048x512 32 [1] iota_S2048x512_d1_w32 j)) 40000#32 = 1#1 ↔ _
  rw [iota_single_apply]
  have e : (IntOp.addi (Scalar.muli (BitVec.ofNat 32 (i 1).val) 512#32) (BitVec.ofNat 32 (j 1).val)).toNat = (i 1).val * 512 + (j 1).val := by
    show (BitVec.ofNat 32 (i 1).val * 512#32 + BitVec.ofNat 32 (j 1).val).toNat = _
    rw [BitVec.toNat_add, BitVec.toNat_mul, BitVec.toNat_ofNat, BitVec.toNat_ofNat, BitVec.toNat_ofNat]
    omega
  rw [StableHlo.Predicate.slt_iff_toNat (by rw [e]; omega) (by decide), e]
  rfl

/-- The class-weight window's cut at coordinates `i`: on the rows, the block's part below the class count; the columns whole. -/
theorem xsize1_2_rows (i : grid1.Coords) : win1_2.xsize i 0 = if ((i 1).val + 1) * 512 ≤ 40000 then 512 else 40000 - (i 1).val * 512 := by
  have hn : (i 1).val < 79 := (i 1).isLt
  show (Pipeline.Clip.of (BitVec.ofNat 32 (i 1).val).toNat 512 40000).extent 512 = _
  rw [BitVec.toNat_ofNat, Nat.mod_eq_of_lt (by omega)]
  unfold Pipeline.Clip.of
  split <;> rfl
theorem xsize1_2_cols (i : grid1.Coords) : win1_2.xsize i 1 = 256 /- hidden -/ := rfl

/-- A row of the class-weight block whose class is below the class count is one the transfer moves. -/
theorem moved1_2_of_lt (i : grid1.Coords) (r : S512x256.Idx) (h : (i 1).val * 512 + (r 0).val < 40000) : win1_2.moved i r = true := by
  rw [Pipeline.Window.moved_iff]
  intro a
  have hr0 : (r 0).val < 512 := (r 0).isLt
  have hr1 : (r 1).val < 256 /- hidden -/ := (r 1).isLt
  match a with
  | ⟨0, _⟩ => rw [show ((⟨0, by decide⟩ : Fin 2)) = 0 from rfl, xsize1_2_rows]; split <;> omega
  | ⟨1, _⟩ => rw [show ((⟨1, by decide⟩ : Fin 2)) = 1 from rfl, xsize1_2_cols]; exact hr1

/-- THE INDEPENDENCE OF THE FILLER. The masked logits tile reads the class-weight block only at rows whose class is below
    the class count: a column past it is replaced by the fill whatever the product was, and a column below it is a sum over
    one row of the block, which the transfer moved. So the tile is the same whatever the block holds past the array's end. -/
theorem k1_pay8_fill_indep (i : grid1.Coords) (h : Vec Ideal S2048x256 .f32)
    (d d' : S512x256.Idx → Elt Ideal .bf16) (g : (win1_2.xblock i).Idx → Elt Ideal .bf16) :
    k1_pay8 (F := Ideal) i h (win1_2.fill i d g) = k1_pay8 (F := Ideal) i h (win1_2.fill i d' g) := by
  unfold k1_pay8
  dsimp only
  refine select_congr_of_one1 _ _ _ _ fun j hj => ?_
  have hlt : (i 1).val * 512 + (j 1).val < 40000 := (mask1_iff i j).mp hj
  refine (Ideal.matmul_constant_zero_apply dot_S2048x256_S256x512_S2048x512_1_0_0_1_n_n none _ _ j).trans ((Finset.sum_congr rfl fun k _ => ?_).trans (Ideal.matmul_constant_zero_apply dot_S2048x256_S256x512_S2048x512_1_0_0_1_n_n none _ _ j).symm)
  refine congrArg₂ (fun x y : EReal => x * y) rfl ?_
  -- the right operand at (k, column): the block at (column, k), a row the transfer moved
  let r : S512x256.Idx := fun a => match a with
    | ⟨0, _⟩ => ⟨((dot_S2048x256_S256x512_S2048x512_1_0_0_1_n_n).rhsIdx j k 1).val, ((dot_S2048x256_S256x512_S2048x512_1_0_0_1_n_n).rhsIdx j k 1).isLt⟩
    | ⟨1, _⟩ => ⟨((dot_S2048x256_S256x512_S2048x512_1_0_0_1_n_n).rhsIdx j k 0).val, ((dot_S2048x256_S256x512_S2048x512_1_0_0_1_n_n).rhsIdx j k 0).isLt⟩
  have hr0 : (r 0).val = (j 1).val := rfl
  have hmv : win1_2.moved i r = true := moved1_2_of_lt i r (by rw [hr0]; exact hlt)
  refine (transpose_apply _ _ _ _ r (fun b => match b with | ⟨0, _⟩ => rfl | ⟨1, _⟩ => rfl)).trans
    (Eq.trans ?_ (transpose_apply _ _ _ _ r (fun b => match b with | ⟨0, _⟩ => rfl | ⟨1, _⟩ => rfl)).symm)
  rw [shapeCast_self, shapeCast_self]
  unfold Pipeline.Window.fill
  rw [dif_pos hmv, dif_pos hmv]

end Cert.KernelIdeal.Hand

end
-- ==== Proof.KI.R1.Runs.lean ====
/-
  Region 1: what the per-case runs of the kernel body share — the two branch conditions in closed form over the grid, where
  the output window is idle and where it is written back, the staging and scratch memrefs as the pipeline passes them, and the
  region's invariant before the first point with the four scratch buffers set apart.
-/
import proofs.«415479_j24352464569077_2_alg».proof.Proof.Gen.KernelIdeal.Launch
import proofs.«415479_j24352464569077_2_alg».proof.Proof.Gen.KernelIdeal.Skeleton
import proofs.«415479_j24352464569077_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## A whole-buffer store read back -/

/-- What a buffer reads after a list of stores whose LAST is a store of `w` through the whole-shape rectangle at zero offsets:
    `w`, whatever the earlier stores and the prior contents were. -/
theorem read_writes_cons_unit_zero1 {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self .., View.mem_set_unit_zero h inb y⟩)).trans
    (View.canon_cons_unit_zero h inb w L)

/-! ## The body's branch conditions -/

/-- The condition of the body's first conditional (the reset at the first vocabulary step), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 79). -/
theorem hcond1_0 : ∀ t : Fin cfg1.N, cond1_0 (grid1.coords t) ↔ t.val % 79 = 0 :=
  (by decide +kernel : ∀ t : Fin grid1.N, cond1_0 (grid1.coords t) ↔ t.val % 79 = 0)

/-- The condition of the body's second conditional (the output's store at the last vocabulary step). -/
abbrev cond1_1 (i : grid1.Coords) : Prop := k1_cond2 i = 1#1
/-- It holds at the points ≡ 78 (mod 79). -/
theorem hcond1_1 : ∀ t : Fin cfg1.N, cond1_1 (grid1.coords t) ↔ t.val % 79 = 78 :=
  (by decide +kernel : ∀ t : Fin grid1.N, cond1_1 (grid1.coords t) ↔ t.val % 79 = 78)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the second conditional fails the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- Where it holds the output window is live. -/
theorem liveAt1_5 : ∀ t : Fin cfg1.N, cond1_1 (grid1.coords t) → cfg1.idle 5 (grid1.coords t) = false := by decide +kernel

/-! ## The memrefs the body is called with -/

abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x1 .f32 := win1_5.stage (cfg1.slots t 5)
abbrev hs1_5 (t : Fin cfg1.N) : (ms1_5 t).IsWhole := hstage1_5 ((cfg1.slots t 5).cast nbuf1_5)
/-- The scratch operands: whole scoped buffers of the kernel's own. -/
abbrev scM1_0 : Memref sig .tc .vmem S2048x256 .f32 := Memref.whole cc1_scratch0
abbrev scM1_1 : Memref sig .tc .vmem S2048x1 .f32 := Memref.whole cc1_scratch1
abbrev scM1_2 : Memref sig .tc .vmem S2048x1 .f32 := Memref.whole cc1_scratch2
abbrev scM1_3 : Memref sig .tc .vmem S2048x1 .f32 := Memref.whole cc1_scratch3

/-- The scoped buffers of the program that are neither a staging buffer of this call nor one of its scratch operands. -/
abbrev rest1 (c : Dev nD) : sProp 𝕄 :=
  Pipeline.scopedRestBut (Ix := Unit) (Name := ℕ) (U := UR sig nD τ) (Lvl := ℕ) (Val := Elt F) spec1 c [cc1_scratch0, cc1_scratch1, cc1_scratch2, cc1_scratch3]

/-- The region's invariant before the first point with the scratch operands as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)
          ∗ (∃ d, owns (c : Thread nD τ) scM1_2 fullShare d) ∗ (∃ d, owns (c : Thread nD τ) scM1_3 fullShare d)) ∗ rest1 c) ∗ (∃ r, prngReg c r)) := by
  unfold Pipeline.ΦA; rw [scopedRest1_split]; simp only [scM1_0, scM1_1, scM1_2, scM1_3, owns_whole]; try rfl

end Cert.KernelIdeal.Hand

end
-- ==== Proof.KI.R1.RunA.lean ====
/-
  Region 1, the first vocabulary step of a row of points (the reset taken, the output's store not): the body's run on whole memrefs. It stores the projected tokens and the reset values of the running maximum, mass and pick, then does one vocabulary step on them.
-/
import proofs.«415479_j24352464569077_2_alg».proof.Proof.KI.R1.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 2000000 in
/-- The body at the first vocabulary step of a row of points (the first conditional taken, the second not), on whole memrefs
    holding the token block `x`, the projection `w1`, the class-weight block `w2`, the label block `lab`, the scratch at
    anything: it runs to the continuation with the four blocks as they were, the projected tokens stored, and the running
    maximum, mass and pick at one vocabulary step's values from their reset values. -/
theorem kernelRun1_A (c : Dev nD) (i : grid1.Coords) (arg2 : Memref sig .tc .vmem S2048x1024 .bf16) (harg2 : arg2.IsWhole) (arg3 : Memref sig .tc .vmem S256x1024 .bf16) (harg3 : arg3.IsWhole) (arg4 : Memref sig .tc .vmem S512x256 .bf16) (harg4 : arg4.IsWhole) (arg5 : Memref sig .tc .vmem S2048x1 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : cond1_0 i) (hc1 : ¬cond1_1 i)
    (x : Vec F S2048x1024 .bf16) (w1 : Vec F S256x1024 .bf16) (w2 : Vec F S512x256 .bf16) (lab : Vec F S2048x1 .i32)
    (E : Set ℕ) (K : PUnit → sProp 𝕄) :
    iprop(owns (c : Thread nD τ) arg2 fullShare x ∗ owns (c : Thread nD τ) arg3 fullShare w1 ∗ owns (c : Thread nD τ) arg4 fullShare w2 ∗ owns (c : Thread nD τ) arg5 fullShare lab
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x ∗ owns (c : Thread nD τ) arg3 fullShare w1 ∗ owns (c : Thread nD τ) arg4 fullShare w2 ∗ owns (c : Thread nD τ) arg5 fullShare lab
            ∗ owns (c : Thread nD τ) arg8 fullShare (k1_pay4 x w1)
            ∗ owns (c : Thread nD τ) arg9 fullShare (k1_pay1 (k1_pay9 i (k1_pay4 x w1) w2 (k1_pay5 (F := F))))
            ∗ owns (c : Thread nD τ) arg10 fullShare (k1_pay10 i (k1_pay4 x w1) w2 (k1_pay5 (F := F)) (k1_pay5 (F := F)) (k1_pay6 (F := F)))
            ∗ owns (c : Thread nD τ) arg11 fullShare (k1_pay2 (BitVec.ofNat 32 (i 1).val) (iota .tc S2048x512 32 [1] iota_S2048x512_d1_w32) (k1_pay8 i (k1_pay4 x w1) w2) lab (k1_pay7 (F := F)))) -∗ K ⟨⟩))
      ⊢ wp frame (wpE (defs₀ (F := F)) Variants.none c none) E (cc1__ce_kernel_proj i arg2 harg2 arg3 harg3 arg4 harg4 arg5 harg5 arg6 harg6 arg7 harg7 arg8 harg8 arg9 harg9 arg10 harg10 arg11 harg11) K := by
  have hz : (![0, 0] : Fin 2 → Nat) = fun _ => 0 := funext fun a => by fin_cases a <;> rfl
  simp only [cc1__ce_kernel_proj_eq_skeleton]; unfold cc1__ce_kernel_proj_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%d8, %f8, -, H8⟩, ⟨%d9, %f9, -, H9⟩, ⟨%d10, %f10, -, H10⟩, ⟨%d11, %f11, -, H11⟩, Hk⟩
  obtain rfl := harg2.eq_unread hf2; obtain rfl := harg3.eq_unread hf3; obtain rfl := harg4.eq_unread hf4; obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H8]
  · iexists _; isplitr
    swap; · iexact H8
    ipureintro
    (try sl_unfold_words)
    rw [read_writes_cons_unit_zero1 (S := S2048x256) _ _ hz]
    dsimp only
    (try sl_unfold_words)
    simp only [View.readAt_eq_ld, Memref.IsWhole.read_unread, View.ld_unit_zero (S := S2048x1024) hz, View.ld_unit_zero (S := S2048x256) hz, View.ld_unit_zero (S := S256x1024) hz, View.ld_unit_zero (S := S512x256) hz, View.ld_unit_zero (S := S2048x1) hz, View.readCov_unit_zero (S := S2048x256) _ hz, View.readCov_unit_zero (S := S2048x1) _ hz]
  isplitl [H9]
  · iexists _; isplitr
    swap; · iexact H9
    ipureintro
    (try sl_unfold_words)
    rw [read_writes_cons_unit_zero1 (S := S2048x1) _ _ hz]
    dsimp only
    (try sl_unfold_words)
    simp only [View.readAt_eq_ld, Memref.IsWhole.read_unread, View.ld_unit_zero (S := S2048x1024) hz, View.ld_unit_zero (S := S2048x256) hz, View.ld_unit_zero (S := S256x1024) hz, View.ld_unit_zero (S := S512x256) hz, View.ld_unit_zero (S := S2048x1) hz, View.readCov_unit_zero (S := S2048x256) _ hz, View.readCov_unit_zero (S := S2048x1) _ hz]
  isplitl [H10]
  · iexists _; isplitr
    swap; · iexact H10
    ipureintro
    (try sl_unfold_words)
    rw [read_writes_cons_unit_zero1 (S := S2048x1) _ _ hz]
    dsimp only
    (try sl_unfold_words)
    simp only [View.readAt_eq_ld, Memref.IsWhole.read_unread, View.ld_unit_zero (S := S2048x1024) hz, View.ld_unit_zero (S := S2048x256) hz, View.ld_unit_zero (S := S256x1024) hz, View.ld_unit_zero (S := S512x256) hz, View.ld_unit_zero (S := S2048x1) hz, View.readCov_unit_zero (S := S2048x256) _ hz, View.readCov_unit_zero (S := S2048x1) _ hz]
  · iexists _; isplitr
    swap; · iexact H11
    ipureintro
    (try sl_unfold_words)
    rw [read_writes_cons_unit_zero1 (S := S2048x1) _ _ hz]
    dsimp only
    (try sl_unfold_words)
    simp only [View.readAt_eq_ld, Memref.IsWhole.read_unread, View.ld_unit_zero (S := S2048x1024) hz, View.ld_unit_zero (S := S2048x256) hz, View.ld_unit_zero (S := S256x1024) hz, View.ld_unit_zero (S := S512x256) hz, View.ld_unit_zero (S := S2048x1) hz, View.readCov_unit_zero (S := S2048x256) _ hz, View.readCov_unit_zero (S := S2048x1) _ hz]

end Cert.KernelIdeal.Hand

end
-- ==== Proof.KI.R1.RunB.lean ====
/-
  Region 1, a middle vocabulary step (neither conditional taken): the body's run on whole memrefs. It loads the projected tokens, the class-weight block and the label block, and leaves the running maximum, mass and pick at one step's values, the maximum and the mass both from the old maximum.
-/
import proofs.«415479_j24352464569077_2_alg».proof.Proof.KI.R1.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 1000000 in
/-- The body at a point where neither conditional is taken, on whole memrefs holding the class-weight block `w2`, the label
    block `lab` and the scratch `h`, `m`, `l`, `b`: it runs to the continuation with those two and `h` as they were and the
    other three scratch buffers at one vocabulary step's values. -/
theorem kernelRun1_B (c : Dev nD) (i : grid1.Coords) (arg2 : Memref sig .tc .vmem S2048x1024 .bf16) (harg2 : arg2.IsWhole) (arg3 : Memref sig .tc .vmem S256x1024 .bf16) (harg3 : arg3.IsWhole) (arg4 : Memref sig .tc .vmem S512x256 .bf16) (harg4 : arg4.IsWhole) (arg5 : Memref sig .tc .vmem S2048x1 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : ¬cond1_1 i)
    (w2 : Vec F S512x256 .bf16) (lab : Vec F S2048x1 .i32) (h : Vec F S2048x256 .f32) (m l b : Vec F S2048x1 .f32)
    (E : Set ℕ) (K : PUnit → sProp 𝕄) :
    iprop(owns (c : Thread nD τ) arg4 fullShare w2 ∗ owns (c : Thread nD τ) arg5 fullShare lab ∗ owns (c : Thread nD τ) arg8 fullShare h
        ∗ owns (c : Thread nD τ) arg9 fullShare m ∗ owns (c : Thread nD τ) arg10 fullShare l ∗ owns (c : Thread nD τ) arg11 fullShare b
        ∗ (iprop(owns (c : Thread nD τ) arg4 fullShare w2 ∗ owns (c : Thread nD τ) arg5 fullShare lab ∗ owns (c : Thread nD τ) arg8 fullShare h
            ∗ owns (c : Thread nD τ) arg9 fullShare (k1_pay1 (k1_pay9 i h w2 m))
            ∗ owns (c : Thread nD τ) arg10 fullShare (k1_pay10 i h w2 m m l)
            ∗ owns (c : Thread nD τ) arg11 fullShare (k1_pay2 (BitVec.ofNat 32 (i 1).val) (iota .tc S2048x512 32 [1] iota_S2048x512_d1_w32) (k1_pay8 i h w2) lab b)) -∗ K ⟨⟩))
      ⊢ wp frame (wpE (defs₀ (F := F)) Variants.none c none) E (cc1__ce_kernel_proj i arg2 harg2 arg3 harg3 arg4 harg4 arg5 harg5 arg6 harg6 arg7 harg7 arg8 harg8 arg9 harg9 arg10 harg10 arg11 harg11) K := by
  have hz : (![0, 0] : Fin 2 → Nat) = fun _ => 0 := funext fun a => by fin_cases a <;> rfl
  simp only [cc1__ce_kernel_proj_eq_skeleton]; unfold cc1__ce_kernel_proj_skel
  simp only [k1_part1_eq_skeleton]; unfold k1_part1_skel
  unfold owns
  iintro ⟨⟨%f4, %hf4, H4⟩, ⟨%f5, %hf5, H5⟩, ⟨%f8, %hf8, H8⟩, ⟨%f9, %hf9, H9⟩, ⟨%f10, %hf10, H10⟩, ⟨%f11, %hf11, H11⟩, Hk⟩
  obtain rfl := harg4.eq_unread hf4; obtain rfl := harg5.eq_unread hf5; obtain rfl := harg8.eq_unread hf8
  obtain rfl := harg9.eq_unread hf9; obtain rfl := harg10.eq_unread hf10; obtain rfl := harg11.eq_unread hf11
  sl_exec (disch := first | exact hc0 | exact hc1)
  sl_step
  iapply Hk
  isplitl [H4]
  · iexists _; isplitr; · ipureintro; exact harg4.read_unread _
    iexact H4
  isplitl [H5]
  · iexists _; isplitr; · ipureintro; exact harg5.read_unread _
    iexact H5
  isplitl [H8]
  · iexists _; isplitr; · ipureintro; exact harg8.read_unread _
    iexact H8
  isplitl [H9]
  · iexists _; isplitr
    swap; · iexact H9
    ipureintro
    rw [read_writes_cons_unit_zero1 (S := S2048x1) _ _ hz]
    dsimp only
    sl_unfold_words
    simp only [View.readAt_eq_ld, Memref.IsWhole.read_unread, View.ld_unit_zero (S := S2048x1024) hz, View.ld_unit_zero (S := S2048x256) hz, View.ld_unit_zero (S := S256x1024) hz, View.ld_unit_zero (S := S512x256) hz, View.ld_unit_zero (S := S2048x1) hz, View.readCov_unit_zero (S := S2048x256) _ hz, View.readCov_unit_zero (S := S2048x1) _ hz]
  isplitl [H10]
  · iexists _; isplitr
    swap; · iexact H10
    ipureintro
    rw [read_writes_cons_unit_zero1 (S := S2048x1) _ _ hz]
    dsimp only
    sl_unfold_words
    simp only [View.readAt_eq_ld, Memref.IsWhole.read_unread, View.ld_unit_zero (S := S2048x1024) hz, View.ld_unit_zero (S := S2048x256) hz, View.ld_unit_zero (S := S256x1024) hz, View.ld_unit_zero (S := S512x256) hz, View.ld_unit_zero (S := S2048x1) hz, View.readCov_unit_zero (S := S2048x256) _ hz, View.readCov_unit_zero (S := S2048x1) _ hz]
  · iexists _; isplitr
    swap; · iexact H11
    ipureintro
    rw [read_writes_cons_unit_zero1 (S := S2048x1) _ _ hz]
    dsimp only
    sl_unfold_words
    simp only [View.readAt_eq_ld, Memref.IsWhole.read_unread, View.ld_unit_zero (S := S2048x1024) hz, View.ld_unit_zero (S := S2048x256) hz, View.ld_unit_zero (S := S256x1024) hz, View.ld_unit_zero (S := S512x256) hz, View.ld_unit_zero (S := S2048x1) hz, View.readCov_unit_zero (S := S2048x256) _ hz, View.readCov_unit_zero (S := S2048x1) _ hz]

end Cert.KernelIdeal.Hand

end
-- ==== Proof.KI.R1.RunC.lean ====
/-
  Region 1, the last vocabulary step of a row of points (the reset not taken, the output's store taken): the body's run on whole memrefs. One vocabulary step, then the per-token loss block from the scratch it has just stored and the mask block.
-/
import proofs.«415479_j24352464569077_2_alg».proof.Proof.KI.R1.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 2000000 in
/-- The body at the last vocabulary step of a row of points (the first conditional not taken, the second taken), on whole
    memrefs holding the class-weight block `w2`, the label block `lab`, the mask block `msk`, the scratch `h`, `m`, `l`,
    `b`, the output's buffer at anything: it runs to the continuation with the blocks and `h` as they were, the other three
    scratch buffers at one vocabulary step's values, and the output's buffer at the per-token loss from those. -/
theorem kernelRun1_C (c : Dev nD) (i : grid1.Coords) (arg2 : Memref sig .tc .vmem S2048x1024 .bf16) (harg2 : arg2.IsWhole) (arg3 : Memref sig .tc .vmem S256x1024 .bf16) (harg3 : arg3.IsWhole) (arg4 : Memref sig .tc .vmem S512x256 .bf16) (harg4 : arg4.IsWhole) (arg5 : Memref sig .tc .vmem S2048x1 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x256 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond1_0 i) (hc1 : cond1_1 i)
    (w2 : Vec F S512x256 .bf16) (lab : Vec F S2048x1 .i32) (msk : Vec F S2048x1 .f32) (h : Vec F S2048x256 .f32) (m l b : Vec F S2048x1 .f32)
    (E : Set ℕ) (K : PUnit → sProp 𝕄) :
    iprop(owns (c : Thread nD τ) arg4 fullShare w2 ∗ owns (c : Thread nD τ) arg5 fullShare lab ∗ owns (c : Thread nD τ) arg6 fullShare msk ∗ (∃ d, owns (c : Thread nD τ) arg7 fullShare d) ∗ owns (c : Thread nD τ) arg8 fullShare h
        ∗ owns (c : Thread nD τ) arg9 fullShare m ∗ owns (c : Thread nD τ) arg10 fullShare l ∗ owns (c : Thread nD τ) arg11 fullShare b
        ∗ (iprop(owns (c : Thread nD τ) arg4 fullShare w2 ∗ owns (c : Thread nD τ) arg5 fullShare lab ∗ owns (c : Thread nD τ) arg6 fullShare msk
            ∗ owns (c : Thread nD τ) arg7 fullShare (k1_pay3 (k1_pay1 (k1_pay9 i h w2 m)) (k1_pay10 i h w2 m m l) (k1_pay2 (BitVec.ofNat 32 (i 1).val) (iota .tc S2048x512 32 [1] iota_S2048x512_d1_w32) (k1_pay8 i h w2) lab b) msk)
            ∗ owns (c : Thread nD τ) arg8 fullShare h
            ∗ owns (c : Thread nD τ) arg9 fullShare (k1_pay1 (k1_pay9 i h w2 m))
            ∗ owns (c : Thread nD τ) arg10 fullShare (k1_pay10 i h w2 m m l)
            ∗ owns (c : Thread nD τ) arg11 fullShare (k1_pay2 (BitVec.ofNat 32 (i 1).val) (iota .tc S2048x512 32 [1] iota_S2048x512_d1_w32) (k1_pay8 i h w2) lab b)) -∗ K ⟨⟩))
      ⊢ wp frame (wpE (defs₀ (F := F)) Variants.none c none) E (cc1__ce_kernel_proj i arg2 harg2 arg3 harg3 arg4 harg4 arg5 harg5 arg6 harg6 arg7 harg7 arg8 harg8 arg9 harg9 arg10 harg10 arg11 harg11) K := by
  have hz : (![0, 0] : Fin 2 → Nat) = fun _ => 0 := funext fun a => by fin_cases a <;> rfl
  simp only [cc1__ce_kernel_proj_eq_skeleton]; unfold cc1__ce_kernel_proj_skel
  simp only [k1_part1_eq_skeleton]; unfold k1_part1_skel
  unfold owns
  iintro ⟨⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
  obtain rfl := harg4.eq_unread hf4; obtain rfl := harg5.eq_unread hf5; obtain rfl := harg6.eq_unread hf6; obtain rfl := harg8.eq_unread hf8
  obtain rfl := harg9.eq_unread hf9; obtain rfl := harg10.eq_unread hf10; obtain rfl := harg11.eq_unread hf11
  sl_exec (disch := first | exact hc0 | exact hc1)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    (try sl_unfold_words)
    rw [read_writes_cons_unit_zero1 (S := S2048x1) _ _ hz]
    dsimp only
    (try sl_unfold_words)
    simp only [View.readAt_eq_ld, Memref.IsWhole.read_unread, View.ld_unit_zero (S := S2048x1024) hz, View.ld_unit_zero (S := S2048x256) hz, View.ld_unit_zero (S := S256x1024) hz, View.ld_unit_zero (S := S512x256) hz, View.ld_unit_zero (S := S2048x1) hz, View.readCov_unit_zero (S := S2048x256) _ hz, View.readCov_unit_zero (S := S2048x1) _ hz]
  isplitl [H8]
  · iexists _; isplitr; · ipureintro; exact harg8.read_unread _
    iexact H8
  isplitl [H9]
  · iexists _; isplitr
    swap; · iexact H9
    ipureintro
    (try sl_unfold_words)
    rw [read_writes_cons_unit_zero1 (S := S2048x1) _ _ hz]
    dsimp only
    (try sl_unfold_words)
    simp only [View.readAt_eq_ld, Memref.IsWhole.read_unread, View.ld_unit_zero (S := S2048x1024) hz, View.ld_unit_zero (S := S2048x256) hz, View.ld_unit_zero (S := S256x1024) hz, View.ld_unit_zero (S := S512x256) hz, View.ld_unit_zero (S := S2048x1) hz, View.readCov_unit_zero (S := S2048x256) _ hz, View.readCov_unit_zero (S := S2048x1) _ hz]
  isplitl [H10]
  · iexists _; isplitr
    swap; · iexact H10
    ipureintro
    (try sl_unfold_words)
    rw [read_writes_cons_unit_zero1 (S := S2048x1) _ _ hz]
    dsimp only
    (try sl_unfold_words)
    simp only [View.readAt_eq_ld, Memref.IsWhole.read_unread, View.ld_unit_zero (S := S2048x1024) hz, View.ld_unit_zero (S := S2048x256) hz, View.ld_unit_zero (S := S256x1024) hz, View.ld_unit_zero (S := S512x256) hz, View.ld_unit_zero (S := S2048x1) hz, View.readCov_unit_zero (S := S2048x256) _ hz, View.readCov_unit_zero (S := S2048x1) _ hz]
  · iexists _; isplitr
    swap; · iexact H11
    ipureintro
    (try sl_unfold_words)
    rw [read_writes_cons_unit_zero1 (S := S2048x1) _ _ hz]
    dsimp only
    (try sl_unfold_words)
    simp only [View.readAt_eq_ld, Memref.IsWhole.read_unread, View.ld_unit_zero (S := S2048x1024) hz, View.ld_unit_zero (S := S2048x256) hz, View.ld_unit_zero (S := S256x1024) hz, View.ld_unit_zero (S := S512x256) hz, View.ld_unit_zero (S := S2048x1) hz, View.readCov_unit_zero (S := S2048x256) _ hz, View.readCov_unit_zero (S := S2048x1) _ hz]

end Cert.KernelIdeal.Hand

end
-- ==== Proof.KI.R1.Data.lean ====
/-
  Region 1 at the ideal instance: the proof data of the pipeline (after the body at a point every input's staging buffer holds
  its block, the class-weight window's filled out past the array's end with a fixed word, the output's the per-token loss
  block; the invariant carries the four scratch buffers at the recursion's values), and the body obligation in the form that
  states a window whose blocks may overhang its array only on the rows its transfers move. The body loads the whole
  class-weight buffer, rows past the array's end too; what it stores does not depend on them, which is what lets the scratch
  be named without them.
-/
import proofs.«415479_j24352464569077_2_alg».proof.Proof.KI.R1.Defs
import proofs.«415479_j24352464569077_2_alg».proof.Proof.KI.R1.Indep
import proofs.«415479_j24352464569077_2_alg».proof.Proof.KI.R1.RunA
import proofs.«415479_j24352464569077_2_alg».proof.Proof.KI.R1.RunB
import proofs.«415479_j24352464569077_2_alg».proof.Proof.KI.R1.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The invariant -/

/-- The region's invariant before position `n`: before the first point the launch's (every scratch buffer at anything);
    afterwards the four scratch buffers at what the point before left, the other scoped buffers unopened, the generator
    register at some state. -/
def PhiS1 (V : VTy1) (c : Dev nD) : (n : ℕ) → n ≤ cfg1.N → sProp 𝕄
  | 0, _ => Pipeline.ΦA spec1 c
  | n + 1, hn => iprop(iprop(iprop(owns (c : Thread nD τ) scM1_0 fullShare (scr1 V c n hn).h ∗ owns (c : Thread nD τ) scM1_1 fullShare (scr1 V c n hn).m
      ∗ owns (c : Thread nD τ) scM1_2 fullShare (scr1 V c n hn).l ∗ owns (c : Thread nD τ) scM1_3 fullShare (scr1 V c n hn).b) ∗ rest1 c) ∗ (∃ r, prngReg c r))

theorem PhiS1_zero (V : VTy1) (c : Dev nD) (n : ℕ) (h : n ≤ cfg1.N) (hz : n = 0) : PhiS1 V c n h = Pipeline.ΦA spec1 c := by
  subst hz; rfl

theorem PhiS1_succ (V : VTy1) (c : Dev nD) (n : ℕ) (hn : n < cfg1.N) :
    PhiS1 V c (n + 1) hn = iprop(iprop(iprop(owns (c : Thread nD τ) scM1_0 fullShare (scr1 V c n hn).h ∗ owns (c : Thread nD τ) scM1_1 fullShare (scr1 V c n hn).m
      ∗ owns (c : Thread nD τ) scM1_2 fullShare (scr1 V c n hn).l ∗ owns (c : Thread nD τ) scM1_3 fullShare (scr1 V c n hn).b) ∗ rest1 c) ∗ (∃ r, prngReg c r)) := rfl

theorem PhiS1_pos (V : VTy1) (c : Dev nD) (n : ℕ) (h : n ≤ cfg1.N) (hz : n ≠ 0) :
    PhiS1 V c n h = iprop(iprop(iprop(owns (c : Thread nD τ) scM1_0 fullShare (scr1 V c (n - 1) (by omega)).h ∗ owns (c : Thread nD τ) scM1_1 fullShare (scr1 V c (n - 1) (by omega)).m
      ∗ owns (c : Thread nD τ) scM1_2 fullShare (scr1 V c (n - 1) (by omega)).l ∗ owns (c : Thread nD τ) scM1_3 fullShare (scr1 V c (n - 1) (by omega)).b) ∗ rest1 c) ∗ (∃ r, prngReg c r)) := by
  cases n with
  | zero => exact absurd rfl hz
  | succ n => rfl

/-! ## The proof data -/

/-- Region 1's proof data on core `c`: the arrays as the region finds them; after the body at point `t` each input's
    buffer at its block (the class-weight block filled out with the fixed word), the output's at the loss block; the
    invariant `PhiS1`; nothing owed; full shares. -/
def dat1 (V : VTy1) (c : Dev nD) : Dat τ (Elt Ideal) Unit ℕ (UR sig nD τ) ℕ cfg1 c where
  A w := V c (Pipeline.arrRef spec1 w)
  after w t := match w with
    | ⟨0, _⟩ => xblk1 V c t
    | ⟨1, _⟩ => w1blk1 V c t
    | ⟨2, _⟩ => w2blk1 V c t
    | ⟨3, _⟩ => labblk1 V c t
    | ⟨4, _⟩ => mskblk1 V c t
    | ⟨5, _⟩ => outblk1 V c t
  Φ t := PhiS1 V c t.val (Nat.le_of_lt_succ t.isLt)
  q _ := fullShare
  owed _ := 0

theorem A_eq1 (V : VTy1) (c : Dev nD) (w : Fin cfg1.W) : (dat1 V c).A w = V c (Pipeline.arrRef spec1 w) := by
  dsimp only [dat1]
theorem q_eq1 (V : VTy1) (c : Dev nD) (w : Fin cfg1.W) : (dat1 V c).q w = fullShare := rfl
theorem owed_eq1 (V : VTy1) (c : Dev nD) (t : Fin (cfg1.N + 1)) : (dat1 V c).owed t = 0 := rfl
theorem rec_eq1 (V : VTy1) (c : Dev nD) (t : Fin (cfg1.N + 1)) : (dat1 V c).recorded t = Set.univ := rfl

theorem PhiS1_castSucc (V : VTy1) (c : Dev nD) (t : Fin cfg1.N) :
    (dat1 V c).Φ t.castSucc = PhiS1 V c t.val (Nat.le_of_lt t.isLt) := by
  dsimp only [dat1]; simp only [Fin.coe_castSucc]

theorem after1_0 (V : VTy1) (c : Dev nD) (t : Fin cfg1.N) : (dat1 V c).after 0 t = xblk1 V c t := by dsimp only [dat1]
theorem after1_1 (V : VTy1) (c : Dev nD) (t : Fin cfg1.N) : (dat1 V c).after 1 t = w1blk1 V c t := by dsimp only [dat1]
theorem after1_2 (V : VTy1) (c : Dev nD) (t : Fin cfg1.N) : (dat1 V c).after 2 t = w2blk1 V c t := by dsimp only [dat1]
theorem after1_3 (V : VTy1) (c : Dev nD) (t : Fin cfg1.N) : (dat1 V c).after 3 t = labblk1 V c t := by dsimp only [dat1]
theorem after1_4 (V : VTy1) (c : Dev nD) (t : Fin cfg1.N) : (dat1 V c).after 4 t = mskblk1 V c t := by dsimp only [dat1]
theorem after1_5 (V : VTy1) (c : Dev nD) (t : Fin cfg1.N) : (dat1 V c).after 5 t = outblk1 V c t := by dsimp only [dat1]

/-! ## What the body finds in the inputs' buffers -/

theorem before1_0 (V : VTy1) (c : Dev nD) (t : Fin cfg1.N) (d) : (dat1 V c).before 0 t d = xblk1 V c t :=
  ((dat1 V c).before_in_eq_fetched 0 rfl (fun _ => rfl) (fun _ _ _ => rfl) (fun t => by rw [after1_0]; unfold Dat.blockOf xblk1; rw [A_eq1]; try rfl) t d).trans
    (by unfold Dat.fetched Dat.blockOf xblk1; rw [A_eq1]; try rfl)
theorem before1_1 (V : VTy1) (c : Dev nD) (t : Fin cfg1.N) (d) : (dat1 V c).before 1 t d = w1blk1 V c t :=
  ((dat1 V c).before_in_eq_fetched 1 rfl (fun _ => rfl) (fun _ _ _ => rfl) (fun t => by rw [after1_1]; unfold Dat.blockOf w1blk1; rw [A_eq1]; try rfl) t d).trans
    (by unfold Dat.fetched Dat.blockOf w1blk1; rw [A_eq1]; try rfl)
theorem before1_3 (V : VTy1) (c : Dev nD) (t : Fin cfg1.N) (d) : (dat1 V c).before 3 t d = labblk1 V c t :=
  ((dat1 V c).before_in_eq_fetched 3 rfl (fun _ => rfl) (fun _ _ _ => rfl) (fun t => by rw [after1_3]; unfold Dat.blockOf labblk1; rw [A_eq1]; try rfl) t d).trans
    (by unfold Dat.fetched Dat.blockOf labblk1; rw [A_eq1]; try rfl)
theorem before1_4 (V : VTy1) (c : Dev nD) (t : Fin cfg1.N) (d) : (dat1 V c).before 4 t d = mskblk1 V c t :=
  ((dat1 V c).before_in_eq_fetched 4 rfl (fun _ => rfl) (fun _ _ _ => rfl) (fun t => by rw [after1_4]; unfold Dat.blockOf mskblk1; rw [A_eq1]; try rfl) t d).trans
    (by unfold Dat.fetched Dat.blockOf mskblk1; rw [A_eq1]; try rfl)
/-- The class-weight window is fetched at every point: its buffer holds the block's rows inside the array and `d` elsewhere. -/
theorem before1_2 (V : VTy1) (c : Dev nD) (t : Fin cfg1.N) (d) :
    (dat1 V c).before 2 t d = win1_2.fill (grid1.coords t) d (w2cut1 V c t) := by
  unfold Dat.before; rw [if_pos (fetch1_2 t)]; unfold Dat.fetched Dat.blockOf w2cut1; rw [A_eq1]; try rfl

/-! ## What the body is to leave in each window's buffer -/

theorem leaves1_0 (V : VTy1) (c : Dev nD) (t : Fin cfg1.N) : (dat1 V c).leaves 0 t = owns (c : Thread nD τ) (ms1_0 t) fullShare (xblk1 V c t) := by
  unfold Dat.leaves; rw [liveAt1_0 t, after1_0]
theorem leaves1_1 (V : VTy1) (c : Dev nD) (t : Fin cfg1.N) : (dat1 V c).leaves 1 t = owns (c : Thread nD τ) (ms1_1 t) fullShare (w1blk1 V c t) := by
  unfold Dat.leaves; rw [liveAt1_1 t, after1_1]
theorem leaves1_3 (V : VTy1) (c : Dev nD) (t : Fin cfg1.N) : (dat1 V c).leaves 3 t = owns (c : Thread nD τ) (ms1_3 t) fullShare (labblk1 V c t) := by
  unfold Dat.leaves; rw [liveAt1_3 t, after1_3]
theorem leaves1_4 (V : VTy1) (c : Dev nD) (t : Fin cfg1.N) : (dat1 V c).leaves 4 t = owns (c : Thread nD τ) (ms1_4 t) fullShare (mskblk1 V c t) := by
  unfold Dat.leaves; rw [liveAt1_4 t, after1_4]
/-- The class-weight window's blocks may overhang the array: its buffer is stated on the rows the transfer moves. -/
theorem leaves1_2 (V : VTy1) (c : Dev nD) (t : Fin cfg1.N) :
    (dat1 V c).leaves 2 t = iprop(∃ d, owns (c : Thread nD τ) (ms1_2 t) fullShare (win1_2.fill (grid1.coords t) d (w2cut1 V c t))) := by
  unfold Dat.leaves; rw [liveAt1_2 t, after1_2]
  show iprop(∃ d, owns (c : Thread nD τ) (ms1_2 t) fullShare (win1_2.fill (grid1.coords t) d (win1_2.cut (grid1.coords t) (w2blk1 V c t)))) = _
  unfold w2blk1; rw [Pipeline.Window.cut_fill]
/-- At the last vocabulary step of a row of points the output's buffer is to hold the loss block. -/
theorem leaves1_5 (V : VTy1) (c : Dev nD) (t : Fin cfg1.N) (hc1 : cond1_1 (grid1.coords t)) :
    (dat1 V c).leaves 5 t = owns (c : Thread nD τ) (ms1_5 t) fullShare (outblk1 V c t) := by
  unfold Dat.leaves; rw [liveAt1_5 t hc1, after1_5]

/-! ## The filler does not matter, for the maximum and the mass too -/

theorem k1_pay9_fill_indep (i : grid1.Coords) (h : Vec Ideal S2048x256 .f32) (d d' : S512x256.Idx → Elt Ideal .bf16)
    (g : (win1_2.xblock i).Idx → Elt Ideal .bf16) (m : Vec Ideal S2048x1 .f32) :
    k1_pay9 (F := Ideal) i h (win1_2.fill i d g) m = k1_pay9 (F := Ideal) i h (win1_2.fill i d' g) m := by
  unfold k1_pay9; rw [k1_pay8_fill_indep i h d d' g]
theorem k1_pay10_fill_indep (i : grid1.Coords) (h : Vec Ideal S2048x256 .f32) (d d' : S512x256.Idx → Elt Ideal .bf16)
    (g : (win1_2.xblock i).Idx → Elt Ideal .bf16) (m m' l : Vec Ideal S2048x1 .f32) :
    k1_pay10 (F := Ideal) i h (win1_2.fill i d g) m m' l = k1_pay10 (F := Ideal) i h (win1_2.fill i d' g) m m' l := by
  unfold k1_pay10; rw [k1_pay8_fill_indep i h d d' g, k1_pay9_fill_indep i h d d' g m]

/-! ## The invariant forgets -/

/-- After any point but the first the invariant gives the launch's back: the scratch's named contents are forgotten. -/
theorem Phi_out1 (V : VTy1) (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2, HS3⟩, Hr⟩, Hg⟩
  isplitl [HS0 HS1 HS2 HS3 Hr]
  · isplitl [HS0 HS1 HS2 HS3]
    · isplitl [HS0]; · iexists _; iexact HS0
      isplitl [HS1]; · iexists _; iexact HS1
      isplitl [HS2]; · iexists _; iexact HS2
      iexists _; iexact HS3
    iexact Hr
  iexact Hg

/-- At any position. -/
theorem Phi_any1 (V : VTy1) (c : Dev nD) (t : Fin (cfg1.N + 1)) : (dat1 V c).Φ t ⊢ Pipeline.ΦA spec1 c := by
  by_cases ht : t.val = 0
  · rw [show (dat1 V c).Φ t = PhiS1 V c t.val (Nat.le_of_lt_succ t.isLt) from rfl, PhiS1_zero V c _ _ ht]
  · exact Phi_out1 V c t ht

theorem hin1 (V : VTy1) (c : Dev nD) : Pipeline.ΦA spec1 c ⊢ (dat1 V c).Φ 0 := by
  rw [show (dat1 V c).Φ 0 = PhiS1 V c 0 (Nat.zero_le _) from rfl, PhiS1_zero V c 0 _ rfl]

theorem hout1 (V : VTy1) (c : Dev nD) : (dat1 V c).Φ (Fin.last cfg1.N) ⊢ Pipeline.ΦA spec1 c :=
  Phi_any1 V c _

/-! ## The body obligation, at a generic point -/

def bodyPre1 (V : VTy1) (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (V : VTy1) (c : Dev nD) (t : Fin cfg1.N) : sProp 𝕄 :=
  iprop((dat1 V c).Φ t.succ ∗ (dat1 V c).owesAt () t.succ
    ∗ (dat1 V c).leaves 0 t ∗ (dat1 V c).leaves 1 t ∗ (dat1 V c).leaves 2 t
    ∗ (dat1 V c).leaves 3 t ∗ (dat1 V c).leaves 4 t ∗ (dat1 V c).leaves 5 t)

set_option maxHeartbeats 4800000 in
/-- The body at any point: the inputs' buffers hold their blocks, the class-weight window's filled out with words nothing
    names; the closed forms say which control case the point is in; the run of that case applies, on the scratch the point
    before left (at anything at a first vocabulary step); what it leaves is one vocabulary step of the recursion, since the
    masked tile, and with it the maximum and the mass, do not depend on the words past the array's end. -/
theorem sound_body1 (V : VTy1) (c : Dev nD) (t : Fin cfg1.N) :
    bodyPre1 V c t ⊢ wp frame (wpE (defs₀ (F := Ideal)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  have hN : t.val < 158 := lt_of_lt_of_eq t.isLt (show cfg1.N = 158 from N_1)
  by_cases h0 : t.val % 79 = 0
  · have h1 : ¬t.val % 79 = 78 := by omega
    have hc0 : cond1_0 (grid1.coords t) := (hcond1_0 t).mpr h0
    have hc1 : ¬cond1_1 (grid1.coords t) := fun h => h1 ((hcond1_1 t).mp h)
    rw [Dat.leaves_idle (dat1 V c) 5 t (idleAt1_5 t hc1) (noFlush1_5 t hc1)]
    rw [scr1_A V c t h0]
    unfold Scr1.next Scr1.first w2blk1; dsimp only
    refine (sep_mono (Phi_any1 V c t.castSucc) .rfl).trans ?_
    rw [PhiA1_eq]
    iintro ⟨⟨⟨⟨HS0, HS1, HS2, HS3⟩, Hr⟩, Hg⟩, Ho, ⟨%d0, H0⟩, ⟨%d1, H1⟩, ⟨%d2, H2⟩, ⟨%d3, H3⟩, ⟨%d4, H4⟩, H5⟩
    · have hrun := kernelRun1_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) hc0 hc1
        (xblk1 V c t) (w1blk1 V c t) (win1_2.fill (grid1.coords t) d2 (w2cut1 V c t)) (labblk1 V c t) Set.univ
      rw [k1_pay9_fill_indep _ _ d2 fill1, k1_pay10_fill_indep _ _ d2 fill1, k1_pay8_fill_indep _ _ d2 fill1] at hrun
      iapply (hrun _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, HS0, HS1, HS2, HS3⟩
      isplitl [HS0 HS1 HS2 HS3 Hr Hg]
      · isplitl [HS0 HS1 HS2 HS3 Hr]
        · isplitl [HS0 HS1 HS2 HS3]
          · isplitl [HS0]; · iexact HS0
            isplitl [HS1]; · iexact HS1
            isplitl [HS2]; · iexact HS2
            iexact HS3
          iexact Hr
        iexact Hg
      isplitl [Ho]; · iexact Ho
      isplitl [H0]; · iexact H0
      isplitl [H1]; · iexact H1
      isplitl [H2]; · iexists d2; iexact H2
      isplitl [H3]; · iexact H3
      isplitl [H4]; · iexact H4
      iexact H5
  · have hz : t.val ≠ 0 := fun e => h0 (by rw [e])
    have hc0 : ¬cond1_0 (grid1.coords t) := fun h => h0 ((hcond1_0 t).mp h)
    by_cases h1 : t.val % 79 = 78
    · have hc1 : cond1_1 (grid1.coords t) := (hcond1_1 t).mpr h1
      rw [leaves1_5 V c t hc1]
      unfold outblk1
      rw [scr1_B V c t h0]
      unfold Scr1.next w2blk1; dsimp only
      rw [PhiS1_castSucc V c t, PhiS1_pos V c _ _ hz]
      iintro ⟨⟨⟨⟨HS0, HS1, HS2, HS3⟩, Hr⟩, Hg⟩, Ho, ⟨%d0, H0⟩, ⟨%d1, H1⟩, ⟨%d2, H2⟩, ⟨%d3, H3⟩, ⟨%d4, H4⟩, ⟨%d5, H5⟩⟩
      have hrun := kernelRun1_C (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) hc0 hc1
        (win1_2.fill (grid1.coords t) d2 (w2cut1 V c t)) (labblk1 V c t) (mskblk1 V c t) (scr1 V c (t.val - 1) (Nat.lt_of_le_of_lt (Nat.sub_le _ _) t.isLt)).h (scr1 V c (t.val - 1) (Nat.lt_of_le_of_lt (Nat.sub_le _ _) t.isLt)).m (scr1 V c (t.val - 1) (Nat.lt_of_le_of_lt (Nat.sub_le _ _) t.isLt)).l (scr1 V c (t.val - 1) (Nat.lt_of_le_of_lt (Nat.sub_le _ _) t.isLt)).b Set.univ
      rw [k1_pay9_fill_indep _ _ d2 fill1, k1_pay10_fill_indep _ _ d2 fill1, k1_pay8_fill_indep _ _ d2 fill1] at hrun
      iapply (hrun _)
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H2, H3, H4, H5, HS0, HS1, HS2, HS3⟩
      isplitl [HS0 HS1 HS2 HS3 Hr Hg]
      · isplitl [HS0 HS1 HS2 HS3 Hr]
        · isplitl [HS0 HS1 HS2 HS3]
          · isplitl [HS0]; · iexact HS0
            isplitl [HS1]; · iexact HS1
            isplitl [HS2]; · iexact HS2
            iexact HS3
          iexact Hr
        iexact Hg
      isplitl [Ho]; · iexact Ho
      isplitl [H0]; · iexact H0
      isplitl [H1]; · iexact H1
      isplitl [H2]; · iexists d2; iexact H2
      isplitl [H3]; · iexact H3
      isplitl [H4]; · iexact H4
      iexact H5
    · have hc1 : ¬cond1_1 (grid1.coords t) := fun h => h1 ((hcond1_1 t).mp h)
      rw [Dat.leaves_idle (dat1 V c) 5 t (idleAt1_5 t hc1) (noFlush1_5 t hc1)]
      rw [scr1_B V c t h0]
      unfold Scr1.next w2blk1; dsimp only
      rw [PhiS1_castSucc V c t, PhiS1_pos V c _ _ hz]
      iintro ⟨⟨⟨⟨HS0, HS1, HS2, HS3⟩, Hr⟩, Hg⟩, Ho, ⟨%d0, H0⟩, ⟨%d1, H1⟩, ⟨%d2, H2⟩, ⟨%d3, H3⟩, ⟨%d4, H4⟩, H5⟩
      have hrun := kernelRun1_B (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) hc0 hc1
        (win1_2.fill (grid1.coords t) d2 (w2cut1 V c t)) (labblk1 V c t) (scr1 V c (t.val - 1) (Nat.lt_of_le_of_lt (Nat.sub_le _ _) t.isLt)).h (scr1 V c (t.val - 1) (Nat.lt_of_le_of_lt (Nat.sub_le _ _) t.isLt)).m (scr1 V c (t.val - 1) (Nat.lt_of_le_of_lt (Nat.sub_le _ _) t.isLt)).l (scr1 V c (t.val - 1) (Nat.lt_of_le_of_lt (Nat.sub_le _ _) t.isLt)).b Set.univ
      rw [k1_pay9_fill_indep _ _ d2 fill1, k1_pay10_fill_indep _ _ d2 fill1, k1_pay8_fill_indep _ _ d2 fill1] at hrun
      iapply (hrun _)
      isplitl [H2]; · iexact H2
      isplitl [H3]; · iexact H3
      isplitl [HS0]; · iexact HS0
      isplitl [HS1]; · iexact HS1
      isplitl [HS2]; · iexact HS2
      isplitl [HS3]; · iexact HS3
      iintro ⟨H2, H3, HS0, HS1, HS2, HS3⟩
      isplitl [HS0 HS1 HS2 HS3 Hr Hg]
      · isplitl [HS0 HS1 HS2 HS3 Hr]
        · isplitl [HS0 HS1 HS2 HS3]
          · isplitl [HS0]; · iexact HS0
            isplitl [HS1]; · iexact HS1
            isplitl [HS2]; · iexact HS2
            iexact HS3
          iexact Hr
        iexact Hg
      isplitl [Ho]; · iexact Ho
      isplitl [H0]; · iexact H0
      isplitl [H1]; · iexact H1
      isplitl [H2]; · iexists d2; iexact H2
      isplitl [H3]; · iexact H3
      isplitl [H4]; · iexact H4
      iexact H5

/-- The library's body obligation, at every point. -/
theorem body_obligation1 (V : VTy1) (c : Dev nD) : BodyObligationLoose (dat1 V c) (defs₀ (F := Ideal)) Variants.none () Set.univ := fun t => by
  rw [bigSep_W1, bigSep_W1]
  exact sound_body1 V c t

end Cert.KernelIdeal.Hand

end
-- ==== Proof.KI.R2.Defs.lean ====
/-
  Region 2 (the head's cross-entropy call): the contents of the three scratch vectors after each grid point, and the output block
  the last vocabulary step stores, as functions of the region-entry contents and the point.

  The grid is 2 row tiles by 4 vocabulary tiles; point `t` has row tile `t / 4` and vocabulary tile `t % 4`. Each point reads a
  token block [2048, 1024], a block [512, 1024] of the head's weights [2002, 1024], a block [1, 512] of its bias [1, 2002] and the
  row tile's labels [2048, 1]. The last vocabulary tile holds 466 classes: the rows 466 … 511 of its weight block and the columns
  466 … 511 of its bias block lie past the arrays' ends. Here each such block is filled out with the word 0 there; the masked tile
  does not depend on that choice, since every column past the last class is replaced by the named constant before it is used.

  The running maximum `m`, mass `l` and pick `b` of a row tile are reset at its first vocabulary tile and updated at each tile:
  `m' = max m (row maximum of the masked tile)`, `l' = exp (m - m') * l + (row sum of exp (tile - m'))`, `b' = b + (the label's
  logit if the label falls in the tile, else 0)`. The last tile's step then stores `m' + log l' - b'`.
-/
import proofs.«415479_j24352464569077_2_alg».proof.Proof.Gen.KernelIdeal.Skeleton
import proofs.«415479_j24352464569077_2_alg».proof.Proof.Gen.KernelIdeal.Launch

set_option synthInstance.maxSize 4096

noncomputable section

namespace Cert.KernelIdeal.Hand

open Cert.KernelIdeal Cert.KernelIdeal.Gen
open Idealize.ShloMosaic Idealize.ShloMosaic.TcCoe Idealize.SL.Sem

/-- The three scratch vectors of a row tile: running maximum, running mass, running pick. -/
structure Scr2 where
  m : Vec Ideal S2048x1 .f32
  l : Vec Ideal S2048x1 .f32
  b : Vec Ideal S2048x1 .f32

variable (V : (c : Dev nD) → (b : Ref sig .tc) → Buf (Elt Ideal) ((c : Thread nD τ).loc b))

/-- The token block of point `t`: rows `2048 * (t / 4) …` of the token matrix. -/
def xblk2 (c : Dev nD) (t : Fin cfg2.N) : Vec Ideal S2048x1024 .bf16 :=
  ((cfg2.win 0).blk t).view.read (Elt Ideal) (V c (Pipeline.arrRef spec2 0))

/-- The label block of point `t`: the same rows of the label column. -/
def labblk2 (c : Dev nD) (t : Fin cfg2.N) : Vec Ideal S2048x1 .i32 :=
  ((cfg2.win 3).blk t).view.read (Elt Ideal) (V c (Pipeline.arrRef spec2 3))

/-- The part of the head's weight block of point `t` that lies inside the array: rows `512 * (t % 4) …`, cut at row 2002. -/
def wcut2 (c : Dev nD) (t : Fin cfg2.N) : ((cfg2.win 1).xblock (cfg2.grid.coords t)).Idx → Elt Ideal (cfg2.win 1).elt :=
  ((cfg2.win 1).blk t).view.read (Elt Ideal) (V c (Pipeline.arrRef spec2 1))

/-- The part of the bias block of point `t` that lies inside the array: columns `512 * (t % 4) …`, cut at column 2002. -/
def bcut2 (c : Dev nD) (t : Fin cfg2.N) : ((cfg2.win 2).xblock (cfg2.grid.coords t)).Idx → Elt Ideal (cfg2.win 2).elt :=
  ((cfg2.win 2).blk t).view.read (Elt Ideal) (V c (Pipeline.arrRef spec2 2))

/-- The weight block filled out to [512, 1024] with the word 0 past the array's last row. -/
def wblk2 (c : Dev nD) (t : Fin cfg2.N) : Vec Ideal S512x1024 .bf16 :=
  win2_1.fill (grid2.coords t) (fun _ => (0 : EReal)) (wcut2 V c t)

/-- The bias block filled out to [1, 512] with the word 0 past the array's last column. -/
def bblk2 (c : Dev nD) (t : Fin cfg2.N) : Vec Ideal S1x512 .f32 :=
  win2_2.fill (grid2.coords t) (fun _ => (0 : EReal)) (bcut2 V c t)

/-- One vocabulary tile's step on the scratch: the new maximum, the new mass, the new pick, from the tile's blocks. -/
def Scr2.next (s : Scr2) (i : grid2.Coords) (x : Vec Ideal S2048x1024 .bf16) (w : Vec Ideal S512x1024 .bf16)
    (bias : Vec Ideal S1x512 .f32) (lab : Vec Ideal S2048x1 .i32) : Scr2 where
  m := k2_pay2 (F := Ideal) (k2_pay9 (F := Ideal) i x w bias s.m)
  l := k2_pay1 (F := Ideal) (k2_pay10 (F := Ideal) i x w bias s.m s.m s.l)
  b := k2_pay3 (F := Ideal) (BitVec.ofNat 32 (i 1).val) (iota .tc S2048x512 32 [1] iota_S2048x512_d1_w32)
        (k2_pay8 (F := Ideal) i x w bias) lab s.b

/-- The scratch as the first vocabulary tile resets it: maximum at the named constant, no mass, no pick. -/
def Scr2.reset : Scr2 := ⟨k2_pay5 (F := Ideal), k2_pay6 (F := Ideal), k2_pay7 (F := Ideal)⟩

/-- The first vocabulary tile's step: the reset, then the tile's step. -/
def Scr2.first (i : grid2.Coords) (x : Vec Ideal S2048x1024 .bf16) (w : Vec Ideal S512x1024 .bf16)
    (bias : Vec Ideal S1x512 .f32) (lab : Vec Ideal S2048x1 .i32) : Scr2 :=
  Scr2.reset.next i x w bias lab

/-- The scratch after the body at point `n`: a row tile's first point steps from the reset, any other from the point before. -/
def scr2 (c : Dev nD) : (n : ℕ) → n < cfg2.N → Scr2
  | 0, hn => Scr2.first (grid2.coords ⟨0, hn⟩) (xblk2 V c ⟨0, hn⟩) (wblk2 V c ⟨0, hn⟩) (bblk2 V c ⟨0, hn⟩) (labblk2 V c ⟨0, hn⟩)
  | n + 1, hn =>
    if (n + 1) % 4 = 0 then
      Scr2.first (grid2.coords ⟨n + 1, hn⟩) (xblk2 V c ⟨n + 1, hn⟩) (wblk2 V c ⟨n + 1, hn⟩) (bblk2 V c ⟨n + 1, hn⟩) (labblk2 V c ⟨n + 1, hn⟩)
    else
      (scr2 c n (Nat.lt_of_succ_lt hn)).next (grid2.coords ⟨n + 1, hn⟩) (xblk2 V c ⟨n + 1, hn⟩) (wblk2 V c ⟨n + 1, hn⟩) (bblk2 V c ⟨n + 1, hn⟩) (labblk2 V c ⟨n + 1, hn⟩)

/-- At a row tile's first point. -/
theorem scr2_first (c : Dev nD) (t : Fin cfg2.N) (h0 : t.val % 4 = 0) :
    scr2 V c t.val t.isLt = Scr2.first (grid2.coords t) (xblk2 V c t) (wblk2 V c t) (bblk2 V c t) (labblk2 V c t) := by
  obtain ⟨n, hn⟩ := t
  cases n with
  | zero => rfl
  | succ n => exact if_pos h0

/-- At any other point: a step from what the point before left. -/
theorem scr2_next (c : Dev nD) (t : Fin cfg2.N) (h0 : ¬t.val % 4 = 0) :
    scr2 V c t.val t.isLt = (scr2 V c (t.val - 1) (Nat.lt_of_le_of_lt (Nat.sub_le _ _) t.isLt)).next (grid2.coords t) (xblk2 V c t) (wblk2 V c t) (bblk2 V c t) (labblk2 V c t) := by
  obtain ⟨n, hn⟩ := t
  cases n with
  | zero => exact absurd (Nat.zero_mod _) h0
  | succ n => exact if_neg h0

/-- What the last vocabulary tile's step stores into the output block: `m + log l - b` of the scratch after the point. (At the
    other points nothing is stored and this value is not read.) -/
def outblk2 (c : Dev nD) (t : Fin cfg2.N) : Vec Ideal S2048x1 .f32 :=
  k2_pay4 (F := Ideal) (scr2 V c t.val t.isLt).m (scr2 V c t.val t.isLt).l (scr2 V c t.val t.isLt).b

end Cert.KernelIdeal.Hand

end
-- ==== Proof.KI.R2.Indep.lean ====
/-
  Region 2 (the head's cross-entropy call): the masked tile of logits does not depend on what fills the two clipped blocks past
  their arrays' ends.

  The vocabulary has 2002 classes in tiles of 512, so the last tile's weight block [512, 1024] and bias block [1, 512] overhang
  their arrays by 46 rows (columns). The body computes a logit for every one of the tile's 512 columns — the token row's product
  with the weight block's row, plus the bias entry — and then replaces each column `q` with `512 a + q ≥ 2002` (`a` the vocabulary
  tile) by the named constant. A column that survives the mask reads the weight block only at row `q` and the bias block only at
  column `q`, both inside the arrays. So two fillings that agree inside the arrays give the same masked tile (`pay8_congr`,
  `pay8_fill`), and with it the same new maximum and new mass, which read the blocks through the masked tile only.
-/
import proofs.«415479_j24352464569077_2_alg».proof.Proof.Gen.KernelIdeal.Skeleton
import proofs.«415479_j24352464569077_2_alg».proof.Proof.Gen.KernelIdeal.Launch
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

namespace Cert.KernelIdeal.Hand

open Cert.KernelIdeal Cert.KernelIdeal.Gen
open Idealize.ShloMosaic Idealize.ShloMosaic.TcCoe Idealize.SL.Sem
open Idealize.ShloMosaic.ValueIdx

/-! ## The block product's right operand index -/

/-- The right operand's index at output `j`, contraction position `k`: its row is the contraction coordinate, -/
theorem rhs_k2_0 (j : S2048x512.Idx) (k : dot_S2048x1024_S1024x512_S2048x512_1_0_0_1_n_n.contr.Idx) :
    (dot_S2048x1024_S1024x512_S2048x512_1_0_0_1_n_n.rhsIdx j k 0).val = (k ⟨0, by decide⟩).val :=
  dot_S2048x1024_S1024x512_S2048x512_1_0_0_1_n_n.rhsIdx_val_of_single rfl j k
/-- its column the output's column. -/
theorem rhs_k2_1 (j : S2048x512.Idx) (k : dot_S2048x1024_S1024x512_S2048x512_1_0_0_1_n_n.contr.Idx) :
    (dot_S2048x1024_S1024x512_S2048x512_1_0_0_1_n_n.rhsIdx j k 1).val = (j 1).val := by
  unfold DotDims.rhsIdx
  rw [dif_neg (show ¬(1 : Fin S1024x512.rank) ∈ dot_S2048x1024_S1024x512_S2048x512_1_0_0_1_n_n.rhsBatch by decide), dif_pos (show (1 : Fin S1024x512.rank) ∈ dot_S2048x1024_S1024x512_S2048x512_1_0_0_1_n_n.rhsNonContracting by decide)]
  rfl

/-- The transposed weight block at the right operand's index of output column `q`: the weight block's row `q`. -/
theorem tr_w_apply (w : FVec Ideal S512x1024 .bf16) (p : Fin 2048) (q : Fin 512) (k : dot_S2048x1024_S1024x512_S2048x512_1_0_0_1_n_n.contr.Idx) :
    transpose S1024x512 [1, 0] w transposes_S512x1024_p1_0_S1024x512 (dot_S2048x1024_S1024x512_S2048x512_1_0_0_1_n_n.rhsIdx (ix2 p q) k)
      = w (ix2 q (⟨(k ⟨0, by decide⟩).val, (k ⟨0, by decide⟩).isLt⟩ : Fin 1024)) :=
  transpose_apply _ w transposes_S512x1024_p1_0_S1024x512 _ _ fun c => match c with
    | ⟨0, _⟩ => (rhs_k2_0 (ix2 p q) k).symm
    | ⟨1, _⟩ => (rhs_k2_1 (ix2 p q) k).symm

/-! ## The column mask -/

/-- Column `q` of vocabulary tile `a` passes the mask only if it is a class: `512 a + q < 2002` (the comparison is of signed
    32-bit words; `a < 4` and `q < 512` keep everything far below the sign bit). -/
theorem slt_col : ∀ (a : Fin 4) (q : Fin 512),
    IntOp.cmpi .slt (IntOp.addi (Scalar.muli (BitVec.ofNat 32 a.val) 512#32) (BitVec.ofNat 32 q.val)) 2002#32 = 1#1 → 512 * a.val + q.val < 2002 := by
  decide +kernel

/-- The mask bit of the masked tile at row `p`, column `q`. -/
abbrev colBit2 (i : grid2.Coords) (p : Fin 2048) (q : Fin 512) : BitVec 1 :=
  cmpi CmpIPredicate.slt
    (addi (broadcast S2048x512 (Scalar.muli (BitVec.ofNat 32 (i 1).val) 512#32)) (iota Kind.tc S2048x512 32 [1] iota_S2048x512_d1_w32))
    (broadcast S2048x512 2002#32) (ix2 p q)

theorem colBit2_lt (i : grid2.Coords) (p : Fin 2048) (q : Fin 512) (h : colBit2 i p q = 1#1) : 512 * (i 1).val + q.val < 2002 := by
  have h2 : iota Kind.tc S2048x512 32 [1] iota_S2048x512_d1_w32 (ix2 p q) = BitVec.ofNat 32 q.val :=
    iota_single_apply Kind.tc S2048x512 32 1 iota_S2048x512_d1_w32 (ix2 p q)
  have h3 : IntOp.cmpi .slt (IntOp.addi (Scalar.muli (BitVec.ofNat 32 (i 1).val) 512#32) (BitVec.ofNat 32 q.val)) 2002#32 = 1#1 := by
    rw [← h2]; exact h
  exact slt_col ⟨(i 1).val, (i 1).isLt⟩ q h3

/-! ## The masked tile at an index -/

/-- The masked tile at row `p`, column `q`: where the column passes the mask, the token row's product with the weight block's row
    `q` plus the bias entry `q`; elsewhere the named constant. -/
theorem pay8_apply (i : grid2.Coords) (x : FVec Ideal S2048x1024 .bf16) (w : FVec Ideal S512x1024 .bf16) (b : FVec Ideal S1x512 .f32)
    (p : Fin 2048) (q : Fin 512) :
    k2_pay8 (F := Ideal) i x w b (ix2 p q)
      = Scalar.select (colBit2 i p q)
          ((∑ k : dot_S2048x1024_S1024x512_S2048x512_1_0_0_1_n_n.contr.Idx, x (dot_S2048x1024_S1024x512_S2048x512_1_0_0_1_n_n.lhsIdx (ix2 p q) k)
              * w (ix2 q (⟨(k ⟨0, by decide⟩).val, (k ⟨0, by decide⟩).isLt⟩ : Fin 1024))) + b (ix2 0 q))
          (Named.named (F := Ideal) κ "neg_big" (φ := .f32) 0xF149F2CA#32) := by
  unfold k2_pay8
  simp only [select_apply, addf_apply, matmul, Ideal.matmul_constant_zero_apply, broadcastTo_1b_ab_apply, shapeCast_self, broadcast_apply]
  refine congrArg (fun s => Scalar.select (colBit2 i p q) (s + b (ix2 0 q)) (Named.named (F := Ideal) κ "neg_big" (φ := .f32) 0xF149F2CA#32))
    (Finset.sum_congr rfl fun k _ => ?_)
  rw [tr_w_apply]

/-- Two weight blocks and two bias blocks that agree on the tile's classes give the same masked tile: a column past the last class
    is replaced by the named constant whatever was computed there. -/
theorem pay8_congr (i : grid2.Coords) (x : FVec Ideal S2048x1024 .bf16) (w w' : FVec Ideal S512x1024 .bf16) (b b' : FVec Ideal S1x512 .f32)
    (hw : ∀ (q : Fin 512) (k : Fin 1024), 512 * (i 1).val + q.val < 2002 → w (ix2 q k) = w' (ix2 q k))
    (hb : ∀ q : Fin 512, 512 * (i 1).val + q.val < 2002 → b (ix2 0 q) = b' (ix2 0 q)) :
    k2_pay8 (F := Ideal) i x w b = k2_pay8 (F := Ideal) i x w' b' := by
  funext j
  obtain ⟨p, q, rfl⟩ : ∃ (p : Fin 2048) (q : Fin 512), j = ix2 p q := ⟨j 0, j 1, eq_ix2 j⟩
  rw [pay8_apply, pay8_apply]
  by_cases hbit : colBit2 i p q = 1#1
  · have hlt := colBit2_lt i p q hbit
    rw [hbit, select_one, select_one, hb q hlt]
    exact congrArg (· + b' (ix2 0 q)) (Finset.sum_congr rfl fun k _ => by rw [hw q _ hlt])
  · rw [eq_zero_of_ne_one hbit, select_zero, select_zero]

/-! ## Independence of the filler -/

/-- The two clipped windows' extents at each point, and the vocabulary coordinate, in closed form: the weight block keeps
    `min 512 (2002 - 512 (t % 4))` rows and all 1024 columns, the bias block its one row and as many columns. -/
theorem xsize2 : ∀ t : Fin grid2.N,
    win2_1.xsize (grid2.coords t) 0 = min 512 (2002 - 512 * (t.val % 4)) ∧ win2_1.xsize (grid2.coords t) 1 = 1024
    ∧ win2_2.xsize (grid2.coords t) 0 = 1 ∧ win2_2.xsize (grid2.coords t) 1 = min 512 (2002 - 512 * (t.val % 4))
    ∧ ((grid2.coords t) 1).val = t.val % 4 := by decide +kernel

/-- At a class's row the filled weight block is the array's, whatever the filler. -/
theorem wfill_eq (t : Fin cfg2.N) (d d' : S512x1024.Idx → EReal) (g : (win2_1.xblock (grid2.coords t)).Idx → EReal)
    (q : Fin 512) (k : Fin 1024) (h : 512 * ((grid2.coords t) 1).val + q.val < 2002) :
    win2_1.fill (grid2.coords t) d g (ix2 q k) = win2_1.fill (grid2.coords t) d' g (ix2 q k) := by
  have hx := xsize2 t
  have hm : win2_1.moved (grid2.coords t) (ix2 q k) = true := (win2_1.moved_iff _ _).mpr fun a => match a with
    | ⟨0, _⟩ => by show q.val < win2_1.xsize (grid2.coords t) 0; omega
    | ⟨1, _⟩ => by show k.val < win2_1.xsize (grid2.coords t) 1; omega
  unfold Pipeline.Window.fill; rw [dif_pos hm, dif_pos hm]

/-- At a class's column the filled bias block is the array's, whatever the filler. -/
theorem bfill_eq (t : Fin cfg2.N) (d d' : S1x512.Idx → EReal) (g : (win2_2.xblock (grid2.coords t)).Idx → EReal)
    (q : Fin 512) (h : 512 * ((grid2.coords t) 1).val + q.val < 2002) :
    win2_2.fill (grid2.coords t) d g (ix2 (0 : Fin 1) q) = win2_2.fill (grid2.coords t) d' g (ix2 (0 : Fin 1) q) := by
  have hx := xsize2 t
  have hm : win2_2.moved (grid2.coords t) (ix2 (0 : Fin 1) q) = true := (win2_2.moved_iff _ _).mpr fun a => match a with
    | ⟨0, _⟩ => by show (0 : Fin 1).val < win2_2.xsize (grid2.coords t) 0; omega
    | ⟨1, _⟩ => by show q.val < win2_2.xsize (grid2.coords t) 1; omega
  unfold Pipeline.Window.fill; rw [dif_pos hm, dif_pos hm]

/-- THE INDEPENDENCE: the masked tile computed from the two clipped blocks filled out with `d1`, `d2` is the one computed from
    them filled out with `d1'`, `d2'`. -/
theorem pay8_fill (t : Fin cfg2.N) (x : FVec Ideal S2048x1024 .bf16)
    (g1 : (win2_1.xblock (grid2.coords t)).Idx → EReal) (g2 : (win2_2.xblock (grid2.coords t)).Idx → EReal)
    (d1 d1' : S512x1024.Idx → EReal) (d2 d2' : S1x512.Idx → EReal) :
    k2_pay8 (F := Ideal) (grid2.coords t) x (win2_1.fill (grid2.coords t) d1 g1) (win2_2.fill (grid2.coords t) d2 g2)
      = k2_pay8 (F := Ideal) (grid2.coords t) x (win2_1.fill (grid2.coords t) d1' g1) (win2_2.fill (grid2.coords t) d2' g2) :=
  pay8_congr (grid2.coords t) x _ _ _ _ (fun q k h => wfill_eq t d1 d1' g1 q k h) (fun q h => bfill_eq t d2 d2' g2 q h)

/-- The new maximum and the new mass read the two blocks through the masked tile only. -/
theorem pay9_congr (i : grid2.Coords) (x : FVec Ideal S2048x1024 .bf16) (w w' : FVec Ideal S512x1024 .bf16) (b b' : FVec Ideal S1x512 .f32)
    (m : FVec Ideal S2048x1 .f32) (h : k2_pay8 (F := Ideal) i x w b = k2_pay8 (F := Ideal) i x w' b') :
    k2_pay9 (F := Ideal) i x w b m = k2_pay9 (F := Ideal) i x w' b' m := by
  unfold k2_pay9; rw [h]
theorem pay10_congr (i : grid2.Coords) (x : FVec Ideal S2048x1024 .bf16) (w w' : FVec Ideal S512x1024 .bf16) (b b' : FVec Ideal S1x512 .f32)
    (m m2 l : FVec Ideal S2048x1 .f32) (h : k2_pay8 (F := Ideal) i x w b = k2_pay8 (F := Ideal) i x w' b') :
    k2_pay10 (F := Ideal) i x w b m m2 l = k2_pay10 (F := Ideal) i x w' b' m m2 l := by
  unfold k2_pay10; rw [pay9_congr i x w w' b b' m h, h]

end Cert.KernelIdeal.Hand

end
-- ==== Proof.KI.R2.Runs.lean ====
import proofs.«415479_j24352464569077_2_alg».proof.Proof.Gen.KernelIdeal.Launch
import proofs.«415479_j24352464569077_2_alg».proof.Proof.Gen.KernelIdeal.Skeleton
import proofs.«415479_j24352464569077_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option synthInstance.maxSize 4096
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The body's two branch conditions, in closed form over the grid -/

/-- The first branch of the body is taken at the first vocabulary tile of a row tile (vocabulary coordinate 0). -/
abbrev cond2_0 (i : grid2.Coords) : Prop := (Scalar.cmpi .ne (Scalar.extui (Scalar.cmpi .eq (BitVec.ofNat 32 (i 1).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- The second branch is taken at the last vocabulary tile (vocabulary coordinate 3). -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- The four input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Away from the last vocabulary tile nothing is stored into the output block, and it is not written back there. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- At the last vocabulary tile the output block is stored. -/
theorem liveAt2_4 : ∀ t : Fin cfg2.N, cond2_1 (grid2.coords t) → cfg2.idle 4 (grid2.coords t) = false := by decide +kernel

/-! ## The memrefs the body is called with -/

/-- Each window's current staging memref at point `t`, and its wholeness. -/
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x1 .f32 := win2_4.stage (cfg2.slots t 4)
abbrev hs2_4 (t : Fin cfg2.N) : (ms2_4 t).IsWhole := hstage2_4 ((cfg2.slots t 4).cast nbuf2_4)
/-- The three scratch operands: running maximum, running mass, running pick. -/
abbrev scM2_0 : Memref sig .tc .vmem S2048x1 .f32 := Memref.whole cc2_scratch0
abbrev scM2_1 : Memref sig .tc .vmem S2048x1 .f32 := Memref.whole cc2_scratch1
abbrev scM2_2 : Memref sig .tc .vmem S2048x1 .f32 := Memref.whole cc2_scratch2

/-- The region's invariant with the three scratch operands as memrefs owned at some contents, beside the other scoped buffers
    (unopened) and the generator register. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d))
          ∗ Pipeline.scopedRestBut (Ix := Unit) (Name := ℕ) (U := UR sig nD τ) (Lvl := ℕ) (Val := Elt F) spec2 c [cc2_scratch0, cc2_scratch1, cc2_scratch2]) ∗ (∃ r, prngReg c r)) := by
  unfold Pipeline.ΦA; rw [scopedRest2_split]; simp only [scM2_0, scM2_1, scM2_2, owns_whole]; try rfl

/-- The column index vector of a tile, as the body builds it. -/
abbrev colIota2 : IVec S2048x512 32 := iota .tc S2048x512 32 [1] iota_S2048x512_d1_w32

/-- The zero offsets of a whole-buffer access, however spelt. -/
theorem hz2 : (![0, 0] : Fin 2 → Nat) = fun _ => 0 := funext fun a => by fin_cases a <;> rfl

end Cert.KernelIdeal.Hand

end
-- ==== Proof.KI.R2.RunA.lean ====
/-
  Region 2 (the head's cross-entropy call): the kernel body's run at a row tile's first vocabulary tile, at any float instance. The run says
  nothing about values: on whole memrefs holding given contents it ends with each scratch vector, and the output block where it
  is stored, holding the store's payload term over those contents.
-/
import proofs.«415479_j24352464569077_2_alg».proof.Proof.KI.R2.Runs

set_option synthInstance.maxSize 4096
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 1000000 in
/-- A row tile's first vocabulary tile (the first branch taken, the second not): on whole memrefs — the four inputs at their
    contents, the output block at contents handed back untouched, the three scratch vectors at anything — the body runs to the
    inputs and the output block as they were and the scratch at the tile's step from the reset: maximum at the named constant, no
    mass, no pick. -/
theorem kernelRun2_A (c : Dev nD) (i : grid2.Coords) (arg2 : Memref sig .tc .vmem S2048x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S2048x1 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole)
    (hc0 : cond2_0 i) (hc1 : ¬cond2_1 i)
    (x0 : Vec F S2048x1024 .bf16) (x1 : Vec F S512x1024 .bf16) (x2 : Vec F S1x512 .f32) (x3 : Vec F S2048x1 .i32)
    (xi4 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4
            ∗ owns (c : Thread nD τ) arg7 fullShare (k2_pay2 (k2_pay9 i x0 x1 x2 (k2_pay5 (F := F))))
            ∗ owns (c : Thread nD τ) arg8 fullShare (k2_pay1 (k2_pay10 i x0 x1 x2 (k2_pay5 (F := F)) (k2_pay5 (F := F)) (k2_pay6 (F := F))))
            ∗ owns (c : Thread nD τ) arg9 fullShare (k2_pay3 (BitVec.ofNat 32 (i 1).val) colIota2 (k2_pay8 i x0 x1 x2) x3 (k2_pay7 (F := F)))) -∗ K ⟨⟩))
      ⊢ wp frame (wpE (defs₀ (F := F)) Variants.none c none) E (cc2__ce_kernel_head i arg2 harg2 arg3 harg3 arg4 harg4 arg5 harg5 arg6 harg6 arg7 harg7 arg8 harg8 arg9 harg9) K := by
  simp only [cc2__ce_kernel_head_eq_skeleton]; unfold cc2__ce_kernel_head_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3
  obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    rw [View.read_writes_eq_canon _ _ _ (fun y => ⟨_, List.mem_cons.mpr (Or.inl rfl), View.mem_set_unit_zero hz2 inb_S2048x1_S2048x1_0_0 y⟩)]
    sl_unfold_words
    rw [View.canon_cons_unit_zero hz2]
    simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S512x1024) hz2, View.ld_unit_zero (S := S1x512) hz2, View.ld_unit_zero (S := S2048x1) hz2, View.readCov_unit_zero (S := S2048x1) _ hz2]
  isplitl [H8]
  · iexists _; isplitr; swap; · iexact H8
    ipureintro
    rw [View.read_writes_eq_canon _ _ _ (fun y => ⟨_, List.mem_cons.mpr (Or.inl rfl), View.mem_set_unit_zero hz2 inb_S2048x1_S2048x1_0_0 y⟩)]
    sl_unfold_words
    rw [View.canon_cons_unit_zero hz2]
    simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S512x1024) hz2, View.ld_unit_zero (S := S1x512) hz2, View.ld_unit_zero (S := S2048x1) hz2, View.readCov_unit_zero (S := S2048x1) _ hz2]
  · iexists _; isplitr; swap; · iexact H9
    ipureintro
    rw [View.read_writes_eq_canon _ _ _ (fun y => ⟨_, List.mem_cons.mpr (Or.inl rfl), View.mem_set_unit_zero hz2 inb_S2048x1_S2048x1_0_0 y⟩)]
    sl_unfold_words
    rw [View.canon_cons_unit_zero hz2]
    simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S512x1024) hz2, View.ld_unit_zero (S := S1x512) hz2, View.ld_unit_zero (S := S2048x1) hz2, View.readCov_unit_zero (S := S2048x1) _ hz2]

end Cert.KernelIdeal.Hand

end
-- ==== Proof.KI.R2.RunB.lean ====
/-
  Region 2 (the head's cross-entropy call): the kernel body's run at a middle vocabulary tile, at any float instance. The run says
  nothing about values: on whole memrefs holding given contents it ends with each scratch vector, and the output block where it
  is stored, holding the store's payload term over those contents.
-/
import proofs.«415479_j24352464569077_2_alg».proof.Proof.KI.R2.Runs

set_option synthInstance.maxSize 4096
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 1000000 in
/-- A middle vocabulary tile (neither branch taken): on whole memrefs — the four inputs at their contents, the output block at
    contents handed back untouched, the three scratch vectors at what the tile before left — the body runs to the inputs and the
    output block as they were and the scratch at the tile's step: the new maximum, the new mass, the new pick. -/
theorem kernelRun2_B (c : Dev nD) (i : grid2.Coords) (arg2 : Memref sig .tc .vmem S2048x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S2048x1 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole)
    (hc0 : ¬cond2_0 i) (hc1 : ¬cond2_1 i)
    (x0 : Vec F S2048x1024 .bf16) (x1 : Vec F S512x1024 .bf16) (x2 : Vec F S1x512 .f32) (x3 : Vec F S2048x1 .i32)
    (xi4 : Vec F S2048x1 .f32) (xm xl xb : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xm ∗ owns (c : Thread nD τ) arg8 fullShare xl ∗ owns (c : Thread nD τ) arg9 fullShare xb
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4
            ∗ owns (c : Thread nD τ) arg7 fullShare (k2_pay2 (k2_pay9 i x0 x1 x2 xm))
            ∗ owns (c : Thread nD τ) arg8 fullShare (k2_pay1 (k2_pay10 i x0 x1 x2 xm xm xl))
            ∗ owns (c : Thread nD τ) arg9 fullShare (k2_pay3 (BitVec.ofNat 32 (i 1).val) colIota2 (k2_pay8 i x0 x1 x2) x3 xb)) -∗ K ⟨⟩))
      ⊢ wp frame (wpE (defs₀ (F := F)) Variants.none c none) E (cc2__ce_kernel_head i arg2 harg2 arg3 harg3 arg4 harg4 arg5 harg5 arg6 harg6 arg7 harg7 arg8 harg8 arg9 harg9) K := by
  simp only [cc2__ce_kernel_head_eq_skeleton]; unfold cc2__ce_kernel_head_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf7; obtain rfl := harg8.eq_unread hf8; obtain rfl := harg9.eq_unread hf9
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    rw [View.read_writes_eq_canon _ _ _ (fun y => ⟨_, List.mem_singleton_self _, View.mem_set_unit_zero hz2 inb_S2048x1_S2048x1_0_0 y⟩)]
    sl_unfold_words
    rw [View.canon_unit_zero hz2]
    simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S512x1024) hz2, View.ld_unit_zero (S := S1x512) hz2, View.ld_unit_zero (S := S2048x1) hz2]
  isplitl [H8]
  · iexists _; isplitr; swap; · iexact H8
    ipureintro
    rw [View.read_writes_eq_canon _ _ _ (fun y => ⟨_, List.mem_singleton_self _, View.mem_set_unit_zero hz2 inb_S2048x1_S2048x1_0_0 y⟩)]
    sl_unfold_words
    rw [View.canon_unit_zero hz2]
    simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S512x1024) hz2, View.ld_unit_zero (S := S1x512) hz2, View.ld_unit_zero (S := S2048x1) hz2]
  · iexists _; isplitr; swap; · iexact H9
    ipureintro
    rw [View.read_writes_eq_canon _ _ _ (fun y => ⟨_, List.mem_singleton_self _, View.mem_set_unit_zero hz2 inb_S2048x1_S2048x1_0_0 y⟩)]
    sl_unfold_words
    rw [View.canon_unit_zero hz2]
    simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S512x1024) hz2, View.ld_unit_zero (S := S1x512) hz2, View.ld_unit_zero (S := S2048x1) hz2]

end Cert.KernelIdeal.Hand

end
-- ==== Proof.KI.R2.RunC.lean ====
/-
  Region 2 (the head's cross-entropy call): the kernel body's run at the last vocabulary tile, at any float instance. The run says
  nothing about values: on whole memrefs holding given contents it ends with each scratch vector, and the output block where it
  is stored, holding the store's payload term over those contents.
-/
import proofs.«415479_j24352464569077_2_alg».proof.Proof.KI.R2.Runs

set_option synthInstance.maxSize 4096
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 1000000 in
/-- The last vocabulary tile (the first branch not taken, the second taken): on whole memrefs — the four inputs at their contents,
    the output block at anything, the three scratch vectors at what the tile before left — the body runs to the inputs as they
    were, the scratch at the tile's step, and the output block at `m + log l - b` of the stepped scratch. -/
theorem kernelRun2_C (c : Dev nD) (i : grid2.Coords) (arg2 : Memref sig .tc .vmem S2048x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S2048x1 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole)
    (hc0 : ¬cond2_0 i) (hc1 : cond2_1 i)
    (x0 : Vec F S2048x1024 .bf16) (x1 : Vec F S512x1024 .bf16) (x2 : Vec F S1x512 .f32) (x3 : Vec F S2048x1 .i32)
    (xm xl xb : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xm ∗ owns (c : Thread nD τ) arg8 fullShare xl ∗ owns (c : Thread nD τ) arg9 fullShare xb
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k2_pay4 (k2_pay2 (k2_pay9 i x0 x1 x2 xm)) (k2_pay1 (k2_pay10 i x0 x1 x2 xm xm xl))
                (k2_pay3 (BitVec.ofNat 32 (i 1).val) colIota2 (k2_pay8 i x0 x1 x2) x3 xb))
            ∗ owns (c : Thread nD τ) arg7 fullShare (k2_pay2 (k2_pay9 i x0 x1 x2 xm))
            ∗ owns (c : Thread nD τ) arg8 fullShare (k2_pay1 (k2_pay10 i x0 x1 x2 xm xm xl))
            ∗ owns (c : Thread nD τ) arg9 fullShare (k2_pay3 (BitVec.ofNat 32 (i 1).val) colIota2 (k2_pay8 i x0 x1 x2) x3 xb)) -∗ K ⟨⟩))
      ⊢ wp frame (wpE (defs₀ (F := F)) Variants.none c none) E (cc2__ce_kernel_head i arg2 harg2 arg3 harg3 arg4 harg4 arg5 harg5 arg6 harg6 arg7 harg7 arg8 harg8 arg9 harg9) K := by
  simp only [cc2__ce_kernel_head_eq_skeleton]; unfold cc2__ce_kernel_head_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg7.eq_unread hf7; obtain rfl := harg8.eq_unread hf8; obtain rfl := harg9.eq_unread hf9
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_words
    rw [View.read_writes_eq_canon _ _ _ (fun y => ⟨_, List.mem_cons.mpr (Or.inl rfl), View.mem_set_unit_zero hz2 inb_S2048x1_S2048x1_0_0 y⟩)]
    rw [View.canon_cons_unit_zero hz2]
    simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S512x1024) hz2, View.ld_unit_zero (S := S1x512) hz2, View.ld_unit_zero (S := S2048x1) hz2, View.readCov_unit_zero (S := S2048x1) _ hz2]
  isplitl [H7]
  · iexists _; isplitr; swap; · iexact H7
    ipureintro
    sl_unfold_words
    rw [View.read_writes_eq_canon _ _ _ (fun y => ⟨_, List.mem_cons.mpr (Or.inl rfl), View.mem_set_unit_zero hz2 inb_S2048x1_S2048x1_0_0 y⟩)]
    rw [View.canon_cons_unit_zero hz2]
    simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S512x1024) hz2, View.ld_unit_zero (S := S1x512) hz2, View.ld_unit_zero (S := S2048x1) hz2, View.readCov_unit_zero (S := S2048x1) _ hz2]
  isplitl [H8]
  · iexists _; isplitr; swap; · iexact H8
    ipureintro
    sl_unfold_words
    rw [View.read_writes_eq_canon _ _ _ (fun y => ⟨_, List.mem_cons.mpr (Or.inl rfl), View.mem_set_unit_zero hz2 inb_S2048x1_S2048x1_0_0 y⟩)]
    rw [View.canon_cons_unit_zero hz2]
    simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S512x1024) hz2, View.ld_unit_zero (S := S1x512) hz2, View.ld_unit_zero (S := S2048x1) hz2, View.readCov_unit_zero (S := S2048x1) _ hz2]
  · iexists _; isplitr; swap; · iexact H9
    ipureintro
    sl_unfold_words
    rw [View.read_writes_eq_canon _ _ _ (fun y => ⟨_, List.mem_cons.mpr (Or.inl rfl), View.mem_set_unit_zero hz2 inb_S2048x1_S2048x1_0_0 y⟩)]
    rw [View.canon_cons_unit_zero hz2]
    simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S512x1024) hz2, View.ld_unit_zero (S := S1x512) hz2, View.ld_unit_zero (S := S2048x1) hz2, View.readCov_unit_zero (S := S2048x1) _ hz2]

end Cert.KernelIdeal.Hand

end
-- ==== Proof.KI.R2.Data.lean ====
/-
  Region 2 (the head's cross-entropy call): the pipeline's proof data and its body obligation, at the ideal instance.

  After the body at point `t` the token, weight, bias and label buffers hold their blocks — the weight and bias blocks, which
  overhang their arrays at the last vocabulary tile, filled out with the word 0 — and the output buffer holds `outblk2`. Between
  points the three scratch vectors are owned at `scr2`'s components (before the first point: at anything). The two clipped windows
  are stated on their arrays' parts only, so the obligation is the library's loose form: the body is handed their buffers filled
  out with words nothing names, and what it computes does not depend on those words (`next_fill`, from the independence of the
  masked tile).
-/
import proofs.«415479_j24352464569077_2_alg».proof.Proof.KI.R2.Defs
import proofs.«415479_j24352464569077_2_alg».proof.Proof.KI.R2.Indep
import proofs.«415479_j24352464569077_2_alg».proof.Proof.KI.R2.RunA
import proofs.«415479_j24352464569077_2_alg».proof.Proof.KI.R2.RunB
import proofs.«415479_j24352464569077_2_alg».proof.Proof.KI.R2.RunC
import Idealize.ShloMosaic.Lib.Pipeline.Kit

set_option synthInstance.maxSize 4096
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

/-! ## The invariant between points -/

/-- The three scratch vectors owned at the record's components, beside the other scoped buffers and the generator register. -/
def ScrOwn2 (c : Dev nD) (s : Scr2) : sProp 𝕄 :=
  iprop(iprop(iprop(owns (c : Thread nD τ) scM2_0 fullShare s.m ∗ owns (c : Thread nD τ) scM2_1 fullShare s.l ∗ owns (c : Thread nD τ) scM2_2 fullShare s.b)
      ∗ Pipeline.scopedRestBut (Ix := Unit) (Name := ℕ) (U := UR sig nD τ) (Lvl := ℕ) (Val := Elt Ideal) spec2 c [cc2_scratch0, cc2_scratch1, cc2_scratch2]) ∗ (∃ r, prngReg c r))

/-- Before the first point the region's own invariant; before point `n + 1` the scratch at what point `n` left. -/
def PhiS2 (c : Dev nD) : (n : ℕ) → n ≤ cfg2.N → sProp 𝕄
  | 0, _ => Pipeline.ΦA spec2 c
  | n + 1, hn => ScrOwn2 c (scr2 V c n hn)

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) : PhiS2 V c (n + 1) hn = ScrOwn2 c (scr2 V c n hn) := rfl
theorem PhiS2_pos (c : Dev nD) (n : ℕ) (h : n ≤ cfg2.N) (hz : n ≠ 0) :
    PhiS2 V c n h = ScrOwn2 c (scr2 V c (n - 1) (by omega)) := by
  cases n with
  | zero => exact absurd rfl hz
  | succ n => rfl

/-! ## The proof data -/

/-- The arrays as the region finds them; after the body each input's buffer at its block (the two clipped ones filled out with
    the word 0) and the output's at `outblk2`; the invariant `PhiS2`; nothing owed; full shares. -/
def dat2 (c : Dev nD) : Dat τ (Elt Ideal) Unit ℕ (UR sig nD τ) ℕ cfg2 c where
  A w := V c (Pipeline.arrRef spec2 w)
  after w t := match w with
    | ⟨0, _⟩ => xblk2 V c t
    | ⟨1, _⟩ => wblk2 V c t
    | ⟨2, _⟩ => bblk2 V c t
    | ⟨3, _⟩ => labblk2 V c t
    | ⟨4, _⟩ => outblk2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := rfl
theorem owed_eq2 (c : Dev nD) (t : Fin (cfg2.N + 1)) : (dat2 V c).owed t = 0 := rfl
theorem rec_eq2 (c : Dev nD) (t : Fin (cfg2.N + 1)) : (dat2 V c).recorded t = Set.univ := rfl

theorem PhiS2_castSucc (c : Dev nD) (t : Fin cfg2.N) : (dat2 V c).Φ t.castSucc = PhiS2 V c t.val (Nat.le_of_lt t.isLt) := by
  dsimp only [dat2]; simp only [Fin.coe_castSucc]

theorem after2_0 (c : Dev nD) (t : Fin cfg2.N) : (dat2 V c).after 0 t = xblk2 V c t := by dsimp only [dat2]
theorem after2_1 (c : Dev nD) (t : Fin cfg2.N) : (dat2 V c).after 1 t = wblk2 V c t := by dsimp only [dat2]
theorem after2_2 (c : Dev nD) (t : Fin cfg2.N) : (dat2 V c).after 2 t = bblk2 V c t := by dsimp only [dat2]
theorem after2_3 (c : Dev nD) (t : Fin cfg2.N) : (dat2 V c).after 3 t = labblk2 V c t := by dsimp only [dat2]
theorem after2_4 (c : Dev nD) (t : Fin cfg2.N) : (dat2 V c).after 4 t = outblk2 V c t := by dsimp only [dat2]

/-- The token and label buffers hold their blocks at every point, fetched there or not (the block index has not moved). -/
theorem before2_0 (c : Dev nD) (t : Fin cfg2.N) (d) : (dat2 V c).before 0 t d = xblk2 V c t :=
  ((dat2 V c).before_in_eq_fetched 0 rfl (fun _ => rfl) (fun _ _ _ => rfl)
    (fun t => by rw [after2_0]; unfold Dat.blockOf xblk2; rw [A_eq2]; try rfl) t d).trans
    (by unfold Dat.fetched Dat.blockOf xblk2; rw [A_eq2]; try rfl)
theorem before2_3 (c : Dev nD) (t : Fin cfg2.N) (d) : (dat2 V c).before 3 t d = labblk2 V c t :=
  ((dat2 V c).before_in_eq_fetched 3 rfl (fun _ => rfl) (fun _ _ _ => rfl)
    (fun t => by rw [after2_3]; unfold Dat.blockOf labblk2; rw [A_eq2]; try rfl) t d).trans
    (by unfold Dat.fetched Dat.blockOf labblk2; rw [A_eq2]; try rfl)
/-- The weight and bias buffers are fetched at every point: the array's part inside, the words `d` nothing names past its end. -/
theorem before2_1 (c : Dev nD) (t : Fin cfg2.N) (d) :
    (dat2 V c).before 1 t d = win2_1.fill (grid2.coords t) d (wcut2 V c t) := by
  unfold Dat.before; rw [if_pos (fetch2_1 t)]; rfl
theorem before2_2 (c : Dev nD) (t : Fin cfg2.N) (d) :
    (dat2 V c).before 2 t d = win2_2.fill (grid2.coords t) d (bcut2 V c t) := by
  unfold Dat.before; rw [if_pos (fetch2_2 t)]; rfl

/-- The filled-out blocks cut back to the arrays' parts. -/
theorem cut_wblk2 (c : Dev nD) (t : Fin cfg2.N) : win2_1.cut (grid2.coords t) (wblk2 V c t) = wcut2 V c t := win2_1.cut_fill _ _ _
theorem cut_bblk2 (c : Dev nD) (t : Fin cfg2.N) : win2_2.cut (grid2.coords t) (bblk2 V c t) = bcut2 V c t := win2_2.cut_fill _ _ _

/-- A tile's step computed from the blocks filled out with any words `d1`, `d2` is the step computed from them filled out with
    the word 0: the step reads the two blocks through the masked tile only. -/
theorem next_fill (c : Dev nD) (s : Scr2) (t : Fin cfg2.N) (x : Vec Ideal S2048x1024 .bf16) (lab : Vec Ideal S2048x1 .i32)
    (d1 : S512x1024.Idx → EReal) (d2 : S1x512.Idx → EReal) :
    s.next (grid2.coords t) x (wblk2 V c t) (bblk2 V c t) lab
      = s.next (grid2.coords t) x (win2_1.fill (grid2.coords t) d1 (wcut2 V c t)) (win2_2.fill (grid2.coords t) d2 (bcut2 V c t)) lab := by
  have e8 := pay8_fill t x (wcut2 V c t) (bcut2 V c t) (fun _ => (0 : EReal)) d1 (fun _ => (0 : EReal)) d2
  have e9 := pay9_congr (grid2.coords t) x _ _ _ _ s.m e8
  have e10 := pay10_congr (grid2.coords t) x _ _ _ _ s.m s.m s.l e8
  show Scr2.mk _ _ _ = Scr2.mk _ _ _
  exact congr (congr (congrArg Scr2.mk (congrArg (k2_pay2 (F := Ideal)) e9)) (congrArg (k2_pay1 (F := Ideal)) e10))
    (congrArg (fun P => k2_pay3 (F := Ideal) (BitVec.ofNat 32 ((grid2.coords t) 1).val) (iota .tc S2048x512 32 [1] iota_S2048x512_d1_w32) P lab s.b) e8)

/-! ## The body obligation -/

/-- What the body is called with at point `t`: the invariant, what the core owes, each window's current buffer at what it holds. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- What it returns: the invariant at the next point, and each buffer at what the body leaves (the two clipped windows' only on
    the part inside their arrays). -/
def bodyPost2 (c : Dev nD) (t : Fin cfg2.N) : sProp 𝕄 :=
  iprop((dat2 V c).Φ t.succ ∗ (dat2 V c).owesAt () t.succ
    ∗ (dat2 V c).leaves 0 t ∗ (dat2 V c).leaves 1 t ∗ (dat2 V c).leaves 2 t ∗ (dat2 V c).leaves 3 t ∗ (dat2 V c).leaves 4 t)

theorem leaves2_0 (c : Dev nD) (t : Fin cfg2.N) : (dat2 V c).leaves 0 t = owns (c : Thread nD τ) (ms2_0 t) fullShare (xblk2 V c t) := rfl
theorem leaves2_1 (c : Dev nD) (t : Fin cfg2.N) :
    (dat2 V c).leaves 1 t = iprop(∃ d, owns (c : Thread nD τ) (ms2_1 t) fullShare (win2_1.fill (grid2.coords t) d (win2_1.cut (grid2.coords t) (wblk2 V c t)))) := rfl
theorem leaves2_2 (c : Dev nD) (t : Fin cfg2.N) :
    (dat2 V c).leaves 2 t = iprop(∃ d, owns (c : Thread nD τ) (ms2_2 t) fullShare (win2_2.fill (grid2.coords t) d (win2_2.cut (grid2.coords t) (bblk2 V c t)))) := rfl
theorem leaves2_3 (c : Dev nD) (t : Fin cfg2.N) : (dat2 V c).leaves 3 t = owns (c : Thread nD τ) (ms2_3 t) fullShare (labblk2 V c t) := rfl
theorem leaves2_4_C (c : Dev nD) (t : Fin cfg2.N) (hc1 : cond2_1 (grid2.coords t)) :
    (dat2 V c).leaves 4 t = owns (c : Thread nD τ) (ms2_4 t) fullShare (outblk2 V c t) := by
  unfold Dat.leaves; rw [liveAt2_4 t hc1]; rfl

set_option maxHeartbeats 4000000 in
/-- The body at any point. The closed forms say which of the three control cases the point is in; the inputs' buffers hold their
    blocks (the clipped ones filled out with the words `d1`, `d2` nothing names); the invariant hands over the scratch at what the
    point before left (at anything at the first point); the case's run applies; its result is the tile's step over the blocks filled
    out with `d1`, `d2`, which is the step over the blocks filled out with 0 (`next_fill`). -/
theorem sound_body2 (c : Dev nD) (t : Fin cfg2.N) :
    bodyPre2 V c t ⊢ wp frame (wpE (defs₀ (F := Ideal)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, cut_wblk2, cut_bblk2]
  have hN : t.val < 8 := lt_of_lt_of_eq t.isLt (show cfg2.N = 8 from N_2)
  by_cases h0 : t.val % 4 = 0
  · have h1 : ¬t.val % 4 = 3 := by omega
    have hc0 : cond2_0 (grid2.coords t) := (hcond2_0 t).mpr h0
    have hc1 : ¬cond2_1 (grid2.coords t) := fun h => h1 ((hcond2_1 t).mp h)
    rw [Dat.leaves_idle (dat2 V c) 4 t (idleAt2_4 t hc1) (noFlush2_4 t hc1)]
    rw [scr2_first V c t h0]; unfold Scr2.first
    by_cases hz : t.val = 0
    · rw [PhiS2_castSucc V c t, PhiS2_zero V c _ _ hz, PhiA2_eq]
      unfold ScrOwn2
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      rw [next_fill V c Scr2.reset t (xblk2 V c t) (labblk2 V c t) d1 d2]
      dsimp only [Scr2.next, Scr2.reset]
      iapply (kernelRun2_A (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) hc0 hc1 (xblk2 V c t) (win2_1.fill (grid2.coords t) d1 (wcut2 V c t)) (win2_2.fill (grid2.coords t) d2 (bcut2 V c t)) (labblk2 V c t) ((dat2 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hrest Hg]
      · isplitl [HS0 HS1 HS2 Hrest]
        · isplitl [HS0 HS1 HS2]
          · isplitl [HS0]; · iexact HS0
            isplitl [HS1]; · iexact HS1
            iexact HS2
          iexact Hrest
        iexact Hg
      isplitl [Ho]; · iexact Ho
      isplitl [H0]; · iexact H0
      isplitl [H1]; · iexists d1; iexact H1
      isplitl [H2]; · iexists d2; iexact H2
      isplitl [H3]; · iexact H3
      iexists d4; iexact H4
    · rw [PhiS2_castSucc V c t, PhiS2_pos V c _ _ hz]
      unfold ScrOwn2
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      rw [next_fill V c Scr2.reset t (xblk2 V c t) (labblk2 V c t) d1 d2]
      dsimp only [Scr2.next, Scr2.reset]
      iapply (kernelRun2_A (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) hc0 hc1 (xblk2 V c t) (win2_1.fill (grid2.coords t) d1 (wcut2 V c t)) (win2_2.fill (grid2.coords t) d2 (bcut2 V c t)) (labblk2 V c t) ((dat2 V c).before 4 t d4) Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, HS0, HS1, HS2⟩
      isplitl [HS0 HS1 HS2 Hrest Hg]
      · isplitl [HS0 HS1 HS2 Hrest]
        · isplitl [HS0 HS1 HS2]
          · isplitl [HS0]; · iexact HS0
            isplitl [HS1]; · iexact HS1
            iexact HS2
          iexact Hrest
        iexact Hg
      isplitl [Ho]; · iexact Ho
      isplitl [H0]; · iexact H0
      isplitl [H1]; · iexists d1; iexact H1
      isplitl [H2]; · iexists d2; iexact H2
      isplitl [H3]; · iexact H3
      iexists d4; iexact H4
  · have hz : t.val ≠ 0 := fun h => h0 (by rw [h])
    by_cases h1 : t.val % 4 = 3
    · have hc0 : ¬cond2_0 (grid2.coords t) := fun h => h0 ((hcond2_0 t).mp h)
      have hc1 : cond2_1 (grid2.coords t) := (hcond2_1 t).mpr h1
      rw [leaves2_4_C V c t hc1]
      unfold outblk2
      rw [scr2_next V c t h0]
      rw [PhiS2_castSucc V c t, PhiS2_pos V c _ _ hz]
      unfold ScrOwn2
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      rw [next_fill V c (scr2 V c (t.val - 1) (Nat.lt_of_le_of_lt (Nat.sub_le _ _) t.isLt)) t (xblk2 V c t) (labblk2 V c t) d1 d2]
      dsimp only [Scr2.next]
      iapply (kernelRun2_C (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) hc0 hc1 (xblk2 V c t) (win2_1.fill (grid2.coords t) d1 (wcut2 V c t)) (win2_2.fill (grid2.coords t) d2 (bcut2 V c t)) (labblk2 V c t) (scr2 V c (t.val - 1) (Nat.lt_of_le_of_lt (Nat.sub_le _ _) t.isLt)).m (scr2 V c (t.val - 1) (Nat.lt_of_le_of_lt (Nat.sub_le _ _) t.isLt)).l (scr2 V c (t.val - 1) (Nat.lt_of_le_of_lt (Nat.sub_le _ _) t.isLt)).b Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, H4, HS0, HS1, HS2⟩
      isplitl [HS0 HS1 HS2 Hrest Hg]
      · isplitl [HS0 HS1 HS2 Hrest]
        · isplitl [HS0 HS1 HS2]
          · isplitl [HS0]; · iexact HS0
            isplitl [HS1]; · iexact HS1
            iexact HS2
          iexact Hrest
        iexact Hg
      isplitl [Ho]; · iexact Ho
      isplitl [H0]; · iexact H0
      isplitl [H1]; · iexists d1; iexact H1
      isplitl [H2]; · iexists d2; iexact H2
      isplitl [H3]; · iexact H3
      iexact H4
    · have hc0 : ¬cond2_0 (grid2.coords t) := fun h => h0 ((hcond2_0 t).mp h)
      have hc1 : ¬cond2_1 (grid2.coords t) := fun h => h1 ((hcond2_1 t).mp h)
      rw [Dat.leaves_idle (dat2 V c) 4 t (idleAt2_4 t hc1) (noFlush2_4 t hc1)]
      rw [scr2_next V c t h0]
      rw [PhiS2_castSucc V c t, PhiS2_pos V c _ _ hz]
      unfold ScrOwn2
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      rw [next_fill V c (scr2 V c (t.val - 1) (Nat.lt_of_le_of_lt (Nat.sub_le _ _) t.isLt)) t (xblk2 V c t) (labblk2 V c t) d1 d2]
      dsimp only [Scr2.next]
      iapply (kernelRun2_B (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) hc0 hc1 (xblk2 V c t) (win2_1.fill (grid2.coords t) d1 (wcut2 V c t)) (win2_2.fill (grid2.coords t) d2 (bcut2 V c t)) (labblk2 V c t) ((dat2 V c).before 4 t d4) (scr2 V c (t.val - 1) (Nat.lt_of_le_of_lt (Nat.sub_le _ _) t.isLt)).m (scr2 V c (t.val - 1) (Nat.lt_of_le_of_lt (Nat.sub_le _ _) t.isLt)).l (scr2 V c (t.val - 1) (Nat.lt_of_le_of_lt (Nat.sub_le _ _) t.isLt)).b Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hrest Hg]
      · isplitl [HS0 HS1 HS2 Hrest]
        · isplitl [HS0 HS1 HS2]
          · isplitl [HS0]; · iexact HS0
            isplitl [HS1]; · iexact HS1
            iexact HS2
          iexact Hrest
        iexact Hg
      isplitl [Ho]; · iexact Ho
      isplitl [H0]; · iexact H0
      isplitl [H1]; · iexists d1; iexact H1
      isplitl [H2]; · iexists d2; iexact H2
      isplitl [H3]; · iexact H3
      iexists d4; iexact H4

/-- The library's body obligation (its loose form: the two clipped windows are stated on their arrays' parts), at every point. -/
theorem body_obligation2 (c : Dev nD) : BodyObligationLoose (dat2 V c) (defs₀ (F := Ideal)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the region's own back: the scratch's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 8 := N_2; omega), PhiA2_eq]
  unfold ScrOwn2
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

end Cert.KernelIdeal.Hand

end
-- ==== Proof.FrameKI.lean ====
/-
  The idealized kernel runs to its end without a fault and leaves its eight argument arrays as launched.

  Each of the three calls is a pipeline over its windows with three or four scratch buffers carried across the vocabulary axis of its grid:
  at the first vocabulary tile of a row of points the scratch is reset, at every tile the running maximum, mass and pick are updated from the
  tile's masked logits, and at the last tile the output block is stored. The proof data of a call names what each staging buffer and the
  carried scratch hold after every point (a recursion over the points through the body's stored values); its invariant is the call's scoped
  buffers at anything before the first point, and afterwards the scratch at the recursion's values beside the other calls' scoped buffers.
  The program's host stretches between the calls only compute casts, label and mask vectors and the three sums.
-/
import proofs.«415479_j24352464569077_2_alg».proof.Defs
import proofs.«415479_j24352464569077_2_alg».proof.Proof.KI.Segs
import proofs.«415479_j24352464569077_2_alg».proof.Proof.KI.R0.Data
import proofs.«415479_j24352464569077_2_alg».proof.Proof.KI.R1.Data
import proofs.«415479_j24352464569077_2_alg».proof.Proof.KI.R2.Data

noncomputable section

namespace Cert.Proof

open Idealize.ShloMosaic Idealize.ShloMosaic.TcCoe Idealize.SL.Sem
open Cert.KernelIdeal Cert.KernelIdeal.Gen Cert.KernelIdeal.Hand

/-- The frame of the idealized program, from the three calls' proof data. -/
theorem frame_ki [hKernelIdeal : Cert.KernelIdeal.Facts] [hPre_finite_inputs : Cert.Pre_finite_inputs.Facts] : Cert.frame_KernelIdeal := fun m ρ _ =>
  Cert.KernelIdeal.Hand.frame_ki m dat0 dat1 dat2
    A_eq0 q_eq0 owed_eq0 rec_eq0 hin0 hout0 body_obligation0
    A_eq1 q_eq1 owed_eq1 rec_eq1 hin1 hout1 body_obligation1
    A_eq2 q_eq2 owed_eq2 rec_eq2 hin2 hout2 body_obligation2 ρ

end Cert.Proof

end
-- ==== Proof.Preserves.lean ====
/-
  The idealized kernel is the kernel's sanctioned idealization. The ideal pass rewrote six constants, two in each of the three
  calls: the fill `-1.0000000150474662e+30 : f32` (the word `0xF149F2CA`) is printed as the name "neg_big", which the certificate's
  table gives the value `⊥`: the running maximum starts at `⊥`, and a vocabulary column past the last class sits at `⊥`, the identity of
  `max`, with `exp ⊥ = 0` mass. Each conjunct says that the name denotes that value at the ideal instance.
-/
import proofs.«415479_j24352464569077_2_alg».proof.Defs

noncomputable section

namespace Cert.Proof

open Idealize.ShloMosaic

/-- One rewritten constant: the table gives "neg_big" the value `⊥`. -/
theorem neg_big_stmt : IdealRules.named_const.Statement Cert.KernelIdeal.κ "neg_big" .f32 0xF149F2CA#32 ⊥ :=
  IdealRules.named_const.statement Cert.KernelIdeal.κ "neg_big" .f32 0xF149F2CA#32 ⊥ rfl

/-- All six, in the ledger's order. -/
theorem preserves : Cert.preserves_Kernel_KernelIdeal :=
  ⟨neg_big_stmt, neg_big_stmt, neg_big_stmt, neg_big_stmt, neg_big_stmt, neg_big_stmt⟩

end Cert.Proof

end
-- ==== Proof.KI.HostEntry.lean ====
/-
  The host side of the kernel program's entry function: what each kernel region's input arrays hold when the region is
  entered, at any float instance.

  Between its three kernel regions the entry function runs plain array operations: it narrows the float arguments, makes
  from the target words each tail's range mask (converted to a float) and clipped label and the head's relabelled target,
  and reshapes the per-token vectors to one column. Every such array is a term of the launch contents of the argument
  buffers alone: no region's inputs depend on what an earlier region wrote. The integer side is named once
  (`clusterMask`, `clipLabel`, `headWord`), as functions of the target words.
-/
import proofs.«415479_j24352464569077_2_alg».proof.Proof.Gen.KernelIdeal.Regions
import Idealize.ShloMosaic.Lib.StableHlo.Run

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]
variable (m : (ℓ : Loc nD τ sig) → Buf (Elt F) ℓ) (outs : Outs (F := F))

/-! ## The integer side of the host program, as functions of the target words -/

/-- A 32-bit word at every token. -/
abbrev bc (w : BitVec 32) : IVec S4096 32 := broadcastInDim S4096 ![] bcast_S_S4096 (constantI S_ 32 w)

/-- The bit of `lo ≤ w < hi`, both comparisons signed, token by token. -/
def clusterMask (lo hi : BitVec 32) (w : IVec S4096 32) : IVec S4096 1 :=
  andi (cmpi .sge w (bc lo)) (cmpi .slt w (bc hi))

/-- `w - lo` clamped below at `0` and above at `top` (signed), token by token. -/
def clipLabel (lo top : BitVec 32) (w : IVec S4096 32) : IVec S4096 32 :=
  minsi (bc top) (maxsi (bc 0#32) (subi w (bc lo)))

/-- The head's label word: the target, replaced by 2000 in the first tail's range and by 2001 in the second's. -/
def headWord (w : IVec S4096 32) : IVec S4096 32 :=
  select (clusterMask 10000#32 50000#32 w) (bc 2001#32) (select (clusterMask 2000#32 10000#32 w) (bc 2000#32) w)

/-! ## What region 0 is entered with -/

theorem V5_main_v0 (c : Dev nD) :
    V5 m c main_v0 = truncf .bf16 (m ((c : Thread nD τ).loc main_arg0)) bitsLt_bf16_f32 := by
  show StableHlo.after hostOps0_4 _ (Proc.devRef .tc main_v0) = _
  after_results <;> rfl

theorem V5_main_v11 (c : Dev nD) :
    V5 m c main_v11 = truncf .bf16 (m ((c : Thread nD τ).loc main_arg4)) bitsLt_bf16_f32 := by
  show StableHlo.after hostOps0_4 _ (Proc.devRef .tc main_v11) = _
  after_results <;> rfl

theorem V5_main_v12 (c : Dev nD) :
    V5 m c main_v12 = truncf .bf16 (m ((c : Thread nD τ).loc main_arg5)) bitsLt_bf16_f32 := by
  show StableHlo.after hostOps0_4 _ (Proc.devRef .tc main_v12) = _
  after_results <;> rfl

theorem V5_main_v13 (c : Dev nD) :
    V5 m c main_v13 = shapeCast S4096x1 (clipLabel 2000#32 7999#32 (m ((c : Thread nD τ).loc main_arg1))) shapeCasts_S4096_S4096x1 := by
  show StableHlo.after hostOps0_4 _ (Proc.devRef .tc main_v13) = _
  after_results <;> rfl

theorem V5_main_v14 (c : Dev nD) :
    V5 m c main_v14 = shapeCast S4096x1 (uitofp .f32 (clusterMask 2000#32 10000#32 (m ((c : Thread nD τ).loc main_arg1)))) shapeCasts_S4096_S4096x1 := by
  show StableHlo.after hostOps0_4 _ (Proc.devRef .tc main_v14) = _
  after_results <;> rfl

/-! ## What region 1 is entered with

The host stretches between regions 0 and 1, and the stretch between regions 1 and 2, run over ANY contents `W` of the
buffers: what they leave in the buffers the later regions and the last stretch read. -/

/-- The five stretches between region 0 and region 1. -/
abbrev seg1 (W : Valuation τ sig (Elt F)) : Valuation τ sig (Elt F) :=
  StableHlo.after hostOps1_4 (StableHlo.after hostOps1_3 (StableHlo.after hostOps1_2 (StableHlo.after hostOps1_1 (StableHlo.after hostOps1 W))))

theorem seg1_main_v28 (W : Valuation τ sig (Elt F)) :
    seg1 W (Proc.devRef .tc main_v28) = truncf .bf16 (W (Proc.devRef .tc main_arg6)) bitsLt_bf16_f32 := by
  after_results_simp <;> rfl
theorem seg1_main_v29 (W : Valuation τ sig (Elt F)) :
    seg1 W (Proc.devRef .tc main_v29) = truncf .bf16 (W (Proc.devRef .tc main_arg7)) bitsLt_bf16_f32 := by
  after_results_simp <;> rfl
theorem seg1_main_v30 (W : Valuation τ sig (Elt F)) :
    seg1 W (Proc.devRef .tc main_v30) = shapeCast S4096x1 (clipLabel 10000#32 39999#32 (W (Proc.devRef .tc main_arg1))) shapeCasts_S4096_S4096x1 := by
  after_results_simp <;> rfl
theorem seg1_main_v31 (W : Valuation τ sig (Elt F)) :
    seg1 W (Proc.devRef .tc main_v31) = shapeCast S4096x1 (uitofp .f32 (clusterMask 10000#32 50000#32 (W (Proc.devRef .tc main_arg1)))) shapeCasts_S4096_S4096x1 := by
  after_results_simp <;> rfl
theorem seg1_main_v23 (W : Valuation τ sig (Elt F)) :
    seg1 W (Proc.devRef .tc main_v23) = select (clusterMask 10000#32 50000#32 (W (Proc.devRef .tc main_arg1))) (bc 2001#32) (W (Proc.devRef .tc main_v6)) := by
  after_results_simp <;> rfl
theorem seg1_main_v17 (W : Valuation τ sig (Elt F)) :
    seg1 W (Proc.devRef .tc main_v17) = addf (constant (F := F) S_ .f32 0x00000000#32) (Host.reduceAdd (W (Proc.devRef .tc main_v15)) (constant (F := F) S_ .f32 0x00000000#32) reducesTo_S4096x1_S_d0_1 h_S_) := by
  after_results_simp <;> rfl

/-- Region 0 changes none of the argument buffers: each is read under the valuation before it. -/
theorem V6_main_arg1 (c : Dev nD) : V6 m outs c main_arg1 = (m ((c : Thread nD τ).loc main_arg1)) :=
  (V6_of m outs c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
theorem V6_main_arg6 (c : Dev nD) : V6 m outs c main_arg6 = (m ((c : Thread nD τ).loc main_arg6)) :=
  (V6_of m outs c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans rfl
theorem V6_main_arg7 (c : Dev nD) : V6 m outs c main_arg7 = (m ((c : Thread nD τ).loc main_arg7)) :=
  (V6_of m outs c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans rfl
theorem V12_main_arg2 (c : Dev nD) : V12 m outs c main_arg2 = (m ((c : Thread nD τ).loc main_arg2)) :=
  (V12_of m outs c main_arg2 (by decide)).trans <| (V11_of m outs c main_arg2 (by decide)).trans <| (V10_of m outs c main_arg2 (by decide)).trans <| (V9_of m outs c main_arg2 (by decide)).trans <| (V8_of m outs c main_arg2 (by decide)).trans <| (V7_of m outs c main_arg2 (by decide)).trans <| (V6_of m outs c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl
theorem V12_main_arg3 (c : Dev nD) : V12 m outs c main_arg3 = (m ((c : Thread nD τ).loc main_arg3)) :=
  (V12_of m outs c main_arg3 (by decide)).trans <| (V11_of m outs c main_arg3 (by decide)).trans <| (V10_of m outs c main_arg3 (by decide)).trans <| (V9_of m outs c main_arg3 (by decide)).trans <| (V8_of m outs c main_arg3 (by decide)).trans <| (V7_of m outs c main_arg3 (by decide)).trans <| (V6_of m outs c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl

theorem V11_main_v0 (c : Dev nD) :
    V11 m outs c main_v0 = truncf .bf16 (m ((c : Thread nD τ).loc main_arg0)) bitsLt_bf16_f32 :=
  (V11_of m outs c main_v0 (by decide)).trans <| (V10_of m outs c main_v0 (by decide)).trans <| (V9_of m outs c main_v0 (by decide)).trans <| (V8_of m outs c main_v0 (by decide)).trans <| (V7_of m outs c main_v0 (by decide)).trans <| (V6_of m outs c main_v0 (by decide)).trans (V5_main_v0 m c)

theorem V11_main_v28 (c : Dev nD) :
    V11 m outs c main_v28 = truncf .bf16 (m ((c : Thread nD τ).loc main_arg6)) bitsLt_bf16_f32 :=
  (seg1_main_v28 (V6 m outs c)).trans (congrArg (fun w => truncf .bf16 w bitsLt_bf16_f32) (V6_main_arg6 m outs c))

theorem V11_main_v29 (c : Dev nD) :
    V11 m outs c main_v29 = truncf .bf16 (m ((c : Thread nD τ).loc main_arg7)) bitsLt_bf16_f32 :=
  (seg1_main_v29 (V6 m outs c)).trans (congrArg (fun w => truncf .bf16 w bitsLt_bf16_f32) (V6_main_arg7 m outs c))

theorem V11_main_v30 (c : Dev nD) :
    V11 m outs c main_v30 = shapeCast S4096x1 (clipLabel 10000#32 39999#32 (m ((c : Thread nD τ).loc main_arg1))) shapeCasts_S4096_S4096x1 :=
  (seg1_main_v30 (V6 m outs c)).trans (congrArg (fun w => shapeCast S4096x1 (clipLabel 10000#32 39999#32 w) shapeCasts_S4096_S4096x1) (V6_main_arg1 m outs c))

theorem V11_main_v31 (c : Dev nD) :
    V11 m outs c main_v31 = shapeCast S4096x1 (uitofp .f32 (clusterMask 10000#32 50000#32 (m ((c : Thread nD τ).loc main_arg1)))) shapeCasts_S4096_S4096x1 :=
  (seg1_main_v31 (V6 m outs c)).trans (congrArg (fun w => shapeCast S4096x1 (uitofp .f32 (clusterMask 10000#32 50000#32 w)) shapeCasts_S4096_S4096x1) (V6_main_arg1 m outs c))

/-! ## What region 2 is entered with -/

/-- The first tail's relabelled targets, still there after region 0. -/
theorem V6_main_v6 (c : Dev nD) :
    V6 m outs c main_v6 = select (clusterMask 2000#32 10000#32 (m ((c : Thread nD τ).loc main_arg1))) (bc 2000#32) (m ((c : Thread nD τ).loc main_arg1)) := by
  rw [V6_of m outs c main_v6 (by decide)]
  show StableHlo.after hostOps0_4 _ (Proc.devRef .tc main_v6) = _
  after_results <;> rfl

theorem V11_main_v23 (c : Dev nD) : V11 m outs c main_v23 = headWord (m ((c : Thread nD τ).loc main_arg1)) := by
  refine (seg1_main_v23 (V6 m outs c)).trans ?_
  rw [V6_main_v6 m outs c, V6_main_arg1 m outs c]
  rfl

theorem V12_main_v23 (c : Dev nD) : V12 m outs c main_v23 = headWord (m ((c : Thread nD τ).loc main_arg1)) :=
  (V12_of m outs c main_v23 (by decide)).trans (V11_main_v23 m outs c)

theorem V13_main_v0 (c : Dev nD) :
    V13 m outs c main_v0 = truncf .bf16 (m ((c : Thread nD τ).loc main_arg0)) bitsLt_bf16_f32 :=
  (V13_of m outs c main_v0 (by decide)).trans <| (V12_of m outs c main_v0 (by decide)).trans (V11_main_v0 m outs c)

theorem seg2_main_v35 (W : Valuation τ sig (Elt F)) :
    StableHlo.after hostOps2 W (Proc.devRef .tc main_v35) = truncf .bf16 (W (Proc.devRef .tc main_arg2)) bitsLt_bf16_f32 := by
  after_results <;> rfl
theorem seg2_main_v36 (W : Valuation τ sig (Elt F)) :
    StableHlo.after hostOps2 W (Proc.devRef .tc main_v36) = shapeCast S1x2002 (W (Proc.devRef .tc main_arg3)) shapeCasts_S2002_S1x2002 := by
  after_results <;> rfl
theorem seg2_main_v37 (W : Valuation τ sig (Elt F)) :
    StableHlo.after hostOps2 W (Proc.devRef .tc main_v37) = shapeCast S4096x1 (W (Proc.devRef .tc main_v23)) shapeCasts_S4096_S4096x1 := by
  after_results <;> rfl
theorem seg2_main_v34 (W : Valuation τ sig (Elt F)) :
    StableHlo.after hostOps2 W (Proc.devRef .tc main_v34) = addf (W (Proc.devRef .tc main_v17)) (Host.reduceAdd (W (Proc.devRef .tc main_v32)) (constant (F := F) S_ .f32 0x00000000#32) reducesTo_S4096x1_S_d0_1 h_S_) := by
  after_results <;> rfl

theorem V13_main_v35 (c : Dev nD) :
    V13 m outs c main_v35 = truncf .bf16 (m ((c : Thread nD τ).loc main_arg2)) bitsLt_bf16_f32 :=
  (seg2_main_v35 (V12 m outs c)).trans (congrArg (fun w => truncf .bf16 w bitsLt_bf16_f32) (V12_main_arg2 m outs c))

theorem V13_main_v36 (c : Dev nD) :
    V13 m outs c main_v36 = shapeCast S1x2002 (m ((c : Thread nD τ).loc main_arg3)) shapeCasts_S2002_S1x2002 :=
  (seg2_main_v36 (V12 m outs c)).trans (congrArg (fun w => shapeCast S1x2002 w shapeCasts_S2002_S1x2002) (V12_main_arg3 m outs c))

theorem V13_main_v37 (c : Dev nD) :
    V13 m outs c main_v37 = shapeCast S4096x1 (headWord (m ((c : Thread nD τ).loc main_arg1))) shapeCasts_S4096_S4096x1 :=
  (seg2_main_v37 (V12 m outs c)).trans (congrArg (fun w => shapeCast S4096x1 w shapeCasts_S4096_S4096x1) (V12_main_v23 m outs c))

end Cert.KernelIdeal.Hand

end
-- ==== Proof.Spec.lean ====
/-
  What both programs compute, token by token, on the extended reals.

  There are three softmax blocks over the same 4096 tokens: two projected tails (hidden width 1024 over 8000 classes; hidden
  width 256 over 40000 classes) and a head with a bias over 2002 classes. For a token with logits `z v` and label `lbl` the
  cross-entropy term is `log (∑ v, exp (z v)) - z lbl` (`tok`). A tail's term counts only for the tokens whose target lies in the
  tail's class range; the head's label is the target itself below 2000 and the tail's cluster column (2000 or 2001) above.
  The loss is the three sums added in that order, over 4096.

  The kernel reaches `tok` by a running maximum `m`, a running mass `l` and a running pick `b` carried across vocabulary tiles
  (`St`, `step`, `nll`): columns past the last class sit at `⊥`, the identity of `max`, with `exp ⊥ = 0` mass.
-/
import Idealize.ShloMosaic.PureOps.Ideal

noncomputable section

namespace Cert.Spec

open Idealize.ShloMosaic

/-- The cross-entropy term of one token: `log (∑ v, exp (z v)) - z lbl`. -/
def tok {V : ℕ} (z : Fin V → EReal) (lbl : Fin V) : EReal :=
  Ideal.log (∑ v, Ideal.exp (z v)) - z lbl

/-- A projected tail's logits: `z t v = ∑ p, (∑ d, x t d * a1 p d) * a2 v p`. -/
def logitsProj {T D P V : ℕ} (x : Fin T → Fin D → EReal) (a1 : Fin P → Fin D → EReal) (a2 : Fin V → Fin P → EReal)
    (t : Fin T) (v : Fin V) : EReal :=
  ∑ p, (∑ d, x t d * a1 p d) * a2 v p

/-- The head's logits: `z t v = (∑ d, x t d * w v d) + b v`. -/
def logitsHead {T D V : ℕ} (x : Fin T → Fin D → EReal) (w : Fin V → Fin D → EReal) (b : Fin V → EReal)
    (t : Fin T) (v : Fin V) : EReal :=
  (∑ d, x t d * w v d) + b v

/-- A tail's term of a token whose target is `n`: the token counts when `lo ≤ n < lo + V`, with label `n - lo`. -/
def tailTerm {V : ℕ} (lo : ℕ) (z : Fin V → EReal) (n : ℕ) : EReal :=
  if h : lo ≤ n ∧ n < lo + V then tok z ⟨n - lo, by omega⟩ else 0

/-- The head's label of a target `n < 50000`: itself below 2000, then the cluster's column. -/
def headLabel (n : ℕ) : ℕ := if n < 2000 then n else if n < 10000 then 2000 else 2001

theorem headLabel_lt (n : ℕ) : headLabel n < 2002 := by
  unfold headLabel; split_ifs <;> omega

/-- The head's term of a token whose target is `n`. -/
def headTerm (z : Fin 2002 → EReal) (n : ℕ) : EReal := tok z ⟨headLabel n, headLabel_lt n⟩

/-- The loss from the three per-token vectors: the sums added in the programs' order, over 4096. -/
def loss (T0 T1 T2 : Fin 4096 → EReal) : EReal :=
  Ideal.div ((((0 : EReal) + ∑ t, T0 t) + ∑ t, T1 t) + ∑ t, T2 t) ((4096 : ℝ) : EReal)

/-! ## The running state of the tiled softmax -/

/-- A row's running maximum, mass and pick. -/
structure St where
  m : EReal
  l : EReal
  b : EReal

/-- Before the first tile: maximum `⊥`, no mass, no pick. -/
def St.init : St := ⟨⊥, 0, 0⟩

/-- One tile `y` of masked logits (a real, or `⊥` past the last class) and the tile's pick `p` (the label's logit if the label
    falls in the tile, else 0): the maximum grows, the old mass is rescaled to it, the tile's mass and pick are added. -/
def St.step {n : ℕ} (s : St) (y : Fin n → EReal) (p : EReal) : St :=
  let m' := max s.m (Finset.univ.sup y)
  ⟨m', Ideal.exp (s.m - m') * s.l + ∑ j, Ideal.exp (y j - m'), s.b + p⟩

/-- The term read off the final state: `m + log l - b`. -/
def St.nll (s : St) : EReal := s.m + Ideal.log s.l - s.b

/-- The state after tiles `0 … k-1` of a row: `y k j` the masked logit of column `j` of tile `k`, `p k` tile `k`'s pick. -/
def St.after {n : ℕ} (y : ℕ → Fin n → EReal) (p : ℕ → EReal) : ℕ → St
  | 0 => St.init
  | k + 1 => (St.after y p k).step (y k) (p k)

/-- Column `c` of a row of `V` real classes laid out in tiles: the class's logit, or `⊥` past the last class. -/
def masked {V : ℕ} (z : Fin V → EReal) (c : ℕ) : EReal := if h : c < V then z ⟨c, h⟩ else ⊥

/-- Tile `k`'s pick for label `lbl` at tile width `n`: the label's logit when `n * k ≤ lbl < n * (k + 1)`, else 0. -/
def pick {V : ℕ} (n : ℕ) (z : Fin V → EReal) (lbl : ℕ) (k : ℕ) : EReal :=
  if n * k ≤ lbl ∧ lbl < n * (k + 1) then masked z lbl else 0

end Cert.Spec

end
-- ==== Proof.Args.lean ====
/-
  The eight argument arrays read as the specification's inputs, and the three per-token vectors and the loss they determine.

  `a0` is the token matrix [4096, 1024], `a1` the targets [4096] (32-bit words), `a2` / `a3` the head's weights [2002, 1024] and bias
  [2002], `a4` / `a5` the first tail's projection [1024, 1024] and class weights [8000, 1024], `a6` / `a7` the second tail's
  [256, 1024] and [40000, 256]. `Ok` is what the precondition gives: every float entry is a real, every target is below 50000.
-/
import proofs.«415479_j24352464569077_2_alg».proof.Proof.Spec
import Idealize.ShloMosaic.Lib.ValueIdx

noncomputable section

namespace Cert.Args

open Idealize.ShloMosaic Idealize.ShloMosaic.ValueIdx

/-- The argument arrays, over literal shapes. -/
structure Arrs where
  a0 : (⟨2, ![4096, 1024]⟩ : Shape).Idx → EReal
  a1 : (⟨1, ![4096]⟩ : Shape).Idx → BitVec 32
  a2 : (⟨2, ![2002, 1024]⟩ : Shape).Idx → EReal
  a3 : (⟨1, ![2002]⟩ : Shape).Idx → EReal
  a4 : (⟨2, ![1024, 1024]⟩ : Shape).Idx → EReal
  a5 : (⟨2, ![8000, 1024]⟩ : Shape).Idx → EReal
  a6 : (⟨2, ![256, 1024]⟩ : Shape).Idx → EReal
  a7 : (⟨2, ![40000, 256]⟩ : Shape).Idx → EReal

namespace Arrs

variable (A : Arrs)

/-- Token `t`'s feature `d`. -/
def x (t : Fin 4096) (d : Fin 1024) : EReal := A.a0 (ix2 t d)
/-- Token `t`'s target, as a natural number (the word's unsigned value). -/
def tgt (t : Fin 4096) : ℕ := (A.a1 (ix1 t)).toNat
/-- The head's weight of class `v`, feature `d`; its bias. -/
def hw (v : Fin 2002) (d : Fin 1024) : EReal := A.a2 (ix2 v d)
def hb (v : Fin 2002) : EReal := A.a3 (ix1 v)
/-- The first tail's projection row `p`, feature `d`; its class weights. -/
def p0 (p : Fin 1024) (d : Fin 1024) : EReal := A.a4 (ix2 p d)
def c0 (v : Fin 8000) (p : Fin 1024) : EReal := A.a5 (ix2 v p)
/-- The second tail's. -/
def p1 (p : Fin 256) (d : Fin 1024) : EReal := A.a6 (ix2 p d)
def c1 (v : Fin 40000) (p : Fin 256) : EReal := A.a7 (ix2 v p)

/-- The three blocks' logits. -/
def z0 (t : Fin 4096) (v : Fin 8000) : EReal := Spec.logitsProj A.x A.p0 A.c0 t v
def z1 (t : Fin 4096) (v : Fin 40000) : EReal := Spec.logitsProj A.x A.p1 A.c1 t v
def zh (t : Fin 4096) (v : Fin 2002) : EReal := Spec.logitsHead A.x A.hw A.hb t v

/-- The per-token terms: the first tail's (targets 2000 … 9999), the second tail's (10000 … 49999), the head's. -/
def T0 (t : Fin 4096) : EReal := Spec.tailTerm 2000 (A.z0 t) (A.tgt t)
def T1 (t : Fin 4096) : EReal := Spec.tailTerm 10000 (A.z1 t) (A.tgt t)
def T2 (t : Fin 4096) : EReal := Spec.headTerm (A.zh t) (A.tgt t)

/-- The loss. -/
def loss : EReal := Spec.loss A.T0 A.T1 A.T2

/-- What the precondition gives: every float entry is a real; every target is below 50000 as an unsigned word (so it is
    non-negative as a signed one). -/
structure Ok : Prop where
  r0 : ∀ i, ∃ r : ℝ, A.a0 i = r
  r2 : ∀ i, ∃ r : ℝ, A.a2 i = r
  r3 : ∀ i, ∃ r : ℝ, A.a3 i = r
  r4 : ∀ i, ∃ r : ℝ, A.a4 i = r
  r5 : ∀ i, ∃ r : ℝ, A.a5 i = r
  r6 : ∀ i, ∃ r : ℝ, A.a6 i = r
  r7 : ∀ i, ∃ r : ℝ, A.a7 i = r
  rng : ∀ i, (A.a1 i).toNat < 50000

end Arrs

end Cert.Args

end
-- ==== Proof.KI.HostVals.lean ====
/-
  The host side of the kernel program's entry function at the ideal instance.

  The regions' input arrays (terms of the launch contents, from the entry module) read at an index against the argument
  arrays: the narrowed float arguments are the arguments; a tail's mask is one on its target range and zero off it; a tail's
  label is the target less the range's start, kept inside the tail's classes; the head's label is the specification's. And the
  final scalar: after the regions the entry function sums each region's per-token column from zero, adds the three sums in
  order and divides by the word of 4096, which is the specification's loss of the three columns.
-/
import proofs.«415479_j24352464569077_2_alg».proof.Proof.KI.HostEntry
import proofs.«415479_j24352464569077_2_alg».proof.Proof.Args
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import Idealize.ShloMosaic.Lib.WordArith
import Idealize.ShloMosaic.Lib.Affine
import Idealize.ShloMosaic.Lib.IdealHost
import Idealize.ShloMosaic.PureOps.Ideal.Laws

noncomputable section

namespace Cert.KernelIdeal.Hand

open Cert.KernelIdeal Cert.KernelIdeal.Gen
open Idealize.ShloMosaic Idealize.ShloMosaic.TcCoe
open Idealize.SL Idealize.SL.Sem

section Generic

variable {F : FTy → Type} [FloatOps F] [Named F]
variable (m : (ℓ : Loc nD τ sig) → Buf (Elt F) ℓ) (outs : Outs (F := F))

/-! ## The result, as a term of the three regions' output columns -/

/-- The last stretch, over any contents `W` of the buffers. -/
theorem seg3_main_v41 (W : Valuation τ sig (Elt F)) :
    StableHlo.after hostOps3 W (Proc.devRef .tc main_v41)
      = Host.divf (addf (W (Proc.devRef .tc main_v34)) (Host.reduceAdd (W (Proc.devRef .tc main_v38)) (constant (F := F) S_ .f32 0x00000000#32) reducesTo_S4096x1_S_d0_1 h_S_))
          (constant (F := F) S_ .f32 0x45800000#32) := by
  after_results <;> rfl

/-- The three columns summed from zero, added in the program's order, and divided by the constant. -/
def lossTerm (a b d : FVec F S4096x1 .f32) : FVec F S_ .f32 :=
  Host.divf
    (addf (addf (addf (constant (F := F) S_ .f32 0x00000000#32)
        (Host.reduceAdd a (constant (F := F) S_ .f32 0x00000000#32) reducesTo_S4096x1_S_d0_1 h_S_))
        (Host.reduceAdd b (constant (F := F) S_ .f32 0x00000000#32) reducesTo_S4096x1_S_d0_1 h_S_))
        (Host.reduceAdd d (constant (F := F) S_ .f32 0x00000000#32) reducesTo_S4096x1_S_d0_1 h_S_))
    (constant (F := F) S_ .f32 0x45800000#32)

theorem V6_main_v15 (c : Dev nD) : V6 m outs c main_v15 = outs 6 main_v15 c := Function.update_self _ _ _
theorem V12_main_v32 (c : Dev nD) : V12 m outs c main_v32 = outs 12 main_v32 c := Function.update_self _ _ _
theorem V14_main_v38 (c : Dev nD) : V14 m outs c main_v38 = outs 14 main_v38 c := Function.update_self _ _ _

theorem V12_main_v17 (c : Dev nD) :
    V12 m outs c main_v17 = addf (constant (F := F) S_ .f32 0x00000000#32)
      (Host.reduceAdd (outs 6 main_v15 c) (constant (F := F) S_ .f32 0x00000000#32) reducesTo_S4096x1_S_d0_1 h_S_) := by
  refine ((V12_of m outs c main_v17 (by decide)).trans (seg1_main_v17 (V6 m outs c))).trans ?_
  rw [V6_main_v15 m outs c]

theorem V14_main_v34 (c : Dev nD) :
    V14 m outs c main_v34 = addf (addf (constant (F := F) S_ .f32 0x00000000#32)
      (Host.reduceAdd (outs 6 main_v15 c) (constant (F := F) S_ .f32 0x00000000#32) reducesTo_S4096x1_S_d0_1 h_S_))
      (Host.reduceAdd (outs 12 main_v32 c) (constant (F := F) S_ .f32 0x00000000#32) reducesTo_S4096x1_S_d0_1 h_S_) := by
  refine ((V14_of m outs c main_v34 (by decide)).trans (seg2_main_v34 (V12 m outs c))).trans ?_
  rw [V12_main_v32 m outs c, V12_main_v17 m outs c]

theorem V15_main_v41_term (c : Dev nD) :
    V15 m outs c main_v41 = lossTerm (outs 6 main_v15 c) (outs 12 main_v32 c) (outs 14 main_v38 c) := by
  refine (seg3_main_v41 (V14 m outs c)).trans ?_
  rw [V14_main_v38 m outs c, V14_main_v34 m outs c]
  rfl

end Generic

section Words

open Idealize.ShloMosaic.ValueIdx

theorem bc_apply (w : BitVec 32) (i : S4096.Idx) : bc w i = w := rfl

theorem clusterMask_apply (lo hi : BitVec 32) (w : IVec S4096 32) (i : S4096.Idx) :
    clusterMask lo hi w i = IntOp.andi (IntOp.cmpi .sge (w i) lo) (IntOp.cmpi .slt (w i) hi) := rfl

theorem clipLabel_apply (lo top : BitVec 32) (w : IVec S4096 32) (i : S4096.Idx) :
    clipLabel lo top w i = IntOp.minsi top (IntOp.maxsi 0#32 (IntOp.subi (w i) lo)) := rfl

theorem headWord_apply (w : IVec S4096 32) (i : S4096.Idx) :
    headWord w i = Scalar.select (clusterMask 10000#32 50000#32 w i) 2001#32
      (Scalar.select (clusterMask 2000#32 10000#32 w i) 2000#32 (w i)) := rfl

/-- The mask's bit is set exactly on the words of the range, for words and bounds below `2 ^ 31`. -/
theorem clusterMask_eq_one_iff (lo hi : BitVec 32) (hlo : lo.toNat < 2 ^ 31) (hhi : hi.toNat < 2 ^ 31)
    (w : IVec S4096 32) (i : S4096.Idx) (hw : (w i).toNat < 2 ^ 31) :
    clusterMask lo hi w i = 1#1 ↔ lo.toNat ≤ (w i).toNat ∧ (w i).toNat < hi.toNat := by
  rw [clusterMask_apply, IntOp.andi_eq_one, StableHlo.Predicate.sge_iff_toNat hw hlo, StableHlo.Predicate.slt_iff_toNat hw hhi]

/-- The clipped label as a number: `min top (w - lo)`, the difference truncated at zero. -/
theorem clipLabel_toNat (lo top : BitVec 32) (hlo : lo.toNat < 2 ^ 31) (htop : top.toNat < 2 ^ 31)
    (w : IVec S4096 32) (i : S4096.Idx) (hw : (w i).toNat < 2 ^ 31) :
    (clipLabel lo top w i).toNat = min top.toNat ((w i).toNat - lo.toNat) := by
  rw [clipLabel_apply]
  have ex := BitVec.toInt_eq_toNat_cond (w i)
  have el := BitVec.toInt_eq_toNat_cond lo
  have hsub : (IntOp.subi (w i) lo).toInt = (w i).toInt - lo.toInt := by
    unfold IntOp.subi
    exact WordArith.toInt_sub_of_bounds _ _ (by omega) (by omega)
  have hmax : (IntOp.maxsi 0#32 (IntOp.subi (w i) lo)).toNat = (w i).toNat - lo.toNat := by
    rw [WordArith.toNat_maxsi_zero, hsub]; omega
  rw [WordArith.toNat_minsi_of_lt _ _ htop (by rw [hmax]; omega), hmax]

/-- The same with the bounds given as numbers. -/
theorem clusterMask_ofNat_eq_one_iff (lo hi : ℕ) (hlo : lo < 2 ^ 31) (hhi : hi < 2 ^ 31)
    (w : IVec S4096 32) (i : S4096.Idx) (hw : (w i).toNat < 2 ^ 31) :
    clusterMask (BitVec.ofNat 32 lo) (BitVec.ofNat 32 hi) w i = 1#1 ↔ lo ≤ (w i).toNat ∧ (w i).toNat < hi := by
  have e1 := WordArith.toNat_ofNat_of_lt lo (by omega)
  have e2 := WordArith.toNat_ofNat_of_lt hi (by omega)
  rw [clusterMask_eq_one_iff _ _ (by omega) (by omega) w i hw, e1, e2]

theorem clipLabel_ofNat_toNat (lo top : ℕ) (hlo : lo < 2 ^ 31) (htop : top < 2 ^ 31)
    (w : IVec S4096 32) (i : S4096.Idx) (hw : (w i).toNat < 2 ^ 31) :
    (clipLabel (BitVec.ofNat 32 lo) (BitVec.ofNat 32 top) w i).toNat = min top ((w i).toNat - lo) := by
  have e1 := WordArith.toNat_ofNat_of_lt lo (by omega)
  have e2 := WordArith.toNat_ofNat_of_lt top (by omega)
  rw [clipLabel_toNat _ _ (by omega) (by omega) w i hw, e1, e2]

/-- The clipped label is the word of that number. -/
theorem clipLabel_ofNat_eq_min (lo top : ℕ) (hlo : lo < 2 ^ 31) (htop : top < 2 ^ 31)
    (w : IVec S4096 32) (i : S4096.Idx) (hw : (w i).toNat < 2 ^ 31) :
    clipLabel (BitVec.ofNat 32 lo) (BitVec.ofNat 32 top) w i = BitVec.ofNat 32 (min top ((w i).toNat - lo)) := by
  apply BitVec.eq_of_toNat_eq
  rw [clipLabel_ofNat_toNat lo top hlo htop w i hw, WordArith.toNat_ofNat_of_lt _ (by omega)]

/-- Inside the range the clipped label is the word of `w - lo`. -/
theorem clipLabel_ofNat_eq (lo top : ℕ) (hlo : lo < 2 ^ 31) (htop : top < 2 ^ 31)
    (w : IVec S4096 32) (i : S4096.Idx) (hw : (w i).toNat < 2 ^ 31) (h1 : lo ≤ (w i).toNat) (h2 : (w i).toNat ≤ lo + top) :
    clipLabel (BitVec.ofNat 32 lo) (BitVec.ofNat 32 top) w i = BitVec.ofNat 32 ((w i).toNat - lo) := by
  apply BitVec.eq_of_toNat_eq
  rw [clipLabel_ofNat_toNat lo top hlo htop w i hw, WordArith.toNat_ofNat_of_lt _ (by omega)]
  omega

/-- The mask converted to a float, at the ideal instance: one on the range, zero off it. -/
theorem uitofp_clusterMask_apply (lo hi : ℕ) (hlo : lo < 2 ^ 31) (hhi : hi < 2 ^ 31)
    (w : IVec S4096 32) (i : S4096.Idx) (hw : (w i).toNat < 2 ^ 31) :
    (uitofp .f32 (clusterMask (BitVec.ofNat 32 lo) (BitVec.ofNat 32 hi) w) : FVec Ideal S4096 .f32) i
      = if lo ≤ (w i).toNat ∧ (w i).toNat < hi then 1 else 0 := by
  show (((clusterMask (BitVec.ofNat 32 lo) (BitVec.ofNat 32 hi) w i).toNat : ℝ) : EReal) = _
  by_cases h : lo ≤ (w i).toNat ∧ (w i).toNat < hi
  · rw [if_pos h, (clusterMask_ofNat_eq_one_iff lo hi hlo hhi w i hw).mpr h]; simp
  · rw [if_neg h, eq_zero_of_ne_one (mt (clusterMask_ofNat_eq_one_iff lo hi hlo hhi w i hw).mp h)]; simp

/-- The head's label word of a target below 50000. -/
theorem headWord_eq (w : IVec S4096 32) (i : S4096.Idx) (hw : (w i).toNat < 50000) :
    headWord w i = BitVec.ofNat 32 (Cert.Spec.headLabel (w i).toNat) := by
  have h31 : (w i).toNat < 2 ^ 31 := by omega
  have i1 := clusterMask_ofNat_eq_one_iff 10000 50000 (by norm_num) (by norm_num) w i h31
  have i0 := clusterMask_ofNat_eq_one_iff 2000 10000 (by norm_num) (by norm_num) w i h31
  rw [headWord_apply]
  unfold Cert.Spec.headLabel
  by_cases h1 : (w i).toNat < 2000
  · have z1 : clusterMask (BitVec.ofNat 32 10000) (BitVec.ofNat 32 50000) w i = 0#1 :=
      eq_zero_of_ne_one (fun h => by have := i1.mp h; omega)
    have z0 : clusterMask (BitVec.ofNat 32 2000) (BitVec.ofNat 32 10000) w i = 0#1 :=
      eq_zero_of_ne_one (fun h => by have := i0.mp h; omega)
    rw [z1, z0, select_zero, select_zero, if_pos h1]
    apply BitVec.eq_of_toNat_eq
    rw [WordArith.toNat_ofNat_of_lt _ (by omega)]
  · by_cases h2 : (w i).toNat < 10000
    · have z1 : clusterMask (BitVec.ofNat 32 10000) (BitVec.ofNat 32 50000) w i = 0#1 :=
        eq_zero_of_ne_one (fun h => by have := i1.mp h; omega)
      rw [z1, i0.mpr ⟨by omega, h2⟩, select_zero, select_one, if_neg h1, if_pos h2]
    · rw [i1.mpr ⟨by omega, hw⟩, select_one, if_neg h1, if_neg h2]

/-- A vector cast to one column reads, at row `t`, the vector at `t`. -/
theorem shapeCast_col_apply {α : Type} {n : ℕ} (x : (⟨1, ![n]⟩ : Shape).Idx → α)
    (h : (⟨1, ![n]⟩ : Shape).ShapeCasts ⟨2, ![n, 1]⟩) (t : Fin n) (u : Fin 1) :
    shapeCast ⟨2, ![n, 1]⟩ x h (ix2 t u) = x (ix1 t) :=
  shapeCast_apply x h _ _ (by
    have hu : u.val = 0 := by omega
    rw [Shape.rowMajor_val_two, Shape.rowMajor_val_one]
    show t.val = t.val * 1 + u.val
    rw [hu, Nat.mul_one, Nat.add_zero])

end Words

/-! ## At the ideal instance: the regions' inputs read at an index -/

section AtIdeal

open Idealize.ShloMosaic.ValueIdx

variable (m : (ℓ : Loc nD τ sig) → Buf (Elt Ideal) ℓ) (outs : Outs (F := Ideal))

/-- The argument arrays core `c` is launched with. -/
abbrev argArrs (c : Dev nD) : Cert.Args.Arrs where
  a0 := (m ((c : Thread nD τ).loc main_arg0))
  a1 := (m ((c : Thread nD τ).loc main_arg1))
  a2 := (m ((c : Thread nD τ).loc main_arg2))
  a3 := (m ((c : Thread nD τ).loc main_arg3))
  a4 := (m ((c : Thread nD τ).loc main_arg4))
  a5 := (m ((c : Thread nD τ).loc main_arg5))
  a6 := (m ((c : Thread nD τ).loc main_arg6))
  a7 := (m ((c : Thread nD τ).loc main_arg7))

/-- A target is the number its word holds. -/
theorem argArrs_tgt (c : Dev nD) (t : Fin 4096) :
    (argArrs m c).tgt t = (((m ((c : Thread nD τ).loc main_arg1)) : IVec S4096 32) (ix1 t)).toNat := rfl

/-! ### Region 0 -/

theorem V5_main_v0_apply (c : Dev nD) (t : Fin 4096) (d : Fin 1024) :
    (V5 m c main_v0 : S4096x1024.Idx → EReal) (ix2 t d) = (argArrs m c).x t d := by
  rw [V5_main_v0 m c]; rfl

theorem V5_main_v11_apply (c : Dev nD) (p : Fin 1024) (d : Fin 1024) :
    (V5 m c main_v11 : S1024x1024.Idx → EReal) (ix2 p d) = (argArrs m c).p0 p d := by
  rw [V5_main_v11 m c]; rfl

theorem V5_main_v12_apply (c : Dev nD) (v : Fin 8000) (p : Fin 1024) :
    (V5 m c main_v12 : S8000x1024.Idx → EReal) (ix2 v p) = (argArrs m c).c0 v p := by
  rw [V5_main_v12 m c]; rfl

/-- The first tail's label, as a number: the target less 2000, kept within `0 … 7999`. -/
theorem V5_main_v13_toNat (c : Dev nD) (hok : (argArrs m c).Ok) (t : Fin 4096) :
    ((V5 m c main_v13 : S4096x1.Idx → BitVec 32) (ix2 t 0)).toNat = min 7999 ((argArrs m c).tgt t - 2000) := by
  have hr := hok.rng (ix1 t)
  rw [V5_main_v13 m c, shapeCast_col_apply]
  exact clipLabel_ofNat_toNat 2000 7999 (by norm_num) (by norm_num) _ (ix1 t) (by change (argArrs m c).tgt t < _; unfold Cert.Args.Arrs.tgt; omega)

/-- The first tail's label is the word of that number. -/
theorem V5_main_v13_eq (c : Dev nD) (hok : (argArrs m c).Ok) (t : Fin 4096) :
    (V5 m c main_v13 : S4096x1.Idx → BitVec 32) (ix2 t (0 : Fin 1)) = BitVec.ofNat 32 (min 7999 ((argArrs m c).tgt t - 2000)) := by
  have hr : (argArrs m c).tgt t < 50000 := hok.rng (ix1 t)
  rw [V5_main_v13 m c, shapeCast_col_apply]
  exact clipLabel_ofNat_eq_min 2000 7999 (by norm_num) (by norm_num) _ (ix1 t) (by change (argArrs m c).tgt t < _; omega)

/-- Inside the first tail's range the label is the word of the target less 2000. -/
theorem V5_main_v13_apply (c : Dev nD) (hok : (argArrs m c).Ok) (t : Fin 4096)
    (h : 2000 ≤ (argArrs m c).tgt t ∧ (argArrs m c).tgt t < 10000) :
    (V5 m c main_v13 : S4096x1.Idx → BitVec 32) (ix2 t 0) = BitVec.ofNat 32 ((argArrs m c).tgt t - 2000) := by
  rw [V5_main_v13 m c, shapeCast_col_apply]
  exact clipLabel_ofNat_eq 2000 7999 (by norm_num) (by norm_num) _ (ix1 t)
    (by change (argArrs m c).tgt t < _; omega) h.1 (by change (argArrs m c).tgt t ≤ _; omega)

/-- The first tail's mask: one on the targets `2000 … 9999`, zero elsewhere. -/
theorem V5_main_v14_apply (c : Dev nD) (hok : (argArrs m c).Ok) (t : Fin 4096) :
    (V5 m c main_v14 : S4096x1.Idx → EReal) (ix2 t 0)
      = if 2000 ≤ (argArrs m c).tgt t ∧ (argArrs m c).tgt t < 10000 then (1 : EReal) else 0 := by
  have hr : (argArrs m c).tgt t < 50000 := hok.rng (ix1 t)
  rw [V5_main_v14 m c, shapeCast_col_apply]
  exact uitofp_clusterMask_apply 2000 10000 (by norm_num) (by norm_num) _ (ix1 t) (by change (argArrs m c).tgt t < _; omega)

/-! ### Region 1 -/

theorem V11_main_v0_apply (c : Dev nD) (t : Fin 4096) (d : Fin 1024) :
    (V11 m outs c main_v0 : S4096x1024.Idx → EReal) (ix2 t d) = (argArrs m c).x t d := by
  rw [V11_main_v0 m outs c]; rfl

theorem V11_main_v28_apply (c : Dev nD) (p : Fin 256) (d : Fin 1024) :
    (V11 m outs c main_v28 : S256x1024.Idx → EReal) (ix2 p d) = (argArrs m c).p1 p d := by
  rw [V11_main_v28 m outs c]; rfl

theorem V11_main_v29_apply (c : Dev nD) (v : Fin 40000) (p : Fin 256) :
    (V11 m outs c main_v29 : S40000x256.Idx → EReal) (ix2 v p) = (argArrs m c).c1 v p := by
  rw [V11_main_v29 m outs c]; rfl

/-- The second tail's label, as a number: the target less 10000, kept within `0 … 39999`. -/
theorem V11_main_v30_toNat (c : Dev nD) (hok : (argArrs m c).Ok) (t : Fin 4096) :
    ((V11 m outs c main_v30 : S4096x1.Idx → BitVec 32) (ix2 t 0)).toNat = min 39999 ((argArrs m c).tgt t - 10000) := by
  have hr : (argArrs m c).tgt t < 50000 := hok.rng (ix1 t)
  rw [V11_main_v30 m outs c, shapeCast_col_apply]
  exact clipLabel_ofNat_toNat 10000 39999 (by norm_num) (by norm_num) _ (ix1 t) (by change (argArrs m c).tgt t < _; omega)

/-- The second tail's label is the word of that number. -/
theorem V11_main_v30_eq (c : Dev nD) (hok : (argArrs m c).Ok) (t : Fin 4096) :
    (V11 m outs c main_v30 : S4096x1.Idx → BitVec 32) (ix2 t (0 : Fin 1)) = BitVec.ofNat 32 (min 39999 ((argArrs m c).tgt t - 10000)) := by
  have hr : (argArrs m c).tgt t < 50000 := hok.rng (ix1 t)
  rw [V11_main_v30 m outs c, shapeCast_col_apply]
  exact clipLabel_ofNat_eq_min 10000 39999 (by norm_num) (by norm_num) _ (ix1 t) (by change (argArrs m c).tgt t < _; omega)

/-- Inside the second tail's range the label is the word of the target less 10000. -/
theorem V11_main_v30_apply (c : Dev nD) (hok : (argArrs m c).Ok) (t : Fin 4096)
    (h : 10000 ≤ (argArrs m c).tgt t ∧ (argArrs m c).tgt t < 50000) :
    (V11 m outs c main_v30 : S4096x1.Idx → BitVec 32) (ix2 t 0) = BitVec.ofNat 32 ((argArrs m c).tgt t - 10000) := by
  rw [V11_main_v30 m outs c, shapeCast_col_apply]
  exact clipLabel_ofNat_eq 10000 39999 (by norm_num) (by norm_num) _ (ix1 t)
    (by change (argArrs m c).tgt t < _; omega) h.1 (by change (argArrs m c).tgt t ≤ _; omega)

/-- The second tail's mask: one on the targets `10000 … 49999`, zero elsewhere. -/
theorem V11_main_v31_apply (c : Dev nD) (hok : (argArrs m c).Ok) (t : Fin 4096) :
    (V11 m outs c main_v31 : S4096x1.Idx → EReal) (ix2 t 0)
      = if 10000 ≤ (argArrs m c).tgt t ∧ (argArrs m c).tgt t < 50000 then (1 : EReal) else 0 := by
  have hr : (argArrs m c).tgt t < 50000 := hok.rng (ix1 t)
  rw [V11_main_v31 m outs c, shapeCast_col_apply]
  exact uitofp_clusterMask_apply 10000 50000 (by norm_num) (by norm_num) _ (ix1 t) (by change (argArrs m c).tgt t < _; omega)

/-! ### Region 2 -/

theorem V13_main_v0_apply (c : Dev nD) (t : Fin 4096) (d : Fin 1024) :
    (V13 m outs c main_v0 : S4096x1024.Idx → EReal) (ix2 t d) = (argArrs m c).x t d := by
  rw [V13_main_v0 m outs c]; rfl

theorem V13_main_v35_apply (c : Dev nD) (v : Fin 2002) (d : Fin 1024) :
    (V13 m outs c main_v35 : S2002x1024.Idx → EReal) (ix2 v d) = (argArrs m c).hw v d := by
  rw [V13_main_v35 m outs c]; rfl

theorem V13_main_v36_apply (c : Dev nD) (v : Fin 2002) :
    (V13 m outs c main_v36 : S1x2002.Idx → EReal) (ix2 0 v) = (argArrs m c).hb v := by
  rw [V13_main_v36 m outs c, shapeCast_a_1a_apply]; rfl

/-- The head's label: the word of the specification's head label of the target. -/
theorem V13_main_v37_apply (c : Dev nD) (hok : (argArrs m c).Ok) (t : Fin 4096) :
    (V13 m outs c main_v37 : S4096x1.Idx → BitVec 32) (ix2 t 0) = BitVec.ofNat 32 (Cert.Spec.headLabel ((argArrs m c).tgt t)) := by
  rw [V13_main_v37 m outs c, shapeCast_col_apply]
  exact headWord_eq _ (ix1 t) (hok.rng (ix1 t))

/-! ### The result -/

/-- The divisor's word is 4096. -/
theorem ofBits_4096_f32 : Ideal.ofBits .f32 0x45800000#32 = ((4096 : ℝ) : EReal) := by
  simp [Ideal.ofBits, Ideal.ieee]
  rw [← EReal.coe_mul]
  exact congrArg _ (by norm_num)

/-- A column summed over both axes from the zero word is the sum over its rows. -/
theorem reduceAdd_col (a : FVec Ideal S4096x1 .f32) (j : S_.Idx) :
    Host.reduceAdd a (constant (F := Ideal) S_ .f32 0x00000000#32) reducesTo_S4096x1_S_d0_1 h_S_ j = ∑ t : Fin 4096, a (ix2 t 0) := by
  show Ideal.hostReduceAdd reducesTo_S4096x1_S_d0_1 a (Ideal.ofBits .f32 0x00000000#32) j = _
  rw [Ideal.hostReduceAdd_total reducesTo_S4096x1_S_d0_1 (fun b => b.elim0), Ideal.ofBits_zero_f32, zero_add, sum_idx2]
  exact Finset.sum_congr rfl fun t _ => Fin.sum_univ_one _

theorem lossTerm_ideal (a b d : FVec Ideal S4096x1 .f32) :
    lossTerm (F := Ideal) a b d
      = fun _ => Cert.Spec.loss (fun t => a (ix2 t 0)) (fun t => b (ix2 t 0)) (fun t => d (ix2 t 0)) := by
  funext j
  show Ideal.div (((Ideal.ofBits .f32 0x00000000#32 + Host.reduceAdd a _ _ _ j) + Host.reduceAdd b _ _ _ j) + Host.reduceAdd d _ _ _ j)
      (Ideal.ofBits .f32 0x45800000#32) = _
  rw [reduceAdd_col, reduceAdd_col, reduceAdd_col, ofBits_4096_f32, Ideal.ofBits_zero_f32]
  rfl

/-- The program's result: the specification's loss of the three regions' output columns. -/
theorem V15_main_v41 (c : Dev nD) :
    V15 m outs c main_v41 = fun _ => Cert.Spec.loss
      (fun t => (outs 6 main_v15 c : S4096x1.Idx → EReal) (ix2 t 0))
      (fun t => (outs 12 main_v32 c : S4096x1.Idx → EReal) (ix2 t 0))
      (fun t => (outs 14 main_v38 c : S4096x1.Idx → EReal) (ix2 t 0)) :=
  (V15_main_v41_term m outs c).trans (lossTerm_ideal _ _ _)

end AtIdeal

end Cert.KernelIdeal.Hand

end
-- ==== Proof.PreFacts.lean ====
/-
  What the printed precondition gives, in the form the value proofs use.

  The predicate is a conjunction of eight tests, each a reduction by "and" over a whole array down to a single bit: for each of the
  seven float arrays, "every entry's absolute value is strictly below +∞"; for the targets, "every word is at least 0 and below 50000,
  compared as signed numbers". When the predicate is 1, every one of the eight reductions is 1, hence every compared bit is 1.
  An extended real x with max x (-x) < ⊤ is neither ⊤ nor ⊥, so it is a real; a 32-bit word that is non-negative as a signed number and
  signed-below 50000 has unsigned value below 50000.
-/
import proofs.«415479_j24352464569077_2_alg».proof.Pre_finite_inputs
import proofs.«415479_j24352464569077_2_alg».proof.Proof.Gen.Pre_finite_inputs
import proofs.«415479_j24352464569077_2_alg».proof.Proof.Args
import Idealize.ShloMosaic.Lib.ReduceAll
import Idealize.ShloMosaic.Lib.ValueIdx

noncomputable section

namespace Cert.PreFacts

open Idealize.ShloMosaic Cert.Pre_finite_inputs

/-- The rank-0 shape has exactly one index. -/
instance : Subsingleton S_.Idx := ⟨fun a b => funext fun d => d.elim0⟩

/-- The bit pattern 0x7F800000 denotes +∞. -/
theorem inf_eq_top : Ideal.ofBits .f32 0x7F800000#32 = (⊤ : EReal) := by
  simp [Ideal.ofBits, Ideal.ieee]

/-- An extended real whose absolute value max x (-x) is strictly below +∞ is a real: at ⊤ the maximum is ⊤, at ⊥ it is -⊥ = ⊤,
    and ⊤ < ⊤ is false. -/
theorem real_of_abs_lt_inf (x : EReal)
    (h : Ideal.cmp .olt (max x (-x)) (Ideal.ofBits .f32 0x7F800000#32) = 1#1) : ∃ r : ℝ, x = r := by
  rw [inf_eq_top] at h
  induction x using EReal.rec with
  | bot => simp [Ideal.cmp] at h
  | coe r => exact ⟨r, rfl⟩
  | top => simp [Ideal.cmp] at h

/-- The same at an index of an array: the compared bit "|a i| < +∞" being 1 makes a i a real. The broadcast scalar reads +∞ at
    every index. -/
theorem real_of_bit {s : Shape} (a : FVec Ideal s .f32) (bc : S_.BroadcastsInDim s (![] : Fin 0 → Fin s.rank)) (i : s.Idx)
    (h : cmpf .olt (Host.absf a) (broadcastInDim s ![] bc (constant S_ .f32 0x7F800000#32)) i = 1#1) :
    ∃ r : ℝ, a i = r :=
  real_of_abs_lt_inf (a i) h

/-- A 32-bit word that is at least 0 and below 50000 as a signed number has unsigned value below 50000: a word whose unsigned
    value is 2³¹ or more reads negative as a signed number. -/
theorem toNat_lt_of_signed (w : BitVec 32) (h0 : IntOp.cmpi .sge w 0#32 = 1#1) (h1 : IntOp.cmpi .slt w 50000#32 = 1#1) :
    w.toNat < 50000 := by
  rw [IntOp.cmpi_sge] at h0
  rw [IntOp.cmpi_slt] at h1
  have e0 : (0#32 : BitVec 32).toInt = 0 := by decide
  have e1 : (50000#32 : BitVec 32).toInt = 50000 := by decide
  rw [e0] at h0
  rw [e1] at h1
  have hw := w.isLt
  rw [BitVec.toInt_eq_toNat_cond] at h0 h1
  by_cases hc : 2 * w.toNat < 2 ^ 32
  · rw [if_pos hc] at h1; omega
  · rw [if_neg hc] at h0; omega

/-- The same at an index of the target array: the bit "0 ≤ a i ∧ a i < 50000" (signed) being 1 bounds the unsigned value. -/
theorem toNat_lt_of_bit {s : Shape} (a : IVec s 32) (bc : S_.BroadcastsInDim s (![] : Fin 0 → Fin s.rank)) (i : s.Idx)
    (h : andi (cmpi .sge a (broadcastInDim s ![] bc (constantI S_ 32 0#32)))
          (cmpi .slt a (broadcastInDim s ![] bc (constantI S_ 32 50000#32))) i = 1#1) :
    (a i).toNat < 50000 := by
  obtain ⟨h0, h1⟩ := IntOp.andi_eq_one.1 h
  exact toNat_lt_of_signed (a i) h0 h1

/-- The precondition, when it holds, makes every float entry a real and every target below 50000. -/
theorem ok_of_pre [Cert.Pre_finite_inputs.Facts]
    (a0 : FVec Ideal Cert.Pre_finite_inputs.S4096x1024 .f32) (a1 : IVec Cert.Pre_finite_inputs.S4096 32)
    (a2 : FVec Ideal Cert.Pre_finite_inputs.S2002x1024 .f32) (a3 : FVec Ideal Cert.Pre_finite_inputs.S2002 .f32)
    (a4 : FVec Ideal Cert.Pre_finite_inputs.S1024x1024 .f32) (a5 : FVec Ideal Cert.Pre_finite_inputs.S8000x1024 .f32)
    (a6 : FVec Ideal Cert.Pre_finite_inputs.S256x1024 .f32) (a7 : FVec Ideal Cert.Pre_finite_inputs.S40000x256 .f32)
    (h : Cert.Pre_finite_inputs.fn (F := Ideal) a0 a1 a2 a3 a4 a5 a6 a7 = fun _ => 1#1) :
    (Cert.Args.Arrs.mk a0 a1 a2 a3 a4 a5 a6 a7).Ok := by
  have h0 := congrFun h ValueIdx.ix0
  dsimp only [Cert.Pre_finite_inputs.fn, Cert.Pre_finite_inputs.fn_part1, Cert.Pre_finite_inputs.fn_part2] at h0
  obtain ⟨h33, h39⟩ := IntOp.andi_eq_one.1 h0
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact
    { r0 := fun i => real_of_bit a0 _ i (Host.reduce_andi_all _ _ _ _ _ h3 i)
      r2 := fun i => real_of_bit a2 _ i (Host.reduce_andi_all _ _ _ _ _ h7 i)
      r3 := fun i => real_of_bit a3 _ i (Host.reduce_andi_all _ _ _ _ _ h12 i)
      r4 := fun i => real_of_bit a4 _ i (Host.reduce_andi_all _ _ _ _ _ h17 i)
      r5 := fun i => real_of_bit a5 _ i (Host.reduce_andi_all _ _ _ _ _ h22 i)
      r6 := fun i => real_of_bit a6 _ i (Host.reduce_andi_all _ _ _ _ _ h27 i)
      r7 := fun i => real_of_bit a7 _ i (Host.reduce_andi_all _ _ _ _ _ h32 i)
      rng := fun i => toNat_lt_of_bit a1 _ i (Host.reduce_andi_all _ _ _ _ _ h39 i) }

end Cert.PreFacts

end
-- ==== Proof.KI.R2.Pay.lean ====
/-
  Region 2 (the head's cross-entropy call): each value the body stores, read at an index at the ideal instance.

  One tile of the head's logits is, at row r and column j, the row's token vector against row j of the weight block plus the bias
  at column j; a column past the last class (512 * tile + j ≥ 2002) is replaced by the named constant, which is ⊥. The new running
  maximum is the old one joined with the tile row's supremum; the new mass is the old mass rescaled plus the tile row's mass; the
  new pick adds the tile's entry at the label's column when the label falls in the tile; the stored output is m + log l - b.
  Together these say that one step of the scratch on a row is the running state's step on that row's triple.
-/
import proofs.«415479_j24352464569077_2_alg».proof.Proof.Gen.KernelIdeal.Skeleton
import proofs.«415479_j24352464569077_2_alg».proof.Proof.Spec
import Idealize.ShloMosaic.Lib.ValueIdx
import Idealize.ShloMosaic.Lib.Pipeline.Value
import Idealize.ShloMosaic.Lib.ValueLayout
import Idealize.ShloMosaic.Lib.WordArith
import Idealize.ShloMosaic.PureOps.Ideal.Laws

set_option synthInstance.maxSize 4096

noncomputable section

namespace Cert.KernelIdeal.Hand

open Cert.KernelIdeal Cert.KernelIdeal.Gen
open Idealize.ShloMosaic Idealize.ShloMosaic.ValueIdx Idealize.SL.Sem

/-! ## The product's operand indices -/

theorem r2_lhs_0 (i : S2048x512.Idx) (q : dot_S2048x1024_S1024x512_S2048x512_1_0_0_1_n_n.contr.Idx) :
    (dot_S2048x1024_S1024x512_S2048x512_1_0_0_1_n_n.lhsIdx i q 0).val = (i 0).val := by
  unfold DotDims.lhsIdx
  rw [dif_neg (show ¬(0 : Fin S2048x1024.rank) ∈ dot_S2048x1024_S1024x512_S2048x512_1_0_0_1_n_n.lhsBatch by decide), dif_pos (show (0 : Fin S2048x1024.rank) ∈ dot_S2048x1024_S1024x512_S2048x512_1_0_0_1_n_n.lhsNonContracting by decide)]
  rfl
theorem r2_lhs_1 (i : S2048x512.Idx) (q : dot_S2048x1024_S1024x512_S2048x512_1_0_0_1_n_n.contr.Idx) :
    (dot_S2048x1024_S1024x512_S2048x512_1_0_0_1_n_n.lhsIdx i q 1).val = (q ⟨0, by decide⟩).val :=
  dot_S2048x1024_S1024x512_S2048x512_1_0_0_1_n_n.lhsIdx_val_of_single rfl i q
theorem r2_rhs_0 (i : S2048x512.Idx) (q : dot_S2048x1024_S1024x512_S2048x512_1_0_0_1_n_n.contr.Idx) :
    (dot_S2048x1024_S1024x512_S2048x512_1_0_0_1_n_n.rhsIdx i q 0).val = (q ⟨0, by decide⟩).val :=
  dot_S2048x1024_S1024x512_S2048x512_1_0_0_1_n_n.rhsIdx_val_of_single rfl i q
theorem r2_rhs_1 (i : S2048x512.Idx) (q : dot_S2048x1024_S1024x512_S2048x512_1_0_0_1_n_n.contr.Idx) :
    (dot_S2048x1024_S1024x512_S2048x512_1_0_0_1_n_n.rhsIdx i q 1).val = (i 1).val := by
  unfold DotDims.rhsIdx
  rw [dif_neg (show ¬(1 : Fin S1024x512.rank) ∈ dot_S2048x1024_S1024x512_S2048x512_1_0_0_1_n_n.rhsBatch by decide), dif_pos (show (1 : Fin S1024x512.rank) ∈ dot_S2048x1024_S1024x512_S2048x512_1_0_0_1_n_n.rhsNonContracting by decide)]
  rfl

/-- The product of a [2048, 1024] block with a [1024, 512] block into the zero accumulator, at row r and column j: the sum over
    the 1024 shared coordinates. -/
theorem r2_matmul_apply (a : FVec Ideal S2048x1024 .bf16) (b : FVec Ideal S1024x512 .bf16) (r : Fin 2048) (j : Fin 512) :
    matmul (F := Ideal) dot_S2048x1024_S1024x512_S2048x512_1_0_0_1_n_n none a b (constant (F := Ideal) S2048x512 .f32 0x00000000#32) (ix2 r j)
      = ∑ d : Fin 1024, a (ix2 r d) * b (ix2 d j) := by
  refine (Ideal.matmul_constant_zero_apply dot_S2048x1024_S1024x512_S2048x512_1_0_0_1_n_n none a b (ix2 r j)).trans ?_
  rw [← Equiv.sum_comp (ValueIdx.contrEquiv1 dot_S2048x1024_S1024x512_S2048x512_1_0_0_1_n_n 1024 rfl rfl).symm]
  refine Finset.sum_congr rfl fun k _ => ?_
  have hk := ValueIdx.contrEquiv1_symm_val dot_S2048x1024_S1024x512_S2048x512_1_0_0_1_n_n 1024 rfl rfl k
  have el : dot_S2048x1024_S1024x512_S2048x512_1_0_0_1_n_n.lhsIdx (ix2 r j) ((ValueIdx.contrEquiv1 dot_S2048x1024_S1024x512_S2048x512_1_0_0_1_n_n 1024 rfl rfl).symm k) = ix2 r k := funext fun a => Fin.ext (by
    match a with
    | ⟨0, _⟩ => exact r2_lhs_0 _ _
    | ⟨1, _⟩ => exact (r2_lhs_1 _ _).trans hk)
  have er : dot_S2048x1024_S1024x512_S2048x512_1_0_0_1_n_n.rhsIdx (ix2 r j) ((ValueIdx.contrEquiv1 dot_S2048x1024_S1024x512_S2048x512_1_0_0_1_n_n 1024 rfl rfl).symm k) = ix2 k j := funext fun a => Fin.ext (by
    match a with
    | ⟨0, _⟩ => exact (r2_rhs_0 _ _).trans hk
    | ⟨1, _⟩ => exact r2_rhs_1 _ _)
  rw [el, er]

/-! ## The tile -/

/-- One tile logit of the head: row r of the token block against row j of the weight block, plus the bias at column j. -/
def zt2 (x : Vec Ideal S2048x1024 .bf16) (w : Vec Ideal S512x1024 .bf16) (bias : Vec Ideal S1x512 .f32)
    (r : Fin 2048) (j : Fin 512) : EReal :=
  (∑ d : Fin 1024, x (ix2 r d) * w (ix2 j d)) + bias (ix2 (0 : Fin 1) j)

/-- The named fill constant is ⊥ at the ideal instance. -/
theorem r2_neg_big : (Named.named (F := Ideal) κ "neg_big" (φ := .f32) 0xF149F2CA#32 : EReal) = ⊥ := rfl

/-- A column test on 32-bit words of small numbers: tile k < 4 of width 512, column j, against a bound below 2³¹. -/
theorem r2_col_slt (k : ℕ) (hk : k < 4) (j : Fin 512) (N : ℕ) (hN : N < 2 ^ 31) :
    IntOp.cmpi .slt (IntOp.addi (Scalar.muli (BitVec.ofNat 32 k) 512#32) (BitVec.ofNat 32 j.val)) (BitVec.ofNat 32 N)
      = BitVec.ofBool (decide (512 * k + j.val < N)) := by
  have hj := j.isLt
  have ek : (BitVec.ofNat 32 k).toInt = k := WordArith.toInt_ofNat_small k (by omega)
  have e512 : (512#32 : BitVec 32).toInt = 512 := by decide
  have ej : (BitVec.ofNat 32 j.val).toInt = j.val := WordArith.toInt_ofNat_small j.val (by omega)
  have eN : (BitVec.ofNat 32 N).toInt = N := WordArith.toInt_ofNat_small N hN
  have em : (BitVec.ofNat 32 k * 512#32).toInt = k * 512 := by
    rw [WordArith.toInt_mul_of_bounds _ _ (by rw [ek, e512]; omega) (by rw [ek, e512]; omega), ek, e512]
  have ea : (BitVec.ofNat 32 k * 512#32 + BitVec.ofNat 32 j.val).toInt = k * 512 + j.val := by
    rw [WordArith.toInt_add_of_bounds _ _ (by rw [em, ej]; omega) (by rw [em, ej]; omega), em, ej]
  show BitVec.ofBool ((BitVec.ofNat 32 k * 512#32 + BitVec.ofNat 32 j.val).slt (BitVec.ofNat 32 N)) = _
  rw [BitVec.slt_eq_decide, ea, eN]
  congr 1
  apply decide_eq_decide.2
  omega

/-- The masked tile at row r and column j: the tile logit where the column is a class, ⊥ past the last class. -/
theorem k2_pay8_apply (i : grid2.Coords) (x : Vec Ideal S2048x1024 .bf16) (w : Vec Ideal S512x1024 .bf16)
    (bias : Vec Ideal S1x512 .f32) (r : Fin 2048) (j : Fin 512) :
    k2_pay8 (F := Ideal) i x w bias (ix2 r j) = if 512 * (i 1).val + j.val < 2002 then zt2 x w bias r j else ⊥ := by
  have h4 : (i 1).val < 4 := (i 1).isLt
  unfold k2_pay8
  rw [select_apply]
  show Scalar.select (IntOp.cmpi .slt (IntOp.addi (Scalar.muli (BitVec.ofNat 32 (i 1).val) 512#32)
        (iota .tc S2048x512 32 [1] iota_S2048x512_d1_w32 (ix2 r j))) (BitVec.ofNat 32 2002))
      ((matmul (F := Ideal) dot_S2048x1024_S1024x512_S2048x512_1_0_0_1_n_n none
          (shapeCast S2048x1024 x shapeCasts_S2048x1024_S2048x1024)
          (transpose S1024x512 [1, 0] (shapeCast S512x1024 w shapeCasts_S512x1024_S512x1024)
            transposes_S512x1024_p1_0_S1024x512)
          (constant (F := Ideal) S2048x512 FTy.f32 0x00000000#32) (ix2 r j) : EReal)
        + (broadcastTo S2048x512 (shapeCast S1x512 bias shapeCasts_S1x512_S1x512) broadcasts_S1x512_S2048x512 (ix2 r j) : EReal))
      (Named.named (F := Ideal) κ "neg_big" (φ := .f32) 0xF149F2CA#32) = _
  rw [iota_single_apply, shapeCast_self, shapeCast_self, shapeCast_self, r2_neg_big]
  rw [show ((ix2 r j : S2048x512.Idx) 1).val = j.val from rfl, r2_col_slt _ h4 j 2002 (by norm_num)]
  rw [r2_matmul_apply, broadcastTo_1b_ab_apply]
  unfold zt2
  by_cases hc : 512 * (i 1).val + j.val < 2002
  · rw [if_pos hc, decide_eq_true hc]
    show Scalar.select 1#1 _ _ = _
    rw [select_one]
    congr 1
    refine Finset.sum_congr rfl fun d _ => ?_
    rw [transpose_ix2_apply]
  · rw [if_neg hc, decide_eq_false hc]
    show Scalar.select 0#1 _ _ = _
    rw [select_zero]
/-! ## The row reductions -/

/-- A [2048] vector viewed as a [2048, 1] column reads, at (r, 0), the vector at r. -/
theorem r2_col_apply {α : Type} (v : S2048.Idx → α) (r : Fin 2048) :
    shapeCast S2048x1 v shapeCasts_S2048_S2048x1 (ix2 r (0 : Fin 1)) = v (ix1 r) :=
  shapeCast_apply v _ _ _ (by
    rw [Shape.rowMajor_val_one, Shape.rowMajor_val_two]
    show r.val = r.val * 1 + 0
    omega)

/-- A [2048, 1] column broadcast over 512 lanes reads, at (r, j), the column at (r, 0). -/
theorem r2_bcast_col_apply {α : Type} (v : S2048x1.Idx → α) (r : Fin 2048) (j : Fin 512) :
    broadcastTo S2048x512 v broadcasts_S2048x1_S2048x512 (ix2 r j) = v (ix2 r (0 : Fin 1)) := by
  refine broadcastTo_apply v _ (ix2 r j) (ix2 r (0 : Fin 1)) fun ax => ?_
  match ax with
  | ⟨0, _⟩ => rfl
  | ⟨1, _⟩ => rfl

/-- The index a lane reduction of a [2048, 512] vector reads at row r and lane j. -/
theorem r2_lift (r : Fin 2048) (j : Fin 512) :
    reduces_S2048x512_S2048.lift (ix1 r) j = (ix2 r j : S2048x512.Idx) :=
  funext fun a => Fin.ext (by
    match a with
    | ⟨0, _⟩ => rfl
    | ⟨1, _⟩ => rfl)

/-- The word of the maximum's neutral element is ⊥ at the ideal instance. -/
theorem r2_neg_inf : Ideal.ofBits .f32 0xFF800000#32 = ⊥ := by simp [Ideal.ofBits, Ideal.ieee]

/-- A lane maximum of a [2048, 512] vector, at row r: the supremum of the row. -/
theorem r2_rowmax_apply (src : FVec Ideal S2048x512 .f32) (r : Fin 2048) :
    multiReduction (F := Ideal) .maximumf [1] S2048 src 0xFF800000#32 reduces_S2048x512_S2048 (.inl rfl) rfl (ix1 r)
      = Finset.univ.sup fun j : Fin 512 => src (ix2 r j) := by
  refine (Ideal.multiReduction_maximumf_single src 0xFF800000#32 reduces_S2048x512_S2048 (.inl rfl) rfl (ix1 r)).trans ?_
  show (Finset.univ : Finset (Fin 512)).fold max (Ideal.ofBits .f32 0xFF800000#32) (src ∘ reduces_S2048x512_S2048.lift (ix1 r)) = _
  rw [r2_neg_inf, show (src ∘ reduces_S2048x512_S2048.lift (ix1 r)) = fun j : Fin 512 => src (ix2 r j) from
    funext fun j => congrArg src (r2_lift r j)]
  rfl

/-- A lane sum of a [2048, 512] vector, at row r: the sum of the row. -/
theorem r2_rowsum_apply (src : FVec Ideal S2048x512 .f32) (r : Fin 2048) :
    multiReduction (F := Ideal) .add [1] S2048 src 0x00000000#32 reduces_S2048x512_S2048 (.inl rfl) rfl (ix1 r)
      = ∑ j : Fin 512, src (ix2 r j) := by
  refine (Ideal.multiReduction_add_single src 0x00000000#32 reduces_S2048x512_S2048 (.inl rfl) rfl (ix1 r)).trans ?_
  show ∑ j : Fin 512, src (reduces_S2048x512_S2048.lift (ix1 r) j) = _
  exact Finset.sum_congr rfl fun j _ => congrArg src (r2_lift r j)

/-! ## The stored values -/

/-- The new running maximum at row r: the old one joined with the masked tile row's supremum. -/
theorem k2_pay9_apply (i : grid2.Coords) (x : Vec Ideal S2048x1024 .bf16) (w : Vec Ideal S512x1024 .bf16)
    (bias : Vec Ideal S1x512 .f32) (m : Vec Ideal S2048x1 .f32) (r : Fin 2048) :
    k2_pay9 (F := Ideal) i x w bias m (ix2 r (0 : Fin 1))
      = max (m (ix2 r (0 : Fin 1))) (Finset.univ.sup fun j : Fin 512 => k2_pay8 (F := Ideal) i x w bias (ix2 r j)) := by
  unfold k2_pay9
  rw [maximumf_apply, r2_col_apply, r2_rowmax_apply]

/-- The new running mass at row r: the old mass rescaled to the new maximum, plus the masked tile row's mass. -/
theorem k2_pay10_apply (i : grid2.Coords) (x : Vec Ideal S2048x1024 .bf16) (w : Vec Ideal S512x1024 .bf16)
    (bias : Vec Ideal S1x512 .f32) (m0 m l : Vec Ideal S2048x1 .f32) (r : Fin 2048) :
    k2_pay10 (F := Ideal) i x w bias m0 m l (ix2 r (0 : Fin 1))
      = Ideal.exp (m (ix2 r (0 : Fin 1)) - k2_pay9 (F := Ideal) i x w bias m0 (ix2 r (0 : Fin 1))) * l (ix2 r (0 : Fin 1))
        + ∑ j : Fin 512, Ideal.exp (k2_pay8 (F := Ideal) i x w bias (ix2 r j) - k2_pay9 (F := Ideal) i x w bias m0 (ix2 r (0 : Fin 1))) := by
  unfold k2_pay10
  rw [addf_apply, r2_col_apply, r2_rowsum_apply]
  refine congrArg₂ (· + ·) rfl (Finset.sum_congr rfl fun j _ => ?_)
  show Ideal.exp (k2_pay8 (F := Ideal) i x w bias (ix2 r j)
    - broadcastTo S2048x512 (k2_pay9 (F := Ideal) i x w bias m0) broadcasts_S2048x1_S2048x512 (ix2 r j)) = _
  rw [r2_bcast_col_apply]

/-- A shape cast to the same shape stores what it is given. -/
theorem k2_pay1_eq (v : FVec Ideal S2048x1 .f32) : k2_pay1 (F := Ideal) v = v := shapeCast_self v _
theorem k2_pay2_eq (v : FVec Ideal S2048x1 .f32) : k2_pay2 (F := Ideal) v = v := shapeCast_self v _

/-- The stored output at row r: m + log l - b. -/
theorem k2_pay4_apply (m l b : Vec Ideal S2048x1 .f32) (r : Fin 2048) :
    k2_pay4 (F := Ideal) m l b (ix2 r (0 : Fin 1))
      = m (ix2 r (0 : Fin 1)) + Ideal.log (l (ix2 r (0 : Fin 1))) - b (ix2 r (0 : Fin 1)) := rfl

/-- The reset: maximum ⊥, no mass, no pick. -/
theorem k2_pay5_apply (y : S2048x1.Idx) : k2_pay5 (F := Ideal) y = ⊥ := by
  unfold k2_pay5
  rw [shapeCast_self]
  exact r2_neg_big
theorem k2_pay6_apply (y : S2048x1.Idx) : k2_pay6 (F := Ideal) y = 0 := by
  unfold k2_pay6
  rw [shapeCast_self]
  exact Ideal.ofBits_zero_f32
theorem k2_pay7_apply (y : S2048x1.Idx) : k2_pay7 (F := Ideal) y = 0 := by
  unfold k2_pay7
  rw [shapeCast_self]
  exact Ideal.ofBits_zero_f32

/-! ## The pick -/

/-- The label's offset into tile k < 4 on 32-bit words: for a label below 2³¹ the signed value is the integers' difference. -/
theorem r2_lane_word (k : ℕ) (hk : k < 4) (L : ℕ) (hL : L < 2 ^ 31) :
    (IntOp.subi (BitVec.ofNat 32 L) (Scalar.muli (BitVec.ofNat 32 k) 512#32)).toInt = (L : ℤ) - 512 * k := by
  have ek : (BitVec.ofNat 32 k).toInt = k := WordArith.toInt_ofNat_small k (by omega)
  have e512 : (512#32 : BitVec 32).toInt = 512 := by decide
  have eL : (BitVec.ofNat 32 L).toInt = L := WordArith.toInt_ofNat_small L hL
  have em : (BitVec.ofNat 32 k * 512#32).toInt = k * 512 := by
    rw [WordArith.toInt_mul_of_bounds _ _ (by rw [ek, e512]; omega) (by rw [ek, e512]; omega), ek, e512]
  show (BitVec.ofNat 32 L - BitVec.ofNat 32 k * 512#32).toInt = _
  rw [WordArith.toInt_sub_of_bounds _ _ (by rw [eL, em]; omega) (by rw [eL, em]; omega), eL, em]
  omega

/-- The new running pick at row r, for a label word that is the number L < 2³¹: the old pick plus the tile's entry at the
    label's column when the label falls in tile k (512 k ≤ L < 512 (k + 1)), else plus 0. A sum against the indicator of one lane
    is the entry there. -/
theorem k2_pay3_apply (k : ℕ) (hk : k < 4) (y : FVec Ideal S2048x512 .f32) (lab : Vec Ideal S2048x1 .i32)
    (b : Vec Ideal S2048x1 .f32) (r : Fin 2048) (L : ℕ) (hL : L < 2 ^ 31)
    (hlab : lab (ix2 r (0 : Fin 1)) = BitVec.ofNat 32 L) :
    k2_pay3 (F := Ideal) (BitVec.ofNat 32 k) (iota .tc S2048x512 32 [1] iota_S2048x512_d1_w32) y lab b (ix2 r (0 : Fin 1))
      = b (ix2 r (0 : Fin 1)) + if h : 512 * k ≤ L ∧ L < 512 * (k + 1) then y (ix2 r ⟨L - 512 * k, by omega⟩) else 0 := by
  have eD := r2_lane_word k hk L hL
  generalize hD : IntOp.subi (BitVec.ofNat 32 L) (Scalar.muli (BitVec.ofNat 32 k) 512#32) = D at eD
  have hsum : (∑ j : Fin 512, (select (cmpi .eq (iota .tc S2048x512 32 [1] iota_S2048x512_d1_w32)
        (broadcastTo S2048x512 (subi lab (broadcast S2048x1 (Scalar.muli (BitVec.ofNat 32 k) 512#32))) broadcasts_S2048x1_S2048x512))
        y (broadcast S2048x512 (Ideal.ofBits .f32 0x00000000#32)) : FVec Ideal S2048x512 .f32) (ix2 r j))
      = ∑ j : Fin 512, if (j.val : ℤ) = (L : ℤ) - 512 * k then y (ix2 r j) else 0 := by
    refine Finset.sum_congr rfl fun j _ => ?_
    show Scalar.select (IntOp.cmpi .eq (iota .tc S2048x512 32 [1] iota_S2048x512_d1_w32 (ix2 r j))
        (broadcastTo S2048x512 (subi lab (broadcast S2048x1 (Scalar.muli (BitVec.ofNat 32 k) 512#32))) broadcasts_S2048x1_S2048x512 (ix2 r j)))
        (y (ix2 r j)) (Ideal.ofBits .f32 0x00000000#32) = _
    rw [iota_single_apply, r2_bcast_col_apply, Ideal.ofBits_zero_f32]
    show Scalar.select (IntOp.cmpi .eq (BitVec.ofNat 32 j.val) (IntOp.subi (lab (ix2 r (0 : Fin 1))) (Scalar.muli (BitVec.ofNat 32 k) 512#32))) _ _ = _
    rw [hlab, hD]
    have ej : (BitVec.ofNat 32 j.val).toInt = j.val := WordArith.toInt_ofNat_small j.val (by have := j.isLt; omega)
    by_cases hc : (j.val : ℤ) = (L : ℤ) - 512 * k
    · rw [if_pos hc]
      have e : BitVec.ofNat 32 j.val = D := BitVec.eq_of_toInt_eq (by rw [ej, eD, hc])
      rw [e]
      show Scalar.select (BitVec.ofBool (D == D)) _ _ = _
      rw [beq_self_eq_true]
      exact select_one _ _
    · rw [if_neg hc]
      have e : (BitVec.ofNat 32 j.val == D) = false := by
        rw [beq_eq_false_iff_ne]
        intro h
        apply hc
        rw [← ej, h, eD]
      show Scalar.select (BitVec.ofBool (BitVec.ofNat 32 j.val == D)) _ _ = _
      rw [e]
      exact select_zero _ _
  unfold k2_pay3
  rw [shapeCast_self, shapeCast_self]
  show b (ix2 r (0 : Fin 1)) + Scalar.select (IntOp.andi
        (IntOp.cmpi .sge (IntOp.subi (lab (ix2 r (0 : Fin 1))) (Scalar.muli (BitVec.ofNat 32 k) 512#32)) 0#32)
        (IntOp.cmpi .slt (IntOp.subi (lab (ix2 r (0 : Fin 1))) (Scalar.muli (BitVec.ofNat 32 k) 512#32)) 512#32))
      (shapeCast S2048x1 (multiReduction (F := Ideal) .add [1] S2048 (select (cmpi .eq (iota .tc S2048x512 32 [1] iota_S2048x512_d1_w32)
        (broadcastTo S2048x512 (subi lab (broadcast S2048x1 (Scalar.muli (BitVec.ofNat 32 k) 512#32))) broadcasts_S2048x1_S2048x512))
        y (broadcast S2048x512 (Ideal.ofBits .f32 0x00000000#32))) 0x00000000#32 reduces_S2048x512_S2048 (.inl rfl) rfl)
        shapeCasts_S2048_S2048x1 (ix2 r (0 : Fin 1)))
      (Ideal.ofBits .f32 0x00000000#32) = _
  rw [r2_col_apply, r2_rowsum_apply, hsum, hlab, hD, Ideal.ofBits_zero_f32]
  show b (ix2 r (0 : Fin 1)) + Scalar.select (IntOp.andi (BitVec.ofBool ((0#32 : BitVec 32).sle D)) (BitVec.ofBool (D.slt 512#32))) _ _ = _
  have hb : (decide ((0 : ℤ) ≤ (L : ℤ) - 512 * k) && decide ((L : ℤ) - 512 * k < 512)) = decide (512 * k ≤ L ∧ L < 512 * (k + 1)) := by
    rw [← Bool.decide_and]
    exact decide_eq_decide.2 (by omega)
  rw [WordArith.andi_ofBool, BitVec.sle_eq_decide, BitVec.slt_eq_decide, eD, show (0#32 : BitVec 32).toInt = 0 from by decide,
    show (512#32 : BitVec 32).toInt = 512 from by decide, hb]
  congr 1
  by_cases h : 512 * k ≤ L ∧ L < 512 * (k + 1)
  · rw [dif_pos h, decide_eq_true h]
    show Scalar.select 1#1 _ _ = _
    rw [select_one, Finset.sum_eq_single (⟨L - 512 * k, by omega⟩ : Fin 512)]
    · rw [if_pos (by show ((L - 512 * k : ℕ) : ℤ) = _; omega)]
    · intro j _ hj
      rw [if_neg]
      intro hc
      apply hj
      apply Fin.ext
      show j.val = L - 512 * k
      omega
    · intro hn
      exact absurd (Finset.mem_univ _) hn
  · rw [dif_neg h, decide_eq_false h]
    show Scalar.select 0#1 _ _ = _
    rw [select_zero]

/-! ## One step on a row -/

/-- One step of the scratch on row r is the running state's step on the row's triple, with the masked tile row as the tile and
    the tile's entry at the label's column (when the label falls in the tile) as the pick. -/
theorem r2_row_step (i : grid2.Coords) (x : Vec Ideal S2048x1024 .bf16) (w : Vec Ideal S512x1024 .bf16)
    (bias : Vec Ideal S1x512 .f32) (lab : Vec Ideal S2048x1 .i32) (m l b : Vec Ideal S2048x1 .f32) (r : Fin 2048)
    (L : ℕ) (hL : L < 2 ^ 31) (hlab : lab (ix2 r (0 : Fin 1)) = BitVec.ofNat 32 L) :
    (⟨k2_pay2 (F := Ideal) (k2_pay9 (F := Ideal) i x w bias m) (ix2 r (0 : Fin 1)),
      k2_pay1 (F := Ideal) (k2_pay10 (F := Ideal) i x w bias m m l) (ix2 r (0 : Fin 1)),
      k2_pay3 (F := Ideal) (BitVec.ofNat 32 (i 1).val) (iota .tc S2048x512 32 [1] iota_S2048x512_d1_w32)
        (k2_pay8 (F := Ideal) i x w bias) lab b (ix2 r (0 : Fin 1))⟩ : Spec.St)
      = Spec.St.step ⟨m (ix2 r (0 : Fin 1)), l (ix2 r (0 : Fin 1)), b (ix2 r (0 : Fin 1))⟩
          (fun j : Fin 512 => k2_pay8 (F := Ideal) i x w bias (ix2 r j))
          (if h : 512 * (i 1).val ≤ L ∧ L < 512 * ((i 1).val + 1)
            then k2_pay8 (F := Ideal) i x w bias (ix2 r ⟨L - 512 * (i 1).val, by omega⟩) else 0) := by
  rw [k2_pay2_eq, k2_pay1_eq, k2_pay10_apply, k2_pay9_apply,
    k2_pay3_apply (i 1).val (show (i 1).val < 4 from (i 1).isLt) _ lab b r L hL hlab]
  rfl

end Cert.KernelIdeal.Hand

end
-- ==== Proof.LibOnlineSoftmax.lean ====
/-
  The tiled running softmax and jax's log-softmax both reach the cross-entropy term of a token,
  `log (∑ v, exp (z v)) - z lbl`, for real logits. Plain mathematics on the extended reals.

  The one identity behind everything: for a real level `M`, `M + log (∑ v, exp (x v - M)) = log (∑ v, exp (x v))`,
  whichever level is used. The running state keeps a real level `m` (after the first tile) and the mass of the columns seen so
  far against that level; moving the level from `M` to `M'` multiplies the mass by `exp (M - M')`. A column past the last class is
  `⊥` and carries the mass `exp ⊥ = 0`.
-/
import proofs.«415479_j24352464569077_2_alg».proof.Proof.Spec
import Mathlib.Data.EReal.Basic
import Mathlib.Data.EReal.Operations
import Mathlib.Analysis.SpecialFunctions.Log.Basic
import Mathlib.Analysis.SpecialFunctions.Exp
import Mathlib.Algebra.BigOperators.Fin
import Mathlib.Data.Fintype.BigOperators
import Mathlib.Algebra.Order.BigOperators.Group.Finset
import Mathlib.Data.Finset.Lattice.Fold

noncomputable section

namespace Cert.Spec

open Idealize.ShloMosaic

/-! ## Reals inside the extended reals -/

/-- The coercion of the reals into the extended reals commutes with finite sums. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem sum_real {ι : Type} [Fintype ι] (f : ι → EReal) (hf : ∀ i, ∃ r : ℝ, f i = r) : ∃ r : ℝ, ∑ i, f i = r := by
  choose g hg using hf
  refine ⟨∑ i, g i, ?_⟩
  rw [coe_finset_sum]
  exact Finset.sum_congr rfl (fun i _ => hg i)

/-- A product of two reals is a real. -/
theorem mul_real (a b : EReal) (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

/-- A sum of two reals is a real. -/
theorem add_real (a b : EReal) (ha : ∃ r : ℝ, a = r) (hb : ∃ r : ℝ, b = r) : ∃ r : ℝ, a + b = r := by
  obtain ⟨r, rfl⟩ := ha
  obtain ⟨s, rfl⟩ := hb
  exact ⟨r + s, (EReal.coe_add r s).symm⟩

/-- A projected tail's logits are reals when the activations and both factors are: sums of products of reals. -/
theorem logitsProj_real {T D P V : ℕ} (x : Fin T → Fin D → EReal) (a1 : Fin P → Fin D → EReal) (a2 : Fin V → Fin P → EReal)
    (hx : ∀ t d, ∃ r : ℝ, x t d = r) (ha1 : ∀ p d, ∃ r : ℝ, a1 p d = r) (ha2 : ∀ v p, ∃ r : ℝ, a2 v p = r)
    (t : Fin T) (v : Fin V) : ∃ r : ℝ, logitsProj x a1 a2 t v = r := by
  unfold logitsProj
  exact sum_real _ (fun p => mul_real _ _ (sum_real _ (fun d => mul_real _ _ (hx t d) (ha1 p d))) (ha2 v p))

/-- The head's logits are reals when the activations, the weights and the bias are: a sum of products of reals plus a real. -/
theorem logitsHead_real {T D V : ℕ} (x : Fin T → Fin D → EReal) (w : Fin V → Fin D → EReal) (b : Fin V → EReal)
    (hx : ∀ t d, ∃ r : ℝ, x t d = r) (hw : ∀ v d, ∃ r : ℝ, w v d = r) (hb : ∀ v, ∃ r : ℝ, b v = r)
    (t : Fin T) (v : Fin V) : ∃ r : ℝ, logitsHead x w b t v = r := by
  unfold logitsHead
  exact add_real _ _ (sum_real _ (fun d => mul_real _ _ (hx t d) (hw v d))) (hb v)

/-! ## The level-shift identity on the reals -/

/-- A nonempty sum of exponentials is positive. -/
theorem sum_exp_pos {V : ℕ} (hV : 0 < V) (x : Fin V → ℝ) (M : ℝ) : 0 < ∑ v, Real.exp (x v - M) :=
  Finset.sum_pos (fun v _ => Real.exp_pos _) ⟨⟨0, hV⟩, Finset.mem_univ _⟩

/-- `M + log (∑ v, exp (x v - M)) = log (∑ v, exp (x v))` for every real level `M`: the sum is `exp (-M) * ∑ v, exp (x v)`. -/
theorem level_add_log_sum_exp {V : ℕ} (hV : 0 < V) (x : Fin V → ℝ) (M : ℝ) :
    M + Real.log (∑ v, Real.exp (x v - M)) = Real.log (∑ v, Real.exp (x v)) := by
  have h0 := sum_exp_pos hV x 0
  simp only [sub_zero] at h0
  have hs : ∑ v, Real.exp (x v - M) = Real.exp (-M) * ∑ v, Real.exp (x v) := by
    rw [Finset.mul_sum]
    refine Finset.sum_congr rfl (fun v _ => ?_)
    rw [← Real.exp_add]
    congr 1
    ring
  rw [hs, Real.log_mul (Real.exp_ne_zero _) (ne_of_gt h0), Real.log_exp]
  ring

/-- The cross-entropy term of real logits `x`, as a real: `log (∑ v, exp (x v)) - x lbl`. -/
theorem tok_coe {V : ℕ} (hV : 0 < V) (x : Fin V → ℝ) (lbl : Fin V) :
    tok (fun v => (x v : EReal)) lbl = ((Real.log (∑ v, Real.exp (x v)) - x lbl : ℝ) : EReal) := by
  have h0 := sum_exp_pos hV x 0
  simp only [sub_zero] at h0
  simp only [tok, Ideal.exp_coe]
  rw [← coe_finset_sum, Ideal.log_coe, if_neg (not_le.2 h0), ← EReal.coe_sub]

/-- The term of real logits is a real. -/
theorem tok_real {V : ℕ} (hV : 0 < V) (z : Fin V → EReal) (hz : ∀ v, ∃ r : ℝ, z v = r) (lbl : Fin V) :
    ∃ r : ℝ, tok z lbl = r := by
  choose x hx using hz
  obtain rfl : z = fun v => (x v : EReal) := funext hx
  exact ⟨_, tok_coe hV x lbl⟩

/-- Times zero the term vanishes. -/
theorem tok_mul_zero {V : ℕ} (z : Fin V → EReal) (lbl : Fin V) : tok z lbl * 0 = 0 := mul_zero _

/-- Times one the term is itself. -/
theorem tok_mul_one {V : ℕ} (z : Fin V → EReal) (lbl : Fin V) : tok z lbl * 1 = tok z lbl := mul_one _

/-! ## The maximum of finitely many reals -/

/-- The supremum of a family is the fold of `max` from `⊥`. -/
theorem sup_eq_fold_max {ι : Type} (s : Finset ι) (f : ι → EReal) : s.sup f = s.fold max ⊥ f := rfl

/-- The supremum of a nonempty finite family of reals is a real. -/
theorem sup_coe_real {V : ℕ} (hV : 0 < V) (x : Fin V → ℝ) :
    ∃ M : ℝ, Finset.univ.sup (fun v => (x v : EReal)) = M := by
  have htop : Finset.univ.sup (fun v => (x v : EReal)) < ⊤ :=
    (Finset.sup_lt_iff bot_lt_top).2 (fun v _ => EReal.coe_lt_top _)
  have hbot : ⊥ < Finset.univ.sup (fun v => (x v : EReal)) :=
    lt_of_lt_of_le (EReal.bot_lt_coe (x ⟨0, hV⟩))
      (Finset.le_sup (f := fun v => (x v : EReal)) (Finset.mem_univ (⟨0, hV⟩ : Fin V)))
  exact ⟨_, (EReal.coe_toReal (ne_of_lt htop) (ne_of_gt hbot)).symm⟩

/-- jax's log_softmax, gathered at the label and negated, is the same term: with `M` the maximum,
    `-((x lbl - M) - log (∑ v, exp (x v - M))) = M + log (∑ v, exp (x v - M)) - x lbl = log (∑ v, exp (x v)) - x lbl`. -/
theorem neg_logSoftmax_eq_tok {V : ℕ} (hV : 0 < V) (z : Fin V → EReal) (hz : ∀ v, ∃ r : ℝ, z v = r) (lbl : Fin V) :
    -((z lbl - Finset.univ.sup z) - Ideal.log (∑ v, Ideal.exp (z v - Finset.univ.sup z))) = tok z lbl := by
  choose x hx using hz
  obtain rfl : z = fun v => (x v : EReal) := funext hx
  obtain ⟨M, hM⟩ := sup_coe_real hV x
  have hpos := sum_exp_pos hV x M
  rw [hM, tok_coe hV]
  simp only [← EReal.coe_sub, Ideal.exp_coe]
  rw [← coe_finset_sum, Ideal.log_coe, if_neg (not_le.2 hpos), ← EReal.coe_sub, ← EReal.coe_neg]
  congr 1
  have := level_add_log_sum_exp hV x M
  linarith

/-! ## The tiled running softmax -/

/-- The mass of column `c` against the level `M`: `exp (x c - M)` for a real class, `0` past the last class. -/
def colMass {V : ℕ} (x : Fin V → ℝ) (M : ℝ) (c : ℕ) : ℝ := if h : c < V then Real.exp (x ⟨c, h⟩ - M) else 0

/-- A masked column is never `⊤`: it is a real or `⊥`. -/
theorem masked_lt_top {V : ℕ} (x : Fin V → ℝ) (c : ℕ) : masked (fun v => (x v : EReal)) c < ⊤ := by
  unfold masked
  by_cases h : c < V
  · simp only [dif_pos h]; exact EReal.coe_lt_top _
  · simp only [dif_neg h]; exact bot_lt_top

/-- The label's own column is its logit. -/
theorem masked_label {V : ℕ} (x : Fin V → ℝ) (lbl : Fin V) : masked (fun v => (x v : EReal)) lbl.val = (x lbl : EReal) := by
  unfold masked
  simp only [dif_pos lbl.isLt]

/-- The exponential of a masked column below a real level is the column's mass: `⊥ - M = ⊥` and `exp ⊥ = 0`. -/
theorem exp_masked_sub {V : ℕ} (x : Fin V → ℝ) (M : ℝ) (c : ℕ) :
    Ideal.exp (masked (fun v => (x v : EReal)) c - (M : EReal)) = (colMass x M c : EReal) := by
  unfold masked colMass
  by_cases h : c < V
  · simp only [dif_pos h]; rw [← EReal.coe_sub, Ideal.exp_coe]
  · simp only [dif_neg h]; rw [EReal.bot_sub, Ideal.exp_bot, EReal.coe_zero]

/-- Moving the level from `M` to `M'` multiplies a column's mass by `exp (M - M')`. -/
theorem colMass_rescale {V : ℕ} (x : Fin V → ℝ) (M M' : ℝ) (c : ℕ) :
    Real.exp (M - M') * colMass x M c = colMass x M' c := by
  unfold colMass
  by_cases h : c < V
  · simp only [dif_pos h]; rw [← Real.exp_add]; congr 1; ring
  · simp only [dif_neg h, mul_zero]

/-- The columns of a range that covers all classes carry the mass of the classes. -/
theorem sum_colMass_range {V : ℕ} (x : Fin V → ℝ) (M : ℝ) {N : ℕ} (hN : V ≤ N) :
    ∑ c ∈ Finset.range N, colMass x M c = ∑ v : Fin V, Real.exp (x v - M) := by
  have h1 : ∑ v : Fin V, Real.exp (x v - M) = ∑ v : Fin V, colMass x M v.val := by
    refine Finset.sum_congr rfl (fun v _ => ?_)
    unfold colMass
    simp only [dif_pos v.isLt]
  rw [h1, Fin.sum_univ_eq_sum_range (fun c => colMass x M c) V]
  symm
  refine Finset.sum_subset (Finset.range_mono hN) (fun c _ hc => ?_)
  unfold colMass
  rw [dif_neg (by simpa using hc)]

/-- The mass of one tile of masked columns below a real level. -/
theorem tile_sum {V : ℕ} (n : ℕ) (x : Fin V → ℝ) (M : ℝ) (k : ℕ) :
    ∑ j : Fin n, Ideal.exp (masked (fun v => (x v : EReal)) (n * k + j.val) - (M : EReal))
      = ((∑ c ∈ Finset.range n, colMass x M (n * k + c) : ℝ) : EReal) := by
  rw [coe_finset_sum, ← Fin.sum_univ_eq_sum_range (fun c => (colMass x M (n * k + c) : EReal)) n]
  exact Finset.sum_congr rfl (fun j _ => exp_masked_sub x M _)

/-- What holds of the running state after `k` tiles of width `n`: the level is never `⊤` and after the first tile never
    `⊥`; the mass, moved to any real level `M'`, is the mass of the columns `c < n * k` against `M'`; the pick is the
    label's logit once the label's column has been seen. -/
structure Inv {V : ℕ} (n : ℕ) (x : Fin V → ℝ) (lbl : Fin V) (k : ℕ) (s : St) : Prop where
  m_ne_top : s.m ≠ ⊤
  m_ne_bot : 0 < k → s.m ≠ ⊥
  mass : ∀ M' : ℝ, Ideal.exp (s.m - (M' : EReal)) * s.l = ((∑ c ∈ Finset.range (n * k), colMass x M' c : ℝ) : EReal)
  pick : s.b = if lbl.val < n * k then (x lbl : EReal) else 0

/-- Before the first tile: level `⊥`, no mass, no pick. -/
theorem Inv.init {V : ℕ} (n : ℕ) (x : Fin V → ℝ) (lbl : Fin V) : Inv n x lbl 0 St.init where
  m_ne_top := by simp [St.init]
  m_ne_bot := fun h => absurd h (lt_irrefl 0)
  mass := fun M' => by simp [St.init]
  pick := by simp [St.init]

/-- One more tile. The new level `max m (sup y)` is a real `M₁`: below `⊤` because every column is, above `⊥`
    because the old level is real or, at the first tile, column 0 is a real class. The old mass moved to `M₁` plus the
    tile's mass against `M₁` is the mass of the columns `c < n * k + n` against `M₁`. -/
theorem Inv.step {V n : ℕ} (hn : 0 < n) (hV : 0 < V) (x : Fin V → ℝ) (lbl : Fin V) (k : ℕ) (s : St)
    (h : Inv n x lbl k s) :
    Inv n x lbl (k + 1)
      (s.step (fun j : Fin n => masked (fun v => (x v : EReal)) (n * k + j.val))
        (Cert.Spec.pick n (fun v => (x v : EReal)) lbl.val k)) := by
  obtain ⟨y, hy⟩ : ∃ y : Fin n → EReal, y = fun j : Fin n => masked (fun v => (x v : EReal)) (n * k + j.val) := ⟨_, rfl⟩
  rw [← hy]
  have hy_top : Finset.univ.sup y < ⊤ :=
    (Finset.sup_lt_iff bot_lt_top).2 (fun j _ => by rw [hy]; exact masked_lt_top x _)
  have hm_top : max s.m (Finset.univ.sup y) ≠ ⊤ :=
    ne_of_lt (max_lt (lt_top_iff_ne_top.2 h.m_ne_top) hy_top)
  have hm_bot : max s.m (Finset.univ.sup y) ≠ ⊥ := by
    rcases Nat.eq_zero_or_pos k with hk | hk
    · have h0 : y ⟨0, hn⟩ = (x ⟨0, hV⟩ : EReal) := by
        rw [hy, hk]
        simp only [Nat.mul_zero, Nat.add_zero]
        exact masked_label x ⟨0, hV⟩
      have h1 : y ⟨0, hn⟩ ≤ Finset.univ.sup y := Finset.le_sup (Finset.mem_univ _)
      rw [h0] at h1
      exact ne_of_gt (lt_of_lt_of_le (EReal.bot_lt_coe _) (le_trans h1 (le_max_right _ _)))
    · exact ne_of_gt (lt_of_lt_of_le (bot_lt_iff_ne_bot.2 (h.m_ne_bot hk)) (le_max_left _ _))
  obtain ⟨M₁, hM₁⟩ : ∃ M₁ : ℝ, max s.m (Finset.univ.sup y) = M₁ := ⟨_, (EReal.coe_toReal hm_top hm_bot).symm⟩
  have hl : Ideal.exp (s.m - max s.m (Finset.univ.sup y)) * s.l + ∑ j, Ideal.exp (y j - max s.m (Finset.univ.sup y))
      = ((∑ c ∈ Finset.range (n * (k + 1)), colMass x M₁ c : ℝ) : EReal) := by
    rw [hM₁, h.mass M₁, hy, tile_sum n x M₁ k, ← EReal.coe_add, Nat.mul_succ, Finset.sum_range_add]
  refine ⟨hm_top, fun _ => hm_bot, fun M' => ?_, ?_⟩
  · show Ideal.exp (max s.m (Finset.univ.sup y) - (M' : EReal))
        * (Ideal.exp (s.m - max s.m (Finset.univ.sup y)) * s.l + ∑ j, Ideal.exp (y j - max s.m (Finset.univ.sup y))) = _
    rw [hl, hM₁, ← EReal.coe_sub, Ideal.exp_coe, ← EReal.coe_mul, Finset.mul_sum]
    congr 1
    exact Finset.sum_congr rfl (fun c _ => colMass_rescale x M₁ M' c)
  · show s.b + Cert.Spec.pick n (fun v => (x v : EReal)) lbl.val k = _
    rw [h.pick]
    unfold Cert.Spec.pick
    rw [masked_label]
    by_cases h1 : lbl.val < n * k
    · have h2 : lbl.val < n * (k + 1) := lt_of_lt_of_le h1 (Nat.mul_le_mul_left n (Nat.le_succ k))
      rw [if_pos h1, if_pos h2, if_neg (fun hc => absurd hc.1 (not_le.2 h1)), add_zero]
    · by_cases h2 : lbl.val < n * (k + 1)
      · rw [if_neg h1, if_pos h2, if_pos ⟨not_lt.1 h1, h2⟩, zero_add]
      · rw [if_neg h1, if_neg h2, if_neg (fun hc => h2 hc.2), add_zero]

/-- The tiled running softmax reaches the cross-entropy term. `n` is the tile width, `K` the number of tiles; the first tile
    holds only real classes (`n ≤ V`), the last tile holds at least one (`n * (K - 1) < V`) and the tiles cover the classes
    (`V ≤ n * K`). After all tiles the level is a real `M`, the mass is `∑ v, exp (x v - M)` and the pick is `x lbl`, so the
    state reads `M + log (∑ v, exp (x v - M)) - x lbl = log (∑ v, exp (x v)) - x lbl`. -/
theorem nll_after_eq_tok {V n K : ℕ} (hn : 0 < n) (hfirst : n ≤ V) (hlast : n * (K - 1) < V) (hcover : V ≤ n * K)
    (z : Fin V → EReal) (hz : ∀ v, ∃ r : ℝ, z v = r) (lbl : Fin V) :
    (St.after (fun k (j : Fin n) => masked z (n * k + j.val)) (fun k => pick n z lbl.val k) K).nll = tok z lbl := by
  have _ := hlast
  choose x hx using hz
  obtain rfl : z = fun v => (x v : EReal) := funext hx
  have hV : 0 < V := lt_of_lt_of_le hn hfirst
  have hK : 0 < K := by
    rcases Nat.eq_zero_or_pos K with h | h
    · rw [h, Nat.mul_zero] at hcover
      exact absurd hV (not_lt.2 hcover)
    · exact h
  have hinv : ∀ k, Inv n x lbl k
      (St.after (fun k (j : Fin n) => masked (fun v => (x v : EReal)) (n * k + j.val))
        (fun k => pick n (fun v => (x v : EReal)) lbl.val k) k) := by
    intro k
    induction k with
    | zero => exact Inv.init n x lbl
    | succ k ih => exact Inv.step hn hV x lbl k _ ih
  have hfin := hinv K
  generalize St.after (fun k (j : Fin n) => masked (fun v => (x v : EReal)) (n * k + j.val))
    (fun k => pick n (fun v => (x v : EReal)) lbl.val k) K = s at hfin
  obtain ⟨M, hM⟩ : ∃ M : ℝ, s.m = M := ⟨_, (EReal.coe_toReal hfin.m_ne_top (hfin.m_ne_bot hK)).symm⟩
  have hl := hfin.mass M
  rw [hM, ← EReal.coe_sub, sub_self, Ideal.exp_coe, Real.exp_zero, EReal.coe_one, one_mul,
    sum_colMass_range x M hcover] at hl
  have hb := hfin.pick
  rw [if_pos (lt_of_lt_of_le lbl.isLt hcover)] at hb
  have hpos := sum_exp_pos hV x M
  unfold St.nll
  rw [hM, hl, hb, tok_coe hV, Ideal.log_coe, if_neg (not_le.2 hpos), ← EReal.coe_add, ← EReal.coe_sub,
    level_add_log_sum_exp hV x M]

end Cert.Spec

end
-- ==== Proof.KI.R2.Value.lean ====
/-
  Region 2 (the head's cross-entropy call): what the last vocabulary tile's step stores, per token.

  At point t = 4 i + k the token block is rows 2048 i … of the token matrix, the weight and bias blocks are classes 512 k … of the
  head's weights and bias (inside the arrays exactly when 512 k + j < 2002; the filler past the last class is never read, since those
  columns are masked), and the label block is the same rows of the head's labels. So the masked tile at row r is tile k of the
  token's 2002 logits laid out in 4 tiles of 512 with ⊥ past the last class, and one step of the scratch on row r is the running
  state's step with that tile and its pick. By induction over the 4 tiles the row's state after the last tile is the state after
  4 tiles, whose m + log l - b is the token's cross-entropy term.
-/
import proofs.«415479_j24352464569077_2_alg».proof.Proof.KI.R2.Defs
import proofs.«415479_j24352464569077_2_alg».proof.Proof.KI.R2.Pay
import proofs.«415479_j24352464569077_2_alg».proof.Proof.Args
import proofs.«415479_j24352464569077_2_alg».proof.Proof.LibOnlineSoftmax
import Idealize.ShloMosaic.Lib.ValueIdx
import Idealize.ShloMosaic.Lib.Pipeline.Value

set_option synthInstance.maxSize 4096

noncomputable section

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## The grid and the windows' blocks, decided over the eight points -/

/-- Point t has row tile t / 4 and vocabulary tile t % 4. -/
theorem r2_coords : ∀ t : Fin cfg2.N, (grid2.coords t 0).val = t.val / 4 ∧ (grid2.coords t 1).val = t.val % 4 := by
  decide +kernel

/-- The four input windows' block indices at point t. -/
theorem r2_idx : ∀ t : Fin cfg2.N, win2_0.index t (0 : Fin 2) = t.val / 4 ∧ win2_0.index t (1 : Fin 2) = 0
    ∧ win2_1.index t (0 : Fin 2) = t.val % 4 ∧ win2_1.index t (1 : Fin 2) = 0
    ∧ win2_2.index t (0 : Fin 2) = 0 ∧ win2_2.index t (1 : Fin 2) = t.val % 4
    ∧ win2_3.index t (0 : Fin 2) = t.val / 4 ∧ win2_3.index t (1 : Fin 2) = 0 :=
  (by decide +kernel : ∀ t : Fin grid2.N, _)

/-- The part of the weight block and of the bias block that lies inside the array: 512 classes, cut at class 2002. -/
theorem r2_xsize : ∀ t : Fin cfg2.N, win2_1.xsize (grid2.coords t) (0 : Fin 2) = min 512 (2002 - 512 * (t.val % 4))
    ∧ win2_1.xsize (grid2.coords t) (1 : Fin 2) = 1024
    ∧ win2_2.xsize (grid2.coords t) (0 : Fin 2) = 1
    ∧ win2_2.xsize (grid2.coords t) (1 : Fin 2) = min 512 (2002 - 512 * (t.val % 4)) :=
  (by decide +kernel : ∀ t : Fin grid2.N, _)

theorem r2_lt8 (t : Fin cfg2.N) : t.val < 8 := t.isLt

/-! ## The blocks read at an index -/

/-- The token block of point t at row r: token 2048 (t / 4) + r. -/
theorem xblk2_apply (c : Dev nD) (t : Fin cfg2.N) (r : Fin 2048) (d : Fin 1024) :
    xblk2 V c t (ix2 r d) = V c main_v0 (ix2 (⟨2048 * (t.val / 4) + r.val, by have := r2_lt8 t; have := r.isLt; omega⟩ : Fin 4096) d) := by
  show V c main_v0 (((cfg2.win 0).blk t).view.emb (ix2 r d)) = _
  congr 1
  funext a
  apply Fin.ext
  obtain ⟨e0, e1, -⟩ := r2_idx t
  match a with
  | ⟨0, _⟩ => show win2_0.index t (0 : Fin 2) * 2048 + 1 * r.val = 2048 * (t.val / 4) + r.val; omega
  | ⟨1, _⟩ => show win2_0.index t (1 : Fin 2) * 1024 + 1 * d.val = d.val; omega

/-- The label block of point t at row r: the label word of token 2048 (t / 4) + r. -/
theorem labblk2_apply (c : Dev nD) (t : Fin cfg2.N) (r : Fin 2048) :
    labblk2 V c t (ix2 r (0 : Fin 1)) = V c main_v37 (ix2 (⟨2048 * (t.val / 4) + r.val, by have := r2_lt8 t; have := r.isLt; omega⟩ : Fin 4096) (0 : Fin 1)) := by
  show V c main_v37 (((cfg2.win 3).blk t).view.emb (ix2 r (0 : Fin 1))) = _
  congr 1
  funext a
  apply Fin.ext
  obtain ⟨-, -, -, -, -, -, e0, e1⟩ := r2_idx t
  match a with
  | ⟨0, _⟩ => show win2_3.index t (0 : Fin 2) * 2048 + 1 * r.val = 2048 * (t.val / 4) + r.val; omega
  | ⟨1, _⟩ => show win2_3.index t (1 : Fin 2) * 1 + 1 * 0 = 0; omega

/-- The weight block of point t at a row that is a class (512 (t % 4) + j < 2002): that class's weights. The filler is not read. -/
theorem wblk2_apply (c : Dev nD) (t : Fin cfg2.N) (j : Fin 512) (d : Fin 1024) (hj : 512 * (t.val % 4) + j.val < 2002) :
    wblk2 V c t (ix2 j d) = V c main_v35 (ix2 (⟨512 * (t.val % 4) + j.val, hj⟩ : Fin 2002) d) := by
  obtain ⟨x0, x1, -, -⟩ := r2_xsize t
  have hj0 : j.val < win2_1.xsize (grid2.coords t) (0 : Fin 2) := by rw [x0]; have := j.isLt; omega
  have hd1 : d.val < win2_1.xsize (grid2.coords t) (1 : Fin 2) := by rw [x1]; exact d.isLt
  let j' : (win2_1.xblock (grid2.coords t)).Idx := fun a => match a with
    | ⟨0, _⟩ => ⟨j.val, hj0⟩
    | ⟨1, _⟩ => ⟨d.val, hd1⟩
  have e : (ix2 j d : S512x1024.Idx) = win2_1.xinj (grid2.coords t) j' :=
    funext fun a => Fin.ext (by match a with | ⟨0, _⟩ => rfl | ⟨1, _⟩ => rfl)
  unfold wblk2
  rw [e, Pipeline.Window.fill_xinj]
  show V c main_v35 (((cfg2.win 1).blk t).view.emb j') = _
  congr 1
  funext a
  apply Fin.ext
  obtain ⟨-, -, e0, e1, -⟩ := r2_idx t
  match a with
  | ⟨0, _⟩ => show win2_1.index t (0 : Fin 2) * 512 + 1 * j.val = 512 * (t.val % 4) + j.val; omega
  | ⟨1, _⟩ => show win2_1.index t (1 : Fin 2) * 1024 + 1 * d.val = d.val; omega

/-- The bias block of point t at a column that is a class: that class's bias. -/
theorem bblk2_apply (c : Dev nD) (t : Fin cfg2.N) (j : Fin 512) (hj : 512 * (t.val % 4) + j.val < 2002) :
    bblk2 V c t (ix2 (0 : Fin 1) j) = V c main_v36 (ix2 (0 : Fin 1) (⟨512 * (t.val % 4) + j.val, hj⟩ : Fin 2002)) := by
  obtain ⟨-, -, x0, x1⟩ := r2_xsize t
  have h00 : (0 : ℕ) < win2_2.xsize (grid2.coords t) (0 : Fin 2) := by rw [x0]; omega
  have hj1 : j.val < win2_2.xsize (grid2.coords t) (1 : Fin 2) := by rw [x1]; have := j.isLt; omega
  let j' : (win2_2.xblock (grid2.coords t)).Idx := fun a => match a with
    | ⟨0, _⟩ => ⟨0, h00⟩
    | ⟨1, _⟩ => ⟨j.val, hj1⟩
  have e : (ix2 (0 : Fin 1) j : S1x512.Idx) = win2_2.xinj (grid2.coords t) j' :=
    funext fun a => Fin.ext (by match a with | ⟨0, _⟩ => rfl | ⟨1, _⟩ => rfl)
  unfold bblk2
  rw [e, Pipeline.Window.fill_xinj]
  show V c main_v36 (((cfg2.win 2).blk t).view.emb j') = _
  congr 1
  funext a
  apply Fin.ext
  obtain ⟨-, -, -, -, e0, e1, -⟩ := r2_idx t
  match a with
  | ⟨0, _⟩ => show win2_2.index t (0 : Fin 2) * 1 + 1 * 0 = 0; omega
  | ⟨1, _⟩ => show win2_2.index t (1 : Fin 2) * 512 + 1 * j.val = 512 * (t.val % 4) + j.val; omega

/-! ## A row of the scratch as a running state -/

/-- Row r of the scratch: its running maximum, mass and pick. -/
def Scr2.row (s : Scr2) (r : Fin 2048) : Spec.St :=
  ⟨s.m (ix2 r (0 : Fin 1)), s.l (ix2 r (0 : Fin 1)), s.b (ix2 r (0 : Fin 1))⟩

/-- After the reset every row is the initial state. -/
theorem Scr2.row_reset (r : Fin 2048) : Scr2.reset.row r = Spec.St.init := by
  show (⟨k2_pay5 (F := Ideal) (ix2 r (0 : Fin 1)), k2_pay6 (F := Ideal) (ix2 r (0 : Fin 1)), k2_pay7 (F := Ideal) (ix2 r (0 : Fin 1))⟩ : Spec.St) = ⟨⊥, 0, 0⟩
  rw [k2_pay5_apply, k2_pay6_apply, k2_pay7_apply]

theorem scr2_congr (c : Dev nD) {n n' : ℕ} (e : n = n') (h : n < cfg2.N) (h' : n' < cfg2.N) : scr2 V c n h = scr2 V c n' h' := by
  subst e; rfl

section Entry

variable (A : Cert.Args.Arrs) (c : Dev nD)
  (hx : ∀ (t : Fin 4096) (d : Fin 1024), V c main_v0 (ix2 t d) = A.x t d)
  (hw : ∀ (v : Fin 2002) (d : Fin 1024), V c main_v35 (ix2 v d) = A.hw v d)
  (hb : ∀ v : Fin 2002, V c main_v36 (ix2 (0 : Fin 1) v) = A.hb v)
  (hl : ∀ t : Fin 4096, V c main_v37 (ix2 t (0 : Fin 1)) = BitVec.ofNat 32 (Spec.headLabel (A.tgt t)))

include hx hw hb in
/-- The masked tile of point t at row r and column j is column 512 (t % 4) + j of the token's logits laid out in tiles. -/
theorem tile2_eq (t : Fin cfg2.N) (r : Fin 2048) (j : Fin 512) :
    k2_pay8 (F := Ideal) (grid2.coords t) (xblk2 V c t) (wblk2 V c t) (bblk2 V c t) (ix2 r j)
      = Spec.masked (A.zh ⟨2048 * (t.val / 4) + r.val, by have := r2_lt8 t; have := r.isLt; omega⟩) (512 * (t.val % 4) + j.val) := by
  rw [k2_pay8_apply, (r2_coords t).2]
  unfold Spec.masked
  by_cases hc : 512 * (t.val % 4) + j.val < 2002
  · rw [if_pos hc, dif_pos hc]
    unfold zt2 Cert.Args.Arrs.zh Spec.logitsHead
    rw [bblk2_apply V c t j hc, hb]
    congr 1
    refine Finset.sum_congr rfl fun d _ => ?_
    rw [xblk2_apply, hx, wblk2_apply V c t j d hc, hw]
  · rw [if_neg hc, dif_neg hc]

include hx hw hb hl in
/-- One step of the scratch at point t, on row r: the running state's step with tile t % 4 of the token's masked logits and
    that tile's pick of the head's label. -/
theorem row_next2 (s : Scr2) (t : Fin cfg2.N) (r : Fin 2048) :
    (s.next (grid2.coords t) (xblk2 V c t) (wblk2 V c t) (bblk2 V c t) (labblk2 V c t)).row r
      = (s.row r).step
          (fun j : Fin 512 => Spec.masked (A.zh ⟨2048 * (t.val / 4) + r.val, by have := r2_lt8 t; have := r.isLt; omega⟩) (512 * (t.val % 4) + j.val))
          (Spec.pick 512 (A.zh ⟨2048 * (t.val / 4) + r.val, by have := r2_lt8 t; have := r.isLt; omega⟩)
            (Spec.headLabel (A.tgt ⟨2048 * (t.val / 4) + r.val, by have := r2_lt8 t; have := r.isLt; omega⟩)) (t.val % 4)) := by
  have hL := Spec.headLabel_lt (A.tgt ⟨2048 * (t.val / 4) + r.val, by have := r2_lt8 t; have := r.isLt; omega⟩)
  have hlab : labblk2 V c t (ix2 r (0 : Fin 1)) = BitVec.ofNat 32 (Spec.headLabel (A.tgt ⟨2048 * (t.val / 4) + r.val, by have := r2_lt8 t; have := r.isLt; omega⟩)) := by
    rw [labblk2_apply, hl]
  generalize Spec.headLabel (A.tgt ⟨2048 * (t.val / 4) + r.val, by have := r2_lt8 t; have := r.isLt; omega⟩) = L at hL hlab
  have e1 := (r2_coords t).2
  unfold Scr2.next Scr2.row
  refine (r2_row_step (grid2.coords t) (xblk2 V c t) (wblk2 V c t) (bblk2 V c t) (labblk2 V c t) s.m s.l s.b r L (by omega) hlab).trans ?_
  congr 1
  · exact funext fun j => tile2_eq V A c hx hw hb t r j
  · unfold Spec.pick
    by_cases h : 512 * (t.val % 4) ≤ L ∧ L < 512 * (t.val % 4 + 1)
    · rw [dif_pos (by rw [e1]; exact h), if_pos h, tile2_eq V A c hx hw hb t r]
      congr 1
      show 512 * (t.val % 4) + (L - 512 * (grid2.coords t 1).val) = L
      rw [e1]; omega
    · rw [dif_neg (by rw [e1]; exact h), if_neg h]

include hx hw hb hl in
/-- The same with the point's row tile i, vocabulary tile k and the token named. -/
theorem row_next2' (s : Scr2) (t : Fin cfg2.N) (r : Fin 2048) (i k : ℕ) (hq : t.val / 4 = i) (hm : t.val % 4 = k)
    (tok : Fin 4096) (htok : tok.val = 2048 * i + r.val) :
    (s.next (grid2.coords t) (xblk2 V c t) (wblk2 V c t) (bblk2 V c t) (labblk2 V c t)).row r
      = (s.row r).step (fun j : Fin 512 => Spec.masked (A.zh tok) (512 * k + j.val))
          (Spec.pick 512 (A.zh tok) (Spec.headLabel (A.tgt tok)) k) := by
  subst hq hm
  rw [show tok = ⟨2048 * (t.val / 4) + r.val, htok ▸ tok.isLt⟩ from Fin.ext htok]
  exact row_next2 V A c hx hw hb hl s t r

include hx hw hb hl in
/-- Row r of the scratch after vocabulary tile k of row tile i: the running state after k + 1 tiles of the token's masked logits. -/
theorem row_after2 (i : Fin 2) (r : Fin 2048) (tok : Fin 4096) (htok : tok.val = 2048 * i.val + r.val) (k : ℕ) (hk : k < 4) :
    (scr2 V c (4 * i.val + k) (show 4 * i.val + k < 8 by have := i.isLt; omega)).row r
      = Spec.St.after (fun k' (j : Fin 512) => Spec.masked (A.zh tok) (512 * k' + j.val))
          (fun k' => Spec.pick 512 (A.zh tok) (Spec.headLabel (A.tgt tok)) k') (k + 1) := by
  induction k with
  | zero =>
    have hlt : 4 * i.val + 0 < cfg2.N := show 4 * i.val + 0 < 8 by have := i.isLt; omega
    have e := scr2_first V c ⟨4 * i.val + 0, hlt⟩ (show (4 * i.val + 0) % 4 = 0 by omega)
    show (scr2 V c (⟨4 * i.val + 0, hlt⟩ : Fin cfg2.N).val (⟨4 * i.val + 0, hlt⟩ : Fin cfg2.N).isLt).row r = _
    rw [e]
    unfold Scr2.first
    rw [row_next2' V A c hx hw hb hl Scr2.reset ⟨4 * i.val + 0, hlt⟩ r i.val 0 (show (4 * i.val + 0) / 4 = i.val by omega)
      (show (4 * i.val + 0) % 4 = 0 by omega) tok htok, Scr2.row_reset]
    rfl
  | succ k ih =>
    have hlt : 4 * i.val + (k + 1) < cfg2.N := show 4 * i.val + (k + 1) < 8 by have := i.isLt; omega
    have hlt' : 4 * i.val + k < cfg2.N := show 4 * i.val + k < 8 by have := i.isLt; omega
    have e := scr2_next V c ⟨4 * i.val + (k + 1), hlt⟩ (show ¬(4 * i.val + (k + 1)) % 4 = 0 by omega)
    show (scr2 V c (⟨4 * i.val + (k + 1), hlt⟩ : Fin cfg2.N).val (⟨4 * i.val + (k + 1), hlt⟩ : Fin cfg2.N).isLt).row r = _
    rw [e]
    rw [row_next2' V A c hx hw hb hl _ ⟨4 * i.val + (k + 1), hlt⟩ r i.val (k + 1) (show (4 * i.val + (k + 1)) / 4 = i.val by omega)
      (show (4 * i.val + (k + 1)) % 4 = k + 1 by omega) tok htok,
      scr2_congr V c (show (4 * i.val + (k + 1)) - 1 = 4 * i.val + k by omega) _ hlt', ih (by omega)]
    rfl

include hx hw hb hl in
/-- What the last vocabulary tile of row tile i stores at row r: the head's cross-entropy term of token 2048 i + r. -/
theorem outblk2_eq (hA : A.Ok) (i : Fin 2) (r : Fin 2048) :
    outblk2 V c ⟨4 * i.val + 3, show 4 * i.val + 3 < 8 by have := i.isLt; omega⟩ (ix2 r (0 : Fin 1))
      = A.T2 ⟨2048 * i.val + r.val, by have := i.isLt; have := r.isLt; omega⟩ := by
  have h := row_after2 V A c hx hw hb hl i r ⟨2048 * i.val + r.val, by have := i.isLt; have := r.isLt; omega⟩ rfl 3 (by omega)
  have hn := Spec.nll_after_eq_tok (V := 2002) (n := 512) (K := 4) (by omega) (by omega) (by omega) (by omega)
    (A.zh ⟨2048 * i.val + r.val, by have := i.isLt; have := r.isLt; omega⟩)
    (fun v => Spec.logitsHead_real A.x A.hw A.hb (fun t d => hA.r0 _) (fun v d => hA.r2 _) (fun v => hA.r3 _) _ v)
    ⟨Spec.headLabel (A.tgt ⟨2048 * i.val + r.val, by have := i.isLt; have := r.isLt; omega⟩), Spec.headLabel_lt _⟩
  unfold outblk2
  rw [k2_pay4_apply]
  show ((scr2 V c (4 * i.val + 3) _).row r).nll = _
  rw [h]
  exact hn

end Entry

end Cert.KernelIdeal.Hand

end
-- ==== Proof.KI.R2.Array.lean ====
/-
  Region 2 (the head's cross-entropy call): the output array after the run.

  The output's block at point n is rows 2048 (n / 4) … of the [4096, 1] array, and it is written back exactly at the last
  vocabulary tile of each row tile (n % 4 = 3). What such a point writes back at row r is the head's cross-entropy term of token
  2048 (n / 4) + r, so every written block is a block of the one per-token vector; the point that covers row t is 4 (t / 2048) + 3,
  so the blocks cover the array and the array ends holding that vector.
-/
import proofs.«415479_j24352464569077_2_alg».proof.Proof.KI.R2.Data
import proofs.«415479_j24352464569077_2_alg».proof.Proof.KI.R2.Value
import proofs.«415479_j24352464569077_2_alg».proof.Proof.Gen.KernelIdeal.Points
import Idealize.ShloMosaic.Lib.Pipeline.Value

set_option synthInstance.maxSize 4096

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The output window's block index at point t: row tile t / 4. -/
theorem r2_idx4 : ∀ t : Fin cfg2.N, win2_4.index t (0 : Fin 2) = t.val / 4 ∧ win2_4.index t (1 : Fin 2) = 0 :=
  (by decide +kernel : ∀ t : Fin grid2.N, _)

/-- The last vocabulary tile's point of row tile i. -/
theorem r2_last_lt (i : Fin 2) : 4 * i.val + 3 < cfg2.N := show 4 * i.val + 3 < 8 by have := i.isLt; omega

/-- The head's per-token vector as contents of the [4096, 1] output array. -/
def T2arr (A : Cert.Args.Arrs) : S4096x1.Idx → EReal := fun i => A.T2 ⟨(i 0).val, (i 0).isLt⟩

section Entry

variable (A : Cert.Args.Arrs) (c : Dev nD)
  (hx : ∀ (t : Fin 4096) (d : Fin 1024), V c main_v0 (ix2 t d) = A.x t d)
  (hw : ∀ (v : Fin 2002) (d : Fin 1024), V c main_v35 (ix2 v d) = A.hw v d)
  (hb : ∀ v : Fin 2002, V c main_v36 (ix2 (0 : Fin 1) v) = A.hb v)
  (hl : ∀ t : Fin 4096, V c main_v37 (ix2 t (0 : Fin 1)) = BitVec.ofNat 32 (Spec.headLabel (A.tgt t)))

include hx hw hb hl in
/-- What a point that writes the output block back writes: its block of the per-token vector. -/
theorem flushed2_4_eq (hA : A.Ok) (t : Fin cfg2.N) (hf : (cfg2.win 4).flush t = true) :
    (dat2 V c).flushed 4 t = ((cfg2.win 4).blk t).view.read (Elt Ideal) (T2arr A) := by
  have h3 : t.val % 4 = 3 := (flush2_4 t).mp hf
  have h8 := r2_lt8 t
  show (cfg2.win 4).cut (grid2.coords t) ((dat2 V c).after 4 t) = _
  rw [after2_4]
  funext j
  have hj1 : (j 1).val < 1 := (j 1).isLt
  obtain ⟨r, rfl⟩ : ∃ r : Fin 2048, j = ix2 r (0 : Fin 1) :=
    ⟨⟨(j 0).val, (j 0).isLt⟩, funext fun a => Fin.ext (by
      match a with
      | ⟨0, _⟩ => rfl
      | ⟨1, _⟩ => show (j 1).val = 0; omega)⟩
  show outblk2 V c t (ix2 r (0 : Fin 1)) = T2arr A (((cfg2.win 4).blk t).view.emb (ix2 r (0 : Fin 1)))
  obtain ⟨e0, e1⟩ := r2_idx4 t
  obtain ⟨i, rfl⟩ : ∃ i : Fin 2, t = ⟨4 * i.val + 3, r2_last_lt i⟩ :=
    ⟨⟨t.val / 4, by omega⟩, Fin.ext (by show t.val = 4 * (t.val / 4) + 3; omega)⟩
  rw [outblk2_eq V A c hx hw hb hl hA i r]
  unfold T2arr
  congr 1
  apply Fin.ext
  show 2048 * i.val + r.val = win2_4.index ⟨4 * i.val + 3, _⟩ (0 : Fin 2) * 2048 + 1 * r.val
  rw [e0]
  show 2048 * i.val + r.val = (4 * i.val + 3) / 4 * 2048 + 1 * r.val
  omega

/-- Every row of the output array is in the block of a point that writes it back: row t in point 4 (t / 2048) + 3's. -/
theorem cover2_4 (i : S4096x1.Idx) : ∃ t : Fin cfg2.N, (cfg2.win 4).flush t = true ∧ i ∈ ((cfg2.win 4).blk t).view.set := by
  have h0 : (i 0).val < 4096 := (i 0).isLt
  have h1 : (i 1).val < 1 := (i 1).isLt
  have hlt : 4 * ((i 0).val / 2048) + 3 < cfg2.N := show 4 * ((i 0).val / 2048) + 3 < 8 by omega
  refine ⟨⟨4 * ((i 0).val / 2048) + 3, hlt⟩, (flush2_4 _).mpr (show (4 * ((i 0).val / 2048) + 3) % 4 = 3 by omega), ?_⟩
  show i ∈ ((View.whole main_v38).slice (win2_4.rect ⟨4 * ((i 0).val / 2048) + 3, hlt⟩)).set
  rw [View.set_slice_whole, Rect.mem_set_unit]
  obtain ⟨e0, e1⟩ := r2_idx4 ⟨4 * ((i 0).val / 2048) + 3, hlt⟩
  intro a
  match a with
  | ⟨0, _⟩ =>
    show win2_4.index ⟨4 * ((i 0).val / 2048) + 3, hlt⟩ (0 : Fin 2) * 2048 ≤ (i 0).val
      ∧ (i 0).val < win2_4.index ⟨4 * ((i 0).val / 2048) + 3, hlt⟩ (0 : Fin 2) * 2048 + 2048
    rw [e0]
    show (4 * ((i 0).val / 2048) + 3) / 4 * 2048 ≤ (i 0).val ∧ (i 0).val < (4 * ((i 0).val / 2048) + 3) / 4 * 2048 + 2048
    omega
  | ⟨1, _⟩ =>
    show win2_4.index ⟨4 * ((i 0).val / 2048) + 3, hlt⟩ (1 : Fin 2) * 1 ≤ (i 1).val
      ∧ (i 1).val < win2_4.index ⟨4 * ((i 0).val / 2048) + 3, hlt⟩ (1 : Fin 2) * 1 + 1
    rw [e1]
    omega

include hx hw hb hl in
/-- The output array after the run holds, at row t, the head's cross-entropy term of token t. -/
theorem arrAt_out2 (hA : A.Ok) : ∀ t : Fin 4096, (dat2 V c).arrAt 4 cfg2.N (ix2 t (0 : Fin 1)) = A.T2 t := by
  intro t
  have h := (dat2 V c).arrAt_eq_of_cover 4 (T2arr A) (flushed2_4_eq V A c hx hw hb hl hA) (fun i => cover2_4 i)
  exact congrFun h (ix2 t (0 : Fin 1))

end Entry

end Cert.KernelIdeal.Hand

end
-- ==== Proof.KI.Result.lean ====
/-
  The kernel program's run with its result named.

  The run of the three regions and the host stretches between them ends with the result buffer at the last stretch's value of the
  three regions' output columns, which is the specification's loss of the three columns. Each region's output array ends holding
  its per-token vector of the argument arrays (the regions are entered with the arguments' values, narrowed, masked and
  re-labelled by the host as the specification says), and the precondition makes the arguments reals with targets below 50000. So
  the result is the specification's loss of the argument arrays.
-/
import proofs.«415479_j24352464569077_2_alg».proof.Proof.KI.Segs
import proofs.«415479_j24352464569077_2_alg».proof.Proof.KI.HostVals
import proofs.«415479_j24352464569077_2_alg».proof.Proof.PreFacts
import proofs.«415479_j24352464569077_2_alg».proof.Defs
import proofs.«415479_j24352464569077_2_alg».proof.Proof.KI.R0.Data
import proofs.«415479_j24352464569077_2_alg».proof.Proof.KI.R1.Data
import proofs.«415479_j24352464569077_2_alg».proof.Proof.KI.R2.Data
import proofs.«415479_j24352464569077_2_alg».proof.Proof.KI.R2.Array

set_option synthInstance.maxSize 4096

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligationLoose)

/-- The run with its result named, over any proof data of the three regions whose output arrays end holding the three per-token
    vectors whenever the region is entered with the argument arrays' values: the result buffer ends holding the specification's loss
    of the argument arrays, and the arguments end unchanged. -/
theorem run_loss_of
    (dat0 : SegV → (c : Dev nD) → Dat τ (Elt Ideal) Unit ℕ (UR sig nD τ) ℕ cfg0 c)
    (dat1 : SegV → (c : Dev nD) → Dat τ (Elt Ideal) Unit ℕ (UR sig nD τ) ℕ cfg1 c)
    (dat2 : SegV → (c : Dev nD) → Dat τ (Elt Ideal) Unit ℕ (UR sig nD τ) ℕ cfg2 c)
    (A_eq0 : ∀ V c (w : Fin cfg0.W), (dat0 V c).A w = V c (Pipeline.arrRef spec0 w))
    (q_eq0 : ∀ V c w, (dat0 V c).q w = fullShare) (owed_eq0 : ∀ V c t, (dat0 V c).owed t = 0)
    (rec_eq0 : ∀ V c t, (dat0 V c).recorded t = Set.univ)
    (hin0 : ∀ V c, Pipeline.ΦA spec0 c ⊢ (dat0 V c).Φ 0) (hout0 : ∀ V c, (dat0 V c).Φ (Fin.last cfg0.N) ⊢ Pipeline.ΦA spec0 c)
    (hbody0 : ∀ V c, BodyObligationLoose (dat0 V c) (defs₀ (F := Ideal)) Variants.none () Set.univ)
    (A_eq1 : ∀ V c (w : Fin cfg1.W), (dat1 V c).A w = V c (Pipeline.arrRef spec1 w))
    (q_eq1 : ∀ V c w, (dat1 V c).q w = fullShare) (owed_eq1 : ∀ V c t, (dat1 V c).owed t = 0)
    (rec_eq1 : ∀ V c t, (dat1 V c).recorded t = Set.univ)
    (hin1 : ∀ V c, Pipeline.ΦA spec1 c ⊢ (dat1 V c).Φ 0) (hout1 : ∀ V c, (dat1 V c).Φ (Fin.last cfg1.N) ⊢ Pipeline.ΦA spec1 c)
    (hbody1 : ∀ V c, BodyObligationLoose (dat1 V c) (defs₀ (F := Ideal)) Variants.none () Set.univ)
    (A_eq2 : ∀ V c (w : Fin cfg2.W), (dat2 V c).A w = V c (Pipeline.arrRef spec2 w))
    (q_eq2 : ∀ V c w, (dat2 V c).q w = fullShare) (owed_eq2 : ∀ V c t, (dat2 V c).owed t = 0)
    (rec_eq2 : ∀ V c t, (dat2 V c).recorded t = Set.univ)
    (hin2 : ∀ V c, Pipeline.ΦA spec2 c ⊢ (dat2 V c).Φ 0) (hout2 : ∀ V c, (dat2 V c).Φ (Fin.last cfg2.N) ⊢ Pipeline.ΦA spec2 c)
    (hbody2 : ∀ V c, BodyObligationLoose (dat2 V c) (defs₀ (F := Ideal)) Variants.none () Set.univ)
    (arr0 : ∀ (V : SegV) (A : Cert.Args.Arrs) (c : Dev nD)
      (hx : ∀ (t : Fin 4096) (d : Fin 1024), V c main_v0 (ix2 t d) = A.x t d)
      (hp : ∀ (p : Fin 1024) (d : Fin 1024), V c main_v11 (ix2 p d) = A.p0 p d)
      (hc : ∀ (v : Fin 8000) (p : Fin 1024), V c main_v12 (ix2 v p) = A.c0 v p)
      (hl : ∀ t : Fin 4096, V c main_v13 (ix2 t (0 : Fin 1)) = BitVec.ofNat 32 (min 7999 (A.tgt t - 2000)))
      (hm : ∀ t : Fin 4096, V c main_v14 (ix2 t (0 : Fin 1)) = if 2000 ≤ A.tgt t ∧ A.tgt t < 10000 then (1 : EReal) else 0)
      (hA : A.Ok), ∀ t : Fin 4096, (dat0 V c).arrAt 5 cfg0.N (ix2 t (0 : Fin 1)) = A.T0 t)
    (arr1 : ∀ (V : SegV) (A : Cert.Args.Arrs) (c : Dev nD)
      (hx : ∀ (t : Fin 4096) (d : Fin 1024), V c main_v0 (ix2 t d) = A.x t d)
      (hp : ∀ (p : Fin 256) (d : Fin 1024), V c main_v28 (ix2 p d) = A.p1 p d)
      (hc : ∀ (v : Fin 40000) (p : Fin 256), V c main_v29 (ix2 v p) = A.c1 v p)
      (hl : ∀ t : Fin 4096, V c main_v30 (ix2 t (0 : Fin 1)) = BitVec.ofNat 32 (min 39999 (A.tgt t - 10000)))
      (hm : ∀ t : Fin 4096, V c main_v31 (ix2 t (0 : Fin 1)) = if 10000 ≤ A.tgt t ∧ A.tgt t < 50000 then (1 : EReal) else 0)
      (hA : A.Ok), ∀ t : Fin 4096, (dat1 V c).arrAt 5 cfg1.N (ix2 t (0 : Fin 1)) = A.T1 t)
    (arr2 : ∀ (V : SegV) (A : Cert.Args.Arrs) (c : Dev nD)
      (hx : ∀ (t : Fin 4096) (d : Fin 1024), V c main_v0 (ix2 t d) = A.x t d)
      (hw : ∀ (v : Fin 2002) (d : Fin 1024), V c main_v35 (ix2 v d) = A.hw v d)
      (hb : ∀ v : Fin 2002, V c main_v36 (ix2 (0 : Fin 1) v) = A.hb v)
      (hl : ∀ t : Fin 4096, V c main_v37 (ix2 t (0 : Fin 1)) = BitVec.ofNat 32 (Spec.headLabel (A.tgt t)))
      (hA : A.Ok), ∀ t : Fin 4096, (dat2 V c).arrAt 4 cfg2.N (ix2 t (0 : Fin 1)) = A.T2 t)
    (m : (ℓ : Loc nD τ sig) → Buf (Elt Ideal) ℓ) (ρ : Dev nD → PrngReg)
    [hPre_finite_inputs : Cert.Pre_finite_inputs.Facts] (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v41) = (fun _ => (argArrs m c).loss)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run (defs (F := Ideal)) _ _).mono (fun r h c => ?_)
    (run_value m dat0 dat1 dat2 A_eq0 q_eq0 owed_eq0 rec_eq0 hin0 hout0 hbody0 A_eq1 q_eq1 owed_eq1 rec_eq1 hin1 hout1 hbody1
      A_eq2 q_eq2 owed_eq2 rec_eq2 hin2 hout2 hbody2 ρ)
  obtain ⟨h41, hargs⟩ := h c
  refine ⟨h41.trans ?_, hargs⟩
  have hok : (argArrs m c).Ok := Cert.PreFacts.ok_of_pre _ _ _ _ _ _ _ _ (hpre c)
  have e0 : (fun t : Fin 4096 => (outs m dat0 dat1 dat2 6 main_v15 c : S4096x1.Idx → EReal) (ix2 t (0 : Fin 1))) = (argArrs m c).T0 :=
    funext fun t => by
      rw [outs_6]
      unfold out6
      exact arr0 (fun c b => V5 m c b) (argArrs m c) c (V5_main_v0_apply m c) (V5_main_v11_apply m c) (V5_main_v12_apply m c)
        (V5_main_v13_eq m c hok) (V5_main_v14_apply m c hok) hok t
  have e1 : (fun t : Fin 4096 => (outs m dat0 dat1 dat2 12 main_v32 c : S4096x1.Idx → EReal) (ix2 t (0 : Fin 1))) = (argArrs m c).T1 :=
    funext fun t => by
      rw [outs_12]
      unfold out12
      exact arr1 (fun c b => V11 m (outsA m dat0) c b) (argArrs m c) c (V11_main_v0_apply m (outsA m dat0) c)
        (V11_main_v28_apply m (outsA m dat0) c) (V11_main_v29_apply m (outsA m dat0) c)
        (V11_main_v30_eq m (outsA m dat0) c hok) (V11_main_v31_apply m (outsA m dat0) c hok) hok t
  have e2 : (fun t : Fin 4096 => (outs m dat0 dat1 dat2 14 main_v38 c : S4096x1.Idx → EReal) (ix2 t (0 : Fin 1))) = (argArrs m c).T2 :=
    funext fun t => by
      rw [outs_14]
      unfold out14
      exact arr2 (fun c b => V13 m (outsB m dat0 dat1) c b) (argArrs m c) c (V13_main_v0_apply m (outsB m dat0 dat1) c)
        (V13_main_v35_apply m (outsB m dat0 dat1) c) (V13_main_v36_apply m (outsB m dat0 dat1) c)
        (V13_main_v37_apply m (outsB m dat0 dat1) c hok) hok t
  rw [V15_main_v41, e0, e1, e2]
  rfl

/-- The run with its result named, at the three regions' proof data: the result buffer ends holding the specification's loss of
    the argument arrays, and the arguments end unchanged. -/
theorem run_loss
    (arr0 : ∀ (V : SegV) (A : Cert.Args.Arrs) (c : Dev nD)
      (hx : ∀ (t : Fin 4096) (d : Fin 1024), V c main_v0 (ix2 t d) = A.x t d)
      (hp : ∀ (p : Fin 1024) (d : Fin 1024), V c main_v11 (ix2 p d) = A.p0 p d)
      (hc : ∀ (v : Fin 8000) (p : Fin 1024), V c main_v12 (ix2 v p) = A.c0 v p)
      (hl : ∀ t : Fin 4096, V c main_v13 (ix2 t (0 : Fin 1)) = BitVec.ofNat 32 (min 7999 (A.tgt t - 2000)))
      (hm : ∀ t : Fin 4096, V c main_v14 (ix2 t (0 : Fin 1)) = if 2000 ≤ A.tgt t ∧ A.tgt t < 10000 then (1 : EReal) else 0)
      (hA : A.Ok), ∀ t : Fin 4096, (dat0 V c).arrAt 5 cfg0.N (ix2 t (0 : Fin 1)) = A.T0 t)
    (arr1 : ∀ (V : SegV) (A : Cert.Args.Arrs) (c : Dev nD)
      (hx : ∀ (t : Fin 4096) (d : Fin 1024), V c main_v0 (ix2 t d) = A.x t d)
      (hp : ∀ (p : Fin 256) (d : Fin 1024), V c main_v28 (ix2 p d) = A.p1 p d)
      (hc : ∀ (v : Fin 40000) (p : Fin 256), V c main_v29 (ix2 v p) = A.c1 v p)
      (hl : ∀ t : Fin 4096, V c main_v30 (ix2 t (0 : Fin 1)) = BitVec.ofNat 32 (min 39999 (A.tgt t - 10000)))
      (hm : ∀ t : Fin 4096, V c main_v31 (ix2 t (0 : Fin 1)) = if 10000 ≤ A.tgt t ∧ A.tgt t < 50000 then (1 : EReal) else 0)
      (hA : A.Ok), ∀ t : Fin 4096, (dat1 V c).arrAt 5 cfg1.N (ix2 t (0 : Fin 1)) = A.T1 t)
    (m : (ℓ : Loc nD τ sig) → Buf (Elt Ideal) ℓ) (ρ : Dev nD → PrngReg)
    [hPre_finite_inputs : Cert.Pre_finite_inputs.Facts] (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v41) = (fun _ => (argArrs m c).loss)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_loss_of dat0 dat1 dat2 A_eq0 q_eq0 owed_eq0 rec_eq0 hin0 hout0 body_obligation0
    A_eq1 q_eq1 owed_eq1 rec_eq1 hin1 hout1 body_obligation1
    A_eq2 q_eq2 owed_eq2 rec_eq2 hin2 hout2 body_obligation2
    arr0 arr1 (fun V A c hx hw hb hl hA => arrAt_out2 V A c hx hw hb hl hA) m ρ hpre

end Cert.KernelIdeal.Hand

end
-- ==== Proof.KI.R0.Pay.lean ====
/-
  Region 0 (the first projected tail), the payload terms read at an index at the ideal instance.

  With h the projected tokens (2048 rows, one per token), w2 one block of 512 class rows, and m, l, b the running maximum,
  mass and label pick of the 2048 rows, one vocabulary step computes, on row r:
    the tile  y j = ∑ p, h r p * w2 j p  for the columns j whose class number 512 * k + j is below 8000, and ⊥ past it;
    the new maximum  max (m r) (sup_j y j);
    the new mass  exp (m r - m') * l r + ∑ j, exp (y j - m');
    the new pick  b r + y (label - 512 * k)  when the label falls in the tile, else  b r.
  That is one step of the running softmax state of the specification. The reset before a row of tiles projects the tokens,
  h r p = ∑ d, x r d * w1 p d, and puts the maximum at ⊥ and the mass and the pick at 0; the stored term is
  (m r + log (l r) - b r) times the row's mask.
-/
import proofs.«415479_j24352464569077_2_alg».proof.Proof.Gen.KernelIdeal.Skeleton
import proofs.«415479_j24352464569077_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

/-! ## Layout operations of the step at an index -/

/-- A column vector [2048] viewed [2048, 1] reads row r at (r, 0). -/
theorem k0_cast_col_apply {α : Type} (v : S2048.Idx → α) (r : Fin 2048) :
    shapeCast S2048x1 v shapeCasts_S2048_S2048x1 (ix2 r 0) = v (ix1 r) :=
  shapeCast_apply v shapeCasts_S2048_S2048x1 _ _ (by rw [Shape.rowMajor_val_one, Shape.rowMajor_val_two]; show r.val = r.val * 1 + 0; omega)

/-- A column [2048, 1] broadcast along 512 lanes reads row r at every lane. -/
theorem k0_bcast_col_apply {α : Type} (v : S2048x1.Idx → α) (r : Fin 2048) (j : Fin 512) :
    broadcastTo S2048x512 v broadcasts_S2048x1_S2048x512 (ix2 r j) = v (ix2 r 0) :=
  broadcastTo_apply v broadcasts_S2048x1_S2048x512 _ _ fun a => match a with | ⟨0, _⟩ => rfl | ⟨1, _⟩ => rfl

/-- The source index over row r with lane k put back. -/
theorem k0_lift_row (r : Fin 2048) (k : Fin 512) :
    reduces_S2048x512_S2048.lift (ix1 r) k = ix2 r k :=
  funext fun a => Fin.ext (by
    match a with
    | ⟨0, _⟩ => rfl
    | ⟨1, _⟩ => rfl)

/-! ## The two matrix products at an index -/

theorem k0_lhs8_row (i : S2048x512.Idx) (q : dot_S2048x1024_S1024x512_S2048x512_1_0_0_1_n_n.contr.Idx) :
    (dot_S2048x1024_S1024x512_S2048x512_1_0_0_1_n_n.lhsIdx i q 0).val = (i 0).val := by
  unfold DotDims.lhsIdx
  rw [dif_neg (show ¬(0 : Fin S2048x1024.rank) ∈ dot_S2048x1024_S1024x512_S2048x512_1_0_0_1_n_n.lhsBatch by decide), dif_pos (show (0 : Fin S2048x1024.rank) ∈ dot_S2048x1024_S1024x512_S2048x512_1_0_0_1_n_n.lhsNonContracting by decide)]
  rfl
theorem k0_lhs8_con (i : S2048x512.Idx) (q : dot_S2048x1024_S1024x512_S2048x512_1_0_0_1_n_n.contr.Idx) :
    (dot_S2048x1024_S1024x512_S2048x512_1_0_0_1_n_n.lhsIdx i q 1).val = (q ⟨0, by decide⟩).val :=
  dot_S2048x1024_S1024x512_S2048x512_1_0_0_1_n_n.lhsIdx_val_of_single rfl i q
theorem k0_rhs8_con (i : S2048x512.Idx) (q : dot_S2048x1024_S1024x512_S2048x512_1_0_0_1_n_n.contr.Idx) :
    (dot_S2048x1024_S1024x512_S2048x512_1_0_0_1_n_n.rhsIdx i q 0).val = (q ⟨0, by decide⟩).val :=
  dot_S2048x1024_S1024x512_S2048x512_1_0_0_1_n_n.rhsIdx_val_of_single rfl i q
theorem k0_rhs8_col (i : S2048x512.Idx) (q : dot_S2048x1024_S1024x512_S2048x512_1_0_0_1_n_n.contr.Idx) :
    (dot_S2048x1024_S1024x512_S2048x512_1_0_0_1_n_n.rhsIdx i q 1).val = (i 1).val := by
  unfold DotDims.rhsIdx
  rw [dif_neg (show ¬(1 : Fin S1024x512.rank) ∈ dot_S2048x1024_S1024x512_S2048x512_1_0_0_1_n_n.rhsBatch by decide), dif_pos (show (1 : Fin S1024x512.rank) ∈ dot_S2048x1024_S1024x512_S2048x512_1_0_0_1_n_n.rhsNonContracting by decide)]
  rfl

/-- The tile's product into the zero accumulator: entry (r, j) is the sum over the hidden width. -/
theorem k0_mm8_apply (a : FVec Ideal S2048x1024 .bf16) (b : FVec Ideal S1024x512 .bf16) (r : Fin 2048) (j : Fin 512) :
    matmul dot_S2048x1024_S1024x512_S2048x512_1_0_0_1_n_n none a b (constant (F := Ideal) S2048x512 .f32 0x00000000#32) (ix2 r j)
      = ∑ p : Fin 1024 /- hidden -/, a (ix2 r p) * b (ix2 p j) := by
  simp only [matmul]
  rw [Ideal.matmul_constant_zero_apply, ← Equiv.sum_comp (contrEquiv1 dot_S2048x1024_S1024x512_S2048x512_1_0_0_1_n_n 1024 /- hidden -/ rfl rfl).symm]
  refine Finset.sum_congr rfl fun k _ => ?_
  have hk := contrEquiv1_symm_val dot_S2048x1024_S1024x512_S2048x512_1_0_0_1_n_n 1024 /- hidden -/ rfl rfl k
  have el : dot_S2048x1024_S1024x512_S2048x512_1_0_0_1_n_n.lhsIdx (ix2 r j) ((contrEquiv1 dot_S2048x1024_S1024x512_S2048x512_1_0_0_1_n_n 1024 /- hidden -/ rfl rfl).symm k) = ix2 r k := funext fun a => Fin.ext (by
    match a with
    | ⟨0, _⟩ => exact k0_lhs8_row _ _
    | ⟨1, _⟩ => exact (k0_lhs8_con _ _).trans hk)
  have er : dot_S2048x1024_S1024x512_S2048x512_1_0_0_1_n_n.rhsIdx (ix2 r j) ((contrEquiv1 dot_S2048x1024_S1024x512_S2048x512_1_0_0_1_n_n 1024 /- hidden -/ rfl rfl).symm k) = ix2 k j := funext fun a => Fin.ext (by
    match a with
    | ⟨0, _⟩ => exact (k0_rhs8_con _ _).trans hk
    | ⟨1, _⟩ => exact k0_rhs8_col _ _)
  rw [el, er]

theorem k0_lhs4_row (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem k0_lhs4_con (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q
theorem k0_rhs4_con (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q
theorem k0_rhs4_col (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- The projection's product into the zero accumulator: entry (r, p) is the sum over the model width. -/
theorem k0_mm4_apply (a : FVec Ideal S2048x1024 .bf16) (b : FVec Ideal S1024x1024 .bf16) (r : Fin 2048) (p : Fin 1024 /- hidden -/) :
    matmul dot_S2048x1024_S1024x1024_S2048x1024_1_0_0_1_n_n none a b (constant (F := Ideal) S2048x1024 .f32 0x00000000#32) (ix2 r p)
      = ∑ d : Fin 1024, a (ix2 r d) * b (ix2 d p) := by
  simp only [matmul]
  rw [Ideal.matmul_constant_zero_apply, ← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 r p) ((contrEquiv1 dot_S2048x1024_S1024x1024_S2048x1024_1_0_0_1_n_n 1024 rfl rfl).symm k) = ix2 r k := funext fun a => Fin.ext (by
    match a with
    | ⟨0, _⟩ => exact k0_lhs4_row _ _
    | ⟨1, _⟩ => exact (k0_lhs4_con _ _).trans hk)
  have er : dot_S2048x1024_S1024x1024_S2048x1024_1_0_0_1_n_n.rhsIdx (ix2 r p) ((contrEquiv1 dot_S2048x1024_S1024x1024_S2048x1024_1_0_0_1_n_n 1024 rfl rfl).symm k) = ix2 k p := funext fun a => Fin.ext (by
    match a with
    | ⟨0, _⟩ => exact (k0_rhs4_con _ _).trans hk
    | ⟨1, _⟩ => exact k0_rhs4_col _ _)
  rw [el, er]

/-! ## The integer tests, on 32-bit words of small numbers -/

theorem k0_col_word (k j : ℕ) (hk : k < 16) (hj : j < 512) :
    IntOp.addi (Scalar.muli (BitVec.ofNat 32 k) 512#32) (BitVec.ofNat 32 j) = BitVec.ofNat 32 (512 * k + j) := by
  apply BitVec.eq_of_toNat_eq
  simp only [IntOp.addi, Scalar.muli, IntOp.muli, BitVec.toNat_add, BitVec.toNat_mul, BitVec.toNat_ofNat]
  omega

theorem k0_slt_small (a b : ℕ) (ha : a < 2 ^ 31) (hb : b < 2 ^ 31) :
    IntOp.cmpi .slt (BitVec.ofNat 32 a) (BitVec.ofNat 32 b) = if a < b then 1#1 else 0#1 := by
  have ea : (BitVec.ofNat 32 a).toInt = a := by
    rw [BitVec.toInt_eq_toNat_cond, BitVec.toNat_ofNat]; split <;> omega
  have eb : (BitVec.ofNat 32 b).toInt = b := by
    rw [BitVec.toInt_eq_toNat_cond, BitVec.toNat_ofNat]; split <;> omega
  simp only [IntOp.cmpi, BitVec.slt, ea, eb]
  by_cases h : a < b
  · simp [h]
  · simp [h]

/-- The column test of tile k: class number 512 k + j is below 8000. -/
theorem k0_col_test (k j : ℕ) (hk : k < 16) (hj : j < 512) :
    IntOp.cmpi .slt (IntOp.addi (Scalar.muli (BitVec.ofNat 32 k) 512#32) (BitVec.ofNat 32 j)) 8000#32
      = if 512 * k + j < 8000 then 1#1 else 0#1 := by
  rw [k0_col_word k j hk hj]
  exact k0_slt_small (512 * k + j) 8000 (by omega) (by norm_num)

/-- The label moved to tile k's origin, as a signed number. -/
theorem k0_sub_toInt (l : BitVec 32) (kk : ℕ) (hl : l.toNat < 2 ^ 31) (hk : kk < 16) :
    (IntOp.subi l (Scalar.muli (BitVec.ofNat 32 kk) 512#32)).toInt = (l.toNat : Int) - 512 * kk := by
  rw [BitVec.toInt_eq_toNat_cond]
  simp only [IntOp.subi, Scalar.muli, IntOp.muli, BitVec.toNat_sub, BitVec.toNat_mul, BitVec.toNat_ofNat]
  split <;> omega

/-- The label falls in tile k. -/
theorem k0_win_test (l : BitVec 32) (kk : ℕ) (hl : l.toNat < 2 ^ 31) (hk : kk < 16) :
    IntOp.andi (IntOp.cmpi .sge (IntOp.subi l (Scalar.muli (BitVec.ofNat 32 kk) 512#32)) 0#32)
        (IntOp.cmpi .slt (IntOp.subi l (Scalar.muli (BitVec.ofNat 32 kk) 512#32)) 512#32)
      = if 512 * kk ≤ l.toNat ∧ l.toNat < 512 * (kk + 1) then 1#1 else 0#1 := by
  have hw := k0_sub_toInt l kk hl hk
  have e0 : (0#32 : BitVec 32).toInt = 0 := by decide
  have e5 : (512#32 : BitVec 32).toInt = 512 := by decide
  simp only [IntOp.andi, IntOp.cmpi, BitVec.sle, BitVec.slt, hw, e0, e5]
  by_cases h1 : 512 * kk ≤ l.toNat
  · by_cases h2 : l.toNat < 512 * (kk + 1)
    · have a1 : (0 : Int) ≤ (l.toNat : Int) - 512 * kk := by omega
      have a2 : (l.toNat : Int) - 512 * kk < 512 := by omega
      rw [decide_eq_true a1, decide_eq_true a2, if_pos ⟨h1, h2⟩]; rfl
    · have a2 : ¬ (l.toNat : Int) - 512 * kk < 512 := by omega
      rw [decide_eq_false a2, if_neg (fun h => h2 h.2)]
      cases decide ((0 : Int) ≤ (l.toNat : Int) - 512 * kk) <;> rfl
  · have a1 : ¬ (0 : Int) ≤ (l.toNat : Int) - 512 * kk := by omega
    rw [decide_eq_false a1, if_neg (fun h => h1 h.1)]
    cases decide ((l.toNat : Int) - 512 * kk < 512) <;> rfl

/-- Lane k of tile kk is the label's lane. -/
theorem k0_eq_test (l : BitVec 32) (kk k : ℕ) (hl : l.toNat < 2 ^ 31) (hk : kk < 16) (hj : k < 512) :
    IntOp.cmpi .eq (BitVec.ofNat 32 k) (IntOp.subi l (Scalar.muli (BitVec.ofNat 32 kk) 512#32))
      = if l.toNat = 512 * kk + k then 1#1 else 0#1 := by
  have key : (BitVec.ofNat 32 k = IntOp.subi l (Scalar.muli (BitVec.ofNat 32 kk) 512#32)) ↔ l.toNat = 512 * kk + k := by
    rw [← BitVec.toNat_inj]
    simp only [IntOp.subi, Scalar.muli, IntOp.muli, BitVec.toNat_sub, BitVec.toNat_mul, BitVec.toNat_ofNat]
    omega
  show BitVec.ofBool (decide (BitVec.ofNat 32 k = IntOp.subi l (Scalar.muli (BitVec.ofNat 32 kk) 512#32))) = _
  by_cases h : l.toNat = 512 * kk + k
  · rw [if_pos h, decide_eq_true (key.2 h)]; rfl
  · rw [if_neg h, decide_eq_false (fun e => h (key.1 e))]; rfl

theorem k0_select_ite {α : Type} (P : Prop) [Decidable P] (a b : α) :
    Scalar.select (if P then 1#1 else 0#1) a b = if P then a else b := by
  by_cases h : P <;> simp [h, Scalar.select]

/-! ## Lane reductions of a row, kept as a column -/

/-- Row r of a lane sum is the sum of the row's 512 lanes. -/
theorem k0_sum_lane (v : FVec Ideal S2048x512 .f32) (r : Fin 2048) :
    shapeCast S2048x1 (multiReduction (F := Ideal) .add [1] S2048 v 0x00000000#32 reduces_S2048x512_S2048 (.inl rfl) rfl) shapeCasts_S2048_S2048x1 (ix2 r 0)
      = ∑ k : Fin 512, v (ix2 r k) := by
  rw [k0_cast_col_apply]
  refine (Ideal.multiReduction_add_single v 0x00000000#32 reduces_S2048x512_S2048 (.inl rfl) rfl (ix1 r)).trans ?_
  exact Finset.sum_congr rfl fun k _ => congrArg v (k0_lift_row r k)

/-- Row r of a lane maximum taken from -∞ is the supremum of the row's 512 lanes. -/
theorem k0_max_lane (v : FVec Ideal S2048x512 .f32) (r : Fin 2048) :
    shapeCast S2048x1 (multiReduction (F := Ideal) .maximumf [1] S2048 v 0xFF800000#32 reduces_S2048x512_S2048 (.inl rfl) rfl) shapeCasts_S2048_S2048x1 (ix2 r 0)
      = Finset.univ.sup fun k : Fin 512 => v (ix2 r k) := by
  rw [k0_cast_col_apply]
  refine (Ideal.multiReduction_maximumf_single v 0xFF800000#32 reduces_S2048x512_S2048 (.inl rfl) rfl (ix1 r)).trans ?_
  have hb : FloatOps.ofBits (F := Ideal) .f32 0xFF800000#32 = (⊥ : EReal) := by
    show Ideal.ofBits .f32 0xFF800000#32 = ⊥
    simp [Ideal.ofBits, Ideal.ieee]
  have hf : (v ∘ reduces_S2048x512_S2048.lift (ix1 r)) = fun k : Fin 512 => v (ix2 r k) :=
    funext fun k => congrArg v (k0_lift_row r k)
  rw [hb]
  exact congrArg (Finset.univ.fold max (⊥ : EReal)) hf

/-! ## The payloads at an index -/

/-- The fill past the last class is ⊥. -/
theorem k0_neg_big_bot : (Named.named (F := Ideal) κ "neg_big" (φ := .f32) 0xF149F2CA#32 : EReal) = ⊥ := by
  show (κ "neg_big").getD (Ideal.ofBits .f32 0xF149F2CA#32) = ⊥
  rfl

/-- One tile logit: row r of the projected tokens against class row j of the block. -/
def k0_zt (h : Vec Ideal S2048x1024 .f32) (w2 : Vec Ideal S512x1024 .bf16) (r : Fin 2048) (j : Fin 512) : EReal :=
  ∑ p : Fin 1024 /- hidden -/, (h (ix2 r p) : EReal) * (w2 (ix2 j p) : EReal)

/-- The new maximum is stored as it is. -/
theorem k0_pay1_eq (v : FVec Ideal S2048x1 .f32) : k0_pay1 (F := Ideal) v = v := by
  unfold k0_pay1
  exact shapeCast_self v _

/-- The stored term of row r: (m + log l - b) times the row's mask. -/
theorem k0_pay3_apply (m l b msk : Vec Ideal S2048x1 .f32) (r : Fin 2048) :
    k0_pay3 (F := Ideal) m l b msk (ix2 r 0)
      = ((m (ix2 r 0) : EReal) + Ideal.log (l (ix2 r 0)) - b (ix2 r 0)) * msk (ix2 r 0) := by
  unfold k0_pay3
  simp only [shapeCast_self]
  rfl

/-- The projected tokens: h r p = ∑ d, x r d * w1 p d. -/
theorem k0_pay4_apply (x : Vec Ideal S2048x1024 .bf16) (w1 : Vec Ideal S1024x1024 .bf16) (r : Fin 2048) (p : Fin 1024 /- hidden -/) :
    k0_pay4 (F := Ideal) x w1 (ix2 r p) = ∑ d : Fin 1024, (x (ix2 r d) : EReal) * (w1 (ix2 p d) : EReal) := by
  unfold k0_pay4
  simp only [shapeCast_self]
  rw [k0_mm4_apply]
  refine Finset.sum_congr rfl fun d _ => ?_
  rw [transpose_ix2_apply]

/-- The reset maximum: the fill, which is ⊥. -/
theorem k0_pay5_eq : k0_pay5 (F := Ideal) = fun _ => (⊥ : EReal) := by
  unfold k0_pay5
  simp only [shapeCast_self]
  rfl

/-- The reset mass: zero. -/
theorem k0_pay6_eq : k0_pay6 (F := Ideal) = fun _ => (0 : EReal) := by
  unfold k0_pay6
  simp only [shapeCast_self]
  funext y
  exact Ideal.ofBits_zero_f32

/-- The reset pick: zero. -/
theorem k0_pay7_eq : k0_pay7 (F := Ideal) = fun _ => (0 : EReal) := by
  unfold k0_pay7
  simp only [shapeCast_self]
  funext y
  exact Ideal.ofBits_zero_f32

/-- The tile at (r, j): the logit of class 512 k + j when that is below 8000, else ⊥. -/
theorem k0_pay8_apply (i : grid0.Coords) (h : Vec Ideal S2048x1024 .f32) (w2 : Vec Ideal S512x1024 .bf16) (r : Fin 2048) (j : Fin 512) :
    k0_pay8 (F := Ideal) i h w2 (ix2 r j) = if 512 * (i 1).val + j.val < 8000 then k0_zt h w2 r j else ⊥ := by
  have hi : (i 1).val < 16 := (i 1).isLt
  unfold k0_pay8
  simp only [shapeCast_self, select_apply, broadcast_apply, cmpi, addi]
  rw [k0_mm8_apply, iota_single_apply .tc S2048x512 32 1 iota_S2048x512_d1_w32 (ix2 r j)]
  rw [k0_neg_big_bot]
  show Scalar.select (IntOp.cmpi .slt (IntOp.addi (Scalar.muli (BitVec.ofNat 32 (i 1).val) 512#32) (BitVec.ofNat 32 j.val)) 8000#32) _ (⊥ : EReal) = _
  rw [k0_col_test _ _ hi j.isLt, k0_select_ite]
  refine if_congr Iff.rfl ?_ rfl
  unfold k0_zt
  refine Finset.sum_congr rfl fun p _ => ?_
  rw [transpose_ix2_apply]
  rfl

end Cert.KernelIdeal.Hand

end
-- ==== Proof.KI.R0.Pay2.lean ====
/-
  Region 0, the payloads of one vocabulary step that reduce over the tile's lanes, read at a row: the new maximum, the new
  mass and the new label pick; together they are one step of the specification's running state on that row.
-/
import proofs.«415479_j24352464569077_2_alg».proof.Proof.KI.R0.Pay

noncomputable section

namespace Cert.KernelIdeal.Hand

open Cert.KernelIdeal Cert.KernelIdeal.Gen
open Idealize.ShloMosaic Idealize.ShloMosaic.ValueIdx

/-- The vector exponential at an index. -/
theorem k0_vexp_apply {s : Shape} {φ : FTy} (v : FVec Ideal s φ) (idx : s.Idx) : exp v idx = Ideal.exp (v idx) := rfl

/-- The new maximum as one term over the tile. -/
theorem k0_pay9_eq (i : grid0.Coords) (h : Vec Ideal S2048x1024 .f32) (w2 : Vec Ideal S512x1024 .bf16) (m : Vec Ideal S2048x1 .f32) :
    k0_pay9 (F := Ideal) i h w2 m
      = maximumf m (shapeCast S2048x1 (multiReduction (F := Ideal) .maximumf [1] S2048 (k0_pay8 (F := Ideal) i h w2) 0xFF800000#32
          reduces_S2048x512_S2048 (.inl rfl) rfl) shapeCasts_S2048_S2048x1) := rfl

/-- The new maximum of row r: the old one against the tile's supremum. -/
theorem k0_pay9_apply (i : grid0.Coords) (h : Vec Ideal S2048x1024 .f32) (w2 : Vec Ideal S512x1024 .bf16) (m : Vec Ideal S2048x1 .f32)
    (r : Fin 2048) :
    k0_pay9 (F := Ideal) i h w2 m (ix2 r 0)
      = max (m (ix2 r 0) : EReal) (Finset.univ.sup fun j : Fin 512 => k0_pay8 (F := Ideal) i h w2 (ix2 r j)) := by
  rw [k0_pay9_eq]
  generalize k0_pay8 (F := Ideal) i h w2 = y
  rw [maximumf_apply, k0_max_lane]

/-- The new mass as one term over the tile and the new maximum. -/
theorem k0_pay10_eq (i : grid0.Coords) (h : Vec Ideal S2048x1024 .f32) (w2 : Vec Ideal S512x1024 .bf16) (m m' l : Vec Ideal S2048x1 .f32) :
    k0_pay10 (F := Ideal) i h w2 m m' l
      = addf (mulf (exp (subf m' (k0_pay9 (F := Ideal) i h w2 m))) l)
          (shapeCast S2048x1 (multiReduction (F := Ideal) .add [1] S2048
            (exp (subf (k0_pay8 (F := Ideal) i h w2) (broadcastTo S2048x512 (k0_pay9 (F := Ideal) i h w2 m) broadcasts_S2048x1_S2048x512)))
            0x00000000#32 reduces_S2048x512_S2048 (.inl rfl) rfl) shapeCasts_S2048_S2048x1) := by
  unfold k0_pay10
  exact shapeCast_self _ _

/-- The new mass of row r: the old mass rescaled to the new maximum, plus the tile's. -/
theorem k0_pay10_apply (i : grid0.Coords) (h : Vec Ideal S2048x1024 .f32) (w2 : Vec Ideal S512x1024 .bf16) (m m' l : Vec Ideal S2048x1 .f32)
    (r : Fin 2048) :
    k0_pay10 (F := Ideal) i h w2 m m' l (ix2 r 0)
      = Ideal.exp ((m' (ix2 r 0) : EReal) - k0_pay9 (F := Ideal) i h w2 m (ix2 r 0)) * l (ix2 r 0)
        + ∑ j : Fin 512, Ideal.exp (k0_pay8 (F := Ideal) i h w2 (ix2 r j) - k0_pay9 (F := Ideal) i h w2 m (ix2 r 0)) := by
  rw [k0_pay10_eq]
  generalize k0_pay9 (F := Ideal) i h w2 m = M
  generalize k0_pay8 (F := Ideal) i h w2 = y
  rw [addf_apply, mulf_apply, k0_sum_lane, k0_vexp_apply, subf_apply]
  refine congrArg₂ (· + ·) rfl (Finset.sum_congr rfl fun j _ => ?_)
  rw [k0_vexp_apply, subf_apply, k0_bcast_col_apply]

/-! ## The label pick -/

theorem k0_vcmpi_apply {s : Shape} {w : ℕ} (p : CmpIPredicate) (x y : IVec s w) (idx : s.Idx) :
    cmpi p x y idx = IntOp.cmpi p (x idx) (y idx) := rfl
theorem k0_vandi_apply {s : Shape} {w : ℕ} (x y : IVec s w) (idx : s.Idx) : andi x y idx = IntOp.andi (x idx) (y idx) := rfl
theorem k0_vsubi_apply {s : Shape} {w : ℕ} (x y : IVec s w) (idx : s.Idx) : subi x y idx = IntOp.subi (x idx) (y idx) := rfl
theorem k0_zero_word : (Scalar.ofBits (F := Ideal) .f32 0x00000000#32 : EReal) = 0 := Ideal.ofBits_zero_f32

/-- The tile's pick on a row whose label word is l: the entry at the label's lane when the label falls in tile kk, else 0. -/
def k0_tilePick (kk : ℕ) (y : FVec Ideal S2048x512 .f32) (l : BitVec 32) (r : Fin 2048) : EReal :=
  if hin : 512 * kk ≤ l.toNat ∧ l.toNat < 512 * (kk + 1) then y (ix2 r ⟨l.toNat - 512 * kk, by omega⟩) else 0

/-- A sum against the indicator of the label's lane is the entry there. -/
theorem k0_sum_lane_pick (kk : ℕ) (y : FVec Ideal S2048x512 .f32) (l : BitVec 32) (r : Fin 2048)
    (hin : 512 * kk ≤ l.toNat ∧ l.toNat < 512 * (kk + 1)) :
    (∑ k : Fin 512, if l.toNat = 512 * kk + k.val then (y (ix2 r k) : EReal) else 0)
      = y (ix2 r ⟨l.toNat - 512 * kk, by omega⟩) := by
  rw [Finset.sum_eq_single (⟨l.toNat - 512 * kk, by omega⟩ : Fin 512)]
  · rw [if_pos (show l.toNat = 512 * kk + (l.toNat - 512 * kk) by omega)]
  · intro k _ hne
    rw [if_neg]
    intro e
    exact hne (Fin.ext (show k.val = l.toNat - 512 * kk by omega))
  · intro hn
    exact absurd (Finset.mem_univ _) hn

/-- The new pick as one term over the tile. -/
theorem k0_pay2_eq (a1 : BitVec 32) (v9 : IVec S2048x512 32) (y : FVec Ideal S2048x512 .f32) (lab : Vec Ideal S2048x1 .i32)
    (b : Vec Ideal S2048x1 .f32) :
    k0_pay2 (F := Ideal) a1 v9 y lab b
      = addf b (select
          (andi (cmpi .sge (subi lab (broadcast S2048x1 (Scalar.muli a1 512#32))) (broadcast S2048x1 0#32))
            (cmpi .slt (subi lab (broadcast S2048x1 (Scalar.muli a1 512#32))) (broadcast S2048x1 512#32)))
          (shapeCast S2048x1 (multiReduction (F := Ideal) .add [1] S2048
            (select (cmpi .eq v9 (broadcastTo S2048x512 (subi lab (broadcast S2048x1 (Scalar.muli a1 512#32))) broadcasts_S2048x1_S2048x512))
              y (broadcast S2048x512 (Scalar.ofBits (F := Ideal) .f32 0x00000000#32)))
            0x00000000#32 reduces_S2048x512_S2048 (.inl rfl) rfl) shapeCasts_S2048_S2048x1)
          (broadcast S2048x1 (Scalar.ofBits (F := Ideal) .f32 0x00000000#32))) := by
  unfold k0_pay2
  simp only [shapeCast_self] <;> rfl

/-- The new pick of row r at tile kk: the old one plus the tile's pick. -/
theorem k0_pay2_apply (kk : ℕ) (hk : kk < 16) (y : FVec Ideal S2048x512 .f32) (lab : Vec Ideal S2048x1 .i32) (b : Vec Ideal S2048x1 .f32)
    (r : Fin 2048) (hlab : (lab (ix2 r 0) : BitVec 32).toNat < 8000) :
    k0_pay2 (F := Ideal) (BitVec.ofNat 32 kk) (iota .tc S2048x512 32 [1] iota_S2048x512_d1_w32) y lab b (ix2 r 0)
      = (b (ix2 r 0) : EReal) + k0_tilePick kk y (lab (ix2 r 0)) r := by
  have hl : (lab (ix2 r 0) : BitVec 32).toNat < 2 ^ 31 := by omega
  rw [k0_pay2_eq, addf_apply, select_apply, k0_sum_lane]
  simp only [select_apply, broadcast_apply, k0_bcast_col_apply, k0_vcmpi_apply, k0_vandi_apply, k0_vsubi_apply, k0_zero_word]
  rw [k0_win_test _ kk hl hk, k0_select_ite]
  have hsum : (∑ k : Fin 512, Scalar.select (IntOp.cmpi .eq (iota .tc S2048x512 32 [1] iota_S2048x512_d1_w32 (ix2 r k))
        (IntOp.subi (lab (ix2 r 0)) (Scalar.muli (BitVec.ofNat 32 kk) 512#32))) (y (ix2 r k)) (0 : EReal))
      = ∑ k : Fin 512, if (lab (ix2 r 0) : BitVec 32).toNat = 512 * kk + k.val then (y (ix2 r k) : EReal) else 0 :=
    Finset.sum_congr rfl fun k _ => by
      rw [iota_single_apply .tc S2048x512 32 1 iota_S2048x512_d1_w32 (ix2 r k)]
      show Scalar.select (IntOp.cmpi .eq (BitVec.ofNat 32 k.val) _) _ _ = _
      rw [k0_eq_test _ kk k.val hl hk k.isLt, k0_select_ite]
  rw [hsum]
  unfold k0_tilePick
  by_cases hin : 512 * kk ≤ (lab (ix2 r 0) : BitVec 32).toNat ∧ (lab (ix2 r 0) : BitVec 32).toNat < 512 * (kk + 1)
  · rw [if_pos hin, dif_pos hin, k0_sum_lane_pick kk y _ r hin]
  · rw [if_neg hin, dif_neg hin]

/-! ## One step of the running state -/

/-- The three scratch columns a vocabulary step leaves on row r are one step of the running state on what they held,
    with the tile's masked logits and the tile's pick. -/
theorem k0_step_row (i : grid0.Coords) (h : Vec Ideal S2048x1024 .f32) (w2 : Vec Ideal S512x1024 .bf16) (lab : Vec Ideal S2048x1 .i32)
    (m l b : Vec Ideal S2048x1 .f32) (r : Fin 2048) (hlab : (lab (ix2 r 0) : BitVec 32).toNat < 8000) :
    (⟨k0_pay1 (F := Ideal) (k0_pay9 (F := Ideal) i h w2 m) (ix2 r 0), k0_pay10 (F := Ideal) i h w2 m m l (ix2 r 0),
      k0_pay2 (F := Ideal) (BitVec.ofNat 32 (i 1).val) (iota .tc S2048x512 32 [1] iota_S2048x512_d1_w32) (k0_pay8 (F := Ideal) i h w2) lab b (ix2 r 0)⟩ : Cert.Spec.St)
      = Cert.Spec.St.step ⟨m (ix2 r 0), l (ix2 r 0), b (ix2 r 0)⟩ (fun j : Fin 512 => k0_pay8 (F := Ideal) i h w2 (ix2 r j))
          (k0_tilePick (i 1).val (k0_pay8 (F := Ideal) i h w2) (lab (ix2 r 0)) r) := by
  have hi : (i 1).val < 16 := (i 1).isLt
  rw [k0_pay1_eq, k0_pay10_apply, k0_pay2_apply _ hi _ _ _ _ hlab, k0_pay9_apply]
  generalize k0_pay8 (F := Ideal) i h w2 = y
  rfl

end Cert.KernelIdeal.Hand

end
-- ==== Proof.KI.R0.Value.lean ====
/-
  Region 0 (the first projected tail): what the last vocabulary tile's step stores, per token.

  At point t = 16 i + k the token block is rows 2048 i … of the token matrix, the projection block is the whole projection, the
  class-weight block is classes 512 k … of the tail's class weights (inside the array exactly when 512 k + j < 8000; the filler
  past the last class is never read, since those columns are masked), and the label and mask blocks are the same rows of the
  tail's labels and mask. The first tile of a row of points projects the tokens, h r p = ∑ d, x r d * p0 p d, and every later tile
  carries h. So the masked tile at row r is tile k of the token's 8000 logits laid out in 16 tiles of 512 with ⊥ past the last
  class, and one step of the scratch on row r is the running state's step with that tile and its pick. By induction over the 16
  tiles the row's state after the last tile is the state after 16 tiles, whose m + log l - b is the token's cross-entropy term;
  the stored value is that term times the row's mask, which is the tail's term of the token.
-/
import proofs.«415479_j24352464569077_2_alg».proof.Proof.KI.R0.Defs
import proofs.«415479_j24352464569077_2_alg».proof.Proof.KI.R0.Pay2
import proofs.«415479_j24352464569077_2_alg».proof.Proof.Args
import proofs.«415479_j24352464569077_2_alg».proof.Proof.LibOnlineSoftmax
import Idealize.ShloMosaic.Lib.ValueIdx
import Idealize.ShloMosaic.Lib.Pipeline.Value

set_option synthInstance.maxSize 4096

noncomputable section

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## The grid and the windows' blocks, decided over the grid's points -/

/-- Point t has row tile t / 16 and vocabulary tile t % 16. -/
theorem k0_coords : ∀ t : Fin cfg0.N, (grid0.coords t 0).val = t.val / 16 ∧ (grid0.coords t 1).val = t.val % 16 := by
  decide +kernel

/-- The five input windows' block indices at point t. -/
theorem k0_idx : ∀ t : Fin cfg0.N, win0_0.index t (0 : Fin 2) = t.val / 16 ∧ win0_0.index t (1 : Fin 2) = 0
    ∧ win0_1.index t (0 : Fin 2) = 0 ∧ win0_1.index t (1 : Fin 2) = 0
    ∧ win0_2.index t (0 : Fin 2) = t.val % 16 ∧ win0_2.index t (1 : Fin 2) = 0
    ∧ win0_3.index t (0 : Fin 2) = t.val / 16 ∧ win0_3.index t (1 : Fin 2) = 0
    ∧ win0_4.index t (0 : Fin 2) = t.val / 16 ∧ win0_4.index t (1 : Fin 2) = 0 :=
  (by decide +kernel : ∀ t : Fin grid0.N, _)

/-- The part of the class-weight block that lies inside the array: 512 classes, cut at class 8000. -/
theorem k0_xsize : ∀ t : Fin cfg0.N, win0_2.xsize (grid0.coords t) (0 : Fin 2) = min 512 (8000 - 512 * (t.val % 16))
    ∧ win0_2.xsize (grid0.coords t) (1 : Fin 2) = 1024 /- hidden -/ :=
  (by decide +kernel : ∀ t : Fin grid0.N, _)

theorem k0_ltN (t : Fin cfg0.N) : t.val < 16 * 2 := t.isLt

/-! ## The blocks read at an index -/

/-- The token block of point t at row r: token 2048 (t / 16) + r. -/
theorem xblk0_apply (c : Dev nD) (t : Fin cfg0.N) (r : Fin 2048) (d : Fin 1024) :
    xblk0 V c t (ix2 r d) = V c main_v0 (ix2 (⟨2048 * (t.val / 16) + r.val, by have := k0_ltN t; have := r.isLt; omega⟩ : Fin 4096) d) := by
  show V c main_v0 (((cfg0.win 0).blk t).view.emb (ix2 r d)) = _
  congr 1
  funext a
  apply Fin.ext
  obtain ⟨e0, e1, -⟩ := k0_idx t
  match a with
  | ⟨0, _⟩ => show win0_0.index t (0 : Fin 2) * 2048 + 1 * r.val = 2048 * (t.val / 16) + r.val; omega
  | ⟨1, _⟩ => show win0_0.index t (1 : Fin 2) * 1024 + 1 * d.val = d.val; omega

/-- The projection block of point t: the whole projection. -/
theorem w1blk0_apply (c : Dev nD) (t : Fin cfg0.N) (p : Fin 1024 /- hidden -/) (d : Fin 1024) :
    w1blk0 V c t (ix2 p d) = V c main_v11 (ix2 p d) := by
  show V c main_v11 (((cfg0.win 1).blk t).view.emb (ix2 p d)) = _
  congr 1
  funext a
  apply Fin.ext
  obtain ⟨-, -, e0, e1, -⟩ := k0_idx t
  match a with
  | ⟨0, _⟩ => show win0_1.index t (0 : Fin 2) * 1024 /- hidden -/ + 1 * p.val = p.val; omega
  | ⟨1, _⟩ => show win0_1.index t (1 : Fin 2) * 1024 + 1 * d.val = d.val; omega

/-- The label block of point t at row r: the label word of token 2048 (t / 16) + r. -/
theorem labblk0_apply (c : Dev nD) (t : Fin cfg0.N) (r : Fin 2048) :
    labblk0 V c t (ix2 r (0 : Fin 1)) = V c main_v13 (ix2 (⟨2048 * (t.val / 16) + r.val, by have := k0_ltN t; have := r.isLt; omega⟩ : Fin 4096) (0 : Fin 1)) := by
  show V c main_v13 (((cfg0.win 3).blk t).view.emb (ix2 r (0 : Fin 1))) = _
  congr 1
  funext a
  apply Fin.ext
  obtain ⟨-, -, -, -, -, -, e0, e1, -⟩ := k0_idx t
  match a with
  | ⟨0, _⟩ => show win0_3.index t (0 : Fin 2) * 2048 + 1 * r.val = 2048 * (t.val / 16) + r.val; omega
  | ⟨1, _⟩ => show win0_3.index t (1 : Fin 2) * 1 + 1 * 0 = 0; omega

/-- The mask block of point t at row r: the mask of token 2048 (t / 16) + r. -/
theorem mskblk0_apply (c : Dev nD) (t : Fin cfg0.N) (r : Fin 2048) :
    mskblk0 V c t (ix2 r (0 : Fin 1)) = V c main_v14 (ix2 (⟨2048 * (t.val / 16) + r.val, by have := k0_ltN t; have := r.isLt; omega⟩ : Fin 4096) (0 : Fin 1)) := by
  show V c main_v14 (((cfg0.win 4).blk t).view.emb (ix2 r (0 : Fin 1))) = _
  congr 1
  funext a
  apply Fin.ext
  obtain ⟨-, -, -, -, -, -, -, -, e0, e1⟩ := k0_idx t
  match a with
  | ⟨0, _⟩ => show win0_4.index t (0 : Fin 2) * 2048 + 1 * r.val = 2048 * (t.val / 16) + r.val; omega
  | ⟨1, _⟩ => show win0_4.index t (1 : Fin 2) * 1 + 1 * 0 = 0; omega

/-- The class-weight block of point t at a row that is a class (512 (t % 16) + j < 8000): that class's weights. The filler is
    not read. -/
theorem w2blk0_apply (c : Dev nD) (t : Fin cfg0.N) (j : Fin 512) (p : Fin 1024 /- hidden -/) (hj : 512 * (t.val % 16) + j.val < 8000) :
    w2blk0 V c t (ix2 j p) = V c main_v12 (ix2 (⟨512 * (t.val % 16) + j.val, hj⟩ : Fin 8000) p) := by
  obtain ⟨x0, x1⟩ := k0_xsize t
  have hj0 : j.val < win0_2.xsize (grid0.coords t) (0 : Fin 2) := by rw [x0]; have := j.isLt; omega
  have hp1 : p.val < win0_2.xsize (grid0.coords t) (1 : Fin 2) := by rw [x1]; exact p.isLt
  let j' : (win0_2.xblock (grid0.coords t)).Idx := fun a => match a with
    | ⟨0, _⟩ => ⟨j.val, hj0⟩
    | ⟨1, _⟩ => ⟨p.val, hp1⟩
  have e : (ix2 j p : S512x1024.Idx) = win0_2.xinj (grid0.coords t) j' :=
    funext fun a => Fin.ext (by match a with | ⟨0, _⟩ => rfl | ⟨1, _⟩ => rfl)
  unfold w2blk0
  rw [e, Pipeline.Window.fill_xinj]
  show V c main_v12 (((cfg0.win 2).blk t).view.emb j') = _
  congr 1
  funext a
  apply Fin.ext
  obtain ⟨-, -, -, -, e0, e1, -⟩ := k0_idx t
  match a with
  | ⟨0, _⟩ => show win0_2.index t (0 : Fin 2) * 512 + 1 * j.val = 512 * (t.val % 16) + j.val; omega
  | ⟨1, _⟩ => show win0_2.index t (1 : Fin 2) * 1024 /- hidden -/ + 1 * p.val = p.val; omega

/-! ## A row of the scratch as a running state -/

/-- Row r of the scratch: its running maximum, mass and pick. -/
def Scr0.row (s : Scr0) (r : Fin 2048) : Spec.St :=
  ⟨s.m (ix2 r (0 : Fin 1)), s.l (ix2 r (0 : Fin 1)), s.b (ix2 r (0 : Fin 1))⟩

/-- After the reset every row is the initial state. -/
theorem Scr0.row_first (x : Vec Ideal S2048x1024 .bf16) (w1 : Vec Ideal S1024x1024 .bf16) (r : Fin 2048) :
    (Scr0.first x w1).row r = Spec.St.init := by
  show (⟨k0_pay5 (F := Ideal) (ix2 r (0 : Fin 1)), k0_pay6 (F := Ideal) (ix2 r (0 : Fin 1)), k0_pay7 (F := Ideal) (ix2 r (0 : Fin 1))⟩ : Spec.St) = ⟨⊥, 0, 0⟩
  rw [k0_pay5_eq, k0_pay6_eq, k0_pay7_eq]

theorem scr0_congr (c : Dev nD) {n n' : ℕ} (e : n = n') (h : n < cfg0.N) (h' : n' < cfg0.N) : scr0 V c n h = scr0 V c n' h' := by
  subst e; rfl

/-- The tile's pick at a label word that is a small number. -/
theorem k0_tilePick_word (kk : ℕ) (y : FVec Ideal S2048x512 .f32) (L : ℕ) (hL : L < 2 ^ 32) (r : Fin 2048) :
    k0_tilePick kk y (BitVec.ofNat 32 L) r
      = if hin : 512 * kk ≤ L ∧ L < 512 * (kk + 1) then (y (ix2 r ⟨L - 512 * kk, by omega⟩) : EReal) else 0 := by
  have hLn : (BitVec.ofNat 32 L).toNat = L := by rw [BitVec.toNat_ofNat]; omega
  unfold k0_tilePick
  by_cases hin : 512 * kk ≤ L ∧ L < 512 * (kk + 1)
  · rw [dif_pos hin, dif_pos (show 512 * kk ≤ (BitVec.ofNat 32 L).toNat ∧ (BitVec.ofNat 32 L).toNat < 512 * (kk + 1) by rw [hLn]; exact hin)]
    exact congrArg (fun q : Fin 512 => (y (ix2 r q) : EReal))
      (Fin.ext (show (BitVec.ofNat 32 L).toNat - 512 * kk = L - 512 * kk by rw [hLn]))
  · rw [dif_neg hin, dif_neg (show ¬(512 * kk ≤ (BitVec.ofNat 32 L).toNat ∧ (BitVec.ofNat 32 L).toNat < 512 * (kk + 1)) by rw [hLn]; exact hin)]

section Entry

variable (A : Cert.Args.Arrs) (c : Dev nD)
  (hx : ∀ (t : Fin 4096) (d : Fin 1024), V c main_v0 (ix2 t d) = A.x t d)
  (hp : ∀ (p : Fin 1024 /- hidden -/) (d : Fin 1024), V c main_v11 (ix2 p d) = A.p0 p d)
  (hc : ∀ (v : Fin 8000) (p : Fin 1024 /- hidden -/), V c main_v12 (ix2 v p) = A.c0 v p)
  (hl : ∀ t : Fin 4096, V c main_v13 (ix2 t (0 : Fin 1)) = BitVec.ofNat 32 (min 7999 (A.tgt t - 2000)))
  (hm : ∀ t : Fin 4096, V c main_v14 (ix2 t (0 : Fin 1)) = if 2000 ≤ A.tgt t ∧ A.tgt t < 10000 then (1 : EReal) else 0)

include hx hp in
/-- The projected tokens the reset of point t leaves at row r: token 2048 (t / 16) + r against the projection. -/
theorem k0_first_h (t : Fin cfg0.N) (r : Fin 2048) (p : Fin 1024 /- hidden -/) (i : ℕ) (hq : t.val / 16 = i)
    (tok : Fin 4096) (htok : tok.val = 2048 * i + r.val) :
    (Scr0.first (xblk0 V c t) (w1blk0 V c t)).h (ix2 r p) = ∑ d : Fin 1024, A.x tok d * A.p0 p d := by
  subst hq
  show k0_pay4 (F := Ideal) (xblk0 V c t) (w1blk0 V c t) (ix2 r p) = _
  rw [k0_pay4_apply]
  refine Finset.sum_congr rfl fun d _ => ?_
  rw [xblk0_apply, hx, w1blk0_apply, hp, show tok = ⟨2048 * (t.val / 16) + r.val, htok ▸ tok.isLt⟩ from Fin.ext htok]

include hc in
/-- The masked tile of point t at row r and column j, over projected tokens h, is column 512 (t % 16) + j of the token's logits
    laid out in tiles. -/
theorem k0_tile_eq (h : Vec Ideal S2048x1024 .f32) (t : Fin cfg0.N) (r : Fin 2048) (tok : Fin 4096)
    (hs : ∀ p : Fin 1024 /- hidden -/, h (ix2 r p) = ∑ d : Fin 1024, A.x tok d * A.p0 p d) (j : Fin 512) :
    k0_pay8 (F := Ideal) (grid0.coords t) h (w2blk0 V c t) (ix2 r j)
      = Spec.masked (A.z0 tok) (512 * (t.val % 16) + j.val) := by
  rw [k0_pay8_apply, (k0_coords t).2]
  unfold Spec.masked
  by_cases hcl : 512 * (t.val % 16) + j.val < 8000
  · rw [if_pos hcl, dif_pos hcl]
    unfold k0_zt Cert.Args.Arrs.z0 Spec.logitsProj
    refine Finset.sum_congr rfl fun p _ => ?_
    rw [hs p, w2blk0_apply V c t j p hcl, hc]
  · rw [if_neg hcl, dif_neg hcl]

include hc hl in
/-- One step of the scratch at point t = 16 i + k, on row r of a scratch whose h row is the projected token: the running state's
    step with tile k of the token's masked logits and that tile's pick of the tail's label. -/
theorem k0_row_next (s : Scr0) (t : Fin cfg0.N) (r : Fin 2048) (i k : ℕ) (hq : t.val / 16 = i) (hmod : t.val % 16 = k)
    (tok : Fin 4096) (htok : tok.val = 2048 * i + r.val)
    (hs : ∀ p : Fin 1024 /- hidden -/, s.h (ix2 r p) = ∑ d : Fin 1024, A.x tok d * A.p0 p d) :
    (Scr0.next (grid0.coords t) s (w2blk0 V c t) (labblk0 V c t)).row r
      = (s.row r).step (fun j : Fin 512 => Spec.masked (A.z0 tok) (512 * k + j.val))
          (Spec.pick 512 (A.z0 tok) (min 7999 (A.tgt tok - 2000)) k) := by
  subst hq hmod
  have hlab : labblk0 V c t (ix2 r (0 : Fin 1)) = BitVec.ofNat 32 (min 7999 (A.tgt tok - 2000)) := by
    rw [labblk0_apply, hl, show tok = ⟨2048 * (t.val / 16) + r.val, htok ▸ tok.isLt⟩ from Fin.ext htok]
  have hLlt : min 7999 (A.tgt tok - 2000) < 8000 := by omega
  generalize min 7999 (A.tgt tok - 2000) = L at hlab hLlt ⊢
  have e1 := (k0_coords t).2
  have hword : (labblk0 V c t (ix2 r (0 : Fin 1)) : BitVec 32).toNat < 8000 := by
    rw [hlab, BitVec.toNat_ofNat]; omega
  unfold Scr0.next Scr0.row
  refine (k0_step_row (grid0.coords t) s.h (w2blk0 V c t) (labblk0 V c t) s.m s.l s.b r hword).trans ?_
  congr 1
  · exact funext fun j => k0_tile_eq V A c hc s.h t r tok hs j
  · rw [hlab, k0_tilePick_word _ _ L (by omega)]
    unfold Spec.pick
    by_cases h : 512 * (t.val % 16) ≤ L ∧ L < 512 * (t.val % 16 + 1)
    · have h' : 512 * (grid0.coords t 1).val ≤ L ∧ L < 512 * ((grid0.coords t 1).val + 1) := by rw [e1]; exact h
      rw [dif_pos h', if_pos h, k0_tile_eq V A c hc s.h t r tok hs]
      congr 1
      show 512 * (t.val % 16) + (L - 512 * (grid0.coords t 1).val) = L
      rw [e1]; omega
    · have h' : ¬(512 * (grid0.coords t 1).val ≤ L ∧ L < 512 * ((grid0.coords t 1).val + 1)) := by rw [e1]; exact h
      rw [dif_neg h', if_neg h]

include hx hp hc hl in
/-- Row r of the scratch after vocabulary tile k of row tile i: the running state after k + 1 tiles of the token's masked logits;
    and its h row is the projected token. -/
theorem k0_row_after (i : Fin 2) (r : Fin 2048) (tok : Fin 4096) (htok : tok.val = 2048 * i.val + r.val) (k : ℕ) (hk : k < 16) :
    (scr0 V c (16 * i.val + k) (show 16 * i.val + k < 16 * 2 by have := i.isLt; omega)).row r
        = Spec.St.after (fun k' (j : Fin 512) => Spec.masked (A.z0 tok) (512 * k' + j.val))
            (fun k' => Spec.pick 512 (A.z0 tok) (min 7999 (A.tgt tok - 2000)) k') (k + 1)
      ∧ ∀ p : Fin 1024 /- hidden -/, (scr0 V c (16 * i.val + k) (show 16 * i.val + k < 16 * 2 by have := i.isLt; omega)).h (ix2 r p)
          = ∑ d : Fin 1024, A.x tok d * A.p0 p d := by
  induction k with
  | zero =>
    have hlt : 16 * i.val + 0 < cfg0.N := show 16 * i.val + 0 < 16 * 2 by have := i.isLt; omega
    have e := scr0_A V c ⟨16 * i.val + 0, hlt⟩ (show (16 * i.val + 0) % 16 = 0 by omega)
    have hfirst : ∀ p : Fin 1024 /- hidden -/, (Scr0.first (xblk0 V c ⟨16 * i.val + 0, hlt⟩) (w1blk0 V c ⟨16 * i.val + 0, hlt⟩)).h (ix2 r p)
        = ∑ d : Fin 1024, A.x tok d * A.p0 p d := fun p =>
      k0_first_h V A c hx hp ⟨16 * i.val + 0, hlt⟩ r p i.val (show (16 * i.val + 0) / 16 = i.val by omega) tok htok
    show (scr0 V c (⟨16 * i.val + 0, hlt⟩ : Fin cfg0.N).val (⟨16 * i.val + 0, hlt⟩ : Fin cfg0.N).isLt).row r = _
      ∧ ∀ p : Fin 1024 /- hidden -/, (scr0 V c (⟨16 * i.val + 0, hlt⟩ : Fin cfg0.N).val (⟨16 * i.val + 0, hlt⟩ : Fin cfg0.N).isLt).h (ix2 r p) = _
    rw [e]
    refine ⟨?_, hfirst⟩
    rw [k0_row_next V A c hc hl _ ⟨16 * i.val + 0, hlt⟩ r i.val 0 (show (16 * i.val + 0) / 16 = i.val by omega)
      (show (16 * i.val + 0) % 16 = 0 by omega) tok htok hfirst, Scr0.row_first]
    rfl
  | succ k ih =>
    have hlt : 16 * i.val + (k + 1) < cfg0.N := show 16 * i.val + (k + 1) < 16 * 2 by have := i.isLt; omega
    have hlt' : 16 * i.val + k < cfg0.N := show 16 * i.val + k < 16 * 2 by have := i.isLt; omega
    have e := scr0_B V c ⟨16 * i.val + (k + 1), hlt⟩ (show ¬(16 * i.val + (k + 1)) % 16 = 0 by omega)
    obtain ⟨ih1, ih2⟩ := ih (by omega)
    show (scr0 V c (⟨16 * i.val + (k + 1), hlt⟩ : Fin cfg0.N).val (⟨16 * i.val + (k + 1), hlt⟩ : Fin cfg0.N).isLt).row r = _
      ∧ ∀ p : Fin 1024 /- hidden -/, (scr0 V c (⟨16 * i.val + (k + 1), hlt⟩ : Fin cfg0.N).val (⟨16 * i.val + (k + 1), hlt⟩ : Fin cfg0.N).isLt).h (ix2 r p) = _
    rw [e, scr0_congr V c (show (16 * i.val + (k + 1)) - 1 = 16 * i.val + k by omega) _ hlt']
    refine ⟨?_, ih2⟩
    rw [k0_row_next V A c hc hl _ ⟨16 * i.val + (k + 1), hlt⟩ r i.val (k + 1) (show (16 * i.val + (k + 1)) / 16 = i.val by omega)
      (show (16 * i.val + (k + 1)) % 16 = k + 1 by omega) tok htok ih2, ih1]
    rfl

include hm in
/-- The mask block of point t = 16 i + k at row r: 1 when the token's target lies in the tail's class range, else 0. -/
theorem k0_msk_eq (t : Fin cfg0.N) (r : Fin 2048) (i : ℕ) (hq : t.val / 16 = i) (tok : Fin 4096) (htok : tok.val = 2048 * i + r.val) :
    mskblk0 V c t (ix2 r (0 : Fin 1)) = if 2000 ≤ A.tgt tok ∧ A.tgt tok < 10000 then (1 : EReal) else 0 := by
  subst hq
  rw [mskblk0_apply, hm, show tok = ⟨2048 * (t.val / 16) + r.val, htok ▸ tok.isLt⟩ from Fin.ext htok]

include hx hp hc hl hm in
/-- What the last vocabulary tile of row tile i stores at row r, with the token named. -/
theorem k0_out_eq (hA : A.Ok) (i : Fin 2) (r : Fin 2048) (tok : Fin 4096) (htok : tok.val = 2048 * i.val + r.val) :
    outblk0 V c ⟨16 * i.val + 15, show 16 * i.val + 15 < 16 * 2 by have := i.isLt; omega⟩ (ix2 r (0 : Fin 1)) = A.T0 tok := by
  have h := (k0_row_after V A c hx hp hc hl i r tok htok 15 (by omega)).1
  have hLlt : min 7999 (A.tgt tok - 2000) < 8000 := by omega
  have hn := Spec.nll_after_eq_tok (V := 8000) (n := 512) (K := 16) (by omega) (by omega) (by omega) (by omega)
    (A.z0 tok)
    (fun v => Spec.logitsProj_real A.x A.p0 A.c0 (fun t d => hA.r0 _) (fun p d => hA.r4 _) (fun v p => hA.r5 _) tok v)
    ⟨min 7999 (A.tgt tok - 2000), hLlt⟩
  have hn' : (Spec.St.after (fun k' (j : Fin 512) => Spec.masked (A.z0 tok) (512 * k' + j.val))
      (fun k' => Spec.pick 512 (A.z0 tok) (min 7999 (A.tgt tok - 2000)) k') (15 + 1)).nll
        = Spec.tok (A.z0 tok) ⟨min 7999 (A.tgt tok - 2000), hLlt⟩ := hn
  have hmsk := k0_msk_eq V A c hm ⟨16 * i.val + 15, show 16 * i.val + 15 < 16 * 2 by have := i.isLt; omega⟩ r i.val
    (show (16 * i.val + 15) / 16 = i.val by omega) tok htok
  unfold outblk0
  rw [k0_pay3_apply, hmsk]
  show ((scr0 V c (16 * i.val + 15) _).row r).nll * _ = _
  rw [h, hn']
  unfold Cert.Args.Arrs.T0 Spec.tailTerm
  by_cases hr : 2000 ≤ A.tgt tok ∧ A.tgt tok < 10000
  · rw [if_pos hr, dif_pos (show 2000 ≤ A.tgt tok ∧ A.tgt tok < 2000 + 8000 from ⟨hr.1, by omega⟩), Spec.tok_mul_one]
    exact congrArg (Spec.tok (A.z0 tok)) (Fin.ext (show min 7999 (A.tgt tok - 2000) = A.tgt tok - 2000 by omega))
  · rw [if_neg hr, dif_neg (show ¬(2000 ≤ A.tgt tok ∧ A.tgt tok < 2000 + 8000) from fun h' => hr ⟨h'.1, by omega⟩), Spec.tok_mul_zero]

include hx hp hc hl hm in
/-- What the last vocabulary tile of row tile i stores at row r: the first tail's term of token 2048 i + r. -/
theorem outblk0_eq (hA : A.Ok) (i : Fin 2) (r : Fin 2048) :
    outblk0 V c ⟨16 * i.val + 15, show 16 * i.val + 15 < 16 * 2 by have := i.isLt; omega⟩ (ix2 r (0 : Fin 1))
      = A.T0 ⟨2048 * i.val + r.val, by have := i.isLt; have := r.isLt; omega⟩ :=
  k0_out_eq V A c hx hp hc hl hm hA i r ⟨2048 * i.val + r.val, by have := i.isLt; have := r.isLt; omega⟩ rfl

end Entry

end Cert.KernelIdeal.Hand

end
-- ==== Proof.KI.R0.Array.lean ====
/-
  Region 0 (the first projected tail): the output array after the run.

  The output's block at point n is rows 2048 (n / 16) … of the [4096, 1] array, and it is written back exactly at the last
  vocabulary tile of each row tile (n % 16 = 15). What such a point writes back at row r is the tail's term of token
  2048 (n / 16) + r, so every written block is a block of the one per-token vector; the point that covers row t is
  16 (t / 2048) + 15, so the blocks cover the array and the array ends holding that vector.
-/
import proofs.«415479_j24352464569077_2_alg».proof.Proof.KI.R0.Data
import proofs.«415479_j24352464569077_2_alg».proof.Proof.KI.R0.Value
import proofs.«415479_j24352464569077_2_alg».proof.Proof.Gen.KernelIdeal.Points
import Idealize.ShloMosaic.Lib.Pipeline.Value

set_option synthInstance.maxSize 4096

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The output window's block index at point t: row tile t / 16. -/
theorem k0_idx5 : ∀ t : Fin cfg0.N, win0_5.index t (0 : Fin 2) = t.val / 16 ∧ win0_5.index t (1 : Fin 2) = 0 :=
  (by decide +kernel : ∀ t : Fin grid0.N, _)

/-- The last vocabulary tile of row tile i is a grid point. -/
theorem k0_last_lt (i : Fin 2) : 16 * i.val + 15 < cfg0.N := show 16 * i.val + 15 < 16 * 2 by have := i.isLt; omega

/-- The tail's per-token vector as contents of the [4096, 1] output array. -/
def T0arr (A : Cert.Args.Arrs) : S4096x1.Idx → EReal := fun i => A.T0 ⟨(i 0).val, (i 0).isLt⟩

section Entry

variable (A : Cert.Args.Arrs) (c : Dev nD)
  (hx : ∀ (t : Fin 4096) (d : Fin 1024), V c main_v0 (ix2 t d) = A.x t d)
  (hp : ∀ (p : Fin 1024 /- hidden -/) (d : Fin 1024), V c main_v11 (ix2 p d) = A.p0 p d)
  (hc : ∀ (v : Fin 8000) (p : Fin 1024 /- hidden -/), V c main_v12 (ix2 v p) = A.c0 v p)
  (hl : ∀ t : Fin 4096, V c main_v13 (ix2 t (0 : Fin 1)) = BitVec.ofNat 32 (min 7999 (A.tgt t - 2000)))
  (hm : ∀ t : Fin 4096, V c main_v14 (ix2 t (0 : Fin 1)) = if 2000 ≤ A.tgt t ∧ A.tgt t < 10000 then (1 : EReal) else 0)

include hx hp hc hl hm in
/-- What a point that writes the output block back writes: its block of the per-token vector. -/
theorem k0_flushed5_eq (hA : A.Ok) (t : Fin cfg0.N) (hf : (cfg0.win 5).flush t = true) :
    (dat0 V c).flushed 5 t = ((cfg0.win 5).blk t).view.read (Elt Ideal) (T0arr A) := by
  have h3 : t.val % 16 = 15 := (flush0_5 t).mp hf
  have hN := k0_ltN t
  show (cfg0.win 5).cut (grid0.coords t) ((dat0 V c).after 5 t) = _
  rw [after0_5]
  funext j
  have hj1 : (j 1).val < 1 := (j 1).isLt
  obtain ⟨r, rfl⟩ : ∃ r : Fin 2048, j = ix2 r (0 : Fin 1) :=
    ⟨⟨(j 0).val, (j 0).isLt⟩, funext fun a => Fin.ext (by
      match a with
      | ⟨0, _⟩ => rfl
      | ⟨1, _⟩ => show (j 1).val = 0; omega)⟩
  show outblk0 V c t (ix2 r (0 : Fin 1)) = T0arr A (((cfg0.win 5).blk t).view.emb (ix2 r (0 : Fin 1)))
  obtain ⟨e0, e1⟩ := k0_idx5 t
  obtain ⟨i, rfl⟩ : ∃ i : Fin 2, t = ⟨16 * i.val + 15, k0_last_lt i⟩ :=
    ⟨⟨t.val / 16, by omega⟩, Fin.ext (by show t.val = 16 * (t.val / 16) + 15; omega)⟩
  rw [outblk0_eq V A c hx hp hc hl hm hA i r]
  unfold T0arr
  congr 1
  apply Fin.ext
  show 2048 * i.val + r.val = win0_5.index ⟨16 * i.val + 15, _⟩ (0 : Fin 2) * 2048 + 1 * r.val
  rw [e0]
  show 2048 * i.val + r.val = (16 * i.val + 15) / 16 * 2048 + 1 * r.val
  omega

/-- Every row of the output array is in the block of a point that writes it back: row t in point 16 (t / 2048) + 15's. -/
theorem k0_cover5 (i : S4096x1.Idx) : ∃ t : Fin cfg0.N, (cfg0.win 5).flush t = true ∧ i ∈ ((cfg0.win 5).blk t).view.set := by
  have h0 : (i 0).val < 4096 := (i 0).isLt
  have h1 : (i 1).val < 1 := (i 1).isLt
  have hlt : 16 * ((i 0).val / 2048) + 15 < cfg0.N := show 16 * ((i 0).val / 2048) + 15 < 16 * 2 by omega
  refine ⟨⟨16 * ((i 0).val / 2048) + 15, hlt⟩, (flush0_5 _).mpr (show (16 * ((i 0).val / 2048) + 15) % 16 = 15 by omega), ?_⟩
  show i ∈ ((View.whole main_v15).slice (win0_5.rect ⟨16 * ((i 0).val / 2048) + 15, hlt⟩)).set
  rw [View.set_slice_whole, Rect.mem_set_unit]
  obtain ⟨e0, e1⟩ := k0_idx5 ⟨16 * ((i 0).val / 2048) + 15, hlt⟩
  intro a
  match a with
  | ⟨0, _⟩ =>
    show win0_5.index ⟨16 * ((i 0).val / 2048) + 15, hlt⟩ (0 : Fin 2) * 2048 ≤ (i 0).val
      ∧ (i 0).val < win0_5.index ⟨16 * ((i 0).val / 2048) + 15, hlt⟩ (0 : Fin 2) * 2048 + 2048
    rw [e0]
    show (16 * ((i 0).val / 2048) + 15) / 16 * 2048 ≤ (i 0).val ∧ (i 0).val < (16 * ((i 0).val / 2048) + 15) / 16 * 2048 + 2048
    omega
  | ⟨1, _⟩ =>
    show win0_5.index ⟨16 * ((i 0).val / 2048) + 15, hlt⟩ (1 : Fin 2) * 1 ≤ (i 1).val
      ∧ (i 1).val < win0_5.index ⟨16 * ((i 0).val / 2048) + 15, hlt⟩ (1 : Fin 2) * 1 + 1
    rw [e1]
    omega

include hx hp hc hl hm in
/-- The output array after the run holds, at row t, the first tail's term of token t. -/
theorem arrAt_out0 (hA : A.Ok) : ∀ t : Fin 4096, (dat0 V c).arrAt 5 cfg0.N (ix2 t (0 : Fin 1)) = A.T0 t := by
  intro t
  have h := (dat0 V c).arrAt_eq_of_cover 5 (T0arr A) (k0_flushed5_eq V A c hx hp hc hl hm hA) (fun i => k0_cover5 i)
  exact congrFun h (ix2 t (0 : Fin 1))

end Entry

end Cert.KernelIdeal.Hand

end
-- ==== Proof.KI.R1.Pay.lean ====
/-
  Region 1 (the second projected tail), the payload terms read at an index at the ideal instance.

  With h the projected tokens (2048 rows, one per token), w2 one block of 512 class rows, and m, l, b the running maximum,
  mass and label pick of the 2048 rows, one vocabulary step computes, on row r:
    the tile  y j = ∑ p, h r p * w2 j p  for the columns j whose class number 512 * k + j is below 40000, and ⊥ past it;
    the new maximum  max (m r) (sup_j y j);
    the new mass  exp (m r - m') * l r + ∑ j, exp (y j - m');
    the new pick  b r + y (label - 512 * k)  when the label falls in the tile, else  b r.
  That is one step of the running softmax state of the specification. The reset before a row of tiles projects the tokens,
  h r p = ∑ d, x r d * w1 p d, and puts the maximum at ⊥ and the mass and the pick at 0; the stored term is
  (m r + log (l r) - b r) times the row's mask.
-/
import proofs.«415479_j24352464569077_2_alg».proof.Proof.Gen.KernelIdeal.Skeleton
import proofs.«415479_j24352464569077_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

/-! ## Layout operations of the step at an index -/

/-- A column vector [2048] viewed [2048, 1] reads row r at (r, 0). -/
theorem k1_cast_col_apply {α : Type} (v : S2048.Idx → α) (r : Fin 2048) :
    shapeCast S2048x1 v shapeCasts_S2048_S2048x1 (ix2 r 0) = v (ix1 r) :=
  shapeCast_apply v shapeCasts_S2048_S2048x1 _ _ (by rw [Shape.rowMajor_val_one, Shape.rowMajor_val_two]; show r.val = r.val * 1 + 0; omega)

/-- A column [2048, 1] broadcast along 512 lanes reads row r at every lane. -/
theorem k1_bcast_col_apply {α : Type} (v : S2048x1.Idx → α) (r : Fin 2048) (j : Fin 512) :
    broadcastTo S2048x512 v broadcasts_S2048x1_S2048x512 (ix2 r j) = v (ix2 r 0) :=
  broadcastTo_apply v broadcasts_S2048x1_S2048x512 _ _ fun a => match a with | ⟨0, _⟩ => rfl | ⟨1, _⟩ => rfl

/-- The source index over row r with lane k put back. -/
theorem k1_lift_row (r : Fin 2048) (k : Fin 512) :
    reduces_S2048x512_S2048.lift (ix1 r) k = ix2 r k :=
  funext fun a => Fin.ext (by
    match a with
    | ⟨0, _⟩ => rfl
    | ⟨1, _⟩ => rfl)

/-! ## The two matrix products at an index -/

theorem k1_lhs8_row (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
theorem k1_lhs8_con (i : S2048x512.Idx) (q : dot_S2048x256_S256x512_S2048x512_1_0_0_1_n_n.contr.Idx) :
    (dot_S2048x256_S256x512_S2048x512_1_0_0_1_n_n.lhsIdx i q 1).val = (q ⟨0, by decide⟩).val :=
  dot_S2048x256_S256x512_S2048x512_1_0_0_1_n_n.lhsIdx_val_of_single rfl i q
theorem k1_rhs8_con (i : S2048x512.Idx) (q : dot_S2048x256_S256x512_S2048x512_1_0_0_1_n_n.contr.Idx) :
    (dot_S2048x256_S256x512_S2048x512_1_0_0_1_n_n.rhsIdx i q 0).val = (q ⟨0, by decide⟩).val :=
  dot_S2048x256_S256x512_S2048x512_1_0_0_1_n_n.rhsIdx_val_of_single rfl i q
theorem k1_rhs8_col (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- The tile's product into the zero accumulator: entry (r, j) is the sum over the hidden width. -/
theorem k1_mm8_apply (a : FVec Ideal S2048x256 .bf16) (b : FVec Ideal S256x512 .bf16) (r : Fin 2048) (j : Fin 512) :
    matmul dot_S2048x256_S256x512_S2048x512_1_0_0_1_n_n none a b (constant (F := Ideal) S2048x512 .f32 0x00000000#32) (ix2 r j)
      = ∑ p : Fin 256 /- hidden -/, a (ix2 r p) * b (ix2 p j) := by
  simp only [matmul]
  rw [Ideal.matmul_constant_zero_apply, ← Equiv.sum_comp (contrEquiv1 dot_S2048x256_S256x512_S2048x512_1_0_0_1_n_n 256 /- hidden -/ rfl rfl).symm]
  refine Finset.sum_congr rfl fun k _ => ?_
  have hk := contrEquiv1_symm_val dot_S2048x256_S256x512_S2048x512_1_0_0_1_n_n 256 /- hidden -/ rfl rfl k
  have el : dot_S2048x256_S256x512_S2048x512_1_0_0_1_n_n.lhsIdx (ix2 r j) ((contrEquiv1 dot_S2048x256_S256x512_S2048x512_1_0_0_1_n_n 256 /- hidden -/ rfl rfl).symm k) = ix2 r k := funext fun a => Fin.ext (by
    match a with
    | ⟨0, _⟩ => exact k1_lhs8_row _ _
    | ⟨1, _⟩ => exact (k1_lhs8_con _ _).trans hk)
  have er : dot_S2048x256_S256x512_S2048x512_1_0_0_1_n_n.rhsIdx (ix2 r j) ((contrEquiv1 dot_S2048x256_S256x512_S2048x512_1_0_0_1_n_n 256 /- hidden -/ rfl rfl).symm k) = ix2 k j := funext fun a => Fin.ext (by
    match a with
    | ⟨0, _⟩ => exact (k1_rhs8_con _ _).trans hk
    | ⟨1, _⟩ => exact k1_rhs8_col _ _)
  rw [el, er]

theorem k1_lhs4_row (i : S2048x256.Idx) (q : dot_S2048x1024_S1024x256_S2048x256_1_0_0_1_n_n.contr.Idx) :
    (dot_S2048x1024_S1024x256_S2048x256_1_0_0_1_n_n.lhsIdx i q 0).val = (i 0).val := by
  unfold DotDims.lhsIdx
  rw [dif_neg (show ¬(0 : Fin S2048x1024.rank) ∈ dot_S2048x1024_S1024x256_S2048x256_1_0_0_1_n_n.lhsBatch by decide), dif_pos (show (0 : Fin S2048x1024.rank) ∈ dot_S2048x1024_S1024x256_S2048x256_1_0_0_1_n_n.lhsNonContracting by decide)]
  rfl
theorem k1_lhs4_con (i : S2048x256.Idx) (q : dot_S2048x1024_S1024x256_S2048x256_1_0_0_1_n_n.contr.Idx) :
    (dot_S2048x1024_S1024x256_S2048x256_1_0_0_1_n_n.lhsIdx i q 1).val = (q ⟨0, by decide⟩).val :=
  dot_S2048x1024_S1024x256_S2048x256_1_0_0_1_n_n.lhsIdx_val_of_single rfl i q
theorem k1_rhs4_con (i : S2048x256.Idx) (q : dot_S2048x1024_S1024x256_S2048x256_1_0_0_1_n_n.contr.Idx) :
    (dot_S2048x1024_S1024x256_S2048x256_1_0_0_1_n_n.rhsIdx i q 0).val = (q ⟨0, by decide⟩).val :=
  dot_S2048x1024_S1024x256_S2048x256_1_0_0_1_n_n.rhsIdx_val_of_single rfl i q
theorem k1_rhs4_col (i : S2048x256.Idx) (q : dot_S2048x1024_S1024x256_S2048x256_1_0_0_1_n_n.contr.Idx) :
    (dot_S2048x1024_S1024x256_S2048x256_1_0_0_1_n_n.rhsIdx i q 1).val = (i 1).val := by
  unfold DotDims.rhsIdx
  rw [dif_neg (show ¬(1 : Fin S1024x256.rank) ∈ dot_S2048x1024_S1024x256_S2048x256_1_0_0_1_n_n.rhsBatch by decide), dif_pos (show (1 : Fin S1024x256.rank) ∈ dot_S2048x1024_S1024x256_S2048x256_1_0_0_1_n_n.rhsNonContracting by decide)]
  rfl

/-- The projection's product into the zero accumulator: entry (r, p) is the sum over the model width. -/
theorem k1_mm4_apply (a : FVec Ideal S2048x1024 .bf16) (b : FVec Ideal S1024x256 .bf16) (r : Fin 2048) (p : Fin 256 /- hidden -/) :
    matmul dot_S2048x1024_S1024x256_S2048x256_1_0_0_1_n_n none a b (constant (F := Ideal) S2048x256 .f32 0x00000000#32) (ix2 r p)
      = ∑ d : Fin 1024, a (ix2 r d) * b (ix2 d p) := by
  simp only [matmul]
  rw [Ideal.matmul_constant_zero_apply, ← Equiv.sum_comp (contrEquiv1 dot_S2048x1024_S1024x256_S2048x256_1_0_0_1_n_n 1024 rfl rfl).symm]
  refine Finset.sum_congr rfl fun k _ => ?_
  have hk := contrEquiv1_symm_val dot_S2048x1024_S1024x256_S2048x256_1_0_0_1_n_n 1024 rfl rfl k
  have el : dot_S2048x1024_S1024x256_S2048x256_1_0_0_1_n_n.lhsIdx (ix2 r p) ((contrEquiv1 dot_S2048x1024_S1024x256_S2048x256_1_0_0_1_n_n 1024 rfl rfl).symm k) = ix2 r k := funext fun a => Fin.ext (by
    match a with
    | ⟨0, _⟩ => exact k1_lhs4_row _ _
    | ⟨1, _⟩ => exact (k1_lhs4_con _ _).trans hk)
  have er : dot_S2048x1024_S1024x256_S2048x256_1_0_0_1_n_n.rhsIdx (ix2 r p) ((contrEquiv1 dot_S2048x1024_S1024x256_S2048x256_1_0_0_1_n_n 1024 rfl rfl).symm k) = ix2 k p := funext fun a => Fin.ext (by
    match a with
    | ⟨0, _⟩ => exact (k1_rhs4_con _ _).trans hk
    | ⟨1, _⟩ => exact k1_rhs4_col _ _)
  rw [el, er]

/-! ## The integer tests, on 32-bit words of small numbers -/

theorem k1_col_word (k j : ℕ) (hk : k < 79) (hj : j < 512) :
    IntOp.addi (Scalar.muli (BitVec.ofNat 32 k) 512#32) (BitVec.ofNat 32 j) = BitVec.ofNat 32 (512 * k + j) := by
  apply BitVec.eq_of_toNat_eq
  simp only [IntOp.addi, Scalar.muli, IntOp.muli, BitVec.toNat_add, BitVec.toNat_mul, BitVec.toNat_ofNat]
  omega

theorem k1_slt_small (a b : ℕ) (ha : a < 2 ^ 31) (hb : b < 2 ^ 31) :
    IntOp.cmpi .slt (BitVec.ofNat 32 a) (BitVec.ofNat 32 b) = if a < b then 1#1 else 0#1 := by
  have ea : (BitVec.ofNat 32 a).toInt = a := by
    rw [BitVec.toInt_eq_toNat_cond, BitVec.toNat_ofNat]; split <;> omega
  have eb : (BitVec.ofNat 32 b).toInt = b := by
    rw [BitVec.toInt_eq_toNat_cond, BitVec.toNat_ofNat]; split <;> omega
  simp only [IntOp.cmpi, BitVec.slt, ea, eb]
  by_cases h : a < b
  · simp [h]
  · simp [h]

/-- The column test of tile k: class number 512 k + j is below 40000. -/
theorem k1_col_test (k j : ℕ) (hk : k < 79) (hj : j < 512) :
    IntOp.cmpi .slt (IntOp.addi (Scalar.muli (BitVec.ofNat 32 k) 512#32) (BitVec.ofNat 32 j)) 40000#32
      = if 512 * k + j < 40000 then 1#1 else 0#1 := by
  rw [k1_col_word k j hk hj]
  exact k1_slt_small (512 * k + j) 40000 (by omega) (by norm_num)

/-- The label moved to tile k's origin, as a signed number. -/
theorem k1_sub_toInt (l : BitVec 32) (kk : ℕ) (hl : l.toNat < 2 ^ 31) (hk : kk < 79) :
    (IntOp.subi l (Scalar.muli (BitVec.ofNat 32 kk) 512#32)).toInt = (l.toNat : Int) - 512 * kk := by
  rw [BitVec.toInt_eq_toNat_cond]
  simp only [IntOp.subi, Scalar.muli, IntOp.muli, BitVec.toNat_sub, BitVec.toNat_mul, BitVec.toNat_ofNat]
  split <;> omega

/-- The label falls in tile k. -/
theorem k1_win_test (l : BitVec 32) (kk : ℕ) (hl : l.toNat < 2 ^ 31) (hk : kk < 79) :
    IntOp.andi (IntOp.cmpi .sge (IntOp.subi l (Scalar.muli (BitVec.ofNat 32 kk) 512#32)) 0#32)
        (IntOp.cmpi .slt (IntOp.subi l (Scalar.muli (BitVec.ofNat 32 kk) 512#32)) 512#32)
      = if 512 * kk ≤ l.toNat ∧ l.toNat < 512 * (kk + 1) then 1#1 else 0#1 := by
  have hw := k1_sub_toInt l kk hl hk
  have e0 : (0#32 : BitVec 32).toInt = 0 := by decide
  have e5 : (512#32 : BitVec 32).toInt = 512 := by decide
  simp only [IntOp.andi, IntOp.cmpi, BitVec.sle, BitVec.slt, hw, e0, e5]
  by_cases h1 : 512 * kk ≤ l.toNat
  · by_cases h2 : l.toNat < 512 * (kk + 1)
    · have a1 : (0 : Int) ≤ (l.toNat : Int) - 512 * kk := by omega
      have a2 : (l.toNat : Int) - 512 * kk < 512 := by omega
      rw [decide_eq_true a1, decide_eq_true a2, if_pos ⟨h1, h2⟩]; rfl
    · have a2 : ¬ (l.toNat : Int) - 512 * kk < 512 := by omega
      rw [decide_eq_false a2, if_neg (fun h => h2 h.2)]
      cases decide ((0 : Int) ≤ (l.toNat : Int) - 512 * kk) <;> rfl
  · have a1 : ¬ (0 : Int) ≤ (l.toNat : Int) - 512 * kk := by omega
    rw [decide_eq_false a1, if_neg (fun h => h1 h.1)]
    cases decide ((l.toNat : Int) - 512 * kk < 512) <;> rfl

/-- Lane k of tile kk is the label's lane. -/
theorem k1_eq_test (l : BitVec 32) (kk k : ℕ) (hl : l.toNat < 2 ^ 31) (hk : kk < 79) (hj : k < 512) :
    IntOp.cmpi .eq (BitVec.ofNat 32 k) (IntOp.subi l (Scalar.muli (BitVec.ofNat 32 kk) 512#32))
      = if l.toNat = 512 * kk + k then 1#1 else 0#1 := by
  have key : (BitVec.ofNat 32 k = IntOp.subi l (Scalar.muli (BitVec.ofNat 32 kk) 512#32)) ↔ l.toNat = 512 * kk + k := by
    rw [← BitVec.toNat_inj]
    simp only [IntOp.subi, Scalar.muli, IntOp.muli, BitVec.toNat_sub, BitVec.toNat_mul, BitVec.toNat_ofNat]
    omega
  show BitVec.ofBool (decide (BitVec.ofNat 32 k = IntOp.subi l (Scalar.muli (BitVec.ofNat 32 kk) 512#32))) = _
  by_cases h : l.toNat = 512 * kk + k
  · rw [if_pos h, decide_eq_true (key.2 h)]; rfl
  · rw [if_neg h, decide_eq_false (fun e => h (key.1 e))]; rfl

theorem k1_select_ite {α : Type} (P : Prop) [Decidable P] (a b : α) :
    Scalar.select (if P then 1#1 else 0#1) a b = if P then a else b := by
  by_cases h : P <;> simp [h, Scalar.select]

/-! ## Lane reductions of a row, kept as a column -/

/-- Row r of a lane sum is the sum of the row's 512 lanes. -/
theorem k1_sum_lane (v : FVec Ideal S2048x512 .f32) (r : Fin 2048) :
    shapeCast S2048x1 (multiReduction (F := Ideal) .add [1] S2048 v 0x00000000#32 reduces_S2048x512_S2048 (.inl rfl) rfl) shapeCasts_S2048_S2048x1 (ix2 r 0)
      = ∑ k : Fin 512, v (ix2 r k) := by
  rw [k1_cast_col_apply]
  refine (Ideal.multiReduction_add_single v 0x00000000#32 reduces_S2048x512_S2048 (.inl rfl) rfl (ix1 r)).trans ?_
  exact Finset.sum_congr rfl fun k _ => congrArg v (k1_lift_row r k)

/-- Row r of a lane maximum taken from -∞ is the supremum of the row's 512 lanes. -/
theorem k1_max_lane (v : FVec Ideal S2048x512 .f32) (r : Fin 2048) :
    shapeCast S2048x1 (multiReduction (F := Ideal) .maximumf [1] S2048 v 0xFF800000#32 reduces_S2048x512_S2048 (.inl rfl) rfl) shapeCasts_S2048_S2048x1 (ix2 r 0)
      = Finset.univ.sup fun k : Fin 512 => v (ix2 r k) := by
  rw [k1_cast_col_apply]
  refine (Ideal.multiReduction_maximumf_single v 0xFF800000#32 reduces_S2048x512_S2048 (.inl rfl) rfl (ix1 r)).trans ?_
  have hb : FloatOps.ofBits (F := Ideal) .f32 0xFF800000#32 = (⊥ : EReal) := by
    show Ideal.ofBits .f32 0xFF800000#32 = ⊥
    simp [Ideal.ofBits, Ideal.ieee]
  have hf : (v ∘ reduces_S2048x512_S2048.lift (ix1 r)) = fun k : Fin 512 => v (ix2 r k) :=
    funext fun k => congrArg v (k1_lift_row r k)
  rw [hb]
  exact congrArg (Finset.univ.fold max (⊥ : EReal)) hf

/-! ## The payloads at an index -/

/-- The fill past the last class is ⊥. -/
theorem k1_neg_big_bot : (Named.named (F := Ideal) κ "neg_big" (φ := .f32) 0xF149F2CA#32 : EReal) = ⊥ := by
  show (κ "neg_big").getD (Ideal.ofBits .f32 0xF149F2CA#32) = ⊥
  rfl

/-- One tile logit: row r of the projected tokens against class row j of the block. -/
def k1_zt (h : Vec Ideal S2048x256 .f32) (w2 : Vec Ideal S512x256 .bf16) (r : Fin 2048) (j : Fin 512) : EReal :=
  ∑ p : Fin 256 /- hidden -/, (h (ix2 r p) : EReal) * (w2 (ix2 j p) : EReal)

/-- The new maximum is stored as it is. -/
theorem k1_pay1_eq (v : FVec Ideal S2048x1 .f32) : k1_pay1 (F := Ideal) v = v := by
  unfold k1_pay1
  exact shapeCast_self v _

/-- The stored term of row r: (m + log l - b) times the row's mask. -/
theorem k1_pay3_apply (m l b msk : Vec Ideal S2048x1 .f32) (r : Fin 2048) :
    k1_pay3 (F := Ideal) m l b msk (ix2 r 0)
      = ((m (ix2 r 0) : EReal) + Ideal.log (l (ix2 r 0)) - b (ix2 r 0)) * msk (ix2 r 0) := by
  unfold k1_pay3
  simp only [shapeCast_self]
  rfl

/-- The projected tokens: h r p = ∑ d, x r d * w1 p d. -/
theorem k1_pay4_apply (x : Vec Ideal S2048x1024 .bf16) (w1 : Vec Ideal S256x1024 .bf16) (r : Fin 2048) (p : Fin 256 /- hidden -/) :
    k1_pay4 (F := Ideal) x w1 (ix2 r p) = ∑ d : Fin 1024, (x (ix2 r d) : EReal) * (w1 (ix2 p d) : EReal) := by
  unfold k1_pay4
  simp only [shapeCast_self]
  rw [k1_mm4_apply]
  refine Finset.sum_congr rfl fun d _ => ?_
  rw [transpose_ix2_apply]

/-- The reset maximum: the fill, which is ⊥. -/
theorem k1_pay5_eq : k1_pay5 (F := Ideal) = fun _ => (⊥ : EReal) := by
  unfold k1_pay5
  simp only [shapeCast_self]
  rfl

/-- The reset mass: zero. -/
theorem k1_pay6_eq : k1_pay6 (F := Ideal) = fun _ => (0 : EReal) := by
  unfold k1_pay6
  simp only [shapeCast_self]
  funext y
  exact Ideal.ofBits_zero_f32

/-- The reset pick: zero. -/
theorem k1_pay7_eq : k1_pay7 (F := Ideal) = fun _ => (0 : EReal) := by
  unfold k1_pay7
  simp only [shapeCast_self]
  funext y
  exact Ideal.ofBits_zero_f32

/-- The tile at (r, j): the logit of class 512 k + j when that is below 40000, else ⊥. -/
theorem k1_pay8_apply (i : grid1.Coords) (h : Vec Ideal S2048x256 .f32) (w2 : Vec Ideal S512x256 .bf16) (r : Fin 2048) (j : Fin 512) :
    k1_pay8 (F := Ideal) i h w2 (ix2 r j) = if 512 * (i 1).val + j.val < 40000 then k1_zt h w2 r j else ⊥ := by
  have hi : (i 1).val < 79 := (i 1).isLt
  unfold k1_pay8
  simp only [shapeCast_self, select_apply, broadcast_apply, cmpi, addi]
  rw [k1_mm8_apply, iota_single_apply .tc S2048x512 32 1 iota_S2048x512_d1_w32 (ix2 r j)]
  rw [k1_neg_big_bot]
  show Scalar.select (IntOp.cmpi .slt (IntOp.addi (Scalar.muli (BitVec.ofNat 32 (i 1).val) 512#32) (BitVec.ofNat 32 j.val)) 40000#32) _ (⊥ : EReal) = _
  rw [k1_col_test _ _ hi j.isLt, k1_select_ite]
  refine if_congr Iff.rfl ?_ rfl
  unfold k1_zt
  refine Finset.sum_congr rfl fun p _ => ?_
  rw [transpose_ix2_apply]
  rfl

end Cert.KernelIdeal.Hand

end
-- ==== Proof.KI.R1.Pay2.lean ====
/-
  Region 1, the payloads of one vocabulary step that reduce over the tile's lanes, read at a row: the new maximum, the new
  mass and the new label pick; together they are one step of the specification's running state on that row.
-/
import proofs.«415479_j24352464569077_2_alg».proof.Proof.KI.R1.Pay

noncomputable section

namespace Cert.KernelIdeal.Hand

open Cert.KernelIdeal Cert.KernelIdeal.Gen
open Idealize.ShloMosaic Idealize.ShloMosaic.ValueIdx

/-- The vector exponential at an index. -/
theorem k1_vexp_apply {s : Shape} {φ : FTy} (v : FVec Ideal s φ) (idx : s.Idx) : exp v idx = Ideal.exp (v idx) := rfl

/-- The new maximum as one term over the tile. -/
theorem k1_pay9_eq (i : grid1.Coords) (h : Vec Ideal S2048x256 .f32) (w2 : Vec Ideal S512x256 .bf16) (m : Vec Ideal S2048x1 .f32) :
    k1_pay9 (F := Ideal) i h w2 m
      = maximumf m (shapeCast S2048x1 (multiReduction (F := Ideal) .maximumf [1] S2048 (k1_pay8 (F := Ideal) i h w2) 0xFF800000#32
          reduces_S2048x512_S2048 (.inl rfl) rfl) shapeCasts_S2048_S2048x1) := rfl

/-- The new maximum of row r: the old one against the tile's supremum. -/
theorem k1_pay9_apply (i : grid1.Coords) (h : Vec Ideal S2048x256 .f32) (w2 : Vec Ideal S512x256 .bf16) (m : Vec Ideal S2048x1 .f32)
    (r : Fin 2048) :
    k1_pay9 (F := Ideal) i h w2 m (ix2 r 0)
      = max (m (ix2 r 0) : EReal) (Finset.univ.sup fun j : Fin 512 => k1_pay8 (F := Ideal) i h w2 (ix2 r j)) := by
  rw [k1_pay9_eq]
  generalize k1_pay8 (F := Ideal) i h w2 = y
  rw [maximumf_apply, k1_max_lane]

/-- The new mass as one term over the tile and the new maximum. -/
theorem k1_pay10_eq (i : grid1.Coords) (h : Vec Ideal S2048x256 .f32) (w2 : Vec Ideal S512x256 .bf16) (m m' l : Vec Ideal S2048x1 .f32) :
    k1_pay10 (F := Ideal) i h w2 m m' l
      = addf (mulf (exp (subf m' (k1_pay9 (F := Ideal) i h w2 m))) l)
          (shapeCast S2048x1 (multiReduction (F := Ideal) .add [1] S2048
            (exp (subf (k1_pay8 (F := Ideal) i h w2) (broadcastTo S2048x512 (k1_pay9 (F := Ideal) i h w2 m) broadcasts_S2048x1_S2048x512)))
            0x00000000#32 reduces_S2048x512_S2048 (.inl rfl) rfl) shapeCasts_S2048_S2048x1) := by
  unfold k1_pay10
  exact shapeCast_self _ _

/-- The new mass of row r: the old mass rescaled to the new maximum, plus the tile's. -/
theorem k1_pay10_apply (i : grid1.Coords) (h : Vec Ideal S2048x256 .f32) (w2 : Vec Ideal S512x256 .bf16) (m m' l : Vec Ideal S2048x1 .f32)
    (r : Fin 2048) :
    k1_pay10 (F := Ideal) i h w2 m m' l (ix2 r 0)
      = Ideal.exp ((m' (ix2 r 0) : EReal) - k1_pay9 (F := Ideal) i h w2 m (ix2 r 0)) * l (ix2 r 0)
        + ∑ j : Fin 512, Ideal.exp (k1_pay8 (F := Ideal) i h w2 (ix2 r j) - k1_pay9 (F := Ideal) i h w2 m (ix2 r 0)) := by
  rw [k1_pay10_eq]
  generalize k1_pay9 (F := Ideal) i h w2 m = M
  generalize k1_pay8 (F := Ideal) i h w2 = y
  rw [addf_apply, mulf_apply, k1_sum_lane, k1_vexp_apply, subf_apply]
  refine congrArg₂ (· + ·) rfl (Finset.sum_congr rfl fun j _ => ?_)
  rw [k1_vexp_apply, subf_apply, k1_bcast_col_apply]

/-! ## The label pick -/

theorem k1_vcmpi_apply {s : Shape} {w : ℕ} (p : CmpIPredicate) (x y : IVec s w) (idx : s.Idx) :
    cmpi p x y idx = IntOp.cmpi p (x idx) (y idx) := rfl
theorem k1_vandi_apply {s : Shape} {w : ℕ} (x y : IVec s w) (idx : s.Idx) : andi x y idx = IntOp.andi (x idx) (y idx) := rfl
theorem k1_vsubi_apply {s : Shape} {w : ℕ} (x y : IVec s w) (idx : s.Idx) : subi x y idx = IntOp.subi (x idx) (y idx) := rfl
theorem k1_zero_word : (Scalar.ofBits (F := Ideal) .f32 0x00000000#32 : EReal) = 0 := Ideal.ofBits_zero_f32

/-- The tile's pick on a row whose label word is l: the entry at the label's lane when the label falls in tile kk, else 0. -/
def k1_tilePick (kk : ℕ) (y : FVec Ideal S2048x512 .f32) (l : BitVec 32) (r : Fin 2048) : EReal :=
  if hin : 512 * kk ≤ l.toNat ∧ l.toNat < 512 * (kk + 1) then y (ix2 r ⟨l.toNat - 512 * kk, by omega⟩) else 0

/-- A sum against the indicator of the label's lane is the entry there. -/
theorem k1_sum_lane_pick (kk : ℕ) (y : FVec Ideal S2048x512 .f32) (l : BitVec 32) (r : Fin 2048)
    (hin : 512 * kk ≤ l.toNat ∧ l.toNat < 512 * (kk + 1)) :
    (∑ k : Fin 512, if l.toNat = 512 * kk + k.val then (y (ix2 r k) : EReal) else 0)
      = y (ix2 r ⟨l.toNat - 512 * kk, by omega⟩) := by
  rw [Finset.sum_eq_single (⟨l.toNat - 512 * kk, by omega⟩ : Fin 512)]
  · rw [if_pos (show l.toNat = 512 * kk + (l.toNat - 512 * kk) by omega)]
  · intro k _ hne
    rw [if_neg]
    intro e
    exact hne (Fin.ext (show k.val = l.toNat - 512 * kk by omega))
  · intro hn
    exact absurd (Finset.mem_univ _) hn

/-- The new pick as one term over the tile. -/
theorem k1_pay2_eq (a1 : BitVec 32) (v9 : IVec S2048x512 32) (y : FVec Ideal S2048x512 .f32) (lab : Vec Ideal S2048x1 .i32)
    (b : Vec Ideal S2048x1 .f32) :
    k1_pay2 (F := Ideal) a1 v9 y lab b
      = addf b (select
          (andi (cmpi .sge (subi lab (broadcast S2048x1 (Scalar.muli a1 512#32))) (broadcast S2048x1 0#32))
            (cmpi .slt (subi lab (broadcast S2048x1 (Scalar.muli a1 512#32))) (broadcast S2048x1 512#32)))
          (shapeCast S2048x1 (multiReduction (F := Ideal) .add [1] S2048
            (select (cmpi .eq v9 (broadcastTo S2048x512 (subi lab (broadcast S2048x1 (Scalar.muli a1 512#32))) broadcasts_S2048x1_S2048x512))
              y (broadcast S2048x512 (Scalar.ofBits (F := Ideal) .f32 0x00000000#32)))
            0x00000000#32 reduces_S2048x512_S2048 (.inl rfl) rfl) shapeCasts_S2048_S2048x1)
          (broadcast S2048x1 (Scalar.ofBits (F := Ideal) .f32 0x00000000#32))) := by
  unfold k1_pay2
  simp only [shapeCast_self] <;> rfl

/-- The new pick of row r at tile kk: the old one plus the tile's pick. -/
theorem k1_pay2_apply (kk : ℕ) (hk : kk < 79) (y : FVec Ideal S2048x512 .f32) (lab : Vec Ideal S2048x1 .i32) (b : Vec Ideal S2048x1 .f32)
    (r : Fin 2048) (hlab : (lab (ix2 r 0) : BitVec 32).toNat < 40000) :
    k1_pay2 (F := Ideal) (BitVec.ofNat 32 kk) (iota .tc S2048x512 32 [1] iota_S2048x512_d1_w32) y lab b (ix2 r 0)
      = (b (ix2 r 0) : EReal) + k1_tilePick kk y (lab (ix2 r 0)) r := by
  have hl : (lab (ix2 r 0) : BitVec 32).toNat < 2 ^ 31 := by omega
  rw [k1_pay2_eq, addf_apply, select_apply, k1_sum_lane]
  simp only [select_apply, broadcast_apply, k1_bcast_col_apply, k1_vcmpi_apply, k1_vandi_apply, k1_vsubi_apply, k1_zero_word]
  rw [k1_win_test _ kk hl hk, k1_select_ite]
  have hsum : (∑ k : Fin 512, Scalar.select (IntOp.cmpi .eq (iota .tc S2048x512 32 [1] iota_S2048x512_d1_w32 (ix2 r k))
        (IntOp.subi (lab (ix2 r 0)) (Scalar.muli (BitVec.ofNat 32 kk) 512#32))) (y (ix2 r k)) (0 : EReal))
      = ∑ k : Fin 512, if (lab (ix2 r 0) : BitVec 32).toNat = 512 * kk + k.val then (y (ix2 r k) : EReal) else 0 :=
    Finset.sum_congr rfl fun k _ => by
      rw [iota_single_apply .tc S2048x512 32 1 iota_S2048x512_d1_w32 (ix2 r k)]
      show Scalar.select (IntOp.cmpi .eq (BitVec.ofNat 32 k.val) _) _ _ = _
      rw [k1_eq_test _ kk k.val hl hk k.isLt, k1_select_ite]
  rw [hsum]
  unfold k1_tilePick
  by_cases hin : 512 * kk ≤ (lab (ix2 r 0) : BitVec 32).toNat ∧ (lab (ix2 r 0) : BitVec 32).toNat < 512 * (kk + 1)
  · rw [if_pos hin, dif_pos hin, k1_sum_lane_pick kk y _ r hin]
  · rw [if_neg hin, dif_neg hin]

/-! ## One step of the running state -/

/-- The three scratch columns a vocabulary step leaves on row r are one step of the running state on what they held,
    with the tile's masked logits and the tile's pick. -/
theorem k1_step_row (i : grid1.Coords) (h : Vec Ideal S2048x256 .f32) (w2 : Vec Ideal S512x256 .bf16) (lab : Vec Ideal S2048x1 .i32)
    (m l b : Vec Ideal S2048x1 .f32) (r : Fin 2048) (hlab : (lab (ix2 r 0) : BitVec 32).toNat < 40000) :
    (⟨k1_pay1 (F := Ideal) (k1_pay9 (F := Ideal) i h w2 m) (ix2 r 0), k1_pay10 (F := Ideal) i h w2 m m l (ix2 r 0),
      k1_pay2 (F := Ideal) (BitVec.ofNat 32 (i 1).val) (iota .tc S2048x512 32 [1] iota_S2048x512_d1_w32) (k1_pay8 (F := Ideal) i h w2) lab b (ix2 r 0)⟩ : Cert.Spec.St)
      = Cert.Spec.St.step ⟨m (ix2 r 0), l (ix2 r 0), b (ix2 r 0)⟩ (fun j : Fin 512 => k1_pay8 (F := Ideal) i h w2 (ix2 r j))
          (k1_tilePick (i 1).val (k1_pay8 (F := Ideal) i h w2) (lab (ix2 r 0)) r) := by
  have hi : (i 1).val < 79 := (i 1).isLt
  rw [k1_pay1_eq, k1_pay10_apply, k1_pay2_apply _ hi _ _ _ _ hlab, k1_pay9_apply]
  generalize k1_pay8 (F := Ideal) i h w2 = y
  rfl

end Cert.KernelIdeal.Hand

end
-- ==== Proof.KI.R1.Value.lean ====
/-
  Region 1 (the second projected tail): what the last vocabulary tile's step stores, per token.

  At point t = 79 i + k the token block is rows 2048 i … of the token matrix, the projection block is the whole projection, the
  class-weight block is classes 512 k … of the tail's class weights (inside the array exactly when 512 k + j < 40000; the filler
  past the last class is never read, since those columns are masked), and the label and mask blocks are the same rows of the
  tail's labels and mask. The first tile of a row of points projects the tokens, h r p = ∑ d, x r d * p1 p d, and every later tile
  carries h. So the masked tile at row r is tile k of the token's 40000 logits laid out in 79 tiles of 512 with ⊥ past the last
  class, and one step of the scratch on row r is the running state's step with that tile and its pick. By induction over the 79
  tiles the row's state after the last tile is the state after 79 tiles, whose m + log l - b is the token's cross-entropy term;
  the stored value is that term times the row's mask, which is the tail's term of the token.
-/
import proofs.«415479_j24352464569077_2_alg».proof.Proof.KI.R1.Defs
import proofs.«415479_j24352464569077_2_alg».proof.Proof.KI.R1.Pay2
import proofs.«415479_j24352464569077_2_alg».proof.Proof.Args
import proofs.«415479_j24352464569077_2_alg».proof.Proof.LibOnlineSoftmax
import Idealize.ShloMosaic.Lib.ValueIdx
import Idealize.ShloMosaic.Lib.Pipeline.Value

set_option synthInstance.maxSize 4096

noncomputable section

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## The grid and the windows' blocks, decided over the grid's points -/

/-- Point t has row tile t / 79 and vocabulary tile t % 79. -/
theorem k1_coords : ∀ t : Fin cfg1.N, (grid1.coords t 0).val = t.val / 79 ∧ (grid1.coords t 1).val = t.val % 79 := by
  decide +kernel

/-- The five input windows' block indices at point t. -/
theorem k1_idx : ∀ t : Fin cfg1.N, win1_0.index t (0 : Fin 2) = t.val / 79 ∧ win1_0.index t (1 : Fin 2) = 0
    ∧ win1_1.index t (0 : Fin 2) = 0 ∧ win1_1.index t (1 : Fin 2) = 0
    ∧ win1_2.index t (0 : Fin 2) = t.val % 79 ∧ win1_2.index t (1 : Fin 2) = 0
    ∧ win1_3.index t (0 : Fin 2) = t.val / 79 ∧ win1_3.index t (1 : Fin 2) = 0
    ∧ win1_4.index t (0 : Fin 2) = t.val / 79 ∧ win1_4.index t (1 : Fin 2) = 0 :=
  (by decide +kernel : ∀ t : Fin grid1.N, _)

/-- The part of the class-weight block that lies inside the array: 512 classes, cut at class 40000. -/
theorem k1_xsize : ∀ t : Fin cfg1.N, win1_2.xsize (grid1.coords t) (0 : Fin 2) = min 512 (40000 - 512 * (t.val % 79))
    ∧ win1_2.xsize (grid1.coords t) (1 : Fin 2) = 256 /- hidden -/ :=
  (by decide +kernel : ∀ t : Fin grid1.N, _)

theorem k1_ltN (t : Fin cfg1.N) : t.val < 79 * 2 := t.isLt

/-! ## The blocks read at an index -/

/-- The token block of point t at row r: token 2048 (t / 79) + r. -/
theorem xblk1_apply (c : Dev nD) (t : Fin cfg1.N) (r : Fin 2048) (d : Fin 1024) :
    xblk1 V c t (ix2 r d) = V c main_v0 (ix2 (⟨2048 * (t.val / 79) + r.val, by have := k1_ltN t; have := r.isLt; omega⟩ : Fin 4096) d) := by
  show V c main_v0 (((cfg1.win 0).blk t).view.emb (ix2 r d)) = _
  congr 1
  funext a
  apply Fin.ext
  obtain ⟨e0, e1, -⟩ := k1_idx t
  match a with
  | ⟨0, _⟩ => show win1_0.index t (0 : Fin 2) * 2048 + 1 * r.val = 2048 * (t.val / 79) + r.val; omega
  | ⟨1, _⟩ => show win1_0.index t (1 : Fin 2) * 1024 + 1 * d.val = d.val; omega

/-- The projection block of point t: the whole projection. -/
theorem w1blk1_apply (c : Dev nD) (t : Fin cfg1.N) (p : Fin 256 /- hidden -/) (d : Fin 1024) :
    w1blk1 V c t (ix2 p d) = V c main_v28 (ix2 p d) := by
  show V c main_v28 (((cfg1.win 1).blk t).view.emb (ix2 p d)) = _
  congr 1
  funext a
  apply Fin.ext
  obtain ⟨-, -, e0, e1, -⟩ := k1_idx t
  match a with
  | ⟨0, _⟩ => show win1_1.index t (0 : Fin 2) * 256 /- hidden -/ + 1 * p.val = p.val; omega
  | ⟨1, _⟩ => show win1_1.index t (1 : Fin 2) * 1024 + 1 * d.val = d.val; omega

/-- The label block of point t at row r: the label word of token 2048 (t / 79) + r. -/
theorem labblk1_apply (c : Dev nD) (t : Fin cfg1.N) (r : Fin 2048) :
    labblk1 V c t (ix2 r (0 : Fin 1)) = V c main_v30 (ix2 (⟨2048 * (t.val / 79) + r.val, by have := k1_ltN t; have := r.isLt; omega⟩ : Fin 4096) (0 : Fin 1)) := by
  show V c main_v30 (((cfg1.win 3).blk t).view.emb (ix2 r (0 : Fin 1))) = _
  congr 1
  funext a
  apply Fin.ext
  obtain ⟨-, -, -, -, -, -, e0, e1, -⟩ := k1_idx t
  match a with
  | ⟨0, _⟩ => show win1_3.index t (0 : Fin 2) * 2048 + 1 * r.val = 2048 * (t.val / 79) + r.val; omega
  | ⟨1, _⟩ => show win1_3.index t (1 : Fin 2) * 1 + 1 * 0 = 0; omega

/-- The mask block of point t at row r: the mask of token 2048 (t / 79) + r. -/
theorem mskblk1_apply (c : Dev nD) (t : Fin cfg1.N) (r : Fin 2048) :
    mskblk1 V c t (ix2 r (0 : Fin 1)) = V c main_v31 (ix2 (⟨2048 * (t.val / 79) + r.val, by have := k1_ltN t; have := r.isLt; omega⟩ : Fin 4096) (0 : Fin 1)) := by
  show V c main_v31 (((cfg1.win 4).blk t).view.emb (ix2 r (0 : Fin 1))) = _
  congr 1
  funext a
  apply Fin.ext
  obtain ⟨-, -, -, -, -, -, -, -, e0, e1⟩ := k1_idx t
  match a with
  | ⟨0, _⟩ => show win1_4.index t (0 : Fin 2) * 2048 + 1 * r.val = 2048 * (t.val / 79) + r.val; omega
  | ⟨1, _⟩ => show win1_4.index t (1 : Fin 2) * 1 + 1 * 0 = 0; omega

/-- The class-weight block of point t at a row that is a class (512 (t % 79) + j < 40000): that class's weights. The filler is
    not read. -/
theorem w2blk1_apply (c : Dev nD) (t : Fin cfg1.N) (j : Fin 512) (p : Fin 256 /- hidden -/) (hj : 512 * (t.val % 79) + j.val < 40000) :
    w2blk1 V c t (ix2 j p) = V c main_v29 (ix2 (⟨512 * (t.val % 79) + j.val, hj⟩ : Fin 40000) p) := by
  obtain ⟨x0, x1⟩ := k1_xsize t
  have hj0 : j.val < win1_2.xsize (grid1.coords t) (0 : Fin 2) := by rw [x0]; have := j.isLt; omega
  have hp1 : p.val < win1_2.xsize (grid1.coords t) (1 : Fin 2) := by rw [x1]; exact p.isLt
  let j' : (win1_2.xblock (grid1.coords t)).Idx := fun a => match a with
    | ⟨0, _⟩ => ⟨j.val, hj0⟩
    | ⟨1, _⟩ => ⟨p.val, hp1⟩
  have e : (ix2 j p : S512x256.Idx) = win1_2.xinj (grid1.coords t) j' :=
    funext fun a => Fin.ext (by match a with | ⟨0, _⟩ => rfl | ⟨1, _⟩ => rfl)
  unfold w2blk1
  rw [e, Pipeline.Window.fill_xinj]
  show V c main_v29 (((cfg1.win 2).blk t).view.emb j') = _
  congr 1
  funext a
  apply Fin.ext
  obtain ⟨-, -, -, -, e0, e1, -⟩ := k1_idx t
  match a with
  | ⟨0, _⟩ => show win1_2.index t (0 : Fin 2) * 512 + 1 * j.val = 512 * (t.val % 79) + j.val; omega
  | ⟨1, _⟩ => show win1_2.index t (1 : Fin 2) * 256 /- hidden -/ + 1 * p.val = p.val; omega

/-! ## A row of the scratch as a running state -/

/-- Row r of the scratch: its running maximum, mass and pick. -/
def Scr1.row (s : Scr1) (r : Fin 2048) : Spec.St :=
  ⟨s.m (ix2 r (0 : Fin 1)), s.l (ix2 r (0 : Fin 1)), s.b (ix2 r (0 : Fin 1))⟩

/-- After the reset every row is the initial state. -/
theorem Scr1.row_first (x : Vec Ideal S2048x1024 .bf16) (w1 : Vec Ideal S256x1024 .bf16) (r : Fin 2048) :
    (Scr1.first x w1).row r = Spec.St.init := by
  show (⟨k1_pay5 (F := Ideal) (ix2 r (0 : Fin 1)), k1_pay6 (F := Ideal) (ix2 r (0 : Fin 1)), k1_pay7 (F := Ideal) (ix2 r (0 : Fin 1))⟩ : Spec.St) = ⟨⊥, 0, 0⟩
  rw [k1_pay5_eq, k1_pay6_eq, k1_pay7_eq]

theorem scr1_congr (c : Dev nD) {n n' : ℕ} (e : n = n') (h : n < cfg1.N) (h' : n' < cfg1.N) : scr1 V c n h = scr1 V c n' h' := by
  subst e; rfl

/-- The tile's pick at a label word that is a small number. -/
theorem k1_tilePick_word (kk : ℕ) (y : FVec Ideal S2048x512 .f32) (L : ℕ) (hL : L < 2 ^ 32) (r : Fin 2048) :
    k1_tilePick kk y (BitVec.ofNat 32 L) r
      = if hin : 512 * kk ≤ L ∧ L < 512 * (kk + 1) then (y (ix2 r ⟨L - 512 * kk, by omega⟩) : EReal) else 0 := by
  have hLn : (BitVec.ofNat 32 L).toNat = L := by rw [BitVec.toNat_ofNat]; omega
  unfold k1_tilePick
  by_cases hin : 512 * kk ≤ L ∧ L < 512 * (kk + 1)
  · rw [dif_pos hin, dif_pos (show 512 * kk ≤ (BitVec.ofNat 32 L).toNat ∧ (BitVec.ofNat 32 L).toNat < 512 * (kk + 1) by rw [hLn]; exact hin)]
    exact congrArg (fun q : Fin 512 => (y (ix2 r q) : EReal))
      (Fin.ext (show (BitVec.ofNat 32 L).toNat - 512 * kk = L - 512 * kk by rw [hLn]))
  · rw [dif_neg hin, dif_neg (show ¬(512 * kk ≤ (BitVec.ofNat 32 L).toNat ∧ (BitVec.ofNat 32 L).toNat < 512 * (kk + 1)) by rw [hLn]; exact hin)]

section Entry

variable (A : Cert.Args.Arrs) (c : Dev nD)
  (hx : ∀ (t : Fin 4096) (d : Fin 1024), V c main_v0 (ix2 t d) = A.x t d)
  (hp : ∀ (p : Fin 256 /- hidden -/) (d : Fin 1024), V c main_v28 (ix2 p d) = A.p1 p d)
  (hc : ∀ (v : Fin 40000) (p : Fin 256 /- hidden -/), V c main_v29 (ix2 v p) = A.c1 v p)
  (hl : ∀ t : Fin 4096, V c main_v30 (ix2 t (0 : Fin 1)) = BitVec.ofNat 32 (min 39999 (A.tgt t - 10000)))
  (hm : ∀ t : Fin 4096, V c main_v31 (ix2 t (0 : Fin 1)) = if 10000 ≤ A.tgt t ∧ A.tgt t < 50000 then (1 : EReal) else 0)

include hx hp in
/-- The projected tokens the reset of point t leaves at row r: token 2048 (t / 79) + r against the projection. -/
theorem k1_first_h (t : Fin cfg1.N) (r : Fin 2048) (p : Fin 256 /- hidden -/) (i : ℕ) (hq : t.val / 79 = i)
    (tok : Fin 4096) (htok : tok.val = 2048 * i + r.val) :
    (Scr1.first (xblk1 V c t) (w1blk1 V c t)).h (ix2 r p) = ∑ d : Fin 1024, A.x tok d * A.p1 p d := by
  subst hq
  show k1_pay4 (F := Ideal) (xblk1 V c t) (w1blk1 V c t) (ix2 r p) = _
  rw [k1_pay4_apply]
  refine Finset.sum_congr rfl fun d _ => ?_
  rw [xblk1_apply, hx, w1blk1_apply, hp, show tok = ⟨2048 * (t.val / 79) + r.val, htok ▸ tok.isLt⟩ from Fin.ext htok]

include hc in
/-- The masked tile of point t at row r and column j, over projected tokens h, is column 512 (t % 79) + j of the token's logits
    laid out in tiles. -/
theorem k1_tile_eq (h : Vec Ideal S2048x256 .f32) (t : Fin cfg1.N) (r : Fin 2048) (tok : Fin 4096)
    (hs : ∀ p : Fin 256 /- hidden -/, h (ix2 r p) = ∑ d : Fin 1024, A.x tok d * A.p1 p d) (j : Fin 512) :
    k1_pay8 (F := Ideal) (grid1.coords t) h (w2blk1 V c t) (ix2 r j)
      = Spec.masked (A.z1 tok) (512 * (t.val % 79) + j.val) := by
  rw [k1_pay8_apply, (k1_coords t).2]
  unfold Spec.masked
  by_cases hcl : 512 * (t.val % 79) + j.val < 40000
  · rw [if_pos hcl, dif_pos hcl]
    unfold k1_zt Cert.Args.Arrs.z1 Spec.logitsProj
    refine Finset.sum_congr rfl fun p _ => ?_
    rw [hs p, w2blk1_apply V c t j p hcl, hc]
  · rw [if_neg hcl, dif_neg hcl]

include hc hl in
/-- One step of the scratch at point t = 79 i + k, on row r of a scratch whose h row is the projected token: the running state's
    step with tile k of the token's masked logits and that tile's pick of the tail's label. -/
theorem k1_row_next (s : Scr1) (t : Fin cfg1.N) (r : Fin 2048) (i k : ℕ) (hq : t.val / 79 = i) (hmod : t.val % 79 = k)
    (tok : Fin 4096) (htok : tok.val = 2048 * i + r.val)
    (hs : ∀ p : Fin 256 /- hidden -/, s.h (ix2 r p) = ∑ d : Fin 1024, A.x tok d * A.p1 p d) :
    (Scr1.next (grid1.coords t) s (w2blk1 V c t) (labblk1 V c t)).row r
      = (s.row r).step (fun j : Fin 512 => Spec.masked (A.z1 tok) (512 * k + j.val))
          (Spec.pick 512 (A.z1 tok) (min 39999 (A.tgt tok - 10000)) k) := by
  subst hq hmod
  have hlab : labblk1 V c t (ix2 r (0 : Fin 1)) = BitVec.ofNat 32 (min 39999 (A.tgt tok - 10000)) := by
    rw [labblk1_apply, hl, show tok = ⟨2048 * (t.val / 79) + r.val, htok ▸ tok.isLt⟩ from Fin.ext htok]
  have hLlt : min 39999 (A.tgt tok - 10000) < 40000 := by omega
  generalize min 39999 (A.tgt tok - 10000) = L at hlab hLlt ⊢
  have e1 := (k1_coords t).2
  have hword : (labblk1 V c t (ix2 r (0 : Fin 1)) : BitVec 32).toNat < 40000 := by
    rw [hlab, BitVec.toNat_ofNat]; omega
  unfold Scr1.next Scr1.row
  refine (k1_step_row (grid1.coords t) s.h (w2blk1 V c t) (labblk1 V c t) s.m s.l s.b r hword).trans ?_
  congr 1
  · exact funext fun j => k1_tile_eq V A c hc s.h t r tok hs j
  · rw [hlab, k1_tilePick_word _ _ L (by omega)]
    unfold Spec.pick
    by_cases h : 512 * (t.val % 79) ≤ L ∧ L < 512 * (t.val % 79 + 1)
    · have h' : 512 * (grid1.coords t 1).val ≤ L ∧ L < 512 * ((grid1.coords t 1).val + 1) := by rw [e1]; exact h
      rw [dif_pos h', if_pos h, k1_tile_eq V A c hc s.h t r tok hs]
      congr 1
      show 512 * (t.val % 79) + (L - 512 * (grid1.coords t 1).val) = L
      rw [e1]; omega
    · have h' : ¬(512 * (grid1.coords t 1).val ≤ L ∧ L < 512 * ((grid1.coords t 1).val + 1)) := by rw [e1]; exact h
      rw [dif_neg h', if_neg h]

include hx hp hc hl in
/-- Row r of the scratch after vocabulary tile k of row tile i: the running state after k + 1 tiles of the token's masked logits;
    and its h row is the projected token. -/
theorem k1_row_after (i : Fin 2) (r : Fin 2048) (tok : Fin 4096) (htok : tok.val = 2048 * i.val + r.val) (k : ℕ) (hk : k < 79) :
    (scr1 V c (79 * i.val + k) (show 79 * i.val + k < 79 * 2 by have := i.isLt; omega)).row r
        = Spec.St.after (fun k' (j : Fin 512) => Spec.masked (A.z1 tok) (512 * k' + j.val))
            (fun k' => Spec.pick 512 (A.z1 tok) (min 39999 (A.tgt tok - 10000)) k') (k + 1)
      ∧ ∀ p : Fin 256 /- hidden -/, (scr1 V c (79 * i.val + k) (show 79 * i.val + k < 79 * 2 by have := i.isLt; omega)).h (ix2 r p)
          = ∑ d : Fin 1024, A.x tok d * A.p1 p d := by
  induction k with
  | zero =>
    have hlt : 79 * i.val + 0 < cfg1.N := show 79 * i.val + 0 < 79 * 2 by have := i.isLt; omega
    have e := scr1_A V c ⟨79 * i.val + 0, hlt⟩ (show (79 * i.val + 0) % 79 = 0 by omega)
    have hfirst : ∀ p : Fin 256 /- hidden -/, (Scr1.first (xblk1 V c ⟨79 * i.val + 0, hlt⟩) (w1blk1 V c ⟨79 * i.val + 0, hlt⟩)).h (ix2 r p)
        = ∑ d : Fin 1024, A.x tok d * A.p1 p d := fun p =>
      k1_first_h V A c hx hp ⟨79 * i.val + 0, hlt⟩ r p i.val (show (79 * i.val + 0) / 79 = i.val by omega) tok htok
    show (scr1 V c (⟨79 * i.val + 0, hlt⟩ : Fin cfg1.N).val (⟨79 * i.val + 0, hlt⟩ : Fin cfg1.N).isLt).row r = _
      ∧ ∀ p : Fin 256 /- hidden -/, (scr1 V c (⟨79 * i.val + 0, hlt⟩ : Fin cfg1.N).val (⟨79 * i.val + 0, hlt⟩ : Fin cfg1.N).isLt).h (ix2 r p) = _
    rw [e]
    refine ⟨?_, hfirst⟩
    rw [k1_row_next V A c hc hl _ ⟨79 * i.val + 0, hlt⟩ r i.val 0 (show (79 * i.val + 0) / 79 = i.val by omega)
      (show (79 * i.val + 0) % 79 = 0 by omega) tok htok hfirst, Scr1.row_first]
    rfl
  | succ k ih =>
    have hlt : 79 * i.val + (k + 1) < cfg1.N := show 79 * i.val + (k + 1) < 79 * 2 by have := i.isLt; omega
    have hlt' : 79 * i.val + k < cfg1.N := show 79 * i.val + k < 79 * 2 by have := i.isLt; omega
    have e := scr1_B V c ⟨79 * i.val + (k + 1), hlt⟩ (show ¬(79 * i.val + (k + 1)) % 79 = 0 by omega)
    obtain ⟨ih1, ih2⟩ := ih (by omega)
    show (scr1 V c (⟨79 * i.val + (k + 1), hlt⟩ : Fin cfg1.N).val (⟨79 * i.val + (k + 1), hlt⟩ : Fin cfg1.N).isLt).row r = _
      ∧ ∀ p : Fin 256 /- hidden -/, (scr1 V c (⟨79 * i.val + (k + 1), hlt⟩ : Fin cfg1.N).val (⟨79 * i.val + (k + 1), hlt⟩ : Fin cfg1.N).isLt).h (ix2 r p) = _
    rw [e, scr1_congr V c (show (79 * i.val + (k + 1)) - 1 = 79 * i.val + k by omega) _ hlt']
    refine ⟨?_, ih2⟩
    rw [k1_row_next V A c hc hl _ ⟨79 * i.val + (k + 1), hlt⟩ r i.val (k + 1) (show (79 * i.val + (k + 1)) / 79 = i.val by omega)
      (show (79 * i.val + (k + 1)) % 79 = k + 1 by omega) tok htok ih2, ih1]
    rfl

include hm in
/-- The mask block of point t = 79 i + k at row r: 1 when the token's target lies in the tail's class range, else 0. -/
theorem k1_msk_eq (t : Fin cfg1.N) (r : Fin 2048) (i : ℕ) (hq : t.val / 79 = i) (tok : Fin 4096) (htok : tok.val = 2048 * i + r.val) :
    mskblk1 V c t (ix2 r (0 : Fin 1)) = if 10000 ≤ A.tgt tok ∧ A.tgt tok < 50000 then (1 : EReal) else 0 := by
  subst hq
  rw [mskblk1_apply, hm, show tok = ⟨2048 * (t.val / 79) + r.val, htok ▸ tok.isLt⟩ from Fin.ext htok]

include hx hp hc hl hm in
/-- What the last vocabulary tile of row tile i stores at row r, with the token named. -/
theorem k1_out_eq (hA : A.Ok) (i : Fin 2) (r : Fin 2048) (tok : Fin 4096) (htok : tok.val = 2048 * i.val + r.val) :
    outblk1 V c ⟨79 * i.val + 78, show 79 * i.val + 78 < 79 * 2 by have := i.isLt; omega⟩ (ix2 r (0 : Fin 1)) = A.T1 tok := by
  have h := (k1_row_after V A c hx hp hc hl i r tok htok 78 (by omega)).1
  have hLlt : min 39999 (A.tgt tok - 10000) < 40000 := by omega
  have hn := Spec.nll_after_eq_tok (V := 40000) (n := 512) (K := 79) (by omega) (by omega) (by omega) (by omega)
    (A.z1 tok)
    (fun v => Spec.logitsProj_real A.x A.p1 A.c1 (fun t d => hA.r0 _) (fun p d => hA.r6 _) (fun v p => hA.r7 _) tok v)
    ⟨min 39999 (A.tgt tok - 10000), hLlt⟩
  have hn' : (Spec.St.after (fun k' (j : Fin 512) => Spec.masked (A.z1 tok) (512 * k' + j.val))
      (fun k' => Spec.pick 512 (A.z1 tok) (min 39999 (A.tgt tok - 10000)) k') (78 + 1)).nll
        = Spec.tok (A.z1 tok) ⟨min 39999 (A.tgt tok - 10000), hLlt⟩ := hn
  have hmsk := k1_msk_eq V A c hm ⟨79 * i.val + 78, show 79 * i.val + 78 < 79 * 2 by have := i.isLt; omega⟩ r i.val
    (show (79 * i.val + 78) / 79 = i.val by omega) tok htok
  unfold outblk1
  rw [k1_pay3_apply, hmsk]
  show ((scr1 V c (79 * i.val + 78) _).row r).nll * _ = _
  rw [h, hn']
  unfold Cert.Args.Arrs.T1 Spec.tailTerm
  by_cases hr : 10000 ≤ A.tgt tok ∧ A.tgt tok < 50000
  · rw [if_pos hr, dif_pos (show 10000 ≤ A.tgt tok ∧ A.tgt tok < 10000 + 40000 from ⟨hr.1, by omega⟩), Spec.tok_mul_one]
    exact congrArg (Spec.tok (A.z1 tok)) (Fin.ext (show min 39999 (A.tgt tok - 10000) = A.tgt tok - 10000 by omega))
  · rw [if_neg hr, dif_neg (show ¬(10000 ≤ A.tgt tok ∧ A.tgt tok < 10000 + 40000) from fun h' => hr ⟨h'.1, by omega⟩), Spec.tok_mul_zero]

include hx hp hc hl hm in
/-- What the last vocabulary tile of row tile i stores at row r: the first tail's term of token 2048 i + r. -/
theorem outblk1_eq (hA : A.Ok) (i : Fin 2) (r : Fin 2048) :
    outblk1 V c ⟨79 * i.val + 78, show 79 * i.val + 78 < 79 * 2 by have := i.isLt; omega⟩ (ix2 r (0 : Fin 1))
      = A.T1 ⟨2048 * i.val + r.val, by have := i.isLt; have := r.isLt; omega⟩ :=
  k1_out_eq V A c hx hp hc hl hm hA i r ⟨2048 * i.val + r.val, by have := i.isLt; have := r.isLt; omega⟩ rfl

end Entry

end Cert.KernelIdeal.Hand

end
-- ==== Proof.KI.R1.Array.lean ====
/-
  Region 1 (the second projected tail): the output array after the run.

  The output's block at point n is rows 2048 (n / 79) … of the [4096, 1] array, and it is written back exactly at the last
  vocabulary tile of each row tile (n % 79 = 78). What such a point writes back at row r is the tail's term of token
  2048 (n / 79) + r, so every written block is a block of the one per-token vector; the point that covers row t is
  79 (t / 2048) + 78, so the blocks cover the array and the array ends holding that vector.
-/
import proofs.«415479_j24352464569077_2_alg».proof.Proof.KI.R1.Data
import proofs.«415479_j24352464569077_2_alg».proof.Proof.KI.R1.Value
import proofs.«415479_j24352464569077_2_alg».proof.Proof.Gen.KernelIdeal.Points
import Idealize.ShloMosaic.Lib.Pipeline.Value

set_option synthInstance.maxSize 4096

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The output window's block index at point t: row tile t / 79. -/
theorem k1_idx5 : ∀ t : Fin cfg1.N, win1_5.index t (0 : Fin 2) = t.val / 79 ∧ win1_5.index t (1 : Fin 2) = 0 :=
  (by decide +kernel : ∀ t : Fin grid1.N, _)

/-- The last vocabulary tile of row tile i is a grid point. -/
theorem k1_last_lt (i : Fin 2) : 79 * i.val + 78 < cfg1.N := show 79 * i.val + 78 < 79 * 2 by have := i.isLt; omega

/-- The tail's per-token vector as contents of the [4096, 1] output array. -/
def T1arr (A : Cert.Args.Arrs) : S4096x1.Idx → EReal := fun i => A.T1 ⟨(i 0).val, (i 0).isLt⟩

section Entry

variable (A : Cert.Args.Arrs) (c : Dev nD)
  (hx : ∀ (t : Fin 4096) (d : Fin 1024), V c main_v0 (ix2 t d) = A.x t d)
  (hp : ∀ (p : Fin 256 /- hidden -/) (d : Fin 1024), V c main_v28 (ix2 p d) = A.p1 p d)
  (hc : ∀ (v : Fin 40000) (p : Fin 256 /- hidden -/), V c main_v29 (ix2 v p) = A.c1 v p)
  (hl : ∀ t : Fin 4096, V c main_v30 (ix2 t (0 : Fin 1)) = BitVec.ofNat 32 (min 39999 (A.tgt t - 10000)))
  (hm : ∀ t : Fin 4096, V c main_v31 (ix2 t (0 : Fin 1)) = if 10000 ≤ A.tgt t ∧ A.tgt t < 50000 then (1 : EReal) else 0)

include hx hp hc hl hm in
/-- What a point that writes the output block back writes: its block of the per-token vector. -/
theorem k1_flushed5_eq (hA : A.Ok) (t : Fin cfg1.N) (hf : (cfg1.win 5).flush t = true) :
    (dat1 V c).flushed 5 t = ((cfg1.win 5).blk t).view.read (Elt Ideal) (T1arr A) := by
  have h3 : t.val % 79 = 78 := (flush1_5 t).mp hf
  have hN := k1_ltN t
  show (cfg1.win 5).cut (grid1.coords t) ((dat1 V c).after 5 t) = _
  rw [after1_5]
  funext j
  have hj1 : (j 1).val < 1 := (j 1).isLt
  obtain ⟨r, rfl⟩ : ∃ r : Fin 2048, j = ix2 r (0 : Fin 1) :=
    ⟨⟨(j 0).val, (j 0).isLt⟩, funext fun a => Fin.ext (by
      match a with
      | ⟨0, _⟩ => rfl
      | ⟨1, _⟩ => show (j 1).val = 0; omega)⟩
  show outblk1 V c t (ix2 r (0 : Fin 1)) = T1arr A (((cfg1.win 5).blk t).view.emb (ix2 r (0 : Fin 1)))
  obtain ⟨e0, e1⟩ := k1_idx5 t
  obtain ⟨i, rfl⟩ : ∃ i : Fin 2, t = ⟨79 * i.val + 78, k1_last_lt i⟩ :=
    ⟨⟨t.val / 79, by omega⟩, Fin.ext (by show t.val = 79 * (t.val / 79) + 78; omega)⟩
  rw [outblk1_eq V A c hx hp hc hl hm hA i r]
  unfold T1arr
  congr 1
  apply Fin.ext
  show 2048 * i.val + r.val = win1_5.index ⟨79 * i.val + 78, _⟩ (0 : Fin 2) * 2048 + 1 * r.val
  rw [e0]
  show 2048 * i.val + r.val = (79 * i.val + 78) / 79 * 2048 + 1 * r.val
  omega

/-- Every row of the output array is in the block of a point that writes it back: row t in point 79 (t / 2048) + 78's. -/
theorem k1_cover5 (i : S4096x1.Idx) : ∃ t : Fin cfg1.N, (cfg1.win 5).flush t = true ∧ i ∈ ((cfg1.win 5).blk t).view.set := by
  have h0 : (i 0).val < 4096 := (i 0).isLt
  have h1 : (i 1).val < 1 := (i 1).isLt
  have hlt : 79 * ((i 0).val / 2048) + 78 < cfg1.N := show 79 * ((i 0).val / 2048) + 78 < 79 * 2 by omega
  refine ⟨⟨79 * ((i 0).val / 2048) + 78, hlt⟩, (flush1_5 _).mpr (show (79 * ((i 0).val / 2048) + 78) % 79 = 78 by omega), ?_⟩
  show i ∈ ((View.whole main_v32).slice (win1_5.rect ⟨79 * ((i 0).val / 2048) + 78, hlt⟩)).set
  rw [View.set_slice_whole, Rect.mem_set_unit]
  obtain ⟨e0, e1⟩ := k1_idx5 ⟨79 * ((i 0).val / 2048) + 78, hlt⟩
  intro a
  match a with
  | ⟨0, _⟩ =>
    show win1_5.index ⟨79 * ((i 0).val / 2048) + 78, hlt⟩ (0 : Fin 2) * 2048 ≤ (i 0).val
      ∧ (i 0).val < win1_5.index ⟨79 * ((i 0).val / 2048) + 78, hlt⟩ (0 : Fin 2) * 2048 + 2048
    rw [e0]
    show (79 * ((i 0).val / 2048) + 78) / 79 * 2048 ≤ (i 0).val ∧ (i 0).val < (79 * ((i 0).val / 2048) + 78) / 79 * 2048 + 2048
    omega
  | ⟨1, _⟩ =>
    show win1_5.index ⟨79 * ((i 0).val / 2048) + 78, hlt⟩ (1 : Fin 2) * 1 ≤ (i 1).val
      ∧ (i 1).val < win1_5.index ⟨79 * ((i 0).val / 2048) + 78, hlt⟩ (1 : Fin 2) * 1 + 1
    rw [e1]
    omega

include hx hp hc hl hm in
/-- The output array after the run holds, at row t, the first tail's term of token t. -/
theorem arrAt_out1 (hA : A.Ok) : ∀ t : Fin 4096, (dat1 V c).arrAt 5 cfg1.N (ix2 t (0 : Fin 1)) = A.T1 t := by
  intro t
  have h := (dat1 V c).arrAt_eq_of_cover 5 (T1arr A) (k1_flushed5_eq V A c hx hp hc hl hm hA) (fun i => k1_cover5 i)
  exact congrFun h (ix2 t (0 : Fin 1))

end Entry

end Cert.KernelIdeal.Hand

end
-- ==== Proof.Ref.RefOps.lean ====
/-
  Two of the reference's reductions, read at a result index over the extended reals.

  A row-wise maximum of a table [N, V], started from the least element, is at row b the supremum of the row's
  entries. A conjunction along a unit axis of a one-bit array [N, 1, 1], started from the bit 1, is at (b, 0) the
  array's entry (b, 0, 0).
-/
import Idealize.ShloMosaic.PureOps.Reduce
import Idealize.ShloMosaic.PureOps.Ideal.Laws
import Idealize.ShloMosaic.Lib.ValueIdx
import Mathlib.Data.Finset.Lattice.Fold

noncomputable section

namespace Cert.ReferenceIdeal.RefValue

open Idealize.ShloMosaic Idealize.ShloMosaic.ValueIdx

/-- Over a table [N, V] reduced along its columns, the source index above row `j` with column `k` is (j, k). -/
theorem lift_row {N V : Nat} (h : (⟨2, ![N, V]⟩ : Shape).Reduces [1] ⟨1, ![N]⟩) (j : (⟨1, ![N]⟩ : Shape).Idx) (k : Fin V) :
    h.lift j k = ix2 (j 0) k := by
  funext c
  apply Fin.ext
  match c with
  | ⟨0, _⟩ => rfl
  | ⟨1, _⟩ => rfl

/-- The row-wise maximum from the least element is the supremum of the row. -/
theorem rowMax_apply {N V : Nat} {u : Shape} (z : (⟨2, ![N, V]⟩ : Shape).Idx → EReal) (init : u.Idx → EReal)
    (h' : (⟨2, ![N, V]⟩ : Shape).ReducesTo [1] ⟨1, ![N]⟩) (h : (⟨2, ![N, V]⟩ : Shape).Reduces [1] ⟨1, ![N]⟩)
    (hu : 0 < u.numel) (hinit : init (Shape.Idx.first hu) = ⊥) (j : (⟨1, ![N]⟩ : Shape).Idx) :
    Host.reduce (FloatOps.maximumf (F := Ideal) (φ := .f32)) z init h' hu j
      = Finset.univ.sup (fun v : Fin V => z (ix2 (j 0) v)) := by
  have e : (z ∘ h.lift j) = fun v : Fin V => z (ix2 (j 0) v) := funext fun v => congrArg z (lift_row h j v)
  rw [Host.reduce_eq_fold_single (FloatOps.maximumf (F := Ideal) (φ := .f32)) z init h' h hu j, hinit, e]
  rfl

/-- Over a one-bit array [N, 1, 1] reduced along its last axis, the one source index above (b, 0) is (b, 0, 0). -/
theorem lift_unit {N : Nat} (h : (⟨3, ![N, 1, 1]⟩ : Shape).Reduces [2] ⟨2, ![N, 1]⟩) (j : (⟨2, ![N, 1]⟩ : Shape).Idx)
    (k : Fin 1) : h.lift j k = ix3 (j 0) (0 : Fin 1) (0 : Fin 1) := by
  funext c
  apply Fin.ext
  match c with
  | ⟨0, _⟩ => rfl
  | ⟨1, _⟩ => exact Nat.lt_one_iff.mp (Fin.isLt _)
  | ⟨2, _⟩ => exact Nat.lt_one_iff.mp (Fin.isLt _)

/-- A conjunction from the bit 1 over a one-element range of one constant bit is that bit. -/
theorem fold_andi_fin_one (c : BitVec 1) : (Finset.univ : Finset (Fin 1)).fold IntOp.andi 1#1 (fun _ => c) = c := by
  rw [Finset.univ_unique, Finset.fold_singleton]
  revert c
  decide

/-- The conjunction along the unit axis from the bit 1 is the entry itself. -/
theorem unitAnd_apply {N : Nat} {u : Shape} (p : (⟨3, ![N, 1, 1]⟩ : Shape).Idx → BitVec 1) (init : u.Idx → BitVec 1)
    (h' : (⟨3, ![N, 1, 1]⟩ : Shape).ReducesTo [2] ⟨2, ![N, 1]⟩) (h : (⟨3, ![N, 1, 1]⟩ : Shape).Reduces [2] ⟨2, ![N, 1]⟩)
    (hu : 0 < u.numel) (hinit : init (Shape.Idx.first hu) = 1#1) (j : (⟨2, ![N, 1]⟩ : Shape).Idx) :
    Host.reduce IntOp.andi p init h' hu j = p (ix3 (j 0) (0 : Fin 1) (0 : Fin 1)) := by
  have e : (p ∘ h.lift j) = fun _ => p (ix3 (j 0) (0 : Fin 1) (0 : Fin 1)) :=
    funext fun k => congrArg p (lift_unit h j k)
  rw [Host.reduce_eq_fold_single IntOp.andi p init h' h hu j, hinit, e]
  exact fold_andi_fin_one _

end Cert.ReferenceIdeal.RefValue

end
-- ==== Proof.Ref.LibGatherRowTake.lean ====
/-
  A gather that takes ONE entry from EACH ROW of a table, read at an index.

  For a table x of shape [N, K] and start indices idx of shape [N, 1, 1], the gather whose operand axis 0 is a
  batching axis (paired with axis 0 of the start indices), whose operand axis 1 is collapsed and named by the
  start index, with slice sizes [1, 1] and the index vector on axis 2, has result shape [N, 1]. Its entry (b, 0)
  is x at row b and at the column idx[b, 0, 0] read as a signed integer and clamped into [0, K - 1]: the row
  comes from the batching coordinate, the column from the clamped start, and there is no offset.
  This is what "take along axis 1" of a [N, K] table at an [N, 1] array of positions lowers to.
-/
import Idealize.ShloMosaic.PureOps.ShapeOps
import Idealize.ShloMosaic.Lib.ValueIdx

namespace Idealize.ShloMosaic.ValueIdx

open Idealize.ShloMosaic

section RowTake
variable {α : Type}

/-- The dimension numbers of the row-wise take for a table [N, K], start indices [N, 1, 1] and result [N, 1];
    their conditions are decided on a program's literal shapes. -/
abbrev rowTakeDims (N K : Nat)
    (wf : GatherDims.WF ⟨2, ![N, K]⟩ ⟨3, ![N, 1, 1]⟩ ⟨2, ![N, 1]⟩ [] [1] [0] [1] [0] 2 ![1, 1]) :
    GatherDims ⟨2, ![N, K]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- The start-indices index [b, 0, 0] of result index (b, 0). -/
abbrev rowTakeIdx {N : Nat} (y : (⟨2, ![N, 1]⟩ : Shape).Idx) : (⟨3, ![N, 1, 1]⟩ : Shape).Idx :=
  fun a => match a with | ⟨0, _⟩ => ⟨(y 0).val, idx2_lt0 y⟩ | ⟨1, _⟩ => ⟨0, Nat.one_pos⟩ | ⟨2, _⟩ => ⟨0, Nat.one_pos⟩

/-- THE ROW-WISE TAKE READ AT (b, 0): the table at row b, column the start index idx[b, 0, 0] read signed and
    clamped into [0, K - 1]. -/
theorem gather_rowTake_apply {N K w : Nat} (hK : 0 < K)
    (wf : GatherDims.WF ⟨2, ![N, K]⟩ ⟨3, ![N, 1, 1]⟩ ⟨2, ![N, 1]⟩ [] [1] [0] [1] [0] 2 ![1, 1])
    (x : (⟨2, ![N, K]⟩ : Shape).Idx → α) (idx : IVec ⟨3, ![N, 1, 1]⟩ w) (y : (⟨2, ![N, 1]⟩ : Shape).Idx) :
    Host.gather (rowTakeDims N K wf) x idx y
      = x (ix2 (⟨(y 0).val, idx2_lt0 y⟩ : Fin N) (⟨min (idx (rowTakeIdx y)).toInt.toNat (K - 1), by omega⟩ : Fin K)) := by
  unfold Host.gather
  congr 1
  funext a
  refine Fin.ext ?_
  show (rowTakeDims N K wf).start y idx a + (rowTakeDims N K wf).batchCoord y a + (rowTakeDims N K wf).offCoord y a = _
  match a with
  | ⟨0, _⟩ =>
    -- the row: no start on a batching axis, no offset; the batching coordinate is the result's row
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, by decide⟩ : Fin 2) ∈ (rowTakeDims N K wf).operandBatchingDims from List.mem_singleton.mpr rfl)]
    rfl
  | ⟨1, _⟩ =>
    -- the column: the clamped start; axis 1 is neither a batching nor an offset axis
    rw [GatherDims.batchCoord_eq_zero _ _ _ (fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ (rowTakeDims N K wf).startIndexMap from List.mem_singleton.mpr rfl)]
    have hsi : (rowTakeDims N K wf).siIdx y ⟨List.idxOf (⟨1, by decide⟩ : Fin 2) (rowTakeDims N K wf).startIndexMap,
        List.idxOf_lt_length_iff.2 (List.mem_singleton.mpr rfl)⟩ = rowTakeIdx y := by
      funext b; refine Fin.ext ?_
      match b with
      | ⟨0, _⟩ => rfl
      | ⟨1, _⟩ => exact Nat.lt_one_iff.mp (Fin.isLt _)  -- a coordinate on a unit axis is 0
      | ⟨2, _⟩ => rfl
    rw [hsi]
    rfl

end RowTake

end Idealize.ShloMosaic.ValueIdx
-- ==== Proof.Ref.Words.lean ====
/-
  The words of the reference's label arithmetic, for a target word below 50000.

  A tail's label is the target minus the tail's first class, clipped into the tail's range; the gather's wrap of a
  negative index leaves it alone, its in-bounds test passes, and the clamp of the start index is the identity. The
  cluster mask is the bit of "first class ≤ target < last class + 1", and the head's label is the target below 2000 and
  the cluster's column from there on. Every comparison is signed; all the words involved are far below 2^31, where the
  signed and the unsigned readings agree.
-/
import Idealize.ShloMosaic.PureOps.Float
import Idealize.ShloMosaic.PureOps.Ideal
import Mathlib.Tactic.SplitIfs
import proofs.«415479_j24352464569077_2_alg».proof.Proof.Spec

noncomputable section

namespace Cert.ReferenceIdeal.RefValue

open Idealize.ShloMosaic

/-- A 32-bit word read signed: its unsigned value below 2^31, that minus 2^32 from there on. -/
theorem toInt_cases (x : BitVec 32) :
    (x.toNat < 2147483648 ∧ x.toInt = x.toNat) ∨ (2147483648 ≤ x.toNat ∧ x.toInt = (x.toNat : Int) - 4294967296) := by
  have h := BitVec.toInt_eq_toNat_cond x
  have hlt := x.isLt
  split_ifs at h with hc
  · left; exact ⟨by omega, h⟩
  · right; exact ⟨by omega, by omega⟩

theorem toInt_small (x : BitVec 32) (h : x.toNat < 2147483648) : x.toInt = x.toNat := by
  rcases toInt_cases x with ⟨_, e⟩ | ⟨c, _⟩
  · exact e
  · omega

/-- The clip of `w - lo` into [0, vm1]: it stays at most `vm1`, and is `w - lo` when that lies in the range. -/
theorem clip_toNat (w lo vm1 : BitVec 32) (hw : w.toNat < 50000) (hlo : lo.toNat ≤ 50000) (hv : vm1.toNat < 50000) :
    (IntOp.minsi vm1 (IntOp.maxsi 0#32 (IntOp.subi w lo))).toNat ≤ vm1.toNat
    ∧ (lo.toNat ≤ w.toNat → w.toNat ≤ lo.toNat + vm1.toNat →
        (IntOp.minsi vm1 (IntOp.maxsi 0#32 (IntOp.subi w lo))).toNat = w.toNat - lo.toNat) := by
  have hvI := toInt_small vm1 (by omega)
  have h0 : (0#32).toInt = 0 := by decide
  have h0N : (0#32).toNat = 0 := by decide
  have hsN : (w - lo).toNat = (2 ^ 32 - lo.toNat + w.toNat) % 2 ^ 32 := BitVec.toNat_sub w lo
  have hsc := toInt_cases (w - lo)
  unfold IntOp.minsi IntOp.maxsi IntOp.subi
  simp only [BitVec.slt_eq_decide, decide_eq_true_eq, h0, hvI]
  refine ⟨?_, ?_⟩ <;> (split_ifs <;> omega)

/-- A word `c` at most `vm1` (itself small) is not wrapped, passes the in-bounds test, and clamps to itself. -/
theorem small_word (c v vm1 : BitVec 32) (hc : c.toNat ≤ vm1.toNat) (hv : vm1.toNat < 50000) :
    Scalar.select (IntOp.cmpi .slt c 0#32) (IntOp.addi c v) c = c
    ∧ IntOp.andi (IntOp.cmpi .sge c 0#32) (IntOp.cmpi .sle c vm1) = 1#1
    ∧ min c.toInt.toNat vm1.toNat = c.toNat := by
  have hcI := toInt_small c (by omega)
  have hvI := toInt_small vm1 (by omega)
  have h0 : (0#32).toInt = 0 := by decide
  refine ⟨?_, ?_, ?_⟩
  · have : c.slt 0#32 = false := by rw [BitVec.slt_eq_decide, hcI, h0]; exact decide_eq_false (by omega)
    simp only [IntOp.cmpi, this]; rfl
  · have h1 : (0#32).sle c = true := by rw [BitVec.sle_eq_decide, hcI, h0]; exact decide_eq_true (by omega)
    have h2 : c.sle vm1 = true := by rw [BitVec.sle_eq_decide, hcI, hvI]; exact decide_eq_true (by omega)
    simp only [IntOp.cmpi, h1, h2]; rfl
  · rw [hcI]; simp only [Int.toNat_natCast]; omega

/-- The cluster mask: the bit of `lo ≤ w < hi`. -/
theorem mask_word (w lo hi : BitVec 32) (hw : w.toNat < 50000) (hlo : lo.toNat ≤ 50000) (hhi : hi.toNat ≤ 50000) :
    IntOp.andi (IntOp.cmpi .sge w lo) (IntOp.cmpi .slt w hi) = if lo.toNat ≤ w.toNat ∧ w.toNat < hi.toNat then 1#1 else 0#1 := by
  have hwI := toInt_small w (by omega)
  have hloI := toInt_small lo (by omega)
  have hhiI := toInt_small hi (by omega)
  simp only [IntOp.cmpi, IntOp.andi, BitVec.sle_eq_decide, BitVec.slt_eq_decide, hwI, hloI, hhiI, Int.ofNat_le, Int.ofNat_lt]
  by_cases h1 : lo.toNat ≤ w.toNat <;> by_cases h2 : w.toNat < hi.toNat <;> simp [h1, h2]

/-- A select on the bit of a proposition is the `if` on the proposition. -/
theorem select_bit {α : Type} (p : Prop) [Decidable p] (a b : α) :
    Scalar.select (if p then 1#1 else 0#1) a b = if p then a else b := by
  by_cases h : p
  · rw [if_pos h, if_pos h]; exact if_pos rfl
  · rw [if_neg h, if_neg h]; exact if_neg (by decide)

/-- The head's label word: the second tail's column where its mask is set, else the first tail's column where its mask is
    set, else the target. -/
theorem headLabel_word (w : BitVec 32) (hw : w.toNat < 50000) :
    (Scalar.select (IntOp.andi (IntOp.cmpi .sge w 10000#32) (IntOp.cmpi .slt w 50000#32)) 2001#32
      (Scalar.select (IntOp.andi (IntOp.cmpi .sge w 2000#32) (IntOp.cmpi .slt w 10000#32)) 2000#32 w)).toNat
      = Cert.Spec.headLabel w.toNat := by
  rw [mask_word w 10000#32 50000#32 hw (by decide) (by decide), mask_word w 2000#32 10000#32 hw (by decide) (by decide),
    select_bit, select_bit]
  have e1 : (10000#32).toNat = 10000 := by decide
  have e2 : (50000#32).toNat = 50000 := by decide
  have e3 : (2000#32).toNat = 2000 := by decide
  have e4 : (2001#32).toNat = 2001 := by decide
  unfold Cert.Spec.headLabel
  rw [e1, e2, e3]
  split_ifs <;> first | rfl | exact e4 | exact e3 | omega

/-- The one-bit word 1 converts to the real 1, the word 0 to 0. -/
theorem uitofp_one : FloatOps.uitofp (F := Ideal) .f32 (1#1 : BitVec 1) = (1 : EReal) := by
  show (((1#1 : BitVec 1).toNat : ℝ) : EReal) = 1
  simp
theorem uitofp_zero : FloatOps.uitofp (F := Ideal) .f32 (0#1 : BitVec 1) = (0 : EReal) := by
  show (((0#1 : BitVec 1).toNat : ℝ) : EReal) = 0
  simp

end Cert.ReferenceIdeal.RefValue

end
-- ==== Proof.Ref.Common.lean ====
/-
  Small facts the reading of the reference leans on: two indices with equal coordinates are equal; a sum over the indices
  of a vector is the sum over its one coordinate; the patterns of minus infinity and of 4096.
-/
import Idealize.ShloMosaic.Lib.ValueIdx
import Idealize.ShloMosaic.PureOps.Ideal.Laws
import Mathlib.Algebra.BigOperators.Fin
import Mathlib.Tactic.NormNum

noncomputable section

namespace Cert.ReferenceIdeal.RefValue

open Idealize.ShloMosaic Idealize.ShloMosaic.ValueIdx

theorem idx1_ext {n : Nat} (i j : (⟨1, ![n]⟩ : Shape).Idx) (h0 : (i 0).val = (j 0).val) : i = j := by
  funext a
  match a with
  | ⟨0, _⟩ => exact Fin.ext h0

theorem idx2_ext {n0 n1 : Nat} (i j : (⟨2, ![n0, n1]⟩ : Shape).Idx) (h0 : (i 0).val = (j 0).val)
    (h1 : (i 1).val = (j 1).val) : i = j := by
  funext a
  match a with
  | ⟨0, _⟩ => exact Fin.ext h0
  | ⟨1, _⟩ => exact Fin.ext h1

theorem idx3_ext {n0 n1 n2 : Nat} (i j : (⟨3, ![n0, n1, n2]⟩ : Shape).Idx) (h0 : (i 0).val = (j 0).val)
    (h1 : (i 1).val = (j 1).val) (h2 : (i 2).val = (j 2).val) : i = j := by
  funext a
  match a with
  | ⟨0, _⟩ => exact Fin.ext h0
  | ⟨1, _⟩ => exact Fin.ext h1
  | ⟨2, _⟩ => exact Fin.ext h2

/-- A vector's index set is its coordinate's range. -/
def idxEquiv1 {n : Nat} : (⟨1, ![n]⟩ : Shape).Idx ≃ Fin n where
  toFun i := i 0
  invFun t := ix1 t
  left_inv i := (eq_ix1 i).symm
  right_inv _ := rfl

/-- A sum over the indices of a vector is the sum over its coordinate. -/
theorem sum_idx1 {M : Type*} [AddCommMonoid M] {n : Nat} (f : (⟨1, ![n]⟩ : Shape).Idx → M) :
    ∑ i, f i = ∑ t : Fin n, f (ix1 t) := by
  rw [← Equiv.sum_comp (idxEquiv1 (n := n)).symm f]
  rfl

/-- The pattern of minus infinity is the least extended real. -/
theorem ofBits_neg_inf : Ideal.ofBits .f32 0xFF800000#32 = ⊥ := by simp [Ideal.ofBits, Ideal.ieee]

/-- The pattern 0x45800000 is 4096. -/
theorem ofBits_4096 : Ideal.ofBits .f32 0x45800000#32 = ((4096 : ℝ) : EReal) := by
  simp [Ideal.ofBits, Ideal.ieee, -EReal.coe_mul]; norm_num

end Cert.ReferenceIdeal.RefValue

end
-- ==== Proof.Ref.Block0.lean ====
/-
  The first projected tail in the reference, token by token.

  For token t with target word w the reference forms the row of logits z t (two products: the activations with the
  projection, then with the class weights), its log-softmax (z - max z) - log (∑ exp (z - max z)) with the maximum taken
  from minus infinity, takes the entry at the clipped label, negates it, and multiplies by the 0/1 bit of "the target is
  one of this tail's classes". Under the precondition that is the specification's term T0 t: inside the tail's range the
  clip is the identity and the bit is 1, so the term is the token's cross-entropy; outside it the bit is 0.
-/
import proofs.«415479_j24352464569077_2_alg».proof.Proof.Ref.ReadP
import proofs.«415479_j24352464569077_2_alg».proof.Proof.Args
import proofs.«415479_j24352464569077_2_alg».proof.Proof.LibOnlineSoftmax
import proofs.«415479_j24352464569077_2_alg».proof.Proof.Ref.RefOps
import proofs.«415479_j24352464569077_2_alg».proof.Proof.Ref.LibGatherRowTake
import proofs.«415479_j24352464569077_2_alg».proof.Proof.Ref.Words
import proofs.«415479_j24352464569077_2_alg».proof.Proof.Ref.Common

noncomputable section

namespace Cert.ReferenceIdeal.RefValue

open Cert.ReferenceIdeal Cert.ReferenceIdeal.Gen Cert.ReferenceIdeal.ReadP Idealize.ShloMosaic Idealize.ShloMosaic.ValueIdx
  Cert.Args Cert.Spec

section Block0

variable (a0 : (⟨S4096x1024, .f32⟩ : BufTy).Contents (Elt Ideal)) (a1 : (⟨S4096, .i32⟩ : BufTy).Contents (Elt Ideal))
  (a2 : (⟨S2002x1024, .f32⟩ : BufTy).Contents (Elt Ideal)) (a3 : (⟨S2002, .f32⟩ : BufTy).Contents (Elt Ideal))
  (a4 : (⟨S1024x1024, .f32⟩ : BufTy).Contents (Elt Ideal)) (a5 : (⟨S8000x1024, .f32⟩ : BufTy).Contents (Elt Ideal))
  (a6 : (⟨S256x1024, .f32⟩ : BufTy).Contents (Elt Ideal)) (a7 : (⟨S40000x256, .f32⟩ : BufTy).Contents (Elt Ideal))

/-- The logits: the two products are the specification's sums, factor for factor. -/
theorem logits0 (t : Fin 4096) (v : Fin 8000) :
    val_main_v9 (F := Ideal) a0 a4 a5 (ix2 t v) = (Arrs.mk a0 a1 a2 a3 a4 a5 a6 a7).z0 t v := by
  rw [val_main_v9_apply]
  show _ = ∑ p : Fin 1024, (∑ d : Fin 1024, a0 (ix2 t d) * a4 (ix2 p d)) * a5 (ix2 v p)
  refine Finset.sum_congr rfl fun p _ => ?_
  rw [val_main_v7_apply, val_main_v8_apply]
  refine congrArg₂ (· * ·) (Finset.sum_congr rfl fun d _ => ?_) (congrArg a5 (idx2_ext _ _ rfl rfl))
  rw [val_main_v6_apply]
  exact congrArg₂ (· * ·) (congrArg a0 (idx2_ext _ _ rfl rfl)) (congrArg a4 (idx2_ext _ _ rfl rfl))

/-- The row's maximum, taken from minus infinity, is the supremum of the row's logits. -/
theorem rowmax0 (t : Fin 4096) :
    val_main_call2_v2 (F := Ideal) a0 a4 a5 (ix1 t) = Finset.univ.sup ((Arrs.mk a0 a1 a2 a3 a4 a5 a6 a7).z0 t) := by
  have h0 : val_main_call2_v0 (F := Ideal) a0 a4 a5 (ix1 t) = Finset.univ.sup ((Arrs.mk a0 a1 a2 a3 a4 a5 a6 a7).z0 t) :=
    (rowMax_apply (val_main_v9 (F := Ideal) a0 a4 a5) (val_main_call2_cst (F := Ideal)) reducesTo_S4096x8000_S4096_d1
      (by decide) h_S_ ofBits_neg_inf (ix1 t)).trans
      (congrArg (Finset.sup Finset.univ) (funext fun v => logits0 a0 a1 a2 a3 a4 a5 a6 a7 t v))
  rw [val_main_call2_v2_apply, h0, val_main_call2_v1_apply, val_main_call2_cst_0_apply, Ideal.maximumf_def, Ideal.ofBits_def,
    ofBits_neg_inf]
  exact max_eq_right bot_le

/-- The shifted logit. -/
theorem shifted0 (t : Fin 4096) (v : Fin 8000) :
    val_main_call2_v5 (F := Ideal) a0 a4 a5 (ix2 t v)
      = (Arrs.mk a0 a1 a2 a3 a4 a5 a6 a7).z0 t v - Finset.univ.sup ((Arrs.mk a0 a1 a2 a3 a4 a5 a6 a7).z0 t) := by
  rw [val_main_call2_v5_apply, logits0 a0 a1 a2 a3 a4 a5 a6 a7, val_main_call2_v4_apply, val_main_call2_v3_apply,
    show idx_main_call2_v3 (idx_main_call2_v4 (ix2 t v)) = ix1 t from idx1_ext _ _ rfl, rowmax0 a0 a1 a2 a3 a4 a5 a6 a7]
  rfl

/-- The row's mass: the sum of the exponentials of the shifted logits. -/
theorem mass0 (t : Fin 4096) :
    val_main_call2_v7 (F := Ideal) a0 a4 a5 (ix1 t)
      = ∑ k : Fin 8000, Ideal.exp ((Arrs.mk a0 a1 a2 a3 a4 a5 a6 a7).z0 t k
          - Finset.univ.sup ((Arrs.mk a0 a1 a2 a3 a4 a5 a6 a7).z0 t)) := by
  rw [val_main_call2_v7_apply, val_main_call2_cst_1_apply, Ideal.ofBits_def, Ideal.ofBits_zero_f32, zero_add]
  refine Finset.sum_congr rfl fun k _ => ?_
  rw [val_main_call2_v6_apply, show idx_main_call2_v7 (ix1 t) k = ix2 t k from idx2_ext _ _ rfl rfl,
    shifted0 a0 a1 a2 a3 a4 a5 a6 a7]
  rfl

/-- The log-softmax entry. -/
theorem logsoftmax0 (t : Fin 4096) (v : Fin 8000) :
    val_main_v14 (F := Ideal) a0 a4 a5 (ix2 t v)
      = ((Arrs.mk a0 a1 a2 a3 a4 a5 a6 a7).z0 t v - Finset.univ.sup ((Arrs.mk a0 a1 a2 a3 a4 a5 a6 a7).z0 t))
        - Ideal.log (∑ k : Fin 8000, Ideal.exp ((Arrs.mk a0 a1 a2 a3 a4 a5 a6 a7).z0 t k
            - Finset.univ.sup ((Arrs.mk a0 a1 a2 a3 a4 a5 a6 a7).z0 t))) := by
  rw [val_main_v14_apply, shifted0 a0 a1 a2 a3 a4 a5 a6 a7, val_main_call2_v10_apply, val_main_call2_v9_apply,
    val_main_call2_v8_apply,
    show idx_main_call2_v8 (idx_main_call2_v10 (ix2 t v)) = ix1 t from idx1_ext _ _ rfl, mass0 a0 a1 a2 a3 a4 a5 a6 a7,
    Ideal.subf_def, Ideal.hostUnary_log_def]

/-- The clipped label word of token t. -/
theorem clip0 (t : Fin 4096) :
    val_main_v12 (F := Ideal) a1 (ix1 t) = IntOp.minsi 7999#32 (IntOp.maxsi 0#32 (IntOp.subi (a1 (ix1 t)) 2000#32)) := by
  simp only [val_main_v12_apply, val_main_call1_v4_apply, val_main_call1_v3_apply, val_main_c_4_apply, val_main_call1_v2_apply,
    val_main_call1_v1_apply, val_main_call1_v0_apply, val_main_c_3_apply, val_main_v11_apply, val_main_v10_apply,
    val_main_c_2_apply]

/-- The cluster bit of token t. -/
theorem mask0 (t : Fin 4096) :
    val_main_v4 (F := Ideal) a1 (ix1 t)
      = IntOp.andi (IntOp.cmpi .sge (a1 (ix1 t)) 2000#32) (IntOp.cmpi .slt (a1 (ix1 t)) 10000#32) := by
  simp only [val_main_v4_apply, val_main_v1_apply, val_main_v3_apply, val_main_v0_apply, val_main_v2_apply, val_main_c_apply,
    val_main_c_0_apply]

/-- The start index of the gather at token t: the clipped label, wrapped if negative. -/
theorem start0 (t : Fin 4096) :
    val_main_call3_v5 (F := Ideal) a1 (ix3 t (0 : Fin 1) (0 : Fin 1))
      = Scalar.select (IntOp.cmpi .slt (val_main_v12 (F := Ideal) a1 (ix1 t)) 0#32)
          (IntOp.addi (val_main_v12 (F := Ideal) a1 (ix1 t)) 8000#32) (val_main_v12 (F := Ideal) a1 (ix1 t)) := by
  have e : idx_main_v15 (idx_main_call3_v5 (ix3 t (0 : Fin 1) (0 : Fin 1))) = ix1 t :=
    idx1_ext _ _ (by show ((t.val * 1 + 0) * 1 + 0) / 1 = t.val; omega)
  simp only [val_main_call3_v5_apply, val_main_call3_v4_apply, val_main_call3_v1_apply, val_main_call3_v3_apply,
    val_main_v15_apply, val_main_call3_v0_apply, val_main_call3_c_apply, val_main_call3_v2_apply, val_main_call3_c_0_apply, e]

/-- The per-token term of the first tail. -/
theorem term0 (hok : (Arrs.mk a0 a1 a2 a3 a4 a5 a6 a7).Ok) (t : Fin 4096) :
    val_main_v19 (F := Ideal) a0 a1 a4 a5 (ix1 t) = (Arrs.mk a0 a1 a2 a3 a4 a5 a6 a7).T0 t := by
  -- the target word and what the precondition says of it
  have hw : (a1 (ix1 t)).toNat < 50000 := hok.rng (ix1 t)
  obtain ⟨hcle, hcin⟩ := clip_toNat (a1 (ix1 t)) 2000#32 7999#32 hw (by decide) (by decide)
  rw [← clip0 a1 t] at hcle hcin
  obtain ⟨hwrap, hinb, hclamp⟩ := small_word (val_main_v12 (F := Ideal) a1 (ix1 t)) 8000#32 7999#32 hcle (by decide)
  have hstart : val_main_call3_v5 (F := Ideal) a1 (ix3 t (0 : Fin 1) (0 : Fin 1)) = val_main_v12 (F := Ideal) a1 (ix1 t) :=
    (start0 a1 t).trans hwrap
  -- the index (t, 0) of the gathered column
  have ej : idx_main_v17 (ix1 t) = ix2 t (0 : Fin 1) :=
    idx2_ext _ _ (by show t.val / 1 = t.val; omega) rfl
  -- the in-bounds test passes
  have hbit : val_main_call3_v12 (F := Ideal) a1 (ix2 t (0 : Fin 1)) = 1#1 := by
    have h := unitAnd_apply (val_main_call3_v11 (F := Ideal) a1) (val_main_call3_c_3 (F := Ideal))
      reducesTo_S4096x1x1_S4096x1_d2 (by decide) h_S_ rfl (ix2 t (0 : Fin 1))
    refine h.trans ?_
    show val_main_call3_v11 (F := Ideal) a1 (ix3 t (0 : Fin 1) (0 : Fin 1)) = 1#1
    simp only [val_main_call3_v11_apply, val_main_call3_v7_apply, val_main_call3_v10_apply, val_main_call3_v6_apply,
      val_main_call3_c_2_apply, val_main_call3_v9_apply, val_main_call3_v8_apply, val_main_call3_c_1_apply, hstart]
    exact hinb
  -- the gathered entry is the log-softmax at the clipped label
  have hcol : min (val_main_call3_v5 (F := Ideal) a1 (rowTakeIdx (ix2 t (0 : Fin 1)))).toInt.toNat (8000 - 1)
      = (val_main_v12 (F := Ideal) a1 (ix1 t)).toNat := by
    rw [show rowTakeIdx (ix2 t (0 : Fin 1)) = ix3 t (0 : Fin 1) (0 : Fin 1) from idx3_ext _ _ rfl rfl rfl, hstart]
    exact hclamp
  have hgather : val_main_call3_v13 (F := Ideal) a0 a1 a4 a5 (ix2 t (0 : Fin 1))
      = val_main_v14 (F := Ideal) a0 a4 a5 (ix2 t ⟨(val_main_v12 (F := Ideal) a1 (ix1 t)).toNat, by
          have : (7999#32 : BitVec 32).toNat = 7999 := by decide
          omega⟩) := by
    have h := gather_rowTake_apply (N := 4096) (K := 8000) (by decide) gather_S4096x8000_S4096x1x1_S4096x1_n_1_0_0_1_2_11_wf
      (val_main_v14 (F := Ideal) a0 a4 a5) (val_main_call3_v5 (F := Ideal) a1) (ix2 t (0 : Fin 1))
    refine h.trans (congrArg _ (idx2_ext _ _ rfl ?_))
    exact hcol
  -- the term before the mask
  have hneg : val_main_v18 (F := Ideal) a0 a1 a4 a5 (ix1 t)
      = -(val_main_v14 (F := Ideal) a0 a4 a5 (ix2 t ⟨(val_main_v12 (F := Ideal) a1 (ix1 t)).toNat, by
          have : (7999#32 : BitVec 32).toNat = 7999 := by decide
          omega⟩)) := by
    rw [val_main_v18_apply, val_main_v17_apply, ej, val_main_v16_apply, hbit, select_one, hgather]
    rfl
  rw [val_main_v19_apply, hneg, val_main_v13_apply, mask0 a1 t,
    mask_word (a1 (ix1 t)) 2000#32 10000#32 hw (by decide) (by decide), logsoftmax0 a0 a1 a2 a3 a4 a5 a6 a7]
  have e2000 : (2000#32 : BitVec 32).toNat = 2000 := by decide
  have e10000 : (10000#32 : BitVec 32).toNat = 10000 := by decide
  have e7999 : (7999#32 : BitVec 32).toNat = 7999 := by decide
  rw [e2000, e10000]
  show _ = tailTerm 2000 ((Arrs.mk a0 a1 a2 a3 a4 a5 a6 a7).z0 t) (a1 (ix1 t)).toNat
  unfold tailTerm
  by_cases hin : 2000 ≤ (a1 (ix1 t)).toNat ∧ (a1 (ix1 t)).toNat < 10000
  · rw [if_pos hin, dif_pos (by omega), uitofp_one, Ideal.mulf_def, mul_one,
      neg_logSoftmax_eq_tok (V := 8000) (by decide) ((Arrs.mk a0 a1 a2 a3 a4 a5 a6 a7).z0 t)
        (logitsProj_real _ _ _ (fun t d => hok.r0 _) (fun p d => hok.r4 _) (fun v p => hok.r5 _) t)]
    exact congrArg _ (Fin.ext (by
      show (val_main_v12 (F := Ideal) a1 (ix1 t)).toNat = (a1 (ix1 t)).toNat - 2000
      rw [hcin (by omega) (by omega), e2000]))
  · rw [if_neg hin, dif_neg (by omega), uitofp_zero, Ideal.mulf_def, mul_zero]

end Block0

end Cert.ReferenceIdeal.RefValue

end
-- ==== Proof.Ref.Block1.lean ====
/-
  The second projected tail in the reference, token by token.

  For token t with target word w the reference forms the row of logits z t over the tail's 40000 classes (two products: the
  activations with the projection to width 256, then with the class weights), its log-softmax (z - max z) - log (∑ exp (z - max z))
  with the maximum taken from minus infinity, takes the entry at the clipped label (the target less 10000, kept inside
  0 … 39999), negates it, and multiplies by the 0/1 bit of "the target is one of this tail's classes". Under the
  precondition that is the specification's term T1 t: inside the tail's range the clip is the identity and the bit is 1,
  so the term is the token's cross-entropy; outside it the bit is 0.
-/
import proofs.«415479_j24352464569077_2_alg».proof.Proof.Ref.ReadP
import proofs.«415479_j24352464569077_2_alg».proof.Proof.Args
import proofs.«415479_j24352464569077_2_alg».proof.Proof.LibOnlineSoftmax
import proofs.«415479_j24352464569077_2_alg».proof.Proof.Ref.RefOps
import proofs.«415479_j24352464569077_2_alg».proof.Proof.Ref.LibGatherRowTake
import proofs.«415479_j24352464569077_2_alg».proof.Proof.Ref.Words
import proofs.«415479_j24352464569077_2_alg».proof.Proof.Ref.Common

noncomputable section

namespace Cert.ReferenceIdeal.RefValue

open Cert.ReferenceIdeal Cert.ReferenceIdeal.Gen Cert.ReferenceIdeal.ReadP Idealize.ShloMosaic Idealize.ShloMosaic.ValueIdx
  Cert.Args Cert.Spec

section Block1

variable (a0 : (⟨S4096x1024, .f32⟩ : BufTy).Contents (Elt Ideal)) (a1 : (⟨S4096, .i32⟩ : BufTy).Contents (Elt Ideal))
  (a2 : (⟨S2002x1024, .f32⟩ : BufTy).Contents (Elt Ideal)) (a3 : (⟨S2002, .f32⟩ : BufTy).Contents (Elt Ideal))
  (a4 : (⟨S1024x1024, .f32⟩ : BufTy).Contents (Elt Ideal)) (a5 : (⟨S8000x1024, .f32⟩ : BufTy).Contents (Elt Ideal))
  (a6 : (⟨S256x1024, .f32⟩ : BufTy).Contents (Elt Ideal)) (a7 : (⟨S40000x256, .f32⟩ : BufTy).Contents (Elt Ideal))

/-- The logits: the two products are the specification's sums, factor for factor. -/
theorem logits1 (t : Fin 4096) (v : Fin 40000) :
    val_main_v31 (F := Ideal) a0 a6 a7 (ix2 t v) = (Arrs.mk a0 a1 a2 a3 a4 a5 a6 a7).z1 t v := by
  rw [val_main_v31_apply]
  show _ = ∑ p : Fin 256, (∑ d : Fin 1024, a0 (ix2 t d) * a6 (ix2 p d)) * a7 (ix2 v p)
  refine Finset.sum_congr rfl fun p _ => ?_
  rw [val_main_v29_apply, val_main_v30_apply]
  refine congrArg₂ (· * ·) (Finset.sum_congr rfl fun d _ => ?_) (congrArg a7 (idx2_ext _ _ rfl rfl))
  rw [val_main_v28_apply]
  exact congrArg₂ (· * ·) (congrArg a0 (idx2_ext _ _ rfl rfl)) (congrArg a6 (idx2_ext _ _ rfl rfl))

/-- The row's maximum, taken from minus infinity, is the supremum of the row's logits. -/
theorem rowmax1 (t : Fin 4096) :
    val_main_call6_v2 (F := Ideal) a0 a6 a7 (ix1 t) = Finset.univ.sup ((Arrs.mk a0 a1 a2 a3 a4 a5 a6 a7).z1 t) := by
  have h0 : val_main_call6_v0 (F := Ideal) a0 a6 a7 (ix1 t) = Finset.univ.sup ((Arrs.mk a0 a1 a2 a3 a4 a5 a6 a7).z1 t) :=
    (rowMax_apply (val_main_v31 (F := Ideal) a0 a6 a7) (val_main_call6_cst (F := Ideal)) reducesTo_S4096x40000_S4096_d1
      (by decide) h_S_ ofBits_neg_inf (ix1 t)).trans
      (congrArg (Finset.sup Finset.univ) (funext fun v => logits1 a0 a1 a2 a3 a4 a5 a6 a7 t v))
  rw [val_main_call6_v2_apply, h0, val_main_call6_v1_apply, val_main_call6_cst_0_apply, Ideal.maximumf_def, Ideal.ofBits_def,
    ofBits_neg_inf]
  exact max_eq_right bot_le

/-- The shifted logit. -/
theorem shifted1 (t : Fin 4096) (v : Fin 40000) :
    val_main_call6_v5 (F := Ideal) a0 a6 a7 (ix2 t v)
      = (Arrs.mk a0 a1 a2 a3 a4 a5 a6 a7).z1 t v - Finset.univ.sup ((Arrs.mk a0 a1 a2 a3 a4 a5 a6 a7).z1 t) := by
  rw [val_main_call6_v5_apply, logits1 a0 a1 a2 a3 a4 a5 a6 a7, val_main_call6_v4_apply, val_main_call6_v3_apply,
    show idx_main_call6_v3 (idx_main_call6_v4 (ix2 t v)) = ix1 t from idx1_ext _ _ rfl, rowmax1 a0 a1 a2 a3 a4 a5 a6 a7]
  rfl

/-- The row's mass: the sum of the exponentials of the shifted logits. -/
theorem mass1 (t : Fin 4096) :
    val_main_call6_v7 (F := Ideal) a0 a6 a7 (ix1 t)
      = ∑ k : Fin 40000, Ideal.exp ((Arrs.mk a0 a1 a2 a3 a4 a5 a6 a7).z1 t k
          - Finset.univ.sup ((Arrs.mk a0 a1 a2 a3 a4 a5 a6 a7).z1 t)) := by
  rw [val_main_call6_v7_apply, val_main_call6_cst_1_apply, Ideal.ofBits_def, Ideal.ofBits_zero_f32, zero_add]
  refine Finset.sum_congr rfl fun k _ => ?_
  rw [val_main_call6_v6_apply, show idx_main_call6_v7 (ix1 t) k = ix2 t k from idx2_ext _ _ rfl rfl,
    shifted1 a0 a1 a2 a3 a4 a5 a6 a7]
  rfl

/-- The log-softmax entry. -/
theorem logsoftmax1 (t : Fin 4096) (v : Fin 40000) :
    val_main_v36 (F := Ideal) a0 a6 a7 (ix2 t v)
      = ((Arrs.mk a0 a1 a2 a3 a4 a5 a6 a7).z1 t v - Finset.univ.sup ((Arrs.mk a0 a1 a2 a3 a4 a5 a6 a7).z1 t))
        - Ideal.log (∑ k : Fin 40000, Ideal.exp ((Arrs.mk a0 a1 a2 a3 a4 a5 a6 a7).z1 t k
            - Finset.univ.sup ((Arrs.mk a0 a1 a2 a3 a4 a5 a6 a7).z1 t))) := by
  rw [val_main_v36_apply, shifted1 a0 a1 a2 a3 a4 a5 a6 a7, val_main_call6_v10_apply, val_main_call6_v9_apply,
    val_main_call6_v8_apply,
    show idx_main_call6_v8 (idx_main_call6_v10 (ix2 t v)) = ix1 t from idx1_ext _ _ rfl, mass1 a0 a1 a2 a3 a4 a5 a6 a7,
    Ideal.subf_def, Ideal.hostUnary_log_def]

/-- The clipped label word of token t. -/
theorem clip1 (t : Fin 4096) :
    val_main_v34 (F := Ideal) a1 (ix1 t) = IntOp.minsi 39999#32 (IntOp.maxsi 0#32 (IntOp.subi (a1 (ix1 t)) 10000#32)) := by
  simp only [val_main_v34_apply, val_main_call5_v4_apply, val_main_call5_v3_apply, val_main_c_11_apply, val_main_call5_v2_apply,
    val_main_call5_v1_apply, val_main_call5_v0_apply, val_main_c_10_apply, val_main_v33_apply, val_main_v32_apply,
    val_main_c_9_apply]

/-- The cluster bit of token t. -/
theorem mask1 (t : Fin 4096) :
    val_main_v26 (F := Ideal) a1 (ix1 t)
      = IntOp.andi (IntOp.cmpi .sge (a1 (ix1 t)) 10000#32) (IntOp.cmpi .slt (a1 (ix1 t)) 50000#32) := by
  simp only [val_main_v26_apply, val_main_v23_apply, val_main_v25_apply, val_main_v22_apply, val_main_v24_apply, val_main_c_6_apply,
    val_main_c_7_apply]

/-- The start index of the gather at token t: the clipped label, wrapped if negative. -/
theorem start1 (t : Fin 4096) :
    val_main_call7_v5 (F := Ideal) a1 (ix3 t (0 : Fin 1) (0 : Fin 1))
      = Scalar.select (IntOp.cmpi .slt (val_main_v34 (F := Ideal) a1 (ix1 t)) 0#32)
          (IntOp.addi (val_main_v34 (F := Ideal) a1 (ix1 t)) 40000#32) (val_main_v34 (F := Ideal) a1 (ix1 t)) := by
  have e : idx_main_v37 (idx_main_call7_v5 (ix3 t (0 : Fin 1) (0 : Fin 1))) = ix1 t :=
    idx1_ext _ _ (by show ((t.val * 1 + 0) * 1 + 0) / 1 = t.val; omega)
  simp only [val_main_call7_v5_apply, val_main_call7_v4_apply, val_main_call7_v1_apply, val_main_call7_v3_apply,
    val_main_v37_apply, val_main_call7_v0_apply, val_main_call7_c_apply, val_main_call7_v2_apply, val_main_call7_c_0_apply, e]

/-- The per-token term of the first tail. -/
theorem term1 (hok : (Arrs.mk a0 a1 a2 a3 a4 a5 a6 a7).Ok) (t : Fin 4096) :
    val_main_v41 (F := Ideal) a0 a1 a6 a7 (ix1 t) = (Arrs.mk a0 a1 a2 a3 a4 a5 a6 a7).T1 t := by
  -- the target word and what the precondition says of it
  have hw : (a1 (ix1 t)).toNat < 50000 := hok.rng (ix1 t)
  obtain ⟨hcle, hcin⟩ := clip_toNat (a1 (ix1 t)) 10000#32 39999#32 hw (by decide) (by decide)
  rw [← clip1 a1 t] at hcle hcin
  obtain ⟨hwrap, hinb, hclamp⟩ := small_word (val_main_v34 (F := Ideal) a1 (ix1 t)) 40000#32 39999#32 hcle (by decide)
  have hstart : val_main_call7_v5 (F := Ideal) a1 (ix3 t (0 : Fin 1) (0 : Fin 1)) = val_main_v34 (F := Ideal) a1 (ix1 t) :=
    (start1 a1 t).trans hwrap
  -- the index (t, 0) of the gathered column
  have ej : idx_main_v39 (ix1 t) = ix2 t (0 : Fin 1) :=
    idx2_ext _ _ (by show t.val / 1 = t.val; omega) rfl
  -- the in-bounds test passes
  have hbit : val_main_call7_v12 (F := Ideal) a1 (ix2 t (0 : Fin 1)) = 1#1 := by
    have h := unitAnd_apply (val_main_call7_v11 (F := Ideal) a1) (val_main_call7_c_3 (F := Ideal))
      reducesTo_S4096x1x1_S4096x1_d2 (by decide) h_S_ rfl (ix2 t (0 : Fin 1))
    refine h.trans ?_
    show val_main_call7_v11 (F := Ideal) a1 (ix3 t (0 : Fin 1) (0 : Fin 1)) = 1#1
    simp only [val_main_call7_v11_apply, val_main_call7_v7_apply, val_main_call7_v10_apply, val_main_call7_v6_apply,
      val_main_call7_c_2_apply, val_main_call7_v9_apply, val_main_call7_v8_apply, val_main_call7_c_1_apply, hstart]
    exact hinb
  -- the gathered entry is the log-softmax at the clipped label
  have hcol : min (val_main_call7_v5 (F := Ideal) a1 (rowTakeIdx (ix2 t (0 : Fin 1)))).toInt.toNat (40000 - 1)
      = (val_main_v34 (F := Ideal) a1 (ix1 t)).toNat := by
    rw [show rowTakeIdx (ix2 t (0 : Fin 1)) = ix3 t (0 : Fin 1) (0 : Fin 1) from idx3_ext _ _ rfl rfl rfl, hstart]
    exact hclamp
  have hgather : val_main_call7_v13 (F := Ideal) a0 a1 a6 a7 (ix2 t (0 : Fin 1))
      = val_main_v36 (F := Ideal) a0 a6 a7 (ix2 t ⟨(val_main_v34 (F := Ideal) a1 (ix1 t)).toNat, by
          have : (39999#32 : BitVec 32).toNat = 39999 := by decide
          omega⟩) := by
    have h := gather_rowTake_apply (N := 4096) (K := 40000) (by decide) gather_S4096x40000_S4096x1x1_S4096x1_n_1_0_0_1_2_11_wf
      (val_main_v36 (F := Ideal) a0 a6 a7) (val_main_call7_v5 (F := Ideal) a1) (ix2 t (0 : Fin 1))
    refine h.trans (congrArg _ (idx2_ext _ _ rfl ?_))
    exact hcol
  -- the term before the mask
  have hneg : val_main_v40 (F := Ideal) a0 a1 a6 a7 (ix1 t)
      = -(val_main_v36 (F := Ideal) a0 a6 a7 (ix2 t ⟨(val_main_v34 (F := Ideal) a1 (ix1 t)).toNat, by
          have : (39999#32 : BitVec 32).toNat = 39999 := by decide
          omega⟩)) := by
    rw [val_main_v40_apply, val_main_v39_apply, ej, val_main_v38_apply, hbit, select_one, hgather]
    rfl
  rw [val_main_v41_apply, hneg, val_main_v35_apply, mask1 a1 t,
    mask_word (a1 (ix1 t)) 10000#32 50000#32 hw (by decide) (by decide), logsoftmax1 a0 a1 a2 a3 a4 a5 a6 a7]
  have elo : (10000#32 : BitVec 32).toNat = 10000 := by decide
  have ehi : (50000#32 : BitVec 32).toNat = 50000 := by decide
  have etop : (39999#32 : BitVec 32).toNat = 39999 := by decide
  rw [elo, ehi]
  show _ = tailTerm 10000 ((Arrs.mk a0 a1 a2 a3 a4 a5 a6 a7).z1 t) (a1 (ix1 t)).toNat
  unfold tailTerm
  by_cases hin : 10000 ≤ (a1 (ix1 t)).toNat ∧ (a1 (ix1 t)).toNat < 50000
  · rw [if_pos hin, dif_pos (by omega), uitofp_one, Ideal.mulf_def, mul_one,
      neg_logSoftmax_eq_tok (V := 40000) (by decide) ((Arrs.mk a0 a1 a2 a3 a4 a5 a6 a7).z1 t)
        (logitsProj_real _ _ _ (fun t d => hok.r0 _) (fun p d => hok.r6 _) (fun v p => hok.r7 _) t)]
    exact congrArg _ (Fin.ext (by
      show (val_main_v34 (F := Ideal) a1 (ix1 t)).toNat = (a1 (ix1 t)).toNat - 10000
      rw [hcin (by omega) (by omega), elo]))
  · rw [if_neg hin, dif_neg (by omega), uitofp_zero, Ideal.mulf_def, mul_zero]

end Block1

end Cert.ReferenceIdeal.RefValue

end
-- ==== Proof.Ref.Block2.lean ====
/-
  The head in the reference, token by token.

  For token t with target word w the reference forms the row of logits zh t (one product of the activations with the head's
  weights, plus the bias), its log-softmax (z - max z) - log (∑ exp (z - max z)) with the maximum taken from minus infinity, takes
  the entry at the head's label (the target itself below 2000, the first tail's column 2000 on 2000 … 9999, the second tail's
  column 2001 from 10000 on) and negates it. There is no mask: every token counts in the head. Under the precondition the label
  is below 2002, so the take is in bounds and unclamped, and the term is the specification's T2 t.
-/
import proofs.«415479_j24352464569077_2_alg».proof.Proof.Ref.ReadP
import proofs.«415479_j24352464569077_2_alg».proof.Proof.Args
import proofs.«415479_j24352464569077_2_alg».proof.Proof.LibOnlineSoftmax
import proofs.«415479_j24352464569077_2_alg».proof.Proof.Ref.RefOps
import proofs.«415479_j24352464569077_2_alg».proof.Proof.Ref.LibGatherRowTake
import proofs.«415479_j24352464569077_2_alg».proof.Proof.Ref.Words
import proofs.«415479_j24352464569077_2_alg».proof.Proof.Ref.Common

noncomputable section

namespace Cert.ReferenceIdeal.RefValue

open Cert.ReferenceIdeal Cert.ReferenceIdeal.Gen Cert.ReferenceIdeal.ReadP Idealize.ShloMosaic Idealize.ShloMosaic.ValueIdx
  Cert.Args Cert.Spec

section Block2

variable (a0 : (⟨S4096x1024, .f32⟩ : BufTy).Contents (Elt Ideal)) (a1 : (⟨S4096, .i32⟩ : BufTy).Contents (Elt Ideal))
  (a2 : (⟨S2002x1024, .f32⟩ : BufTy).Contents (Elt Ideal)) (a3 : (⟨S2002, .f32⟩ : BufTy).Contents (Elt Ideal))
  (a4 : (⟨S1024x1024, .f32⟩ : BufTy).Contents (Elt Ideal)) (a5 : (⟨S8000x1024, .f32⟩ : BufTy).Contents (Elt Ideal))
  (a6 : (⟨S256x1024, .f32⟩ : BufTy).Contents (Elt Ideal)) (a7 : (⟨S40000x256, .f32⟩ : BufTy).Contents (Elt Ideal))

/-- The logits: the product is the specification's sum, factor for factor, and the broadcast bias is the class's bias. -/
theorem logits2 (t : Fin 4096) (v : Fin 2002) :
    val_main_v48 (F := Ideal) a0 a2 a3 (ix2 t v) = (Arrs.mk a0 a1 a2 a3 a4 a5 a6 a7).zh t v := by
  rw [val_main_v48_apply, val_main_v45_apply, val_main_v47_apply, val_main_v46_apply]
  show (∑ d : Fin 1024, a0 (lidx_main_v45 (ix2 t v) d) * val_main_v44 (F := Ideal) a2 (ridx_main_v45 (ix2 t v) d))
      + a3 (idx_main_v46 (idx_main_v47 (ix2 t v))) = (∑ d : Fin 1024, a0 (ix2 t d) * a2 (ix2 v d)) + a3 (ix1 v)
  refine congrArg₂ (· + ·) (Finset.sum_congr rfl fun d _ => ?_) (congrArg a3 (idx1_ext _ _ rfl))
  rw [val_main_v44_apply]
  exact congrArg₂ (· * ·) (congrArg a0 (idx2_ext _ _ rfl rfl)) (congrArg a2 (idx2_ext _ _ rfl rfl))

/-- The row's maximum, taken from minus infinity, is the supremum of the row's logits. -/
theorem rowmax2 (t : Fin 4096) :
    val_main_call8_v2 (F := Ideal) a0 a2 a3 (ix1 t) = Finset.univ.sup ((Arrs.mk a0 a1 a2 a3 a4 a5 a6 a7).zh t) := by
  have h0 : val_main_call8_v0 (F := Ideal) a0 a2 a3 (ix1 t) = Finset.univ.sup ((Arrs.mk a0 a1 a2 a3 a4 a5 a6 a7).zh t) :=
    (rowMax_apply (val_main_v48 (F := Ideal) a0 a2 a3) (val_main_call8_cst (F := Ideal)) reducesTo_S4096x2002_S4096_d1
      (by decide) h_S_ ofBits_neg_inf (ix1 t)).trans
      (congrArg (Finset.sup Finset.univ) (funext fun v => logits2 a0 a1 a2 a3 a4 a5 a6 a7 t v))
  rw [val_main_call8_v2_apply, h0, val_main_call8_v1_apply, val_main_call8_cst_0_apply, Ideal.maximumf_def, Ideal.ofBits_def,
    ofBits_neg_inf]
  exact max_eq_right bot_le

/-- The shifted logit. -/
theorem shifted2 (t : Fin 4096) (v : Fin 2002) :
    val_main_call8_v5 (F := Ideal) a0 a2 a3 (ix2 t v)
      = (Arrs.mk a0 a1 a2 a3 a4 a5 a6 a7).zh t v - Finset.univ.sup ((Arrs.mk a0 a1 a2 a3 a4 a5 a6 a7).zh t) := by
  rw [val_main_call8_v5_apply, logits2 a0 a1 a2 a3 a4 a5 a6 a7, val_main_call8_v4_apply, val_main_call8_v3_apply,
    show idx_main_call8_v3 (idx_main_call8_v4 (ix2 t v)) = ix1 t from idx1_ext _ _ rfl, rowmax2 a0 a1 a2 a3 a4 a5 a6 a7]
  rfl

/-- The row's mass: the sum of the exponentials of the shifted logits. -/
theorem mass2 (t : Fin 4096) :
    val_main_call8_v7 (F := Ideal) a0 a2 a3 (ix1 t)
      = ∑ k : Fin 2002, Ideal.exp ((Arrs.mk a0 a1 a2 a3 a4 a5 a6 a7).zh t k - Finset.univ.sup ((Arrs.mk a0 a1 a2 a3 a4 a5 a6 a7).zh t)) := by
  rw [val_main_call8_v7_apply, val_main_call8_cst_1_apply, Ideal.ofBits_def, Ideal.ofBits_zero_f32, zero_add]
  refine Finset.sum_congr rfl fun k _ => ?_
  rw [val_main_call8_v6_apply, show idx_main_call8_v7 (ix1 t) k = ix2 t k from idx2_ext _ _ rfl rfl,
    shifted2 a0 a1 a2 a3 a4 a5 a6 a7]
  rfl

/-- The log-softmax entry. -/
theorem logsoftmax2 (t : Fin 4096) (v : Fin 2002) :
    val_main_v49 (F := Ideal) a0 a2 a3 (ix2 t v)
      = ((Arrs.mk a0 a1 a2 a3 a4 a5 a6 a7).zh t v - Finset.univ.sup ((Arrs.mk a0 a1 a2 a3 a4 a5 a6 a7).zh t))
        - Ideal.log (∑ k : Fin 2002, Ideal.exp ((Arrs.mk a0 a1 a2 a3 a4 a5 a6 a7).zh t k - Finset.univ.sup ((Arrs.mk a0 a1 a2 a3 a4 a5 a6 a7).zh t))) := by
  rw [val_main_v49_apply, shifted2 a0 a1 a2 a3 a4 a5 a6 a7, val_main_call8_v10_apply, val_main_call8_v9_apply,
    val_main_call8_v8_apply,
    show idx_main_call8_v8 (idx_main_call8_v10 (ix2 t v)) = ix1 t from idx1_ext _ _ rfl, mass2 a0 a1 a2 a3 a4 a5 a6 a7]
  rfl

/-- The head's label word of token t: the second tail's column where its bit is set, else the first tail's column where its
    bit is set, else the target. -/
theorem label2 (t : Fin 4096) :
    val_main_v27 (F := Ideal) a1 (ix1 t)
      = Scalar.select (IntOp.andi (IntOp.cmpi .sge (a1 (ix1 t)) 10000#32) (IntOp.cmpi .slt (a1 (ix1 t)) 50000#32)) 2001#32
          (Scalar.select (IntOp.andi (IntOp.cmpi .sge (a1 (ix1 t)) 2000#32) (IntOp.cmpi .slt (a1 (ix1 t)) 10000#32)) 2000#32
            (a1 (ix1 t))) := by
  simp only [val_main_v27_apply, val_main_v26_apply, val_main_v23_apply, val_main_v25_apply, val_main_v22_apply,
    val_main_v24_apply, val_main_c_6_apply, val_main_c_7_apply, val_main_call4_v1_apply, val_main_call4_v0_apply,
    val_main_c_8_apply, val_main_v5_apply, val_main_v4_apply, val_main_v1_apply, val_main_v3_apply, val_main_v0_apply,
    val_main_v2_apply, val_main_c_apply, val_main_c_0_apply, val_main_call0_v1_apply, val_main_call0_v0_apply,
    val_main_c_1_apply]

/-- The start index of the gather at token t: the label, wrapped if negative. -/
theorem start2 (t : Fin 4096) :
    val_main_call9_v5 (F := Ideal) a1 (ix3 t (0 : Fin 1) (0 : Fin 1))
      = Scalar.select (IntOp.cmpi .slt (val_main_v27 (F := Ideal) a1 (ix1 t)) 0#32)
          (IntOp.addi (val_main_v27 (F := Ideal) a1 (ix1 t)) 2002#32) (val_main_v27 (F := Ideal) a1 (ix1 t)) := by
  have e : idx_main_v50 (idx_main_call9_v5 (ix3 t (0 : Fin 1) (0 : Fin 1))) = ix1 t :=
    idx1_ext _ _ (by show ((t.val * 1 + 0) * 1 + 0) / 1 = t.val; omega)
  simp only [val_main_call9_v5_apply, val_main_call9_v4_apply, val_main_call9_v1_apply, val_main_call9_v3_apply,
    val_main_v50_apply, val_main_call9_v0_apply, val_main_call9_c_apply, val_main_call9_v2_apply, val_main_call9_c_0_apply, e]

/-- The per-token term of the head. -/
theorem term2 (hok : (Arrs.mk a0 a1 a2 a3 a4 a5 a6 a7).Ok) (t : Fin 4096) :
    val_main_v53 (F := Ideal) a0 a1 a2 a3 (ix1 t) = (Arrs.mk a0 a1 a2 a3 a4 a5 a6 a7).T2 t := by
  -- the target word and what the precondition says of it
  have hw : (a1 (ix1 t)).toNat < 50000 := hok.rng (ix1 t)
  have hL : (val_main_v27 (F := Ideal) a1 (ix1 t)).toNat = headLabel (a1 (ix1 t)).toNat := by
    rw [label2 a1 t]
    exact headLabel_word _ hw
  have hLlt := headLabel_lt (a1 (ix1 t)).toNat
  have e2001 : (2001#32 : BitVec 32).toNat = 2001 := by decide
  have hcle : (val_main_v27 (F := Ideal) a1 (ix1 t)).toNat ≤ (2001#32 : BitVec 32).toNat := by
    rw [hL, e2001]
    omega
  obtain ⟨hwrap, hinb, hclamp⟩ := small_word (val_main_v27 (F := Ideal) a1 (ix1 t)) 2002#32 2001#32 hcle (by decide)
  have hstart : val_main_call9_v5 (F := Ideal) a1 (ix3 t (0 : Fin 1) (0 : Fin 1)) = val_main_v27 (F := Ideal) a1 (ix1 t) :=
    (start2 a1 t).trans hwrap
  -- the index (t, 0) of the gathered column
  have ej : idx_main_v52 (ix1 t) = ix2 t (0 : Fin 1) :=
    idx2_ext _ _ (by show t.val / 1 = t.val; omega) rfl
  -- the in-bounds test passes
  have hbit : val_main_call9_v12 (F := Ideal) a1 (ix2 t (0 : Fin 1)) = 1#1 := by
    have h := unitAnd_apply (val_main_call9_v11 (F := Ideal) a1) (val_main_call9_c_3 (F := Ideal))
      reducesTo_S4096x1x1_S4096x1_d2 (by decide) h_S_ rfl (ix2 t (0 : Fin 1))
    refine h.trans ?_
    show val_main_call9_v11 (F := Ideal) a1 (ix3 t (0 : Fin 1) (0 : Fin 1)) = 1#1
    simp only [val_main_call9_v11_apply, val_main_call9_v7_apply, val_main_call9_v10_apply, val_main_call9_v6_apply,
      val_main_call9_c_2_apply, val_main_call9_v9_apply, val_main_call9_v8_apply, val_main_call9_c_1_apply, hstart]
    exact hinb
  -- the gathered entry is the log-softmax at the label
  have hcol : min (val_main_call9_v5 (F := Ideal) a1 (rowTakeIdx (ix2 t (0 : Fin 1)))).toInt.toNat (2002 - 1)
      = (val_main_v27 (F := Ideal) a1 (ix1 t)).toNat := by
    rw [show rowTakeIdx (ix2 t (0 : Fin 1)) = ix3 t (0 : Fin 1) (0 : Fin 1) from idx3_ext _ _ rfl rfl rfl, hstart]
    exact hclamp
  have hgather : val_main_call9_v13 (F := Ideal) a0 a1 a2 a3 (ix2 t (0 : Fin 1))
      = val_main_v49 (F := Ideal) a0 a2 a3 (ix2 t ⟨(val_main_v27 (F := Ideal) a1 (ix1 t)).toNat, by omega⟩) := by
    have h := gather_rowTake_apply (N := 4096) (K := 2002) (by decide) gather_S4096x2002_S4096x1x1_S4096x1_n_1_0_0_1_2_11_wf
      (val_main_v49 (F := Ideal) a0 a2 a3) (val_main_call9_v5 (F := Ideal) a1) (ix2 t (0 : Fin 1))
    refine h.trans (congrArg _ (idx2_ext _ _ rfl ?_))
    exact hcol
  -- the term
  have hneg : val_main_v53 (F := Ideal) a0 a1 a2 a3 (ix1 t)
      = -(val_main_v49 (F := Ideal) a0 a2 a3 (ix2 t ⟨(val_main_v27 (F := Ideal) a1 (ix1 t)).toNat, by omega⟩)) := by
    rw [val_main_v53_apply, val_main_v52_apply, ej, val_main_v51_apply, hbit, select_one, hgather]
    rfl
  rw [hneg, logsoftmax2 a0 a1 a2 a3 a4 a5 a6 a7]
  show _ = headTerm ((Arrs.mk a0 a1 a2 a3 a4 a5 a6 a7).zh t) (a1 (ix1 t)).toNat
  unfold headTerm
  have hz : ∀ v, ∃ r : ℝ, (Arrs.mk a0 a1 a2 a3 a4 a5 a6 a7).zh t v = r := fun v =>
    logitsHead_real _ _ _ (fun t d => hok.r0 _) (fun v d => hok.r2 _) (fun v => hok.r3 _) t v
  rw [neg_logSoftmax_eq_tok (by decide) ((Arrs.mk a0 a1 a2 a3 a4 a5 a6 a7).zh t) hz]
  exact congrArg _ (Fin.ext hL)

end Block2

end Cert.ReferenceIdeal.RefValue

end
-- ==== Proof.Ref.Final.lean ====
/-
  The reference's result and its frame.

  Each softmax block's per-token vector is summed over the 4096 tokens from zero; the three sums are added, the first to
  a zero, in the order tail, tail, head, and the total is divided by 4096. With the per-token vectors read as the
  specification's terms that is the specification's loss. The frame is the reference's run with the result dropped.
-/
import proofs.«415479_j24352464569077_2_alg».proof.Defs
import proofs.«415479_j24352464569077_2_alg».proof.Proof.Gen.Pre_finite_inputs
import proofs.«415479_j24352464569077_2_alg».proof.Proof.Ref.RunP
import proofs.«415479_j24352464569077_2_alg».proof.Proof.Ref.ReadP
import proofs.«415479_j24352464569077_2_alg».proof.Proof.Ref.Block0
import proofs.«415479_j24352464569077_2_alg».proof.Proof.Ref.Block1
import proofs.«415479_j24352464569077_2_alg».proof.Proof.Ref.Block2

noncomputable section

open Idealize.ShloMosaic Idealize.ShloMosaic.TcCoe Idealize.SL.Sem

namespace Cert.ReferenceIdeal.RefValue

open Cert.ReferenceIdeal Cert.ReferenceIdeal.Gen Cert.ReferenceIdeal.ReadP Idealize.ShloMosaic.ValueIdx Cert.Args Cert.Spec

section Result

variable (a0 : (⟨S4096x1024, .f32⟩ : BufTy).Contents (Elt Ideal)) (a1 : (⟨S4096, .i32⟩ : BufTy).Contents (Elt Ideal))
  (a2 : (⟨S2002x1024, .f32⟩ : BufTy).Contents (Elt Ideal)) (a3 : (⟨S2002, .f32⟩ : BufTy).Contents (Elt Ideal))
  (a4 : (⟨S1024x1024, .f32⟩ : BufTy).Contents (Elt Ideal)) (a5 : (⟨S8000x1024, .f32⟩ : BufTy).Contents (Elt Ideal))
  (a6 : (⟨S256x1024, .f32⟩ : BufTy).Contents (Elt Ideal)) (a7 : (⟨S40000x256, .f32⟩ : BufTy).Contents (Elt Ideal))

/-- The first tail's sum. -/
theorem sum0 (hok : (Arrs.mk a0 a1 a2 a3 a4 a5 a6 a7).Ok) (i : S_.Idx) :
    val_main_v20 (F := Ideal) a0 a1 a4 a5 i = ∑ t : Fin 4096, (Arrs.mk a0 a1 a2 a3 a4 a5 a6 a7).T0 t := by
  rw [val_main_v20_apply, val_main_cst_apply, Ideal.ofBits_def, Ideal.ofBits_zero_f32, zero_add, sum_idx1]
  exact Finset.sum_congr rfl fun t _ => term0 a0 a1 a2 a3 a4 a5 a6 a7 hok t

/-- The second tail's sum. -/
theorem sum1 (hok : (Arrs.mk a0 a1 a2 a3 a4 a5 a6 a7).Ok) (i : S_.Idx) :
    val_main_v42 (F := Ideal) a0 a1 a6 a7 i = ∑ t : Fin 4096, (Arrs.mk a0 a1 a2 a3 a4 a5 a6 a7).T1 t := by
  rw [val_main_v42_apply, val_main_cst_12_apply, Ideal.ofBits_def, Ideal.ofBits_zero_f32, zero_add, sum_idx1]
  exact Finset.sum_congr rfl fun t _ => term1 a0 a1 a2 a3 a4 a5 a6 a7 hok t

/-- The head's sum. -/
theorem sum2 (hok : (Arrs.mk a0 a1 a2 a3 a4 a5 a6 a7).Ok) (i : S_.Idx) :
    val_main_v54 (F := Ideal) a0 a1 a2 a3 i = ∑ t : Fin 4096, (Arrs.mk a0 a1 a2 a3 a4 a5 a6 a7).T2 t := by
  rw [val_main_v54_apply, val_main_cst_13_apply, Ideal.ofBits_def, Ideal.ofBits_zero_f32, zero_add, sum_idx1]
  exact Finset.sum_congr rfl fun t _ => term2 a0 a1 a2 a3 a4 a5 a6 a7 hok t

/-- The reference's result, a scalar, is the specification's loss. -/
theorem result_eq (hok : (Arrs.mk a0 a1 a2 a3 a4 a5 a6 a7).Ok) :
    val_main_v56 (F := Ideal) a0 a1 a2 a3 a4 a5 a6 a7 = fun _ => (Arrs.mk a0 a1 a2 a3 a4 a5 a6 a7).loss := by
  funext i
  rw [val_main_v56_apply, val_main_v55_apply, val_main_v43_apply, val_main_v21_apply, sum0 a0 a1 a2 a3 a4 a5 a6 a7 hok,
    sum1 a0 a1 a2 a3 a4 a5 a6 a7 hok, sum2 a0 a1 a2 a3 a4 a5 a6 a7 hok, val_main_cst_5_apply, val_main_cst_14_apply,
    Ideal.ofBits_def, Ideal.ofBits_def, Ideal.ofBits_zero_f32, ofBits_4096, Ideal.hostDivf_def, Ideal.addf_def, Ideal.addf_def,
    Ideal.addf_def]
  rfl

end Result

end Cert.ReferenceIdeal.RefValue

namespace Cert.Proof.RefClaims

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

end Cert.Proof.RefClaims

end
-- ==== Proof.Algebraic.lean ====
/-
  The idealized kernel and the idealized reference, run from memories that agree on the eight arguments, end with equal results.

  Both results are the scalar `loss` of the argument arrays (Spec.lean, Args.lean): the sum over the 4096 tokens of the two tails' masked
  cross-entropy terms and of the head's, over 4096. The kernel reaches each term by a running maximum, mass and pick carried over the
  vocabulary tiles, a column past the last class sitting at `⊥` (the identity of `max`, with `exp ⊥ = 0` mass); the reference by
  `log_softmax` gathered at the label and negated. Both are `log (∑ v, exp (z v)) - z label` when the logits are reals, which the
  precondition gives; it also puts every target below 50000, so every label is a class of its block.
-/
import proofs.«415479_j24352464569077_2_alg».proof.Defs
import proofs.«415479_j24352464569077_2_alg».proof.Proof.KI.Result
import proofs.«415479_j24352464569077_2_alg».proof.Proof.KI.R0.Array
import proofs.«415479_j24352464569077_2_alg».proof.Proof.KI.R1.Array
import proofs.«415479_j24352464569077_2_alg».proof.Proof.Ref.Final
import proofs.«415479_j24352464569077_2_alg».proof.Proof.PreFacts

noncomputable section

namespace Cert.Proof

open Idealize.ShloMosaic Idealize.ShloMosaic.TcCoe Idealize.SL.Sem

/-- Equal results: the kernel's run ends at the loss of its arguments, the reference's at the loss of its own, which are the same arrays. -/
theorem algebraic [hKernelIdeal : Cert.KernelIdeal.Facts] [hReferenceIdeal : Cert.ReferenceIdeal.Facts] [hPre_finite_inputs : Cert.Pre_finite_inputs.Facts] :
    Cert.algebraic_KernelIdeal_ReferenceIdeal := by
  intro m ρ m' ρ' hpre hagree
  refine ⟨fun c => fun _ => (Cert.KernelIdeal.Hand.argArrs m c).loss,
    Cert.KernelIdeal.Hand.run_loss Cert.KernelIdeal.Hand.arrAt_out0 Cert.KernelIdeal.Hand.arrAt_out1 m ρ hpre, ?_⟩
  refine (θ_run (Cert.ReferenceIdeal.defs (F := Ideal)) _ _).mono (fun _ h c => ⟨?_, (h c).2⟩)
    (Cert.ReferenceIdeal.ValueP.run (F := Ideal) m' ρ')
  rw [(h c).1, Cert.ReferenceIdeal.ReadP.val_main_v56_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact Cert.ReferenceIdeal.RefValue.result_eq _ _ _ _ _ _ _ _ (Cert.PreFacts.ok_of_pre _ _ _ _ _ _ _ _ (hpre c))

end Cert.Proof

end
-- ==== Proof.lean ====
/-
  The certificate of an adaptive-softmax cross-entropy kernel against its reference.

  The kernel computes the loss with three pipelined calls — two projected tails (hidden widths 1024 and 256 over 8000 and 40000 classes) and a
  head with a bias over 2002 classes — each an online softmax over vocabulary tiles of width 512 whose running maximum, mass and label pick
  are carried in scratch buffers across the vocabulary axis of the call's grid; the reference computes it with log_softmax and a gather.
  The claim has five parts. The kernel at bit patterns runs to its end without a fault and leaves its arguments as launched
  (FrameK.lean: over proof data that name no buffer's contents). So does the idealized kernel (FrameKI.lean: over proof data that name what
  every staging buffer and the carried scratch hold after each grid point). So does the idealized reference (Ref/Final.lean: its run with the
  result dropped). The idealized kernel is the kernel's idealization (Preserves.lean: the fill constant is the name "neg_big", which denotes
  `⊥`). And the idealized kernel and reference end with equal results (Algebraic.lean: both are the loss of the argument arrays).
-/
import proofs.«415479_j24352464569077_2_alg».proof.Defs
import proofs.«415479_j24352464569077_2_alg».proof.Proof.Gen.Kernel
import proofs.«415479_j24352464569077_2_alg».proof.Proof.Gen.KernelIdeal
import proofs.«415479_j24352464569077_2_alg».proof.Proof.Gen.ReferenceIdeal
import proofs.«415479_j24352464569077_2_alg».proof.Proof.Gen.Pre_finite_inputs
import proofs.«415479_j24352464569077_2_alg».proof.Proof.FrameK
import proofs.«415479_j24352464569077_2_alg».proof.Proof.FrameKI
import proofs.«415479_j24352464569077_2_alg».proof.Proof.Preserves
import proofs.«415479_j24352464569077_2_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    @frame_k Cert.Kernel.Gen.facts Cert.Pre_finite_inputs.Gen.facts,
    @frame_ki Cert.KernelIdeal.Gen.facts Cert.Pre_finite_inputs.Gen.facts,
    Cert.Proof.RefClaims.frame_ri,
    preserves,
    @algebraic Cert.KernelIdeal.Gen.facts Cert.ReferenceIdeal.Gen.facts Cert.Pre_finite_inputs.Gen.facts⟩

end Cert.Proof

end
